-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S2x32x32768 : S_.BroadcastsInDim S2x32x32768 (![] : Fin 0 → Fin S2x32x32768.rank)
  reducesTo_S2x32x32768_S_d0_1_2 : S2x32x32768.ReducesTo [0, 1, 2] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x512 .f32) (main_arg1 : FVec F S512x512 .f32) (main_arg2 : FVec F S2x32x32768 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x32x32768 .f32 := Host.absf main_arg2
  let main_cst_2 : FVec F S_ .f32 := constant S_ .f32 0x7F800000#32
  let main_v10 : FVec F S2x32x32768 .f32 := broadcastInDim S2x32x32768 ![] bcast_S_S2x32x32768 main_cst_2
  let main_v11 : IVec S2x32x32768 1 := cmpf .olt main_v9 main_v10
  let main_c_3 : IVec S_ 1 := constantI S_ 1 1#1
  let main_v12 : IVec S_ 1 := (fun x v => Host.reduce IntOp.andi x v reducesTo_S2x32x32768_S_d0_1_2 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S65x3x128 : Shape := ⟨3, ![65, 3, 128]⟩
abbrev S1x3x128 : Shape := ⟨3, ![1, 3, 128]⟩
abbrev S3x1x128 : Shape := ⟨3, ![3, 1, 128]⟩
abbrev S64x3x128 : Shape := ⟨3, ![64, 3, 128]⟩
abbrev S3x64x128 : Shape := ⟨3, ![3, 64, 128]⟩
abbrev S65x3x64 : Shape := ⟨3, ![65, 3, 64]⟩
abbrev S1x3x64 : Shape := ⟨3, ![1, 3, 64]⟩
abbrev S3x1x64 : Shape := ⟨3, ![3, 1, 64]⟩
abbrev S64x3x64 : Shape := ⟨3, ![64, 3, 64]⟩
abbrev S3x64x64 : Shape := ⟨3, ![3, 64, 64]⟩
abbrev S8x8 : Shape := ⟨2, ![8, 8]⟩
abbrev S_ : Shape := ⟨0, ![]⟩
abbrev S8x1x8x1 : Shape := ⟨4, ![8, 1, 8, 1]⟩
abbrev S3x1x1x1x128 : Shape := ⟨5, ![3, 1, 1, 1, 128]⟩
abbrev S1x8x1x8x1 : Shape := ⟨5, ![1, 8, 1, 8, 1]⟩
abbrev S3x8x1x8x128 : Shape := ⟨5, ![3, 8, 1, 8, 128]⟩
abbrev S3x8x1024 : Shape := ⟨3, ![3, 8, 1024]⟩
abbrev S3x1x1x1x64 : Shape := ⟨5, ![3, 1, 1, 1, 64]⟩
abbrev S3x8x1x8x64 : Shape := ⟨5, ![3, 8, 1, 8, 64]⟩
abbrev S3x8x512 : Shape := ⟨3, ![3, 8, 512]⟩
abbrev S128x3x128 : Shape := ⟨3, ![128, 3, 128]⟩
abbrev S128x3x64 : Shape := ⟨3, ![128, 3, 64]⟩
abbrev S1x64 : Shape := ⟨2, ![1, 64]⟩
abbrev S8x512 : Shape := ⟨2, ![8, 512]⟩
abbrev S2x8x32768 : Shape := ⟨3, ![2, 8, 32768]⟩
abbrev S1x8x32768 : Shape := ⟨3, ![1, 8, 32768]⟩
abbrev S8x32768 : Shape := ⟨2, ![8, 32768]⟩
abbrev S8x512x64 : Shape := ⟨3, ![8, 512, 64]⟩
abbrev S512x8x64 : Shape := ⟨3, ![512, 8, 64]⟩
abbrev S4096x64 : Shape := ⟨2, ![4096, 64]⟩
abbrev S512x8 : Shape := ⟨2, ![512, 8]⟩
abbrev S1x128 : Shape := ⟨2, ![1, 128]⟩
abbrev S4096x128 : Shape := ⟨2, ![4096, 128]⟩
abbrev S1x64x128 : Shape := ⟨3, ![1, 64, 128]⟩
abbrev S64x128 : Shape := ⟨2, ![64, 128]⟩
abbrev S1x8x1024 : Shape := ⟨3, ![1, 8, 1024]⟩
abbrev S8x1024 : Shape := ⟨2, ![8, 1024]⟩
abbrev S512x1024 : Shape := ⟨2, ![512, 1024]⟩
abbrev S512x8x128 : Shape := ⟨3, ![512, 8, 128]⟩
abbrev S1x64x64 : Shape := ⟨3, ![1, 64, 64]⟩
abbrev S64x64 : Shape := ⟨2, ![64, 64]⟩
abbrev S1x8x512 : Shape := ⟨3, ![1, 8, 512]⟩
abbrev S1x1x64 : Shape := ⟨3, ![1, 1, 64]⟩

abbrev nBuf : Space → Nat
  | .hbm => 64
  | .vmem => 23
  | .smem => 0
  | _ => 0

abbrev bufTy : (tb : Table) → Fin (tcTables nBuf tb) → BufTy
  | .hbm, ⟨0, _⟩ => ⟨S32x512, .f32⟩
  | .hbm, ⟨1, _⟩ => ⟨S512x512, .f32⟩
  | .hbm, ⟨2, _⟩ => ⟨S2x32x32768, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S65x3x128, .f32⟩
  | .hbm, ⟨14, _⟩ => ⟨S1x3x128, .f32⟩
  | .hbm, ⟨15, _⟩ => ⟨S3x1x128, .f32⟩
  | .hbm, ⟨16, _⟩ => ⟨S64x3x128, .f32⟩
  | .hbm, ⟨17, _⟩ => ⟨S3x64x128, .f32⟩
  | .hbm, ⟨18, _⟩ => ⟨S65x3x64, .f32⟩
  | .hbm, ⟨19, _⟩ => ⟨S1x3x64, .f32⟩
  | .hbm, ⟨20, _⟩ => ⟨S3x1x64, .f32⟩
  | .hbm, ⟨21, _⟩ => ⟨S64x3x64, .f32⟩
  | .hbm, ⟨22, _⟩ => ⟨S3x64x64, .f32⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S8x1x8x1, .f32⟩
  | .hbm, ⟨31, _⟩ => ⟨S3x1x1x1x128, .f32⟩
  | .hbm, ⟨32, _⟩ => ⟨S1x8x1x8x1, .f32⟩
  | .hbm, ⟨33, _⟩ => ⟨S3x8x1x8x128, .f32⟩
  | .hbm, ⟨34, _⟩ => ⟨S3x8x1x8x128, .f32⟩
  | .hbm, ⟨35, _⟩ => ⟨S3x8x1x8x128, .f32⟩
  | .hbm, ⟨36, _⟩ => ⟨S3x8x1024, .f32⟩
  | .hbm, ⟨37, _⟩ => ⟨S8x8, .i32⟩
  | .hbm, ⟨38, _⟩ => ⟨S8x8, .i32⟩
  | .hbm, ⟨39, _⟩ => ⟨S_, .i32⟩
  | .hbm, ⟨40, _⟩ => ⟨S8x8, .i32⟩
  | .hbm, ⟨41, _⟩ => ⟨S8x8, .i32⟩
  | .hbm, ⟨42, _⟩ => ⟨S8x8, .i1⟩
  | .hbm, ⟨43, _⟩ => ⟨S8x8, .f32⟩
  | .hbm, ⟨44, _⟩ => ⟨S8x1x8x1, .f32⟩
  | .hbm, ⟨45, _⟩ => ⟨S3x1x1x1x64, .f32⟩
  | .hbm, ⟨46, _⟩ => ⟨S1x8x1x8x1, .f32⟩
  | .hbm, ⟨47, _⟩ => ⟨S3x8x1x8x64, .f32⟩
  | .hbm, ⟨48, _⟩ => ⟨S3x8x1x8x64, .f32⟩
  | .hbm, ⟨49, _⟩ => ⟨S3x8x1x8x64, .f32⟩
  | .hbm, ⟨50, _⟩ => ⟨S3x8x512, .f32⟩
  | .hbm, ⟨51, _⟩ => ⟨S128x3x128, .f32⟩
  | .hbm, ⟨52, _⟩ => ⟨S64x3x128, .f32⟩
  | .hbm, ⟨53, _⟩ => ⟨S3x64x128, .f32⟩
  | .hbm, ⟨54, _⟩ => ⟨S64x3x128, .f32⟩
  | .hbm, ⟨55, _⟩ => ⟨S3x64x128, .f32⟩
  | .hbm, ⟨56, _⟩ => ⟨S128x3x64, .f32⟩
  | .hbm, ⟨57, _⟩ => ⟨S64x3x64, .f32⟩
  | .hbm, ⟨58, _⟩ => ⟨S3x64x64, .f32⟩
  | .hbm, ⟨59, _⟩ => ⟨S64x3x64, .f32⟩
  | .hbm, ⟨60, _⟩ => ⟨S3x64x64, .f32⟩
  | .hbm, ⟨61, _⟩ => ⟨S1x64, .f32⟩
  | .hbm, ⟨62, _⟩ => ⟨S32x512, .f32⟩
  | .hbm, ⟨63, _⟩ => ⟨S2x32x32768, .f32⟩
  | .local _ .vmem, ⟨0, _⟩ => ⟨S8x512, .f32⟩
  | .local _ .vmem, ⟨1, _⟩ => ⟨S8x512, .f32⟩
  | .local _ .vmem, ⟨2, _⟩ => ⟨S512x512, .f32⟩
  | .local _ .vmem, ⟨3, _⟩ => ⟨S2x8x32768, .f32⟩
  | .local _ .vmem, ⟨4, _⟩ => ⟨S2x8x32768, .f32⟩
  | .local _ .vmem, ⟨5, _⟩ => ⟨S3x8x1024, .f32⟩
  | .local _ .vmem, ⟨6, _⟩ => ⟨S3x64x128, .f32⟩
  | .local _ .vmem, ⟨7, _⟩ => ⟨S3x8x512, .f32⟩
  | .local _ .vmem, ⟨8, _⟩ => ⟨S3x64x64, .f32⟩
  | .local _ .vmem, ⟨9, _⟩ => ⟨S128, .f32⟩
  | .local _ .vmem, ⟨10, _⟩ => ⟨S64, .f32⟩
  | .local _ .vmem, ⟨11, _⟩ => ⟨S3x64x128, .f32⟩
  | .local _ .vmem, ⟨12, _⟩ => ⟨S3x64x128, .f32⟩
  | .local _ .vmem, ⟨13, _⟩ => ⟨S3x64x64, .f32⟩
  | .local _ .vmem, ⟨14, _⟩ => ⟨S3x64x64, .f32⟩
  | .local _ .vmem, ⟨15, _⟩ => ⟨S128, .f32⟩
  | .local _ .vmem, ⟨16, _⟩ => ⟨S64, .f32⟩
  | .local _ .vmem, ⟨17, _⟩ => ⟨S1x64, .f32⟩
  | .local _ .vmem, ⟨18, _⟩ => ⟨S1, .f32⟩
  | .local _ .vmem, ⟨19, _⟩ => ⟨S8x512, .f32⟩
  | .local _ .vmem, ⟨20, _⟩ => ⟨S8x512, .f32⟩
  | .local _ .vmem, ⟨21, _⟩ => ⟨S2x8x32768, .f32⟩
  | .local _ .vmem, ⟨22, _⟩ => ⟨S2x8x32768, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35_0 : Ref sig .tc := ⟨.hbm, 62, rfl⟩
abbrev main_v35_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x8x32768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S195x128_S65x3x128 : S195x128.ShapeCasts S65x3x128
  slices_S65x3x128_S1x3x128_0_0_0 : S65x3x128.Slices ![0, 0, 0] S1x3x128
  transposes_S1x3x128_S3x1x128_1_0_2 : S1x3x128.Transposes [1, 0, 2] S3x1x128
  slices_S65x3x128_S64x3x128_1_0_0 : S65x3x128.Slices ![1, 0, 0] S64x3x128
  transposes_S64x3x128_S3x64x128_1_0_2 : S64x3x128.Transposes [1, 0, 2] S3x64x128
  shapeCasts_S195x64_S65x3x64 : S195x64.ShapeCasts S65x3x64
  slices_S65x3x64_S1x3x64_0_0_0 : S65x3x64.Slices ![0, 0, 0] S1x3x64
  transposes_S1x3x64_S3x1x64_1_0_2 : S1x3x64.Transposes [1, 0, 2] S3x1x64
  slices_S65x3x64_S64x3x64_1_0_0 : S65x3x64.Slices ![1, 0, 0] S64x3x64
  transposes_S64x3x64_S3x64x64_1_0_2 : S64x3x64.Transposes [1, 0, 2] S3x64x64
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S3x1x128_S3x1x1x1x128_0_2_4 : S3x1x128.BroadcastsInDim S3x1x1x1x128 (![0, 2, 4] : Fin 3 → Fin S3x1x1x1x128.rank)
  bcast_S8x1x8x1_S1x8x1x8x1_1_2_3_4 : S8x1x8x1.BroadcastsInDim S1x8x1x8x1 (![1, 2, 3, 4] : Fin 4 → Fin S1x8x1x8x1.rank)
  bcast_S1x8x1x8x1_S3x8x1x8x128_0_1_2_3_4 : S1x8x1x8x1.BroadcastsInDim S3x8x1x8x128 (![0, 1, 2, 3, 4] : Fin 5 → Fin S3x8x1x8x128.rank)
  bcast_S3x1x1x1x128_S3x8x1x8x128_0_1_2_3_4 : S3x1x1x1x128.BroadcastsInDim S3x8x1x8x128 (![0, 1, 2, 3, 4] : Fin 5 → Fin S3x8x1x8x128.rank)
  shapeCasts_S3x8x1x8x128_S3x8x1024 : S3x8x1x8x128.ShapeCasts S3x8x1024
  bcast_S3x1x64_S3x1x1x1x64_0_2_4 : S3x1x64.BroadcastsInDim S3x1x1x1x64 (![0, 2, 4] : Fin 3 → Fin S3x1x1x1x64.rank)
  bcast_S1x8x1x8x1_S3x8x1x8x64_0_1_2_3_4 : S1x8x1x8x1.BroadcastsInDim S3x8x1x8x64 (![0, 1, 2, 3, 4] : Fin 5 → Fin S3x8x1x8x64.rank)
  bcast_S3x1x1x1x64_S3x8x1x8x64_0_1_2_3_4 : S3x1x1x1x64.BroadcastsInDim S3x8x1x8x64 (![0, 1, 2, 3, 4] : Fin 5 → Fin S3x8x1x8x64.rank)
  shapeCasts_S3x8x1x8x64_S3x8x512 : S3x8x1x8x64.ShapeCasts S3x8x512
  shapeCasts_S384x128_S128x3x128 : S384x128.ShapeCasts S128x3x128
  slices_S128x3x128_S64x3x128_0_0_0 : S128x3x128.Slices ![0, 0, 0] S64x3x128
  slices_S128x3x128_S64x3x128_64_0_0 : S128x3x128.Slices ![64, 0, 0] S64x3x128
  shapeCasts_S384x64_S128x3x64 : S384x64.ShapeCasts S128x3x64
  slices_S128x3x64_S64x3x64_0_0_0 : S128x3x64.Slices ![0, 0, 0] S64x3x64
  slices_S128x3x64_S64x3x64_64_0_0 : S128x3x64.Slices ![64, 0, 0] S64x3x64
  transposes_S64x1_S1x64_1_0 : S64x1.Transposes [1, 0] S1x64
  inb_S512x512_S512x512_0_0 : ∀ a, (![0, 0] : Fin 2 → Nat) a + S512x512.size a ≤ S512x512.size a
  h_S512x512 : 0 < S512x512.numel
  inb_S2x8x32768_S1x8x32768_0_0_0 : ∀ a, (![0, 0, 0] : Fin 3 → Nat) a + S1x8x32768.size a ≤ S2x8x32768.size a
  h_S1x8x32768 : 0 < S1x8x32768.numel
  shapeCasts_S1x8x32768_S8x32768 : S1x8x32768.ShapeCasts S8x32768
  shapeCasts_S8x32768_S8x512x64 : S8x32768.ShapeCasts S8x512x64
  transposes_S8x512x64_p1_0_2_S512x8x64 : S8x512x64.Transposes [1, 0, 2] S512x8x64
  shapeCasts_S512x8x64_S4096x64 : S512x8x64.ShapeCasts S4096x64
  inb_S8x512_S8x512_0_0 : ∀ a, (![0, 0] : Fin 2 → Nat) a + S8x512.size a ≤ S8x512.size a
  h_S8x512 : 0 < S8x512.numel
  transposes_S8x512_p1_0_S512x8 : S8x512.Transposes [1, 0] S512x8
  inb_S3x8x1024_S3x8x1024_0_0_0 : ∀ a, (![0, 0, 0] : Fin 3 → Nat) a + S3x8x1024.size a ≤ S3x8x1024.size a
  h_S3x8x1024 : 0 < S3x8x1024.numel
  shapeCasts_S3x8x1024_S3x8x1024 : S3x8x1024.ShapeCasts S3x8x1024
  inb_S3x64x128_S3x64x128_0_0_0 : ∀ a, (![0, 0, 0] : Fin 3 → Nat) a + S3x64x128.size a ≤ S3x64x128.size a
  h_S3x64x128 : 0 < S3x64x128.numel
  shapeCasts_S3x64x128_S3x64x128 : S3x64x128.ShapeCasts S3x64x128
  inb_S128_S128_0 : ∀ a, (![0] : Fin 1 → Nat) a + S128.size a ≤ S128.size a
  h_S128 : 0 < S128.numel
  shapeCasts_S4096x64_S512x8x64 : S4096x64.ShapeCasts S512x8x64
  shapeCasts_S512x8x64_S512x512 : S512x8x64.ShapeCasts S512x512
  shapeCasts_S128_S1x128 : S128.ShapeCasts S1x128
  shapeCasts_S1x128_S1x128 : S1x128.ShapeCasts S1x128
  broadcasts_S1x128_S4096x128 : S1x128.Broadcasts S4096x128
  shapeCasts_S512x512_S512x8x64 : S512x512.ShapeCasts S512x8x64
  slices_S3x64x128_o0_0_0_S1x64x128 : S3x64x128.Slices ![0, 0, 0] S1x64x128
  shapeCasts_S1x64x128_S64x128 : S1x64x128.ShapeCasts S64x128
  slices_S3x8x1024_o0_0_0_S1x8x1024 : S3x8x1024.Slices ![0, 0, 0] S1x8x1024
  shapeCasts_S1x8x1024_S8x1024 : S1x8x1024.ShapeCasts S8x1024
  shapeCasts_S512x1024_S512x8x128 : S512x1024.ShapeCasts S512x8x128
  shapeCasts_S512x8x128_S4096x128 : S512x8x128.ShapeCasts S4096x128
  slices_S3x64x128_o1_0_0_S1x64x128 : S3x64x128.Slices ![1, 0, 0] S1x64x128
  slices_S3x8x1024_o1_0_0_S1x8x1024 : S3x8x1024.Slices ![1, 0, 0] S1x8x1024
  slices_S3x64x128_o2_0_0_S1x64x128 : S3x64x128.Slices ![2, 0, 0] S1x64x128
  slices_S3x8x1024_o2_0_0_S1x8x1024 : S3x8x1024.Slices ![2, 0, 0] S1x8x1024
  slices_S4096x128_o0_0_S4096x64 : S4096x128.Slices ![0, 0] S4096x64
  slices_S4096x128_o0_64_S4096x64 : S4096x128.Slices ![0, 64] S4096x64
  inb_S3x8x512_S3x8x512_0_0_0 : ∀ a, (![0, 0, 0] : Fin 3 → Nat) a + S3x8x512.size a ≤ S3x8x512.size a
  h_S3x8x512 : 0 < S3x8x512.numel
  shapeCasts_S3x8x512_S3x8x512 : S3x8x512.ShapeCasts S3x8x512
  inb_S3x64x64_S3x64x64_0_0_0 : ∀ a, (![0, 0, 0] : Fin 3 → Nat) a + S3x64x64.size a ≤ S3x64x64.size a
  h_S3x64x64 : 0 < S3x64x64.numel
  shapeCasts_S3x64x64_S3x64x64 : S3x64x64.ShapeCasts S3x64x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S4096x64 : S1x64.Broadcasts S4096x64
  slices_S3x64x64_o0_0_0_S1x64x64 : S3x64x64.Slices ![0, 0, 0] S1x64x64
  shapeCasts_S1x64x64_S64x64 : S1x64x64.ShapeCasts S64x64
  slices_S3x8x512_o0_0_0_S1x8x512 : S3x8x512.Slices ![0, 0, 0] S1x8x512
  shapeCasts_S1x8x512_S8x512 : S1x8x512.ShapeCasts S8x512
  slices_S3x64x64_o1_0_0_S1x64x64 : S3x64x64.Slices ![1, 0, 0] S1x64x64
  slices_S3x8x512_o1_0_0_S1x8x512 : S3x8x512.Slices ![1, 0, 0] S1x8x512
  slices_S3x64x64_o2_0_0_S1x64x64 : S3x64x64.Slices ![2, 0, 0] S1x64x64
  slices_S3x8x512_o2_0_0_S1x8x512 : S3x8x512.Slices ![2, 0, 0] S1x8x512
  inb_S2x8x32768_S1x8x32768_1_0_0 : ∀ a, (![1, 0, 0] : Fin 3 → Nat) a + S1x8x32768.size a ≤ S2x8x32768.size a
  transposes_S512x8x64_p1_0_2_S8x512x64 : S512x8x64.Transposes [1, 0, 2] S8x512x64
  shapeCasts_S8x512x64_S8x32768 : S8x512x64.ShapeCasts S8x32768
  shapeCasts_S8x32768_S1x8x32768 : S8x32768.ShapeCasts S1x8x32768
  inb_S1x64_S1x64_0_0 : ∀ a, (![0, 0] : Fin 2 → Nat) a + S1x64.size a ≤ S1x64.size a
  h_S1x64 : 0 < S1x64.numel
  shapeCasts_S1x64_S1x1x64 : S1x64.ShapeCasts S1x1x64
  broadcasts_S1x1x64_S512x8x64 : S1x1x64.Broadcasts S512x8x64
  reduces_S512x8x64_S512x8 : S512x8x64.Reduces [2] S512x8
  inb_S1_S1_0 : ∀ a, (![0] : Fin 1 → Nat) a + S1.size a ≤ S1.size a
  h_S1 : 0 < S1.numel
  inpos_S1_p0 : ∀ a, (![0] : Fin 1 → Nat) a < S1.size a
  transposes_S512x8_p1_0_S8x512 : S512x8.Transposes [1, 0] S8x512
  dot_S512x512_S512x8_S512x8_1_0_0_1_n_n_wf : DotDims.WF S512x512 S512x8 S512x8 [1] [0] [0] [1] [] []
  dot_S512x512_S512x512_S512x512_1_0_0_1_n_n_wf : DotDims.WF S512x512 S512x512 S512x512 [1] [0] [0] [1] [] []
  dot_S4096x64_S64x128_S4096x128_1_0_0_1_n_n_wf : DotDims.WF S4096x64 S64x128 S4096x128 [1] [0] [0] [1] [] []
  dot_S512x8_S8x1024_S512x1024_1_0_0_1_n_n_wf : DotDims.WF S512x8 S8x1024 S512x1024 [1] [0] [0] [1] [] []
  dot_S4096x64_S64x64_S4096x64_1_0_0_1_n_n_wf : DotDims.WF S4096x64 S64x64 S4096x64 [1] [0] [0] [1] [] []
  dot_S512x8_S8x512_S512x512_1_0_0_1_n_n_wf : DotDims.WF S512x8 S8x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S32x512.size a
  hwx0_0 : ∀ i : grid0.Coords, EltTy.bits .f32 = 32 ∨ (Rect.block (s := S32x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8x32768.size a ≤ S2x32x32768.size a
  hwx0_2 : ∀ i : grid0.Coords, EltTy.bits .f32 = 32 ∨ (Rect.block (s := S2x32x32768) S2x8x32768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x8x1024.size a ≤ S3x8x1024.size a
  hwx0_3 : ∀ i : grid0.Coords, EltTy.bits .f32 = 32 ∨ (Rect.block (s := S3x8x1024) S3x8x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64x128.size a ≤ S3x64x128.size a
  hwx0_4 : ∀ i : grid0.Coords, EltTy.bits .f32 = 32 ∨ (Rect.block (s := S3x64x128) S3x64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x8x512.size a ≤ S3x8x512.size a
  hwx0_5 : ∀ i : grid0.Coords, EltTy.bits .f32 = 32 ∨ (Rect.block (s := S3x8x512) S3x8x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64x64.size a ≤ S3x64x64.size a
  hwx0_6 : ∀ i : grid0.Coords, EltTy.bits .f32 = 32 ∨ (Rect.block (s := S3x64x64) S3x64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x64x128.size a ≤ S3x64x128.size a
  hwx0_9 : ∀ i : grid0.Coords, EltTy.bits .f32 = 32 ∨ (Rect.block (s := S3x64x128) S3x64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x64x128.size a ≤ S3x64x128.size a
  hwx0_10 : ∀ i : grid0.Coords, EltTy.bits .f32 = 32 ∨ (Rect.block (s := S3x64x128) S3x64x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x64x64.size a ≤ S3x64x64.size a
  hwx0_11 : ∀ i : grid0.Coords, EltTy.bits .f32 = 32 ∨ (Rect.block (s := S3x64x64) S3x64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x64x64.size a ≤ S3x64x64.size a
  hwx0_12 : ∀ i : grid0.Coords, EltTy.bits .f32 = 32 ∨ (Rect.block (s := S3x64x64) S3x64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S8x512.size a ≤ S32x512.size a
  hwx0_17 : ∀ i : grid0.Coords, EltTy.bits .f32 = 32 ∨ (Rect.block (s := S32x512) S8x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2x8x32768.size a ≤ S2x32x32768.size a
  hwx0_18 : ∀ i : grid0.Coords, EltTy.bits .f32 = 32 ∨ (Rect.block (s := S2x32x32768) S2x8x32768.size (cc0_transform_18 i) (hinb0_18 i)).WholeWords (EltTy.packing .f32)

variable [Facts₀]

def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S512x8_S8x1024_S512x1024_1_0_0_1_n_n : DotDims S512x8 S8x1024 S512x1024 where
  lhsContracting := [1]
  rhsContracting := [0]
  lhsNonContracting := [0]
  rhsNonContracting := [1]
  lhsBatch := []
  rhsBatch := []
  wf := dot_S512x8_S8x1024_S512x1024_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x8x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S3x8x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S3x64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S3x8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S3x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S3x64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S3x64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S3x64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v33) S3x64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg8) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v34) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg12) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35_0) S8x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v35_1) S2x8x32768.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S1x32x32768 : Shape := ⟨3, ![1, 32, 32768]⟩
abbrev S32x32768 : Shape := ⟨2, ![32, 32768]⟩
abbrev S32x512x1 : Shape := ⟨3, ![32, 512, 1]⟩
abbrev S32x512x64 : Shape := ⟨3, ![32, 512, 64]⟩
abbrev S32x512x65 : Shape := ⟨3, ![32, 512, 65]⟩
abbrev S512x65x32 : Shape := ⟨3, ![512, 65, 32]⟩
abbrev S512x2080 : Shape := ⟨2, ![512, 2080]⟩
abbrev S_ : Shape := ⟨0, ![]⟩
abbrev S1x512x2080 : Shape := ⟨3, ![1, 512, 2080]⟩
abbrev S3x512x2080 : Shape := ⟨3, ![3, 512, 2080]⟩
abbrev S3x512x65x32 : Shape := ⟨4, ![3, 512, 65, 32]⟩
abbrev S32x512x65x3 : Shape := ⟨4, ![32, 512, 65, 3]⟩
abbrev S16384x195 : Shape := ⟨2, ![16384, 195]⟩
abbrev S16384x128 : Shape := ⟨2, ![16384, 128]⟩
abbrev S1x128 : Shape := ⟨2, ![1, 128]⟩
abbrev S32x65536 : Shape := ⟨2, ![32, 65536]⟩
abbrev S32x512x128 : Shape := ⟨3, ![32, 512, 128]⟩
abbrev S16384x64 : Shape := ⟨2, ![16384, 64]⟩
abbrev S1x64 : Shape := ⟨2, ![1, 64]⟩
abbrev S512x128x32 : Shape := ⟨3, ![512, 128, 32]⟩
abbrev S512x4096 : Shape := ⟨2, ![512, 4096]⟩
abbrev S1x512x4096 : Shape := ⟨3, ![1, 512, 4096]⟩
abbrev S3x512x4096 : Shape := ⟨3, ![3, 512, 4096]⟩
abbrev S3x512x128x32 : Shape := ⟨4, ![3, 512, 128, 32]⟩
abbrev S32x512x128x3 : Shape := ⟨4, ![32, 512, 128, 3]⟩
abbrev S16384x384 : Shape := ⟨2, ![16384, 384]⟩
abbrev S16384x1 : Shape := ⟨2, ![16384, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S32x512, .f32⟩
  | 1 => ⟨S512x512, .f32⟩
  | 2 => ⟨S2x32x32768, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S1x32x32768, .f32⟩
  | 14 => ⟨S32x32768, .f32⟩
  | 15 => ⟨S32x512x1, .f32⟩
  | 16 => ⟨S32x512x64, .f32⟩
  | 17 => ⟨S32x512x65, .f32⟩
  | 18 => ⟨S512x65x32, .f32⟩
  | 19 => ⟨S512x2080, .f32⟩
  | 20 => ⟨S512x2080, .f32⟩
  | 21 => ⟨S512x2080, .f32⟩
  | 22 => ⟨S_, .f32⟩
  | 23 => ⟨S512x2080, .f32⟩
  | 24 => ⟨S512x2080, .f32⟩
  | 25 => ⟨S512x2080, .f32⟩
  | 26 => ⟨S1x512x2080, .f32⟩
  | 27 => ⟨S1x512x2080, .f32⟩
  | 28 => ⟨S1x512x2080, .f32⟩
  | 29 => ⟨S3x512x2080, .f32⟩
  | 30 => ⟨S3x512x65x32, .f32⟩
  | 31 => ⟨S32x512x65x3, .f32⟩
  | 32 => ⟨S16384x195, .f32⟩
  | 33 => ⟨S16384x128, .f32⟩
  | 34 => ⟨S1x128, .f32⟩
  | 35 => ⟨S16384x128, .f32⟩
  | 36 => ⟨S16384x128, .f32⟩
  | 37 => ⟨S32x65536, .f32⟩
  | 38 => ⟨S32x65536, .f32⟩
  | 39 => ⟨S32x65536, .f32⟩
  | 40 => ⟨S_, .f32⟩
  | 41 => ⟨S32x65536, .f32⟩
  | 42 => ⟨S32x65536, .f32⟩
  | 43 => ⟨S_, .f32⟩
  | 44 => ⟨S32x65536, .f32⟩
  | 45 => ⟨S32x65536, .f32⟩
  | 46 => ⟨S32x512x128, .f32⟩
  | 47 => ⟨S32x512x64, .f32⟩
  | 48 => ⟨S32x512x64, .f32⟩
  | 49 => ⟨S32x32768, .f32⟩
  | 50 => ⟨S32x32768, .f32⟩
  | 51 => ⟨S32x32768, .f32⟩
  | 52 => ⟨S32x512x1, .f32⟩
  | 53 => ⟨S32x512x64, .f32⟩
  | 54 => ⟨S32x512x65, .f32⟩
  | 55 => ⟨S512x65x32, .f32⟩
  | 56 => ⟨S512x2080, .f32⟩
  | 57 => ⟨S512x2080, .f32⟩
  | 58 => ⟨S512x2080, .f32⟩
  | 59 => ⟨S_, .f32⟩
  | 60 => ⟨S512x2080, .f32⟩
  | 61 => ⟨S512x2080, .f32⟩
  | 62 => ⟨S512x2080, .f32⟩
  | 63 => ⟨S1x512x2080, .f32⟩
  | 64 => ⟨S1x512x2080, .f32⟩
  | 65 => ⟨S1x512x2080, .f32⟩
  | 66 => ⟨S3x512x2080, .f32⟩
  | 67 => ⟨S3x512x65x32, .f32⟩
  | 68 => ⟨S32x512x65x3, .f32⟩
  | 69 => ⟨S16384x195, .f32⟩
  | 70 => ⟨S16384x64, .f32⟩
  | 71 => ⟨S1x64, .f32⟩
  | 72 => ⟨S16384x64, .f32⟩
  | 73 => ⟨S16384x64, .f32⟩
  | 74 => ⟨S32x32768, .f32⟩
  | 75 => ⟨S32x32768, .f32⟩
  | 76 => ⟨S32x32768, .f32⟩
  | 77 => ⟨S_, .f32⟩
  | 78 => ⟨S32x32768, .f32⟩
  | 79 => ⟨S32x32768, .f32⟩
  | 80 => ⟨S32x32768, .f32⟩
  | 81 => ⟨S32x32768, .f32⟩
  | 82 => ⟨S1x32x32768, .f32⟩
  | 83 => ⟨S32x32768, .f32⟩
  | 84 => ⟨S32x512x64, .f32⟩
  | 85 => ⟨S32x512x64, .f32⟩
  | 86 => ⟨S32x512x128, .f32⟩
  | 87 => ⟨S512x128x32, .f32⟩
  | 88 => ⟨S512x4096, .f32⟩
  | 89 => ⟨S512x4096, .f32⟩
  | 90 => ⟨S512x4096, .f32⟩
  | 91 => ⟨S_, .f32⟩
  | 92 => ⟨S512x4096, .f32⟩
  | 93 => ⟨S512x4096, .f32⟩
  | 94 => ⟨S512x4096, .f32⟩
  | 95 => ⟨S1x512x4096, .f32⟩
  | 96 => ⟨S1x512x4096, .f32⟩
  | 97 => ⟨S1x512x4096, .f32⟩
  | 98 => ⟨S3x512x4096, .f32⟩
  | 99 => ⟨S3x512x128x32, .f32⟩
  | 100 => ⟨S32x512x128x3, .f32⟩
  | 101 => ⟨S16384x384, .f32⟩
  | 102 => ⟨S16384x128, .f32⟩
  | 103 => ⟨S1x128, .f32⟩
  | 104 => ⟨S16384x128, .f32⟩
  | 105 => ⟨S16384x128, .f32⟩
  | 106 => ⟨S32x65536, .f32⟩
  | 107 => ⟨S32x65536, .f32⟩
  | 108 => ⟨S32x65536, .f32⟩
  | 109 => ⟨S_, .f32⟩
  | 110 => ⟨S32x65536, .f32⟩
  | 111 => ⟨S32x65536, .f32⟩
  | 112 => ⟨S_, .f32⟩
  | 113 => ⟨S32x65536, .f32⟩
  | 114 => ⟨S32x65536, .f32⟩
  | 115 => ⟨S32x512x128, .f32⟩
  | 116 => ⟨S32x512x64, .f32⟩
  | 117 => ⟨S32x512x64, .f32⟩
  | 118 => ⟨S32x32768, .f32⟩
  | 119 => ⟨S32x32768, .f32⟩
  | 120 => ⟨S32x32768, .f32⟩
  | 121 => ⟨S32x512x64, .f32⟩
  | 122 => ⟨S32x512x64, .f32⟩
  | 123 => ⟨S32x512x128, .f32⟩
  | 124 => ⟨S512x128x32, .f32⟩
  | 125 => ⟨S512x4096, .f32⟩
  | 126 => ⟨S512x4096, .f32⟩
  | 127 => ⟨S512x4096, .f32⟩
  | _ => ⟨S32x512, .f32⟩

abbrev hbmTy0_1 (i : Nat) : BufTy := match i % 128 with
  | 0 => ⟨S_, .f32⟩
  | 1 => ⟨S512x4096, .f32⟩
  | 2 => ⟨S512x4096, .f32⟩
  | 3 => ⟨S512x4096, .f32⟩
  | 4 => ⟨S1x512x4096, .f32⟩
  | 5 => ⟨S1x512x4096, .f32⟩
  | 6 => ⟨S1x512x4096, .f32⟩
  | 7 => ⟨S3x512x4096, .f32⟩
  | 8 => ⟨S3x512x128x32, .f32⟩
  | 9 => ⟨S32x512x128x3, .f32⟩
  | 10 => ⟨S16384x384, .f32⟩
  | 11 => ⟨S16384x64, .f32⟩
  | 12 => ⟨S1x64, .f32⟩
  | 13 => ⟨S16384x64, .f32⟩
  | 14 => ⟨S16384x64, .f32⟩
  | 15 => ⟨S32x32768, .f32⟩
  | 16 => ⟨S32x32768, .f32⟩
  | 17 => ⟨S32x32768, .f32⟩
  | 18 => ⟨S_, .f32⟩
  | 19 => ⟨S32x32768, .f32⟩
  | 20 => ⟨S32x32768, .f32⟩
  | 21 => ⟨S32x32768, .f32⟩
  | 22 => ⟨S32x32768, .f32⟩
  | 23 => ⟨S16384x64, .f32⟩
  | 24 => ⟨S16384x1, .f32⟩
  | 25 => ⟨S1x1, .f32⟩
  | 26 => ⟨S16384x1, .f32⟩
  | 27 => ⟨S16384x1, .f32⟩
  | 28 => ⟨S32x512, .f32⟩
  | 29 => ⟨S1x32x32768, .f32⟩
  | 30 => ⟨S1x32x32768, .f32⟩
  | 31 => ⟨S2x32x32768, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_4 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_5 : Ref sig .tc := ⟨.hbm, 109, rfl⟩
abbrev main_v90 : Ref sig .tc := ⟨.hbm, 110, rfl⟩
abbrev main_v91 : Ref sig .tc := ⟨.hbm, 111, rfl⟩
abbrev main_cst_6 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_7 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_8 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩

abbrev nD : Nat := 1
abbrev τ : Topo := Topo.v7x

variable {F : FTy → Type} [FloatOps F]

class Facts₀ : Prop where
  slices_S2x32x32768_S1x32x32768_0_0_0 : S2x32x32768.Slices ![0, 0, 0] S1x32x32768
  shapeCasts_S1x32x32768_S32x32768 : S1x32x32768.ShapeCasts S32x32768
  shapeCasts_S32x512_S32x512x1 : S32x512.ShapeCasts S32x512x1
  shapeCasts_S32x32768_S32x512x64 : S32x32768.ShapeCasts S32x512x64
  concatenates_S32x512x1_S32x512x64_S32x512x65_d2 : Shape.Concatenates [S32x512x1, S32x512x64] S32x512x65 2
  transposes_S32x512x65_S512x65x32_1_2_0 : S32x512x65.Transposes [1, 2, 0] S512x65x32
  shapeCasts_S512x65x32_S512x2080 : S512x65x32.ShapeCasts S512x2080
  bcast_S_S512x2080 : S_.BroadcastsInDim S512x2080 (![] : Fin 0 → Fin S512x2080.rank)
  bcast_S512x2080_S1x512x2080_1_2 : S512x2080.BroadcastsInDim S1x512x2080 (![1, 2] : Fin 2 → Fin S1x512x2080.rank)
  concatenates_S1x512x2080_S1x512x2080_S1x512x2080_S3x512x2080_d0 : Shape.Concatenates [S1x512x2080, S1x512x2080, S1x512x2080] S3x512x2080 0
  shapeCasts_S3x512x2080_S3x512x65x32 : S3x512x2080.ShapeCasts S3x512x65x32
  transposes_S3x512x65x32_S32x512x65x3_3_1_2_0 : S3x512x65x32.Transposes [3, 1, 2, 0] S32x512x65x3
  shapeCasts_S32x512x65x3_S16384x195 : S32x512x65x3.ShapeCasts S16384x195
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x128_S32x65536 : S16384x128.ShapeCasts S32x65536
  bcast_S_S32x65536 : S_.BroadcastsInDim S32x65536 (![] : Fin 0 → Fin S32x65536.rank)
  shapeCasts_S32x65536_S32x512x128 : S32x65536.ShapeCasts S32x512x128
  slices_S32x512x128_S32x512x64_0_0_0 : S32x512x128.Slices ![0, 0, 0] S32x512x64
  slices_S32x512x128_S32x512x64_0_0_64 : S32x512x128.Slices ![0, 0, 64] S32x512x64
  shapeCasts_S32x512x64_S32x32768 : S32x512x64.ShapeCasts S32x32768
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S32x32768 : S16384x64.ShapeCasts S32x32768
  bcast_S_S32x32768 : S_.BroadcastsInDim S32x32768 (![] : Fin 0 → Fin S32x32768.rank)
  slices_S2x32x32768_S1x32x32768_1_0_0 : S2x32x32768.Slices ![1, 0, 0] S1x32x32768
  concatenates_S32x512x64_S32x512x64_S32x512x128_d2 : Shape.Concatenates [S32x512x64, S32x512x64] S32x512x128 2
  transposes_S32x512x128_S512x128x32_1_2_0 : S32x512x128.Transposes [1, 2, 0] S512x128x32
  shapeCasts_S512x128x32_S512x4096 : S512x128x32.ShapeCasts S512x4096
  bcast_S_S512x4096 : S_.BroadcastsInDim S512x4096 (![] : Fin 0 → Fin S512x4096.rank)
  bcast_S512x4096_S1x512x4096_1_2 : S512x4096.BroadcastsInDim S1x512x4096 (![1, 2] : Fin 2 → Fin S1x512x4096.rank)
  concatenates_S1x512x4096_S1x512x4096_S1x512x4096_S3x512x4096_d0 : Shape.Concatenates [S1x512x4096, S1x512x4096, S1x512x4096] S3x512x4096 0
  shapeCasts_S3x512x4096_S3x512x128x32 : S3x512x4096.ShapeCasts S3x512x128x32
  transposes_S3x512x128x32_S32x512x128x3_3_1_2_0 : S3x512x128x32.Transposes [3, 1, 2, 0] S32x512x128x3
  shapeCasts_S32x512x128x3_S16384x384 : S32x512x128x3.ShapeCasts S16384x384
  shapeCasts_S32x32768_S16384x64 : S32x32768.ShapeCasts S16384x64
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S32x512 : S16384x1.ShapeCasts S32x512
  bcast_S32x32768_S1x32x32768_1_2 : S32x32768.BroadcastsInDim S1x32x32768 (![1, 2] : Fin 2 → Fin S1x32x32768.rank)
  concatenates_S1x32x32768_S1x32x32768_S2x32x32768_d0 : Shape.Concatenates [S1x32x32768, S1x32x32768] S2x32x32768 0
  dot_S512x512_S512x2080_S512x2080_1_0_0_1_n_n_wf : DotDims.WF S512x512 S512x2080 S512x2080 [1] [0] [0] [1] [] []
  dot_S16384x195_S195x128_S16384x128_1_0_0_1_n_n_wf : DotDims.WF S16384x195 S195x128 S16384x128 [1] [0] [0] [1] [] []
  dot_S16384x195_S195x64_S16384x64_1_0_0_1_n_n_wf : DotDims.WF S16384x195 S195x64 S16384x64 [1] [0] [0] [1] [] []
  dot_S512x512_S512x4096_S512x4096_1_0_0_1_n_n_wf : DotDims.WF S512x512 S512x4096 S512x4096 [1] [0] [0] [1] [] []
  dot_S16384x384_S384x128_S16384x128_1_0_0_1_n_n_wf : DotDims.WF S16384x384 S384x128 S16384x128 [1] [0] [0] [1] [] []
  dot_S16384x384_S384x64_S16384x64_1_0_0_1_n_n_wf : DotDims.WF S16384x384 S384x64 S16384x64 [1] [0] [0] [1] [] []
  dot_S16384x64_S64x1_S16384x1_1_0_0_1_n_n_wf : DotDims.WF S16384x64 S64x1 S16384x1 [1] [0] [0] [1] [] []

variable [Facts₀]

def dot_S512x512_S512x2080_S512x2080_1_0_0_1_n_n : DotDims S512x512 S512x2080 S512x2080 where
  lhsContracting := [1]
  rhsContracting := [0]
  lhsNonContracting := [0]
  rhsNonContracting := [1]
  lhsBatch := []
  rhsBatch := []
  wf := dot_S512x512_S512x2080_S512x2080_1_0_0_1_n_n_wf
def dot_S16384x195_S195x128_S16384x128_1_0_0_1_n_n : DotDims S16384x195 S195x128 S16384x128 where
  lhsContracting := [1]
  rhsContracting := [0]
  lhsNonContracting := [0]
  rhsNonContracting := [1]
  lhsBatch := []
  rhsBatch := []
  wf := dot_S16384x195_S195x128_S16384x128_1_0_0_1_n_n_wf
def dot_S16384x195_S195x64_S16384x64_1_0_0_1_n_n : DotDims S16384x195 S195x64 S16384x64 where
  lhsContracting := [1]
  rhsContracting := [0]
  lhsNonContracting := [0]
  rhsNonContracting := [1]
  lhsBatch := []
  rhsBatch := []
  wf := dot_S16384x195_S195x64_S16384x64_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S16384x384_S384x128_S16384x128_1_0_0_1_n_n : DotDims S16384x384 S384x128 S16384x128 where
  lhsContracting := [1]
  rhsContracting := [0]
  lhsNonContracting := [0]
  rhsNonContracting := [1]
  lhsBatch := []
  rhsBatch := []
  wf := dot_S16384x384_S384x128_S16384x128_1_0_0_1_n_n_wf
def dot_S16384x384_S384x64_S16384x64_1_0_0_1_n_n : DotDims S16384x384 S384x64 S16384x64 where
  lhsContracting := [1]
  rhsContracting := [0]
  lhsNonContracting := [0]
  rhsNonContracting := [1]
  lhsBatch := []
  rhsBatch := []
  wf := dot_S16384x384_S384x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Spec.lean ====
/-
  The mathematics both programs compute, for ONE batch row: two diffusion-convolution GRU cells and a linear read-out.

  A node signal is a function `z : Fin 512 → EReal`. With `A` the 512 × 512 support, its three diffusion taps are
  `z`, `A z` and `2 · A (A z) - z` (`d1`, `d2`, `tap`). A graph convolution stacks the taps of every
  input feature (the cell's input features first, then the 64 state features), orders the stack's
  columns (feature, tap), multiplies by the weight matrix and adds the bias: `gconv0` (1 + 64 features,
  195 = 65 · 3 weight rows) and `gconv1` (64 + 64 features, 384 = 128 · 3 weight rows). A cell is
  `g = σ(gconv(x, s; Wg, bg))`, `r = g[:64]`, `u = g[64:]`, `c = tanh(gconv(x, r ⊙ s; Wc, bc))`,
  `h' = u ⊙ s + (1 - u) ⊙ c`; the second cell's input is the first cell's new state; the read-out is
  `h1' · Wp + bp` at every node.
-/
import Idealize.ShloMosaic.PureOps.Ideal
import Idealize.ShloMosaic.Lib.ValueIdx

noncomputable section

namespace Cert.Dcgru

open Idealize.ShloMosaic Idealize.ShloMosaic.ValueIdx

/-- The literal `2.0` both programs spell. -/
def two : EReal := Ideal.ofBits .f32 0x40000000#32
/-- The literal `1.0` both programs spell. -/
def one : EReal := Ideal.ofBits .f32 0x3F800000#32

/-- The weights, as plain functions of their coordinates. -/
structure Wts where
  A : Fin 512 → Fin 512 → EReal
  Wg0 : Fin 195 → Fin 128 → EReal
  bg0 : Fin 128 → EReal
  Wc0 : Fin 195 → Fin 64 → EReal
  bc0 : Fin 64 → EReal
  Wg1 : Fin 384 → Fin 128 → EReal
  bg1 : Fin 128 → EReal
  Wc1 : Fin 384 → Fin 64 → EReal
  bc1 : Fin 64 → EReal
  Wp : Fin 64 → EReal
  bp : EReal

variable (w : Wts)

/-- One diffusion step: `(A z) n = ∑ k, A n k · z k`. -/
def d1 (z : Fin 512 → EReal) : Fin 512 → EReal := fun n => ∑ k : Fin 512, w.A n k * z k

/-- The second Chebyshev tap: `2 · A (A z) - z`. -/
def d2 (z : Fin 512 → EReal) : Fin 512 → EReal := fun n => two * d1 w (d1 w z) n - z n

/-- Tap `m` of a node signal: `z`, `A z`, `2 · A (A z) - z`. -/
def tap (m : Fin 3) (z : Fin 512 → EReal) : Fin 512 → EReal :=
  if m.val = 0 then z else if m.val = 1 then d1 w z else d2 w z

/-- The first cell's 65 input features at a node: the scalar input, then the 64 state features. -/
def col0 (x : Fin 512 → EReal) (s : Fin 512 → Fin 64 → EReal) (f : Fin 65) : Fin 512 → EReal :=
  fun n => if h : f.val = 0 then x n else s n ⟨f.val - 1, by omega⟩

/-- The second cell's 128 input features at a node: the 64 input features, then the 64 state features. -/
def col1 (x s : Fin 512 → Fin 64 → EReal) (f : Fin 128) : Fin 512 → EReal :=
  fun n => if h : f.val < 64 then x n ⟨f.val, h⟩ else s n ⟨f.val - 64, by omega⟩

/-- The first cell's graph convolution at node `n`, output channel `o`: weight row `k = 3 · feature + tap`. -/
def gconv0 {O : ℕ} (x : Fin 512 → EReal) (s : Fin 512 → Fin 64 → EReal) (W : Fin 195 → Fin O → EReal) (bias : Fin O → EReal)
    (n : Fin 512) (o : Fin O) : EReal :=
  (∑ k : Fin 195, tap w ⟨k.val % 3, Nat.mod_lt _ (by decide)⟩ (col0 x s ⟨k.val / 3, by omega⟩) n * W k o) + bias o

/-- The second cell's graph convolution. -/
def gconv1 {O : ℕ} (x s : Fin 512 → Fin 64 → EReal) (W : Fin 384 → Fin O → EReal) (bias : Fin O → EReal)
    (n : Fin 512) (o : Fin O) : EReal :=
  (∑ k : Fin 384, tap w ⟨k.val % 3, Nat.mod_lt _ (by decide)⟩ (col1 x s ⟨k.val / 3, by omega⟩) n * W k o) + bias o

variable (x : Fin 512 → EReal) (s0 s1 : Fin 512 → Fin 64 → EReal)

/-! ### The first cell -/
def g0 (n : Fin 512) (o : Fin 128) : EReal := Ideal.logistic (gconv0 w x s0 w.Wg0 w.bg0 n o)
def r0 (n : Fin 512) (u : Fin 64) : EReal := g0 w x s0 n ⟨u.val, by omega⟩
def u0 (n : Fin 512) (u : Fin 64) : EReal := g0 w x s0 n ⟨64 + u.val, by omega⟩
def rs0 (n : Fin 512) (u : Fin 64) : EReal := r0 w x s0 n u * s0 n u
def c0 (n : Fin 512) (u : Fin 64) : EReal := Ideal.tanh (gconv0 w x (rs0 w x s0) w.Wc0 w.bc0 n u)
def h0 (n : Fin 512) (u : Fin 64) : EReal := u0 w x s0 n u * s0 n u + (one - u0 w x s0 n u) * c0 w x s0 n u

/-! ### The second cell: its input is the first cell's new state -/
def g1 (n : Fin 512) (o : Fin 128) : EReal := Ideal.logistic (gconv1 w (h0 w x s0) s1 w.Wg1 w.bg1 n o)
def r1 (n : Fin 512) (u : Fin 64) : EReal := g1 w x s0 s1 n ⟨u.val, by omega⟩
def u1 (n : Fin 512) (u : Fin 64) : EReal := g1 w x s0 s1 n ⟨64 + u.val, by omega⟩
def rs1 (n : Fin 512) (u : Fin 64) : EReal := r1 w x s0 s1 n u * s1 n u
def c1 (n : Fin 512) (u : Fin 64) : EReal := Ideal.tanh (gconv1 w (h0 w x s0) (rs1 w x s0 s1) w.Wc1 w.bc1 n u)
def h1 (n : Fin 512) (u : Fin 64) : EReal := u1 w x s0 s1 n u * s1 n u + (one - u1 w x s0 s1 n u) * c1 w x s0 s1 n u

/-- The read-out at a node. -/
def proj (n : Fin 512) : EReal := (∑ u : Fin 64, h1 w x s0 s1 n u * w.Wp u) + w.bp

/-- The identity matrix's entry, as the host's `convert` of an integer comparison reads. -/
def eye {N : ℕ} (a b : Fin N) : EReal := if a = b then 1 else 0

/-! ### The two result arrays, as functions of the thirteen argument arrays -/

abbrev A32x512 := (⟨2, ![32, 512]⟩ : Shape).Idx → EReal
abbrev A512x512 := (⟨2, ![512, 512]⟩ : Shape).Idx → EReal
abbrev A2x32x32768 := (⟨3, ![2, 32, 32768]⟩ : Shape).Idx → EReal
abbrev A195x128 := (⟨2, ![195, 128]⟩ : Shape).Idx → EReal
abbrev A195x64 := (⟨2, ![195, 64]⟩ : Shape).Idx → EReal
abbrev A384x128 := (⟨2, ![384, 128]⟩ : Shape).Idx → EReal
abbrev A384x64 := (⟨2, ![384, 64]⟩ : Shape).Idx → EReal
abbrev A128 := (⟨1, ![128]⟩ : Shape).Idx → EReal
abbrev A64 := (⟨1, ![64]⟩ : Shape).Idx → EReal
abbrev A64x1 := (⟨2, ![64, 1]⟩ : Shape).Idx → EReal
abbrev A1 := (⟨1, ![1]⟩ : Shape).Idx → EReal

/-- The weights read off the argument arrays. -/
def wOf (a1 : A512x512) (a3 : A195x128) (a4 : A128) (a5 : A195x64) (a6 : A64) (a7 : A384x128) (a8 : A128) (a9 : A384x64)
    (a10 : A64) (a11 : A64x1) (a12 : A1) : Wts where
  A := fun n k => a1 (ix2 n k)
  Wg0 := fun k o => a3 (ix2 k o)
  bg0 := fun o => a4 (ix1 o)
  Wc0 := fun k o => a5 (ix2 k o)
  bc0 := fun o => a6 (ix1 o)
  Wg1 := fun k o => a7 (ix2 k o)
  bg1 := fun o => a8 (ix1 o)
  Wc1 := fun k o => a9 (ix2 k o)
  bc1 := fun o => a10 (ix1 o)
  Wp := fun u => a11 (ix2 u 0)
  bp := a12 (ix1 0)

/-- Batch row `b` of the input. -/
def xOf (a0 : A32x512) (b : Fin 32) : Fin 512 → EReal := fun n => a0 (ix2 b n)

/-- Batch row `b` of layer `l`'s state: node `n`, unit `u` sits at flat position `64 n + u`. -/
def sOf (a2 : A2x32x32768) (l : Fin 2) (b : Fin 32) : Fin 512 → Fin 64 → EReal :=
  fun n u => a2 (ix3 l b ⟨n.val * 64 + u.val, by omega⟩)

/-- The read-out array `[32, 512]`. -/
def outOf (w : Wts) (a0 : A32x512) (a2 : A2x32x32768) : A32x512 := fun j =>
  proj w (xOf a0 ⟨(j 0).val, (j 0).isLt⟩) (sOf a2 0 ⟨(j 0).val, (j 0).isLt⟩) (sOf a2 1 ⟨(j 0).val, (j 0).isLt⟩) ⟨(j 1).val, (j 1).isLt⟩

/-- The stacked new states `[2, 32, 32768]`. -/
def hsOf (w : Wts) (a0 : A32x512) (a2 : A2x32x32768) : A2x32x32768 := fun j =>
  if (j 0).val = 0 then
    h0 w (xOf a0 ⟨(j 1).val, (j 1).isLt⟩) (sOf a2 0 ⟨(j 1).val, (j 1).isLt⟩)
      ⟨(j 2).val / 64, by have := (j 2).isLt; show _ < 512; have : (j 2).val < 32768 := this; omega⟩ ⟨(j 2).val % 64, Nat.mod_lt _ (by decide)⟩
  else
    h1 w (xOf a0 ⟨(j 1).val, (j 1).isLt⟩) (sOf a2 0 ⟨(j 1).val, (j 1).isLt⟩) (sOf a2 1 ⟨(j 1).val, (j 1).isLt⟩)
      ⟨(j 2).val / 64, by have := (j 2).isLt; show _ < 512; have : (j 2).val < 32768 := this; omega⟩ ⟨(j 2).val % 64, Nat.mod_lt _ (by decide)⟩

theorem outOf_apply (w : Wts) (a0 : A32x512) (a2 : A2x32x32768) (b : Fin 32) (n : Fin 512) :
    outOf w a0 a2 (ix2 b n) = proj w (xOf a0 b) (sOf a2 0 b) (sOf a2 1 b) n := rfl

theorem hsOf_apply0 (w : Wts) (a0 : A32x512) (a2 : A2x32x32768) (b : Fin 32) (n : Fin 512) (u : Fin 64) (hj : n.val * 64 + u.val < 32768) :
    hsOf w a0 a2 (ix3 0 b ⟨n.val * 64 + u.val, hj⟩) = h0 w (xOf a0 b) (sOf a2 0 b) n u := by
  have e1 : (n.val * 64 + u.val) / 64 = n.val := by omega
  have e2 : (n.val * 64 + u.val) % 64 = u.val := by omega
  show (if (0 : ℕ) = 0 then h0 w (xOf a0 b) (sOf a2 0 b) ⟨(n.val * 64 + u.val) / 64, _⟩ ⟨(n.val * 64 + u.val) % 64, _⟩ else _) = _
  rw [if_pos rfl]
  congr 1 <;> exact Fin.ext (by assumption)

theorem hsOf_apply1 (w : Wts) (a0 : A32x512) (a2 : A2x32x32768) (b : Fin 32) (n : Fin 512) (u : Fin 64) (hj : n.val * 64 + u.val < 32768) :
    hsOf w a0 a2 (ix3 1 b ⟨n.val * 64 + u.val, hj⟩) = h1 w (xOf a0 b) (sOf a2 0 b) (sOf a2 1 b) n u := by
  have e1 : (n.val * 64 + u.val) / 64 = n.val := by omega
  have e2 : (n.val * 64 + u.val) % 64 = u.val := by omega
  show (if (1 : ℕ) = 0 then _ else h1 w (xOf a0 b) (sOf a2 0 b) (sOf a2 1 b) ⟨(n.val * 64 + u.val) / 64, _⟩ ⟨(n.val * 64 + u.val) % 64, _⟩) = _
  rw [if_neg (by decide)]
  congr 1 <;> exact Fin.ext (by assumption)

end Cert.Dcgru

end
-- ==== Proof.KerLd.lean ====
/-
  How the kernel body's loads and stores address its staging buffers: every load reads a whole buffer except
  the two loads of the state block, which read layer 0's and layer 1's slab of the [2, 8, 32768] block; the
  read-out is stored whole, the two new states into the two slabs of the [2, 8, 32768] output block.
-/
import proofs.«110417_g44504451121623_cont_8to1_c_180_11_alg».proof.Proof.Gen.KernelIdeal.Frame
import Idealize.ShloMosaic.Lib.Pipeline.Value
import Idealize.ShloMosaic.Lib.ValueIdx

noncomputable section

namespace Cert.Dcgru.KerLd

open Cert.KernelIdeal Cert.KernelIdeal.Gen Idealize.ShloMosaic Idealize.ShloMosaic.ValueIdx

variable [Cert.KernelIdeal.Facts]

/-- The load of layer 0's slab of the state block. -/
theorem ld_slab0 (x2 : Vec Ideal S2x8x32768 .f32) (b : Fin 8) (j : Fin 32768) :
    View.ld x2 r0_1 (ix3 0 b j) = x2 (ix3 0 b j) := by
  show x2 (r0_1.idx (ix3 0 b j)) = _
  refine congrArg x2 (funext fun a => Fin.ext ?_)
  match a with
  | ⟨0, _⟩ => rfl
  | ⟨1, _⟩ => show 0 + 1 * b.val = b.val; omega
  | ⟨2, _⟩ => show 0 + 1 * j.val = j.val; omega

/-- The load of layer 1's slab of the state block. -/
theorem ld_slab1 (x2 : Vec Ideal S2x8x32768 .f32) (b : Fin 8) (j : Fin 32768) :
    View.ld x2 r0_9 (ix3 0 b j) = x2 (ix3 1 b j) := by
  show x2 (r0_9.idx (ix3 0 b j)) = _
  refine congrArg x2 (funext fun a => Fin.ext ?_)
  match a with
  | ⟨0, _⟩ => rfl
  | ⟨1, _⟩ => show 0 + 1 * b.val = b.val; omega
  | ⟨2, _⟩ => show 0 + 1 * j.val = j.val; omega

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

theorem ld_r0_0 (x : Vec Ideal S512x512 .f32) : View.ld x r0_0 = x := View.ld_unit_zero (S := S512x512) hz2 _ x
theorem ld_r0_2 (x : Vec Ideal S8x512 .f32) : View.ld x r0_2 = x := View.ld_unit_zero (S := S8x512) hz2 _ x
theorem ld_r0_3 (x : Vec Ideal S3x8x1024 .f32) : View.ld x r0_3 = x := View.ld_unit_zero (S := S3x8x1024) hz3 _ x
theorem ld_r0_4 (x : Vec Ideal S3x64x128 .f32) : View.ld x r0_4 = x := View.ld_unit_zero (S := S3x64x128) hz3 _ x
theorem ld_r0_5 (x : Vec Ideal S128 .f32) : View.ld x r0_5 = x := View.ld_unit_zero (S := S128) hz1 _ x
theorem ld_r0_6 (x : Vec Ideal S3x8x512 .f32) : View.ld x r0_6 = x := View.ld_unit_zero (S := S3x8x512) hz3 _ x
theorem ld_r0_7 (x : Vec Ideal S3x64x64 .f32) : View.ld x r0_7 = x := View.ld_unit_zero (S := S3x64x64) hz3 _ x
theorem ld_r0_8 (x : Vec Ideal S64 .f32) : View.ld x r0_8 = x := View.ld_unit_zero (S := S64) hz1 _ x
theorem ld_r0_10 (x : Vec Ideal S1x64 .f32) : View.ld x r0_10 = x := View.ld_unit_zero (S := S1x64) hz2 _ x
theorem ld_r0_11 (x : Vec Ideal S1 .f32) : View.ld x r0_11 = x := View.ld_unit_zero (S := S1) hz1 _ x

/-- The read-out block is stored whole. -/
theorem canon17 (P : Vec Ideal S8x512 .f32) : View.canon [(⟨r0_2, P⟩ : View.Piece (Elt Ideal) S8x512 .f32)] = P :=
  View.canon_unit_zero (S := S8x512) hz2 _ P

theorem emb_slab1 (b : Fin 8) (j : Fin 32768) : r0_9.emb (ix3 0 b j) = ix3 1 b j := by
  refine funext fun a => Fin.ext ?_
  match a with
  | ⟨0, _⟩ => rfl
  | ⟨1, _⟩ => show 0 + 1 * b.val = b.val; omega
  | ⟨2, _⟩ => show 0 + 1 * j.val = j.val; omega

theorem emb_slab0 (b : Fin 8) (j : Fin 32768) : r0_1.emb (ix3 0 b j) = ix3 0 b j := by
  refine funext fun a => Fin.ext ?_
  match a with
  | ⟨0, _⟩ => rfl
  | ⟨1, _⟩ => show 0 + 1 * b.val = b.val; omega
  | ⟨2, _⟩ => show 0 + 1 * j.val = j.val; omega

/-- Layer 1's slab of the output block holds the later store's payload. -/
theorem canon18_1 (P2 P1 : Vec Ideal S1x8x32768 .f32) (b : Fin 8) (j : Fin 32768) :
    View.canon [(⟨r0_9, P2⟩ : View.Piece (Elt Ideal) S2x8x32768 .f32), ⟨r0_1, P1⟩] (ix3 1 b j) = P2 (ix3 0 b j) := by
  rw [← emb_slab1]; exact View.canon_cons_emb _ _ _ _

/-- Layer 0's slab holds the earlier store's payload: the later store does not reach it. -/
theorem canon18_0 (P2 P1 : Vec Ideal S1x8x32768 .f32) (b : Fin 8) (j : Fin 32768) :
    View.canon [(⟨r0_9, P2⟩ : View.Piece (Elt Ideal) S2x8x32768 .f32), ⟨r0_1, P1⟩] (ix3 0 b j) = P1 (ix3 0 b j) := by
  rw [View.canon_cons_of_not_mem]
  · rw [← emb_slab0]; exact View.canon_cons_emb _ _ _ _
  · intro h
    obtain ⟨y, hy⟩ := r0_9.exists_idx_of_mem h
    have := congrArg (fun i => (i 0).val) hy
    revert this
    show 1 + 1 * (y 0).val = 0 → False
    omega

end Cert.Dcgru.KerLd

end
-- ==== Proof.Alg.lean ====
/-
  The algebra that joins the two arrangements of one graph convolution. The reference contracts the
  stacked taps of all features against the weight matrix in one sum over `3 · features` rows; the kernel adds,
  tap by tap, the state features' product with the state rows of the weights and the input features' product
  with the input rows. Both are the same finite sum in a commutative monoid: no law used here needs a
  finite summand. The scalar input's product with a block-diagonal weight (identity ⊗ row) collapses to one
  term because `0 · y = 0` for every extended real `y`.
-/
import proofs.«110417_g44504451121623_cont_8to1_c_180_11_alg».proof.Proof.Spec
import Idealize.ShloMosaic.PureOps.Ideal.Laws
import Mathlib.Algebra.BigOperators.Fin
import Mathlib.Logic.Equiv.Fin.Basic
import Mathlib.Tactic.Abel

noncomputable section

namespace Cert.Dcgru

open Idealize.ShloMosaic

variable (w : Wts)

/-- The literal `1.0` denotes the real one. -/
theorem one_eq : one = 1 := by
  simp [one, Ideal.ofBits, Ideal.ieee, -EReal.coe_mul]; norm_num

/-- jax's expansion of the logistic function, with the literal ones, is the logistic function. -/
theorem logistic_expand (z : EReal) : Ideal.div one (one + Ideal.exp (-z)) = Ideal.logistic z := by
  unfold Ideal.logistic
  rw [one_eq]

/-- Adding the literal `+0.0` changes nothing. -/
theorem add_ofBits_zero (z : EReal) : z + Ideal.ofBits .f32 0x00000000#32 = z := by
  rw [Ideal.ofBits_zero_f32, add_zero]

theorem ofBits_zero_add (z : EReal) : Ideal.ofBits .f32 0x00000000#32 + z = z := by
  rw [Ideal.ofBits_zero_f32, zero_add]

/-- A row times the block-diagonal weight `identity ⊗ wv` keeps one term. -/
theorem kron_sum (X : Fin 8 → EReal) (b : Fin 8) (wv : EReal) :
    ∑ b' : Fin 8, X b' * (eye b' b * wv) = X b * wv := by
  rw [Finset.sum_eq_single b]
  · unfold eye
    rw [if_pos rfl, one_mul]
  · intro b' _ hb
    unfold eye
    rw [if_neg hb, zero_mul, mul_zero]
  · intro h
    exact absurd (Finset.mem_univ b) h

/-- A sum over `3 F` rows, row `k = 3 f + m`, is the sum over the `F` features of the three taps' terms. -/
theorem sum_fin_mul_three {M : Type} [AddCommMonoid M] {F : ℕ} (g : Fin (F * 3) → M) :
    ∑ k : Fin (F * 3), g k =
      ∑ f : Fin F, (g ⟨f.val * 3 + 0, by omega⟩ + g ⟨f.val * 3 + 1, by omega⟩ + g ⟨f.val * 3 + 2, by omega⟩) := by
  rw [← Fintype.sum_equiv (finProdFinEquiv (m := F) (n := 3)) (fun p => g (finProdFinEquiv p)) g (fun _ => rfl),
    Fintype.sum_prod_type]
  refine Finset.sum_congr rfl fun f _ => ?_
  rw [Fin.sum_univ_three]
  have e0 : finProdFinEquiv (f, (0 : Fin 3)) = (⟨f.val * 3 + 0, by omega⟩ : Fin (F * 3)) :=
    Fin.ext (by simp [finProdFinEquiv]; try omega)
  have e1 : finProdFinEquiv (f, (1 : Fin 3)) = (⟨f.val * 3 + 1, by omega⟩ : Fin (F * 3)) :=
    Fin.ext (by simp [finProdFinEquiv]; try omega)
  have e2 : finProdFinEquiv (f, (2 : Fin 3)) = (⟨f.val * 3 + 2, by omega⟩ : Fin (F * 3)) :=
    Fin.ext (by simp [finProdFinEquiv]; try omega)
  rw [e0, e1, e2]

/-- Row `3 f + 0` carries the feature itself. -/
theorem tap_row0 {F : ℕ} (c : Fin F → Fin 512 → EReal) (f : Fin F) (h1 : (f.val * 3 + 0) % 3 < 3)
    (h2 : (f.val * 3 + 0) / 3 < F) : tap w ⟨(f.val * 3 + 0) % 3, h1⟩ (c ⟨(f.val * 3 + 0) / 3, h2⟩) = c f := by
  have e1 : (⟨(f.val * 3 + 0) % 3, h1⟩ : Fin 3) = ⟨0, by decide⟩ := Fin.ext (by show (f.val * 3 + 0) % 3 = 0; omega)
  have e2 : (⟨(f.val * 3 + 0) / 3, h2⟩ : Fin F) = f := Fin.ext (by show (f.val * 3 + 0) / 3 = f.val; omega)
  rw [e1, e2]
  unfold tap
  rw [if_pos rfl]

/-- Row `3 f + 1` carries the feature's first diffusion step. -/
theorem tap_row1 {F : ℕ} (c : Fin F → Fin 512 → EReal) (f : Fin F) (h1 : (f.val * 3 + 1) % 3 < 3)
    (h2 : (f.val * 3 + 1) / 3 < F) : tap w ⟨(f.val * 3 + 1) % 3, h1⟩ (c ⟨(f.val * 3 + 1) / 3, h2⟩) = d1 w (c f) := by
  have e1 : (⟨(f.val * 3 + 1) % 3, h1⟩ : Fin 3) = ⟨1, by decide⟩ := Fin.ext (by show (f.val * 3 + 1) % 3 = 1; omega)
  have e2 : (⟨(f.val * 3 + 1) / 3, h2⟩ : Fin F) = f := Fin.ext (by show (f.val * 3 + 1) / 3 = f.val; omega)
  rw [e1, e2]
  unfold tap
  rw [if_neg (by decide), if_pos rfl]

/-- Row `3 f + 2` carries the feature's second Chebyshev tap. -/
theorem tap_row2 {F : ℕ} (c : Fin F → Fin 512 → EReal) (f : Fin F) (h1 : (f.val * 3 + 2) % 3 < 3)
    (h2 : (f.val * 3 + 2) / 3 < F) : tap w ⟨(f.val * 3 + 2) % 3, h1⟩ (c ⟨(f.val * 3 + 2) / 3, h2⟩) = d2 w (c f) := by
  have e1 : (⟨(f.val * 3 + 2) % 3, h1⟩ : Fin 3) = ⟨2, by decide⟩ := Fin.ext (by show (f.val * 3 + 2) % 3 = 2; omega)
  have e2 : (⟨(f.val * 3 + 2) / 3, h2⟩ : Fin F) = f := Fin.ext (by show (f.val * 3 + 2) / 3 = f.val; omega)
  rw [e1, e2]
  unfold tap
  rw [if_neg (by decide), if_neg (by decide)]

/-- The stacked-tap contraction over `K = 3 F` weight rows, feature by feature. -/
theorem sum_taps {F K O : ℕ} (hK : K = F * 3) (c : Fin F → Fin 512 → EReal) (W : Fin K → Fin O → EReal) (o : Fin O)
    (n : Fin 512) :
    ∑ k : Fin K, tap w ⟨k.val % 3, Nat.mod_lt _ (by decide)⟩ (c ⟨k.val / 3, by omega⟩) n * W k o =
      ∑ f : Fin F, (c f n * W ⟨f.val * 3 + 0, by omega⟩ o + d1 w (c f) n * W ⟨f.val * 3 + 1, by omega⟩ o
        + d2 w (c f) n * W ⟨f.val * 3 + 2, by omega⟩ o) := by
  subst hK
  rw [sum_fin_mul_three]
  refine Finset.sum_congr rfl fun f _ => ?_
  beta_reduce
  rw [tap_row0 w c f, tap_row1 w c f, tap_row2 w c f]

/-- The first cell's graph convolution, tap by tap: state rows `3 (1 + u) + m`, input row `m`. -/
theorem gconv0_split {O : ℕ} (x : Fin 512 → EReal) (s : Fin 512 → Fin 64 → EReal) (W : Fin 195 → Fin O → EReal)
    (bias : Fin O → EReal) (n : Fin 512) (o : Fin O) :
    gconv0 w x s W bias n o =
      ((((((bias o + ∑ u : Fin 64, s n u * W ⟨(1 + u.val) * 3 + 0, by omega⟩ o) + x n * W ⟨0, by omega⟩ o)
        + ∑ u : Fin 64, d1 w (fun k => s k u) n * W ⟨(1 + u.val) * 3 + 1, by omega⟩ o) + d1 w x n * W ⟨1, by omega⟩ o)
        + ∑ u : Fin 64, d2 w (fun k => s k u) n * W ⟨(1 + u.val) * 3 + 2, by omega⟩ o) + d2 w x n * W ⟨2, by omega⟩ o) := by
  -- the 195 rows regrouped by feature
  have hs := sum_taps w (F := 65) (K := 195) (by norm_num) (col0 x s) W o n
  -- feature 0 is the scalar input, feature 1 + u is state unit u
  have hc0 : col0 x s (0 : Fin 65) = x := by
    funext k
    unfold col0
    exact dif_pos rfl
  have hcs : ∀ u : Fin 64, col0 x s (Fin.succ u) = fun k => s k u := by
    intro u
    funext k
    unfold col0
    rw [dif_neg (by simp only [Fin.val_succ]; omega)]
    congr 1 <;> exact Fin.ext (by simp only [Fin.val_succ]; omega)
  -- one tap's sum over the 65 features: the input's term, then the 64 state units' terms
  have hsplit : ∀ (T : (Fin 512 → EReal) → Fin 512 → EReal) (j : ℕ) (hj : j < 3),
      ∑ f : Fin 65, T (col0 x s f) n * W ⟨f.val * 3 + j, by omega⟩ o =
        T x n * W ⟨j, by omega⟩ o + ∑ u : Fin 64, T (fun k => s k u) n * W ⟨(1 + u.val) * 3 + j, by omega⟩ o := by
    intro T j hj
    rw [Fin.sum_univ_succ]
    refine congrArg₂ (· + ·) ?_ ?_
    · rw [hc0]
      exact congrArg (fun i => T x n * W i o) (Fin.ext (by first | (show 0 * 3 + j = j; omega) | simp))
    · refine Finset.sum_congr rfl fun u _ => ?_
      rw [hcs u]
      exact congrArg (fun i => T (fun k => s k u) n * W i o) (Fin.ext (by simp only [Fin.val_succ]; omega))
  have hA : ∑ f : Fin 65, col0 x s f n * W ⟨f.val * 3 + 0, by omega⟩ o =
      x n * W ⟨0, by omega⟩ o + ∑ u : Fin 64, s n u * W ⟨(1 + u.val) * 3 + 0, by omega⟩ o :=
    hsplit (fun z => z) 0 (by decide)
  have hB := hsplit (d1 w) 1 (by decide)
  have hC := hsplit (d2 w) 2 (by decide)
  unfold gconv0
  rw [hs, Finset.sum_add_distrib, Finset.sum_add_distrib, hA, hB, hC]
  abel

/-- The second cell's graph convolution, tap by tap: state rows `3 (64 + u) + m`, input rows `3 u + m`. -/
theorem gconv1_split {O : ℕ} (x s : Fin 512 → Fin 64 → EReal) (W : Fin 384 → Fin O → EReal)
    (bias : Fin O → EReal) (n : Fin 512) (o : Fin O) :
    gconv1 w x s W bias n o =
      ((((((bias o + ∑ u : Fin 64, s n u * W ⟨(64 + u.val) * 3 + 0, by omega⟩ o) + ∑ u : Fin 64, x n u * W ⟨u.val * 3 + 0, by omega⟩ o)
        + ∑ u : Fin 64, d1 w (fun k => s k u) n * W ⟨(64 + u.val) * 3 + 1, by omega⟩ o) + ∑ u : Fin 64, d1 w (fun k => x k u) n * W ⟨u.val * 3 + 1, by omega⟩ o)
        + ∑ u : Fin 64, d2 w (fun k => s k u) n * W ⟨(64 + u.val) * 3 + 2, by omega⟩ o) + ∑ u : Fin 64, d2 w (fun k => x k u) n * W ⟨u.val * 3 + 2, by omega⟩ o) := by
  -- the 384 rows regrouped by feature
  have hs := sum_taps w (F := 128) (K := 384) (by norm_num) (col1 x s) W o n
  -- features 0 … 63 are the input units, features 64 … 127 the state units
  have hcx : ∀ u : Fin 64, col1 x s (Fin.castAdd 64 u) = fun k => x k u := by
    intro u
    funext k
    unfold col1
    rw [dif_pos (show (Fin.castAdd 64 u).val < 64 from u.isLt)]
    rfl
  have hcs : ∀ u : Fin 64, col1 x s (Fin.natAdd 64 u) = fun k => s k u := by
    intro u
    funext k
    unfold col1
    rw [dif_neg (by show ¬ (64 + u.val < 64); omega)]
    congr 1 <;> exact Fin.ext (by show 64 + u.val - 64 = u.val; omega)
  -- one tap's sum over the 128 features: the 64 input units' terms, then the 64 state units' terms
  have hsplit : ∀ (T : (Fin 512 → EReal) → Fin 512 → EReal) (j : ℕ) (hj : j < 3),
      ∑ f : Fin 128, T (col1 x s f) n * W ⟨f.val * 3 + j, by omega⟩ o =
        ∑ u : Fin 64, T (fun k => x k u) n * W ⟨u.val * 3 + j, by omega⟩ o
          + ∑ u : Fin 64, T (fun k => s k u) n * W ⟨(64 + u.val) * 3 + j, by omega⟩ o := by
    intro T j hj
    refine (Fin.sum_univ_add (a := 64) (b := 64)
      (fun f : Fin 128 => T (col1 x s f) n * W ⟨f.val * 3 + j, by omega⟩ o)).trans ?_
    beta_reduce
    refine congrArg₂ (· + ·) ?_ ?_
    · refine Finset.sum_congr rfl fun u _ => ?_
      rw [hcx u]
      rfl
    · refine Finset.sum_congr rfl fun u _ => ?_
      rw [hcs u]
      rfl
  have hA : ∑ f : Fin 128, col1 x s f n * W ⟨f.val * 3 + 0, by omega⟩ o =
      ∑ u : Fin 64, x n u * W ⟨u.val * 3 + 0, by omega⟩ o
        + ∑ u : Fin 64, s n u * W ⟨(64 + u.val) * 3 + 0, by omega⟩ o :=
    hsplit (fun z => z) 0 (by decide)
  have hB := hsplit (d1 w) 1 (by decide)
  have hC := hsplit (d2 w) 2 (by decide)
  unfold gconv1
  rw [hs, Finset.sum_add_distrib, Finset.sum_add_distrib, hA, hB, hC]
  abel

end Cert.Dcgru

end
-- ==== Proof.KerA0.lean ====
/-
  The small payloads of the kernel body read at an index: the changes of layout between the three arrangements of a
  state array (flat `[1, 8, 32768]` with node `n`, unit `u` at `64 n + u`; rows `[4096, 64]` with row `8 n + b`;
  node-major `[512, 512]` with column `64 b + u`), the three diffusion taps `z`, `A z`, `2 · A (A z) - z` of a node-major
  array and of the scalar input, the bias broadcast to every row, and the weight slices. The literal `+0.0` the layout
  changes add on the way changes nothing.
-/
import proofs.«110417_g44504451121623_cont_8to1_c_180_11_alg».proof.Proof.Gen.KernelIdeal.Skeleton
import proofs.«110417_g44504451121623_cont_8to1_c_180_11_alg».proof.Proof.Spec
import proofs.«110417_g44504451121623_cont_8to1_c_180_11_alg».proof.Proof.Alg
import Idealize.ShloMosaic.Lib.Pipeline.Value
import Idealize.ShloMosaic.Lib.ValueIdx
import Idealize.ShloMosaic.PureOps.Ideal.Laws

noncomputable section
namespace Cert.Dcgru.KerA0
open Cert.Dcgru Cert.KernelIdeal Cert.KernelIdeal.Gen Idealize.ShloMosaic Idealize.ShloMosaic.ValueIdx
variable [Cert.KernelIdeal.Facts]

/-! ### Layout changes read at an index -/

/-- `[512, 8, 64] → [4096, 64]`: row `8 n + b` is the pair `(n, b)`. -/
theorem sc_512x8x64_4096x64 {α : Type} (x : S512x8x64.Idx → α) (h : S512x8x64.ShapeCasts S4096x64)
    (n : Fin 512) (b : Fin 8) (u : Fin 64) (hr : n.val * 8 + b.val < 4096) :
    shapeCast S4096x64 x h (ix2 ⟨n.val * 8 + b.val, hr⟩ u) = x (ix3 n b u) := by
  refine shapeCast_apply x h _ _ ?_
  rw [Shape.rowMajor_val_three, Shape.rowMajor_val_two]
  rfl

/-- `[4096, 64] → [512, 8, 64]`: the pair `(n, b)` is row `8 n + b`. -/
theorem sc_4096x64_512x8x64 {α : Type} (x : S4096x64.Idx → α) (h : S4096x64.ShapeCasts S512x8x64)
    (n : Fin 512) (b : Fin 8) (u : Fin 64) (hr : n.val * 8 + b.val < 4096) :
    shapeCast S512x8x64 x h (ix3 n b u) = x (ix2 ⟨n.val * 8 + b.val, hr⟩ u) := by
  refine shapeCast_apply x h _ _ ?_
  rw [Shape.rowMajor_val_three, Shape.rowMajor_val_two]
  rfl

/-- `[512, 8, 64] → [512, 512]`: column `64 b + u` is the pair `(b, u)`. -/
theorem sc_512x8x64_512x512 {α : Type} (x : S512x8x64.Idx → α) (h : S512x8x64.ShapeCasts S512x512)
    (n : Fin 512) (b : Fin 8) (u : Fin 64) (hc : b.val * 64 + u.val < 512) :
    shapeCast S512x512 x h (ix2 n ⟨b.val * 64 + u.val, hc⟩) = x (ix3 n b u) := by
  refine shapeCast_apply x h _ _ ?_
  rw [Shape.rowMajor_val_three, Shape.rowMajor_val_two]
  show (n.val * 8 + b.val) * 64 + u.val = n.val * 512 + (b.val * 64 + u.val)
  omega

/-- `[512, 512] → [512, 8, 64]`: the pair `(b, u)` is column `64 b + u`. -/
theorem sc_512x512_512x8x64 {α : Type} (x : S512x512.Idx → α) (h : S512x512.ShapeCasts S512x8x64)
    (n : Fin 512) (b : Fin 8) (u : Fin 64) (hc : b.val * 64 + u.val < 512) :
    shapeCast S512x8x64 x h (ix3 n b u) = x (ix2 n ⟨b.val * 64 + u.val, hc⟩) := by
  refine shapeCast_apply x h _ _ ?_
  rw [Shape.rowMajor_val_three, Shape.rowMajor_val_two]
  show n.val * 512 + (b.val * 64 + u.val) = (n.val * 8 + b.val) * 64 + u.val
  omega

theorem tr_8x512x64_512x8x64 {α : Type} (x : S8x512x64.Idx → α) (h : S8x512x64.Transposes [1, 0, 2] S512x8x64)
    (n : Fin 512) (b : Fin 8) (u : Fin 64) :
    transpose S512x8x64 [1, 0, 2] x h (ix3 n b u) = x (ix3 b n u) := by
  refine transpose_apply _ x h _ _ (fun a => ?_)
  match a with
  | ⟨0, _⟩ => rfl
  | ⟨1, _⟩ => rfl
  | ⟨2, _⟩ => rfl

theorem tr_8x512_512x8 {α : Type} (x : S8x512.Idx → α) (h : S8x512.Transposes [1, 0] S512x8)
    (n : Fin 512) (b : Fin 8) :
    transpose S512x8 [1, 0] x h (ix2 n b) = x (ix2 b n) := by
  refine transpose_apply _ x h _ _ (fun a => ?_)
  match a with
  | ⟨0, _⟩ => rfl
  | ⟨1, _⟩ => rfl

theorem sc_8x32768_8x512x64 {α : Type} (x : S8x32768.Idx → α) (h : S8x32768.ShapeCasts S8x512x64)
    (b : Fin 8) (n : Fin 512) (u : Fin 64) (hj : n.val * 64 + u.val < 32768) :
    shapeCast S8x512x64 x h (ix3 b n u) = x (ix2 b ⟨n.val * 64 + u.val, hj⟩) := by
  refine shapeCast_apply x h _ _ ?_
  rw [Shape.rowMajor_val_three, Shape.rowMajor_val_two]
  show b.val * 32768 + (n.val * 64 + u.val) = (b.val * 512 + n.val) * 64 + u.val
  omega

theorem sc_1x8x32768_8x32768 {α : Type} (x : S1x8x32768.Idx → α) (h : S1x8x32768.ShapeCasts S8x32768)
    (b : Fin 8) (j : Fin 32768) :
    shapeCast S8x32768 x h (ix2 b j) = x (ix3 0 b j) := by
  refine shapeCast_apply x h _ _ ?_
  rw [Shape.rowMajor_val_three, Shape.rowMajor_val_two]
  show ((0:ℕ) * 8 + b.val) * 32768 + j.val = b.val * 32768 + j.val
  omega

/-- Rows to node-major with the literal `+0.0` added on the way: entry `(n, 64 b + u)` is the operand's row `8 n + b`, column `u`. -/
theorem rows_to_nm (x : FVec Ideal S4096x64 .f32) (n : Fin 512) (b : Fin 8) (u : Fin 64)
    (hc : b.val * 64 + u.val < 512) (hr : n.val * 8 + b.val < 4096) :
    shapeCast S512x512 (addf (shapeCast S512x8x64 x shapeCasts_S4096x64_S512x8x64)
        (broadcast S512x8x64 (Scalar.ofBits (F := Ideal) .f32 0x00000000#32))) shapeCasts_S512x8x64_S512x512 (ix2 n ⟨b.val * 64 + u.val, hc⟩)
      = x (ix2 ⟨n.val * 8 + b.val, hr⟩ u) := by
  rw [sc_512x8x64_512x512, addf_apply, broadcast_apply, sc_4096x64_512x8x64 _ _ _ _ _ hr]
  exact add_ofBits_zero _

/-- Node-major to rows with the literal `+0.0` added on the way. -/
theorem nm_to_rows (y : FVec Ideal S512x512 .f32) (n : Fin 512) (b : Fin 8) (u : Fin 64)
    (hc : b.val * 64 + u.val < 512) (hr : n.val * 8 + b.val < 4096) :
    shapeCast S4096x64 (addf (shapeCast S512x8x64 y shapeCasts_S512x512_S512x8x64)
        (broadcast S512x8x64 (Scalar.ofBits (F := Ideal) .f32 0x00000000#32))) shapeCasts_S512x8x64_S4096x64 (ix2 ⟨n.val * 8 + b.val, hr⟩ u)
      = y (ix2 n ⟨b.val * 64 + u.val, hc⟩) := by
  rw [sc_512x8x64_4096x64, addf_apply, broadcast_apply, sc_512x512_512x8x64 _ _ _ _ _ hc]
  exact add_ofBits_zero _

/-! ### The two products by the support -/

theorem mm_512x512_512x512_lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem mm_512x512_512x512_lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem mm_512x512_512x512_rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem mm_512x512_512x512_rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product into a zero accumulator, read at an index: entry `(i, c)` is `∑ k, l (i, k) · r (k, c)`. -/
theorem mm_512x512_512x512 (l : FVec Ideal S512x512 .f32) (r : FVec Ideal S512x512 .f32) (i : Fin 512) (c : Fin 512) :
    matmul dot_S512x512_S512x512_S512x512_1_0_0_1_n_n none l r (constant S512x512 .f32 0x00000000#32) (ix2 i c)
      = ∑ k : Fin 512, l (ix2 i k) * r (ix2 k c) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 i c) ((ValueIdx.contrEquiv1 dot_S512x512_S512x512_S512x512_1_0_0_1_n_n 512 rfl rfl).symm k) = ix2 i k := funext fun a => Fin.ext (by
    match a with
    | ⟨0, _⟩ => exact mm_512x512_512x512_lhs_0 _ _
    | ⟨1, _⟩ => exact (mm_512x512_512x512_lhs_1 _ _).trans hk)
  have er : dot_S512x512_S512x512_S512x512_1_0_0_1_n_n.rhsIdx (ix2 i c) ((ValueIdx.contrEquiv1 dot_S512x512_S512x512_S512x512_1_0_0_1_n_n 512 rfl rfl).symm k) = ix2 k c := funext fun a => Fin.ext (by
    match a with
    | ⟨0, _⟩ => exact (mm_512x512_512x512_rhs_0 _ _).trans hk
    | ⟨1, _⟩ => exact mm_512x512_512x512_rhs_1 _ _)
  rw [el, er]

theorem mm_512x512_512x8_lhs_0 (i : S512x8.Idx) (q : dot_S512x512_S512x8_S512x8_1_0_0_1_n_n.contr.Idx) :
    (dot_S512x512_S512x8_S512x8_1_0_0_1_n_n.lhsIdx i q 0).val = (i 0).val := by
  unfold DotDims.lhsIdx
  rw [dif_neg (show ¬(0 : Fin S512x512.rank) ∈ dot_S512x512_S512x8_S512x8_1_0_0_1_n_n.lhsBatch by decide), dif_pos (show (0 : Fin S512x512.rank) ∈ dot_S512x512_S512x8_S512x8_1_0_0_1_n_n.lhsNonContracting by decide)]
  rfl
theorem mm_512x512_512x8_lhs_1 (i : S512x8.Idx) (q : dot_S512x512_S512x8_S512x8_1_0_0_1_n_n.contr.Idx) :
    (dot_S512x512_S512x8_S512x8_1_0_0_1_n_n.lhsIdx i q 1).val = (q ⟨0, by decide⟩).val :=
  dot_S512x512_S512x8_S512x8_1_0_0_1_n_n.lhsIdx_val_of_single rfl i q
theorem mm_512x512_512x8_rhs_0 (i : S512x8.Idx) (q : dot_S512x512_S512x8_S512x8_1_0_0_1_n_n.contr.Idx) :
    (dot_S512x512_S512x8_S512x8_1_0_0_1_n_n.rhsIdx i q 0).val = (q ⟨0, by decide⟩).val :=
  dot_S512x512_S512x8_S512x8_1_0_0_1_n_n.rhsIdx_val_of_single rfl i q
theorem mm_512x512_512x8_rhs_1 (i : S512x8.Idx) (q : dot_S512x512_S512x8_S512x8_1_0_0_1_n_n.contr.Idx) :
    (dot_S512x512_S512x8_S512x8_1_0_0_1_n_n.rhsIdx i q 1).val = (i 1).val := by
  unfold DotDims.rhsIdx
  rw [dif_neg (show ¬(1 : Fin S512x8.rank) ∈ dot_S512x512_S512x8_S512x8_1_0_0_1_n_n.rhsBatch by decide), dif_pos (show (1 : Fin S512x8.rank) ∈ dot_S512x512_S512x8_S512x8_1_0_0_1_n_n.rhsNonContracting by decide)]
  rfl

/-- The product into a zero accumulator, read at an index: entry `(i, c)` is `∑ k, l (i, k) · r (k, c)`. -/
theorem mm_512x512_512x8 (l : FVec Ideal S512x512 .f32) (r : FVec Ideal S512x8 .f32) (i : Fin 512) (c : Fin 8) :
    matmul dot_S512x512_S512x8_S512x8_1_0_0_1_n_n none l r (constant S512x8 .f32 0x00000000#32) (ix2 i c)
      = ∑ k : Fin 512, l (ix2 i k) * r (ix2 k c) := by
  simp only [matmul]
  rw [Ideal.matmul_constant_zero_apply, ← Equiv.sum_comp (ValueIdx.contrEquiv1 dot_S512x512_S512x8_S512x8_1_0_0_1_n_n 512 rfl rfl).symm]
  refine Finset.sum_congr rfl fun k _ => ?_
  have hk := ValueIdx.contrEquiv1_symm_val dot_S512x512_S512x8_S512x8_1_0_0_1_n_n 512 rfl rfl k
  have el : dot_S512x512_S512x8_S512x8_1_0_0_1_n_n.lhsIdx (ix2 i c) ((ValueIdx.contrEquiv1 dot_S512x512_S512x8_S512x8_1_0_0_1_n_n 512 rfl rfl).symm k) = ix2 i k := funext fun a => Fin.ext (by
    match a with
    | ⟨0, _⟩ => exact mm_512x512_512x8_lhs_0 _ _
    | ⟨1, _⟩ => exact (mm_512x512_512x8_lhs_1 _ _).trans hk)
  have er : dot_S512x512_S512x8_S512x8_1_0_0_1_n_n.rhsIdx (ix2 i c) ((ValueIdx.contrEquiv1 dot_S512x512_S512x8_S512x8_1_0_0_1_n_n 512 rfl rfl).symm k) = ix2 k c := funext fun a => Fin.ext (by
    match a with
    | ⟨0, _⟩ => exact (mm_512x512_512x8_rhs_0 _ _).trans hk
    | ⟨1, _⟩ => exact mm_512x512_512x8_rhs_1 _ _)
  rw [el, er]

/-! ### The diffusion taps of a node-major array and of the scalar input -/

/-- One diffusion step of a node-major array: column `(b, u)` of `A · z` is `A` applied to that column. -/
theorem tap1_nm (w : Wts) (R : Fin 8 → Fin 512 → Fin 64 → EReal) (v0 : FVec Ideal S512x512 .f32) (z : FVec Ideal S512x512 .f32)
    (h0 : ∀ (n k : Fin 512), v0 (ix2 n k) = w.A n k)
    (hz : ∀ (n : Fin 512) (b : Fin 8) (u : Fin 64) (hc : b.val * 64 + u.val < 512), z (ix2 n ⟨b.val * 64 + u.val, hc⟩) = R b n u)
    (n : Fin 512) (b : Fin 8) (u : Fin 64) (hc : b.val * 64 + u.val < 512) :
    matmul dot_S512x512_S512x512_S512x512_1_0_0_1_n_n none v0 z (constant S512x512 .f32 0x00000000#32) (ix2 n ⟨b.val * 64 + u.val, hc⟩)
      = d1 w (fun k => R b k u) n := by
  rw [mm_512x512_512x512]
  show ∑ k : Fin 512, _ = ∑ k : Fin 512, _
  exact Finset.sum_congr rfl fun k _ => by rw [h0, hz]

/-- The second tap of a node-major array: `2 · A (A z) - z`, column by column. -/
theorem tap2_nm (w : Wts) (R : Fin 8 → Fin 512 → Fin 64 → EReal) (v0 : FVec Ideal S512x512 .f32) (z t1 : FVec Ideal S512x512 .f32)
    (h0 : ∀ (n k : Fin 512), v0 (ix2 n k) = w.A n k)
    (hz : ∀ (n : Fin 512) (b : Fin 8) (u : Fin 64) (hc : b.val * 64 + u.val < 512), z (ix2 n ⟨b.val * 64 + u.val, hc⟩) = R b n u)
    (ht : ∀ (n : Fin 512) (b : Fin 8) (u : Fin 64) (hc : b.val * 64 + u.val < 512), t1 (ix2 n ⟨b.val * 64 + u.val, hc⟩) = d1 w (fun k => R b k u) n)
    (n : Fin 512) (b : Fin 8) (u : Fin 64) (hc : b.val * 64 + u.val < 512) :
    subf (mulf (broadcast S512x512 (Scalar.ofBits (F := Ideal) .f32 0x40000000#32))
        (matmul dot_S512x512_S512x512_S512x512_1_0_0_1_n_n none v0 t1 (constant S512x512 .f32 0x00000000#32))) z (ix2 n ⟨b.val * 64 + u.val, hc⟩)
      = d2 w (fun k => R b k u) n := by
  rw [subf_apply, mulf_apply, broadcast_apply, tap1_nm w (fun b n u => d1 w (fun k => R b k u) n) v0 t1 h0 ht, hz]
  rfl

/-- One diffusion step of the scalar input `[512, 8]`. -/
theorem tap1_x (w : Wts) (X : Fin 8 → Fin 512 → EReal) (v0 : FVec Ideal S512x512 .f32) (z : FVec Ideal S512x8 .f32)
    (h0 : ∀ (n k : Fin 512), v0 (ix2 n k) = w.A n k)
    (hz : ∀ (n : Fin 512) (b : Fin 8), z (ix2 n b) = X b n)
    (n : Fin 512) (b : Fin 8) :
    matmul dot_S512x512_S512x8_S512x8_1_0_0_1_n_n none v0 z (constant S512x8 .f32 0x00000000#32) (ix2 n b)
      = d1 w (X b) n := by
  rw [mm_512x512_512x8]
  show ∑ k : Fin 512, _ = ∑ k : Fin 512, _
  exact Finset.sum_congr rfl fun k _ => by rw [h0, hz]

/-- The second tap of the scalar input. -/
theorem tap2_x (w : Wts) (X : Fin 8 → Fin 512 → EReal) (v0 : FVec Ideal S512x512 .f32) (z t1 : FVec Ideal S512x8 .f32)
    (h0 : ∀ (n k : Fin 512), v0 (ix2 n k) = w.A n k)
    (hz : ∀ (n : Fin 512) (b : Fin 8), z (ix2 n b) = X b n)
    (ht : ∀ (n : Fin 512) (b : Fin 8), t1 (ix2 n b) = d1 w (X b) n)
    (n : Fin 512) (b : Fin 8) :
    subf (mulf (broadcast S512x8 (Scalar.ofBits (F := Ideal) .f32 0x40000000#32))
        (matmul dot_S512x512_S512x8_S512x8_1_0_0_1_n_n none v0 t1 (constant S512x8 .f32 0x00000000#32))) z (ix2 n b)
      = d2 w (X b) n := by
  rw [subf_apply, mulf_apply, broadcast_apply, tap1_x w (fun b n => d1 w (X b) n) v0 t1 h0 ht, hz]
  rfl

/-! ### The payloads -/

/-- The first layer's state, rows `(n, b)`. -/
theorem pay4_sem (s0 : Fin 8 → Fin 512 → Fin 64 → EReal) (v1 : Vec Ideal S1x8x32768 .f32)
    (h1 : ∀ (b : Fin 8) (n : Fin 512) (u : Fin 64) (hj : n.val * 64 + u.val < 32768), v1 (ix3 0 b ⟨n.val * 64 + u.val, hj⟩) = s0 b n u)
    (n : Fin 512) (b : Fin 8) (u : Fin 64) (hr : n.val * 8 + b.val < 4096) :
    k0_pay4 v1 (ix2 ⟨n.val * 8 + b.val, hr⟩ u) = s0 b n u := by
  have hj : n.val * 64 + u.val < 32768 := by have := n.isLt; have := u.isLt; omega
  unfold k0_pay4
  rw [sc_512x8x64_4096x64, tr_8x512x64_512x8x64, sc_8x32768_8x512x64 _ _ _ _ _ hj, sc_1x8x32768_8x32768]
  exact h1 b n u hj

/-- The scalar input, node-major. -/
theorem pay5_sem (x : Fin 8 → Fin 512 → EReal) (v6 : Vec Ideal S8x512 .f32)
    (h6 : ∀ (b : Fin 8) (n : Fin 512), v6 (ix2 b n) = x b n) (n : Fin 512) (b : Fin 8) :
    k0_pay5 v6 (ix2 n b) = x b n := by
  unfold k0_pay5
  rw [tr_8x512_512x8]
  exact h6 b n

/-- The scalar input's first tap. -/
theorem pay6_sem (w : Wts) (x : Fin 8 → Fin 512 → EReal) (v0 : Vec Ideal S512x512 .f32) (v6 : Vec Ideal S8x512 .f32)
    (h0 : ∀ (n k : Fin 512), v0 (ix2 n k) = w.A n k)
    (h6 : ∀ (b : Fin 8) (n : Fin 512), v6 (ix2 b n) = x b n) (n : Fin 512) (b : Fin 8) :
    k0_pay6 v0 v6 (ix2 n b) = d1 w (x b) n := by
  unfold k0_pay6
  exact tap1_x w x v0 (k0_pay5 v6) h0 (pay5_sem x v6 h6) n b

/-- The scalar input's second tap. -/
theorem pay7_sem (w : Wts) (x : Fin 8 → Fin 512 → EReal) (v0 : Vec Ideal S512x512 .f32) (v6 : Vec Ideal S8x512 .f32)
    (h0 : ∀ (n k : Fin 512), v0 (ix2 n k) = w.A n k)
    (h6 : ∀ (b : Fin 8) (n : Fin 512), v6 (ix2 b n) = x b n) (n : Fin 512) (b : Fin 8) :
    k0_pay7 v0 v6 (ix2 n b) = d2 w (x b) n := by
  unfold k0_pay7
  exact tap2_x w x v0 (k0_pay5 v6) (k0_pay6 v0 v6) h0 (pay5_sem x v6 h6) (pay6_sem w x v0 v6 h0 h6) n b

theorem pay8_eq (v13 : Vec Ideal S3x8x1024 .f32) : k0_pay8 v13 = v13 := by
  unfold k0_pay8
  exact shapeCast_self _ _

theorem pay9_eq (v15 : Vec Ideal S3x64x128 .f32) : k0_pay9 v15 = v15 := by
  unfold k0_pay9
  exact shapeCast_self _ _

theorem pay19_eq (v82 : Vec Ideal S3x8x512 .f32) : k0_pay19 v82 = v82 := by
  unfold k0_pay19
  exact shapeCast_self _ _

theorem pay20_eq (v84 : Vec Ideal S3x64x64 .f32) : k0_pay20 v84 = v84 := by
  unfold k0_pay20
  exact shapeCast_self _ _

/-- The first layer's state, node-major. -/
theorem pay10_sem (s0 : Fin 8 → Fin 512 → Fin 64 → EReal) (v1 : Vec Ideal S1x8x32768 .f32)
    (h1 : ∀ (b : Fin 8) (n : Fin 512) (u : Fin 64) (hj : n.val * 64 + u.val < 32768), v1 (ix3 0 b ⟨n.val * 64 + u.val, hj⟩) = s0 b n u)
    (n : Fin 512) (b : Fin 8) (u : Fin 64) (hc : b.val * 64 + u.val < 512) :
    k0_pay10 v1 (ix2 n ⟨b.val * 64 + u.val, hc⟩) = s0 b n u := by
  have hr : n.val * 8 + b.val < 4096 := by have := n.isLt; have := b.isLt; omega
  unfold k0_pay10
  rw [rows_to_nm _ n b u hc hr]
  exact pay4_sem s0 v1 h1 n b u hr

/-- The state's first tap. -/
theorem pay11_sem (w : Wts) (s0 : Fin 8 → Fin 512 → Fin 64 → EReal) (v0 : Vec Ideal S512x512 .f32) (v1 : Vec Ideal S1x8x32768 .f32)
    (h0 : ∀ (n k : Fin 512), v0 (ix2 n k) = w.A n k)
    (h1 : ∀ (b : Fin 8) (n : Fin 512) (u : Fin 64) (hj : n.val * 64 + u.val < 32768), v1 (ix3 0 b ⟨n.val * 64 + u.val, hj⟩) = s0 b n u)
    (n : Fin 512) (b : Fin 8) (u : Fin 64) (hc : b.val * 64 + u.val < 512) :
    k0_pay11 v0 v1 (ix2 n ⟨b.val * 64 + u.val, hc⟩) = d1 w (fun k => s0 b k u) n := by
  unfold k0_pay11
  exact tap1_nm w s0 v0 (k0_pay10 v1) h0 (pay10_sem s0 v1 h1) n b u hc

/-- The state's second tap. -/
theorem pay12_sem (w : Wts) (s0 : Fin 8 → Fin 512 → Fin 64 → EReal) (v0 : Vec Ideal S512x512 .f32) (v1 : Vec Ideal S1x8x32768 .f32)
    (h0 : ∀ (n k : Fin 512), v0 (ix2 n k) = w.A n k)
    (h1 : ∀ (b : Fin 8) (n : Fin 512) (u : Fin 64) (hj : n.val * 64 + u.val < 32768), v1 (ix3 0 b ⟨n.val * 64 + u.val, hj⟩) = s0 b n u)
    (n : Fin 512) (b : Fin 8) (u : Fin 64) (hc : b.val * 64 + u.val < 512) :
    k0_pay12 v0 v1 (ix2 n ⟨b.val * 64 + u.val, hc⟩) = d2 w (fun k => s0 b k u) n := by
  unfold k0_pay12
  exact tap2_nm w s0 v0 (k0_pay10 v1) (k0_pay11 v0 v1) h0 (pay10_sem s0 v1 h1) (pay11_sem w s0 v0 v1 h0 h1) n b u hc

/-- The gate bias on every row. -/
theorem pay13_sem (w : Wts) (v17 : Vec Ideal S128 .f32) (h17 : ∀ (o : Fin 128), v17 (ix1 o) = w.bg0 o)
    (r : Fin 4096) (o : Fin 128) :
    k0_pay13 v17 (ix2 r o) = w.bg0 o := by
  unfold k0_pay13
  rw [broadcastTo_apply _ _ (ix2 r o) (ix2 (0 : Fin 1) o) (fun a => by
    match a with
    | ⟨0, _⟩ => rfl
    | ⟨1, _⟩ => rfl)]
  rw [shapeCast_self]
  rw [shapeCast_apply _ _ (ix2 (0 : Fin 1) o) (ix1 o) (by
    rw [Shape.rowMajor_val_one, Shape.rowMajor_val_two]
    show o.val = (0 : ℕ) * 128 + o.val
    omega)]
  exact h17 o

/-- The state back in rows. -/
theorem pay14_sem (s0 : Fin 8 → Fin 512 → Fin 64 → EReal) (v1 : Vec Ideal S1x8x32768 .f32)
    (h1 : ∀ (b : Fin 8) (n : Fin 512) (u : Fin 64) (hj : n.val * 64 + u.val < 32768), v1 (ix3 0 b ⟨n.val * 64 + u.val, hj⟩) = s0 b n u)
    (n : Fin 512) (b : Fin 8) (u : Fin 64) (hr : n.val * 8 + b.val < 4096) :
    k0_pay14 v1 (ix2 ⟨n.val * 8 + b.val, hr⟩ u) = s0 b n u := by
  have hc : b.val * 64 + u.val < 512 := by have := b.isLt; have := u.isLt; omega
  unfold k0_pay14
  rw [nm_to_rows _ n b u hc hr]
  exact pay10_sem s0 v1 h1 n b u hc

/-- The state rows of the gate weights at tap 0. -/
theorem pay15_sem (w : Wts) (v15 : Vec Ideal S3x64x128 .f32)
    (h15 : ∀ (m : Fin 3) (u : Fin 64) (o : Fin 128) (hk : (1 + u.val) * 3 + m.val < 195), v15 (ix3 m u o) = w.Wg0 ⟨(1 + u.val) * 3 + m.val, hk⟩ o)
    (u : Fin 64) (o : Fin 128) (hk : (1 + u.val) * 3 + 0 < 195) :
    k0_pay15 v15 (ix2 u o) = w.Wg0 ⟨(1 + u.val) * 3 + 0, hk⟩ o := by
  unfold k0_pay15
  rw [pay9_eq]
  rw [shapeCast_apply _ _ (ix2 u o) (ix3 (0 : Fin 1) u o) (by
    rw [Shape.rowMajor_val_three, Shape.rowMajor_val_two]
    show ((0 : ℕ) * 64 + u.val) * 128 + o.val = u.val * 128 + o.val
    omega)]
  rw [extractStridedSlice_apply _ _ _ (ix3 (0 : Fin 1) u o) (ix3 (0 : Fin 3) u o) (fun a => by
    match a with
    | ⟨0, _⟩ => rfl
    | ⟨1, _⟩ => show u.val = 0 + u.val; omega
    | ⟨2, _⟩ => show o.val = 0 + o.val; omega)]
  exact h15 0 u o hk

/-- A rows array, node-major. -/
theorem pay21_sem (R : Fin 8 → Fin 512 → Fin 64 → EReal) (v81 : FVec Ideal S4096x64 .f32)
    (h81 : ∀ (n : Fin 512) (b : Fin 8) (u : Fin 64) (hr : n.val * 8 + b.val < 4096), v81 (ix2 ⟨n.val * 8 + b.val, hr⟩ u) = R b n u)
    (n : Fin 512) (b : Fin 8) (u : Fin 64) (hc : b.val * 64 + u.val < 512) :
    k0_pay21 v81 (ix2 n ⟨b.val * 64 + u.val, hc⟩) = R b n u := by
  have hr : n.val * 8 + b.val < 4096 := by have := n.isLt; have := b.isLt; omega
  unfold k0_pay21
  rw [rows_to_nm _ n b u hc hr]
  exact h81 n b u hr

/-- Its first tap. -/
theorem pay22_sem (w : Wts) (R : Fin 8 → Fin 512 → Fin 64 → EReal) (v0 : Vec Ideal S512x512 .f32) (v81 : FVec Ideal S4096x64 .f32)
    (h0 : ∀ (n k : Fin 512), v0 (ix2 n k) = w.A n k)
    (h81 : ∀ (n : Fin 512) (b : Fin 8) (u : Fin 64) (hr : n.val * 8 + b.val < 4096), v81 (ix2 ⟨n.val * 8 + b.val, hr⟩ u) = R b n u)
    (n : Fin 512) (b : Fin 8) (u : Fin 64) (hc : b.val * 64 + u.val < 512) :
    k0_pay22 v0 v81 (ix2 n ⟨b.val * 64 + u.val, hc⟩) = d1 w (fun k => R b k u) n := by
  unfold k0_pay22
  exact tap1_nm w R v0 (k0_pay21 v81) h0 (pay21_sem R v81 h81) n b u hc

/-- Its second tap. -/
theorem pay23_sem (w : Wts) (R : Fin 8 → Fin 512 → Fin 64 → EReal) (v0 : Vec Ideal S512x512 .f32) (v81 : FVec Ideal S4096x64 .f32)
    (h0 : ∀ (n k : Fin 512), v0 (ix2 n k) = w.A n k)
    (h81 : ∀ (n : Fin 512) (b : Fin 8) (u : Fin 64) (hr : n.val * 8 + b.val < 4096), v81 (ix2 ⟨n.val * 8 + b.val, hr⟩ u) = R b n u)
    (n : Fin 512) (b : Fin 8) (u : Fin 64) (hc : b.val * 64 + u.val < 512) :
    k0_pay23 v0 v81 (ix2 n ⟨b.val * 64 + u.val, hc⟩) = d2 w (fun k => R b k u) n := by
  unfold k0_pay23
  exact tap2_nm w R v0 (k0_pay21 v81) (k0_pay22 v0 v81) h0 (pay21_sem R v81 h81) (pay22_sem w R v0 v81 h0 h81) n b u hc

end Cert.Dcgru.KerA0
end
-- ==== Proof.KerA1.lean ====
/-
  The small values of the kernel body, read at an index: changes of layout between the "rows" arrangement
  (row 8 n + b of a 4096-row array is node n, batch b), the node-major arrangement (column 64 b + u of a
  512 x 512 array is batch b, unit u) and the flat hidden arrangement (position 64 n + u of a row of 32768),
  the three diffusion taps of a node-major array (the array, the support times it, and twice the support times
  that minus the array), bias rows broadcast down 4096 rows, and the first slab of a stacked weight.
-/
import proofs.«110417_g44504451121623_cont_8to1_c_180_11_alg».proof.Proof.Gen.KernelIdeal.Skeleton
import proofs.«110417_g44504451121623_cont_8to1_c_180_11_alg».proof.Proof.Spec
import proofs.«110417_g44504451121623_cont_8to1_c_180_11_alg».proof.Proof.Alg
import Idealize.ShloMosaic.Lib.Pipeline.Value
import Idealize.ShloMosaic.Lib.ValueIdx
import Idealize.ShloMosaic.PureOps.Ideal.Laws

noncomputable section
namespace Cert.Dcgru.KerA1
open Cert.Dcgru Cert.KernelIdeal Cert.KernelIdeal.Gen Idealize.ShloMosaic Idealize.ShloMosaic.ValueIdx
variable [Cert.KernelIdeal.Facts]

/-! ### Reshapes and transposes read at an index -/

/-- Row 8 n + b of the 4096-row array is entry (n, b) of the 512 x 8 x 64 array. -/
theorem sc_4096x64_512x8x64 {α : Type} (x : S4096x64.Idx → α) (h : S4096x64.ShapeCasts S512x8x64)
    (n : Fin 512) (b : Fin 8) (u : Fin 64) (hr : n.val * 8 + b.val < 4096) :
    shapeCast S512x8x64 x h (ix3 n b u) = x (ix2 ⟨n.val * 8 + b.val, hr⟩ u) := by
  refine shapeCast_apply x h _ _ ?_
  rw [Shape.rowMajor_val_three, Shape.rowMajor_val_two]
  rfl

theorem sc_512x8x64_4096x64 {α : Type} (x : S512x8x64.Idx → α) (h : S512x8x64.ShapeCasts S4096x64)
    (n : Fin 512) (b : Fin 8) (u : Fin 64) (hr : n.val * 8 + b.val < 4096) :
    shapeCast S4096x64 x h (ix2 ⟨n.val * 8 + b.val, hr⟩ u) = x (ix3 n b u) := by
  refine shapeCast_apply x h _ _ ?_
  rw [Shape.rowMajor_val_three, Shape.rowMajor_val_two]
  rfl

/-- Column 64 b + u of the 512 x 512 array is entry (b, u) of the 512 x 8 x 64 array. -/
theorem sc_512x8x64_512x512 {α : Type} (x : S512x8x64.Idx → α) (h : S512x8x64.ShapeCasts S512x512)
    (n : Fin 512) (b : Fin 8) (u : Fin 64) (hc : b.val * 64 + u.val < 512) :
    shapeCast S512x512 x h (ix2 n ⟨b.val * 64 + u.val, hc⟩) = x (ix3 n b u) := by
  refine shapeCast_apply x h _ _ ?_
  rw [Shape.rowMajor_val_three, Shape.rowMajor_val_two]
  show (n.val * 8 + b.val) * 64 + u.val = n.val * 512 + (b.val * 64 + u.val)
  omega

theorem sc_512x512_512x8x64 {α : Type} (x : S512x512.Idx → α) (h : S512x512.ShapeCasts S512x8x64)
    (n : Fin 512) (b : Fin 8) (u : Fin 64) (hc : b.val * 64 + u.val < 512) :
    shapeCast S512x8x64 x h (ix3 n b u) = x (ix2 n ⟨b.val * 64 + u.val, hc⟩) := by
  refine shapeCast_apply x h _ _ ?_
  rw [Shape.rowMajor_val_three, Shape.rowMajor_val_two]
  show n.val * 512 + (b.val * 64 + u.val) = (n.val * 8 + b.val) * 64 + u.val
  omega

theorem tr_8x512x64_512x8x64 {α : Type} (x : S8x512x64.Idx → α) (h : S8x512x64.Transposes [1, 0, 2] S512x8x64)
    (n : Fin 512) (b : Fin 8) (u : Fin 64) :
    transpose S512x8x64 [1, 0, 2] x h (ix3 n b u) = x (ix3 b n u) := by
  refine transpose_apply _ x h _ _ (fun a => ?_)
  match a with
  | ⟨0, _⟩ => rfl
  | ⟨1, _⟩ => rfl
  | ⟨2, _⟩ => rfl

theorem tr_512x8x64_8x512x64 {α : Type} (x : S512x8x64.Idx → α) (h : S512x8x64.Transposes [1, 0, 2] S8x512x64)
    (n : Fin 512) (b : Fin 8) (u : Fin 64) :
    transpose S8x512x64 [1, 0, 2] x h (ix3 b n u) = x (ix3 n b u) := by
  refine transpose_apply _ x h _ _ (fun a => ?_)
  match a with
  | ⟨0, _⟩ => rfl
  | ⟨1, _⟩ => rfl
  | ⟨2, _⟩ => rfl

/-- Position 64 n + u of a row of 32768 is entry (n, u) of the 8 x 512 x 64 array. -/
theorem sc_8x32768_8x512x64 {α : Type} (x : S8x32768.Idx → α) (h : S8x32768.ShapeCasts S8x512x64)
    (b : Fin 8) (n : Fin 512) (u : Fin 64) (hj : n.val * 64 + u.val < 32768) :
    shapeCast S8x512x64 x h (ix3 b n u) = x (ix2 b ⟨n.val * 64 + u.val, hj⟩) := by
  refine shapeCast_apply x h _ _ ?_
  rw [Shape.rowMajor_val_three, Shape.rowMajor_val_two]
  show b.val * 32768 + (n.val * 64 + u.val) = (b.val * 512 + n.val) * 64 + u.val
  omega

theorem sc_8x512x64_8x32768 {α : Type} (x : S8x512x64.Idx → α) (h : S8x512x64.ShapeCasts S8x32768)
    (b : Fin 8) (n : Fin 512) (u : Fin 64) (hj : n.val * 64 + u.val < 32768) :
    shapeCast S8x32768 x h (ix2 b ⟨n.val * 64 + u.val, hj⟩) = x (ix3 b n u) := by
  refine shapeCast_apply x h _ _ ?_
  rw [Shape.rowMajor_val_three, Shape.rowMajor_val_two]
  show (b.val * 512 + n.val) * 64 + u.val = b.val * 32768 + (n.val * 64 + u.val)
  omega

theorem sc_1x8x32768_8x32768 {α : Type} (x : S1x8x32768.Idx → α) (h : S1x8x32768.ShapeCasts S8x32768)
    (b : Fin 8) (j : Fin 32768) :
    shapeCast S8x32768 x h (ix2 b j) = x (ix3 0 b j) := by
  refine shapeCast_apply x h _ _ ?_
  rw [Shape.rowMajor_val_three, Shape.rowMajor_val_two]
  show ((0:ℕ) * 8 + b.val) * 32768 + j.val = b.val * 32768 + j.val
  omega

theorem sc_8x32768_1x8x32768 {α : Type} (x : S8x32768.Idx → α) (h : S8x32768.ShapeCasts S1x8x32768)
    (b : Fin 8) (j : Fin 32768) :
    shapeCast S1x8x32768 x h (ix3 0 b j) = x (ix2 b j) := by
  refine shapeCast_apply x h _ _ ?_
  rw [Shape.rowMajor_val_three, Shape.rowMajor_val_two]
  show b.val * 32768 + j.val = ((0:ℕ) * 8 + b.val) * 32768 + j.val
  omega

/-! ### The two changes of arrangement, with the literal +0.0 the program adds on the way -/

/-- rows to node-major: the value at (n, 64 b + u) is the operand at row 8 n + b, column u. -/
theorem rows_to_nm (x : FVec Ideal S4096x64 .f32) (h1 : S4096x64.ShapeCasts S512x8x64) (h2 : S512x8x64.ShapeCasts S512x512)
    (n : Fin 512) (b : Fin 8) (u : Fin 64) (hr : n.val * 8 + b.val < 4096) (hc : b.val * 64 + u.val < 512) :
    shapeCast S512x512 (addf (shapeCast S512x8x64 x h1) (broadcast S512x8x64 (Scalar.ofBits .f32 0x00000000#32 : Ideal .f32))) h2
      (ix2 n ⟨b.val * 64 + u.val, hc⟩) = x (ix2 ⟨n.val * 8 + b.val, hr⟩ u) := by
  rw [sc_512x8x64_512x512, addf_apply, broadcast_apply, sc_4096x64_512x8x64 _ _ _ _ _ hr]
  exact add_ofBits_zero _

/-- node-major to rows: the value at row 8 n + b, column u is the operand at (n, 64 b + u). -/
theorem nm_to_rows (x : FVec Ideal S512x512 .f32) (h1 : S512x512.ShapeCasts S512x8x64) (h2 : S512x8x64.ShapeCasts S4096x64)
    (n : Fin 512) (b : Fin 8) (u : Fin 64) (hr : n.val * 8 + b.val < 4096) (hc : b.val * 64 + u.val < 512) :
    shapeCast S4096x64 (addf (shapeCast S512x8x64 x h1) (broadcast S512x8x64 (Scalar.ofBits .f32 0x00000000#32 : Ideal .f32))) h2
      (ix2 ⟨n.val * 8 + b.val, hr⟩ u) = x (ix2 n ⟨b.val * 64 + u.val, hc⟩) := by
  rw [sc_512x8x64_4096x64, addf_apply, broadcast_apply, sc_512x512_512x8x64 _ _ _ _ _ hc]
  exact add_ofBits_zero _

/-! ### The support times a node-major array, read at an index -/

theorem lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The 512 x 512 by 512 x 512 product into a zero accumulator is the sum over the shared axis. -/
theorem mm_512 (l : FVec Ideal S512x512 .f32) (r : FVec Ideal S512x512 .f32) (n c : Fin 512) :
    matmul dot_S512x512_S512x512_S512x512_1_0_0_1_n_n none l r (constant S512x512 .f32 0x00000000#32) (ix2 n c)
      = ∑ k : Fin 512, l (ix2 n k) * r (ix2 k c) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 n c) ((ValueIdx.contrEquiv1 dot_S512x512_S512x512_S512x512_1_0_0_1_n_n 512 rfl rfl).symm k) = ix2 n k := funext fun a => Fin.ext (by
    match a with
    | ⟨0, _⟩ => exact lhs_0 _ _
    | ⟨1, _⟩ => exact (lhs_1 _ _).trans hk)
  have er : dot_S512x512_S512x512_S512x512_1_0_0_1_n_n.rhsIdx (ix2 n c) ((ValueIdx.contrEquiv1 dot_S512x512_S512x512_S512x512_1_0_0_1_n_n 512 rfl rfl).symm k) = ix2 k c := funext fun a => Fin.ext (by
    match a with
    | ⟨0, _⟩ => exact (rhs_0 _ _).trans hk
    | ⟨1, _⟩ => exact rhs_1 _ _)
  rw [el, er]

/-- Tap 1 of a node-major array whose column 64 b + u holds the node signal k ↦ Z b k u. -/
theorem tap1_nm (w : Wts) (v0 z : FVec Ideal S512x512 .f32) (Z : Fin 8 → Fin 512 → Fin 64 → EReal)
    (h0 : ∀ n k : Fin 512, v0 (ix2 n k) = w.A n k)
    (hz : ∀ (n : Fin 512) (b : Fin 8) (u : Fin 64) (hc : b.val * 64 + u.val < 512), z (ix2 n ⟨b.val * 64 + u.val, hc⟩) = Z b n u)
    (n : Fin 512) (b : Fin 8) (u : Fin 64) (hc : b.val * 64 + u.val < 512) :
    matmul dot_S512x512_S512x512_S512x512_1_0_0_1_n_n none v0 z (constant S512x512 .f32 0x00000000#32) (ix2 n ⟨b.val * 64 + u.val, hc⟩)
      = d1 w (fun k => Z b k u) n := by
  rw [mm_512]
  show ∑ k : Fin 512, _ = ∑ k : Fin 512, _
  exact Finset.sum_congr rfl fun k _ => by rw [h0, hz]

/-- Tap 2 of the same array: twice the support times tap 1, minus the array. -/
theorem tap2_nm (w : Wts) (v0 z t1 : FVec Ideal S512x512 .f32) (Z : Fin 8 → Fin 512 → Fin 64 → EReal)
    (h0 : ∀ n k : Fin 512, v0 (ix2 n k) = w.A n k)
    (hz : ∀ (n : Fin 512) (b : Fin 8) (u : Fin 64) (hc : b.val * 64 + u.val < 512), z (ix2 n ⟨b.val * 64 + u.val, hc⟩) = Z b n u)
    (ht : ∀ (n : Fin 512) (b : Fin 8) (u : Fin 64) (hc : b.val * 64 + u.val < 512), t1 (ix2 n ⟨b.val * 64 + u.val, hc⟩) = d1 w (fun k => Z b k u) n)
    (n : Fin 512) (b : Fin 8) (u : Fin 64) (hc : b.val * 64 + u.val < 512) :
    subf (mulf (broadcast S512x512 (Scalar.ofBits .f32 0x40000000#32 : Ideal .f32))
        (matmul dot_S512x512_S512x512_S512x512_1_0_0_1_n_n none v0 t1 (constant S512x512 .f32 0x00000000#32))) z
      (ix2 n ⟨b.val * 64 + u.val, hc⟩) = d2 w (fun k => Z b k u) n := by
  rw [subf_apply, mulf_apply, broadcast_apply, hz, mm_512]
  show _ * (∑ k : Fin 512, _) - _ = two * (∑ k : Fin 512, w.A n k * d1 w (fun k => Z b k u) k) - Z b n u
  have e : (∑ k : Fin 512, v0 (ix2 n k) * t1 (ix2 k ⟨b.val * 64 + u.val, hc⟩)) = ∑ k : Fin 512, w.A n k * d1 w (fun k => Z b k u) k :=
    Finset.sum_congr rfl fun k _ => by rw [h0, ht]
  rw [e]
  rfl

/-! ### More reads: slices, the bias row, a one-slab weight -/

/-- The first 64 columns of a 4096 x 128 array. -/
theorem slice_lo {α : Type} (x : S4096x128.Idx → α) (h : S4096x128.Slices ![0, 0] S4096x64) (r : Fin 4096) (u : Fin 64)
    (hu : u.val < 128) :
    extractStridedSlice S4096x64 ![0, 0] x h (ix2 r u) = x (ix2 r ⟨u.val, hu⟩) := by
  refine extractStridedSlice_apply _ x h _ _ (fun a => ?_)
  match a with
  | ⟨0, _⟩ => exact (Nat.zero_add _).symm
  | ⟨1, _⟩ => exact (Nat.zero_add _).symm

/-- Slab 0 of a 3 x 64 x 64 stack. -/
theorem slice_slab0 {α : Type} (x : S3x64x64.Idx → α) (h : S3x64x64.Slices ![0, 0, 0] S1x64x64) (u o : Fin 64) :
    extractStridedSlice S1x64x64 ![0, 0, 0] x h (ix3 0 u o) = x (ix3 0 u o) := by
  refine extractStridedSlice_apply _ x h _ _ (fun a => ?_)
  match a with
  | ⟨0, _⟩ => rfl
  | ⟨1, _⟩ => exact (Nat.zero_add _).symm
  | ⟨2, _⟩ => exact (Nat.zero_add _).symm

theorem sc_1x64x64_64x64 {α : Type} (x : S1x64x64.Idx → α) (h : S1x64x64.ShapeCasts S64x64) (u o : Fin 64) :
    shapeCast S64x64 x h (ix2 u o) = x (ix3 0 u o) := by
  refine shapeCast_apply x h _ _ ?_
  rw [Shape.rowMajor_val_three, Shape.rowMajor_val_two]
  show ((0:ℕ) * 64 + u.val) * 64 + o.val = u.val * 64 + o.val
  omega

theorem sc_64_1x64 {α : Type} (x : S64.Idx → α) (h : S64.ShapeCasts S1x64) (o : Fin 64) :
    shapeCast S1x64 x h (ix2 0 o) = x (ix1 o) := by
  refine shapeCast_apply x h _ _ ?_
  rw [Shape.rowMajor_val_one, Shape.rowMajor_val_two]
  show o.val = (0:ℕ) * 64 + o.val
  omega

/-- A row of 64 copied down 4096 rows. -/
theorem bc_1x64_4096x64 {α : Type} (x : S1x64.Idx → α) (h : S1x64.Broadcasts S4096x64) (r : Fin 4096) (o : Fin 64) :
    broadcastTo S4096x64 x h (ix2 r o) = x (ix2 0 o) := by
  refine broadcastTo_apply x h _ _ (fun a => ?_)
  match a with
  | ⟨0, _⟩ => rfl
  | ⟨1, _⟩ => rfl

/-! ### The named values of the body -/

/-- The second layer's state, flat to rows. -/
theorem pay27_sem (v153 : Vec Ideal S1x8x32768 .f32) (S : Fin 8 → Fin 512 → Fin 64 → EReal)
    (h153 : ∀ (n : Fin 512) (b : Fin 8) (u : Fin 64) (hj : n.val * 64 + u.val < 32768), v153 (ix3 0 b ⟨n.val * 64 + u.val, hj⟩) = S b n u)
    (n : Fin 512) (b : Fin 8) (u : Fin 64) (hr : n.val * 8 + b.val < 4096) :
    k0_pay27 v153 (ix2 ⟨n.val * 8 + b.val, hr⟩ u) = S b n u := by
  have hj : n.val * 64 + u.val < 32768 := by have := n.isLt; have := u.isLt; omega
  show shapeCast S4096x64 (transpose S512x8x64 [1, 0, 2] (shapeCast S8x512x64 (shapeCast S8x32768 v153 _) _) _) _ _ = _
  rw [sc_512x8x64_4096x64, tr_8x512x64_512x8x64, sc_8x32768_8x512x64 _ _ _ _ _ hj, sc_1x8x32768_8x32768]
  exact h153 n b u hj

/-- The first layer's new state in node-major arrangement, for any reading R of it at rows. -/
theorem pay28_sem (v5 : FVec Ideal S4096x64 .f32) (v12 : FVec Ideal S512x8 .f32) (v80 : FVec Ideal S4096x64 .f32) (v83 : FVec Ideal S3x8x512 .f32) (v85 : FVec Ideal S3x64x64 .f32) (v95 : FVec Ideal S512x512 .f32) (v122 : FVec Ideal S4096x64 .f32) (v126 : FVec Ideal S512x8x64 .f32) (R : Fin 8 → Fin 512 → Fin 64 → EReal)
    (hP : ∀ (n : Fin 512) (b : Fin 8) (u : Fin 64) (hr : n.val * 8 + b.val < 4096), k0_pay26 v5 v12 v80 v83 v85 v95 v122 v126 (Scalar.ofBits .f32 0x00000000#32 : Ideal .f32) (ix2 ⟨n.val * 8 + b.val, hr⟩ u) = R b n u)
    (n : Fin 512) (b : Fin 8) (u : Fin 64) (hc : b.val * 64 + u.val < 512) :
    k0_pay28 v5 v12 v80 v83 v85 v95 v122 v126 (Scalar.ofBits .f32 0x00000000#32 : Ideal .f32) (ix2 n ⟨b.val * 64 + u.val, hc⟩) = R b n u := by
  have hr : n.val * 8 + b.val < 4096 := by have := n.isLt; have := b.isLt; omega
  exact (rows_to_nm _ _ _ n b u hr hc).trans (hP n b u hr)

theorem pay29_sem (w : Wts) (v0 : Vec Ideal S512x512 .f32) (v5 : FVec Ideal S4096x64 .f32) (v12 : FVec Ideal S512x8 .f32) (v80 : FVec Ideal S4096x64 .f32) (v83 : FVec Ideal S3x8x512 .f32) (v85 : FVec Ideal S3x64x64 .f32) (v95 : FVec Ideal S512x512 .f32) (v122 : FVec Ideal S4096x64 .f32) (v126 : FVec Ideal S512x8x64 .f32) (R : Fin 8 → Fin 512 → Fin 64 → EReal)
    (h0 : ∀ n k : Fin 512, v0 (ix2 n k) = w.A n k)
    (hP : ∀ (n : Fin 512) (b : Fin 8) (u : Fin 64) (hr : n.val * 8 + b.val < 4096), k0_pay26 v5 v12 v80 v83 v85 v95 v122 v126 (Scalar.ofBits .f32 0x00000000#32 : Ideal .f32) (ix2 ⟨n.val * 8 + b.val, hr⟩ u) = R b n u)
    (n : Fin 512) (b : Fin 8) (u : Fin 64) (hc : b.val * 64 + u.val < 512) :
    k0_pay29 v0 v5 v12 v80 v83 v85 v95 v122 v126 (Scalar.ofBits .f32 0x00000000#32 : Ideal .f32) (ix2 n ⟨b.val * 64 + u.val, hc⟩) = d1 w (fun k => R b k u) n :=
  tap1_nm w v0 (k0_pay28 v5 v12 v80 v83 v85 v95 v122 v126 (Scalar.ofBits .f32 0x00000000#32 : Ideal .f32)) R h0
    (fun n b u hc => pay28_sem v5 v12 v80 v83 v85 v95 v122 v126 R hP n b u hc) n b u hc

theorem pay30_sem (w : Wts) (v0 : Vec Ideal S512x512 .f32) (v5 : FVec Ideal S4096x64 .f32) (v12 : FVec Ideal S512x8 .f32) (v80 : FVec Ideal S4096x64 .f32) (v83 : FVec Ideal S3x8x512 .f32) (v85 : FVec Ideal S3x64x64 .f32) (v95 : FVec Ideal S512x512 .f32) (v122 : FVec Ideal S4096x64 .f32) (v126 : FVec Ideal S512x8x64 .f32) (R : Fin 8 → Fin 512 → Fin 64 → EReal)
    (h0 : ∀ n k : Fin 512, v0 (ix2 n k) = w.A n k)
    (hP : ∀ (n : Fin 512) (b : Fin 8) (u : Fin 64) (hr : n.val * 8 + b.val < 4096), k0_pay26 v5 v12 v80 v83 v85 v95 v122 v126 (Scalar.ofBits .f32 0x00000000#32 : Ideal .f32) (ix2 ⟨n.val * 8 + b.val, hr⟩ u) = R b n u)
    (n : Fin 512) (b : Fin 8) (u : Fin 64) (hc : b.val * 64 + u.val < 512) :
    k0_pay30 v0 v5 v12 v80 v83 v85 v95 v122 v126 (Scalar.ofBits .f32 0x00000000#32 : Ideal .f32) (ix2 n ⟨b.val * 64 + u.val, hc⟩) = d2 w (fun k => R b k u) n :=
  tap2_nm w v0 (k0_pay28 v5 v12 v80 v83 v85 v95 v122 v126 (Scalar.ofBits .f32 0x00000000#32 : Ideal .f32)) (k0_pay29 v0 v5 v12 v80 v83 v85 v95 v122 v126 (Scalar.ofBits .f32 0x00000000#32 : Ideal .f32)) R h0
    (fun n b u hc => pay28_sem v5 v12 v80 v83 v85 v95 v122 v126 R hP n b u hc)
    (fun n b u hc => pay29_sem w v0 v5 v12 v80 v83 v85 v95 v122 v126 R h0 hP n b u hc) n b u hc

theorem pay31_eq (v167 : Vec Ideal S3x64x128 .f32) : k0_pay31 v167 = v167 := shapeCast_self v167 _
theorem pay32_eq (v169 : Vec Ideal S3x64x128 .f32) : k0_pay32 v169 = v169 := shapeCast_self v169 _
theorem pay39_eq (v236 : Vec Ideal S3x64x64 .f32) : k0_pay39 v236 = v236 := shapeCast_self v236 _
theorem pay40_eq (v238 : Vec Ideal S3x64x64 .f32) : k0_pay40 v238 = v238 := shapeCast_self v238 _

/-- The second layer's state in node-major arrangement and its two further taps. -/
theorem pay33_sem (v157 : FVec Ideal S4096x64 .f32) (S : Fin 8 → Fin 512 → Fin 64 → EReal)
    (h157 : ∀ (n : Fin 512) (b : Fin 8) (u : Fin 64) (hr : n.val * 8 + b.val < 4096), v157 (ix2 ⟨n.val * 8 + b.val, hr⟩ u) = S b n u)
    (n : Fin 512) (b : Fin 8) (u : Fin 64) (hc : b.val * 64 + u.val < 512) :
    k0_pay33 v157 (ix2 n ⟨b.val * 64 + u.val, hc⟩) = S b n u := by
  have hr : n.val * 8 + b.val < 4096 := by have := n.isLt; have := b.isLt; omega
  exact (rows_to_nm _ _ _ n b u hr hc).trans (h157 n b u hr)

theorem pay34_sem (w : Wts) (v0 : Vec Ideal S512x512 .f32) (v157 : FVec Ideal S4096x64 .f32) (S : Fin 8 → Fin 512 → Fin 64 → EReal)
    (h0 : ∀ n k : Fin 512, v0 (ix2 n k) = w.A n k)
    (h157 : ∀ (n : Fin 512) (b : Fin 8) (u : Fin 64) (hr : n.val * 8 + b.val < 4096), v157 (ix2 ⟨n.val * 8 + b.val, hr⟩ u) = S b n u)
    (n : Fin 512) (b : Fin 8) (u : Fin 64) (hc : b.val * 64 + u.val < 512) :
    k0_pay34 v0 v157 (ix2 n ⟨b.val * 64 + u.val, hc⟩) = d1 w (fun k => S b k u) n :=
  tap1_nm w v0 (k0_pay33 v157) S h0 (fun n b u hc => pay33_sem v157 S h157 n b u hc) n b u hc

theorem pay35_sem (w : Wts) (v0 : Vec Ideal S512x512 .f32) (v157 : FVec Ideal S4096x64 .f32) (S : Fin 8 → Fin 512 → Fin 64 → EReal)
    (h0 : ∀ n k : Fin 512, v0 (ix2 n k) = w.A n k)
    (h157 : ∀ (n : Fin 512) (b : Fin 8) (u : Fin 64) (hr : n.val * 8 + b.val < 4096), v157 (ix2 ⟨n.val * 8 + b.val, hr⟩ u) = S b n u)
    (n : Fin 512) (b : Fin 8) (u : Fin 64) (hc : b.val * 64 + u.val < 512) :
    k0_pay35 v0 v157 (ix2 n ⟨b.val * 64 + u.val, hc⟩) = d2 w (fun k => S b k u) n :=
  tap2_nm w v0 (k0_pay33 v157) (k0_pay34 v0 v157) S h0 (fun n b u hc => pay33_sem v157 S h157 n b u hc)
    (fun n b u hc => pay34_sem w v0 v157 S h0 h157 n b u hc) n b u hc

/-- The reset gate (the first 64 gate channels, for any reading G of the gates at rows) times the state,
    in node-major arrangement. -/
theorem pay41_sem (v157 : FVec Ideal S4096x64 .f32) (v166 : FVec Ideal S512x512 .f32) (v168 : FVec Ideal S3x64x128 .f32) (v170 : FVec Ideal S3x64x128 .f32) (v180 : FVec Ideal S512x512 .f32) (v215 : FVec Ideal S4096x128 .f32)
    (G : Fin 8 → Fin 512 → Fin 128 → EReal) (S : Fin 8 → Fin 512 → Fin 64 → EReal)
    (hG : ∀ (n : Fin 512) (b : Fin 8) (o : Fin 128) (hr : n.val * 8 + b.val < 4096), k0_pay37 v166 v168 v170 v180 v215 (ix2 ⟨n.val * 8 + b.val, hr⟩ o) = G b n o)
    (h157 : ∀ (n : Fin 512) (b : Fin 8) (u : Fin 64) (hr : n.val * 8 + b.val < 4096), v157 (ix2 ⟨n.val * 8 + b.val, hr⟩ u) = S b n u)
    (n : Fin 512) (b : Fin 8) (u : Fin 64) (hc : b.val * 64 + u.val < 512) (hu : u.val < 128) :
    k0_pay41 v157 v166 v168 v170 v180 v215 (ix2 n ⟨b.val * 64 + u.val, hc⟩) = G b n ⟨u.val, hu⟩ * S b n u := by
  have hr : n.val * 8 + b.val < 4096 := by have := n.isLt; have := b.isLt; omega
  refine (rows_to_nm _ _ _ n b u hr hc).trans ?_
  rw [mulf_apply, slice_lo _ _ _ _ hu, hG, h157]

theorem pay42_sem (w : Wts) (v0 : Vec Ideal S512x512 .f32) (v157 : FVec Ideal S4096x64 .f32) (v166 : FVec Ideal S512x512 .f32) (v168 : FVec Ideal S3x64x128 .f32) (v170 : FVec Ideal S3x64x128 .f32) (v180 : FVec Ideal S512x512 .f32) (v215 : FVec Ideal S4096x128 .f32)
    (G : Fin 8 → Fin 512 → Fin 128 → EReal) (S : Fin 8 → Fin 512 → Fin 64 → EReal)
    (h0 : ∀ n k : Fin 512, v0 (ix2 n k) = w.A n k)
    (hG : ∀ (n : Fin 512) (b : Fin 8) (o : Fin 128) (hr : n.val * 8 + b.val < 4096), k0_pay37 v166 v168 v170 v180 v215 (ix2 ⟨n.val * 8 + b.val, hr⟩ o) = G b n o)
    (h157 : ∀ (n : Fin 512) (b : Fin 8) (u : Fin 64) (hr : n.val * 8 + b.val < 4096), v157 (ix2 ⟨n.val * 8 + b.val, hr⟩ u) = S b n u)
    (n : Fin 512) (b : Fin 8) (u : Fin 64) (hc : b.val * 64 + u.val < 512) (hu : u.val < 128) :
    k0_pay42 v0 v157 v166 v168 v170 v180 v215 (ix2 n ⟨b.val * 64 + u.val, hc⟩) = d1 w (fun k => G b k ⟨u.val, hu⟩ * S b k u) n :=
  tap1_nm w v0 (k0_pay41 v157 v166 v168 v170 v180 v215) (fun b n u => G b n ⟨u.val, Nat.lt_of_lt_of_le u.isLt (by decide)⟩ * S b n u) h0
    (fun n b u hc => pay41_sem v157 v166 v168 v170 v180 v215 G S hG h157 n b u hc _) n b u hc

theorem pay43_sem (w : Wts) (v0 : Vec Ideal S512x512 .f32) (v157 : FVec Ideal S4096x64 .f32) (v166 : FVec Ideal S512x512 .f32) (v168 : FVec Ideal S3x64x128 .f32) (v170 : FVec Ideal S3x64x128 .f32) (v180 : FVec Ideal S512x512 .f32) (v215 : FVec Ideal S4096x128 .f32)
    (G : Fin 8 → Fin 512 → Fin 128 → EReal) (S : Fin 8 → Fin 512 → Fin 64 → EReal)
    (h0 : ∀ n k : Fin 512, v0 (ix2 n k) = w.A n k)
    (hG : ∀ (n : Fin 512) (b : Fin 8) (o : Fin 128) (hr : n.val * 8 + b.val < 4096), k0_pay37 v166 v168 v170 v180 v215 (ix2 ⟨n.val * 8 + b.val, hr⟩ o) = G b n o)
    (h157 : ∀ (n : Fin 512) (b : Fin 8) (u : Fin 64) (hr : n.val * 8 + b.val < 4096), v157 (ix2 ⟨n.val * 8 + b.val, hr⟩ u) = S b n u)
    (n : Fin 512) (b : Fin 8) (u : Fin 64) (hc : b.val * 64 + u.val < 512) (hu : u.val < 128) :
    k0_pay43 v0 v157 v166 v168 v170 v180 v215 (ix2 n ⟨b.val * 64 + u.val, hc⟩) = d2 w (fun k => G b k ⟨u.val, hu⟩ * S b k u) n :=
  tap2_nm w v0 (k0_pay41 v157 v166 v168 v170 v180 v215) (k0_pay42 v0 v157 v166 v168 v170 v180 v215)
    (fun b n u => G b n ⟨u.val, Nat.lt_of_lt_of_le u.isLt (by decide)⟩ * S b n u) h0
    (fun n b u hc => pay41_sem v157 v166 v168 v170 v180 v215 G S hG h157 n b u hc _)
    (fun n b u hc => pay42_sem w v0 v157 v166 v168 v170 v180 v215 G S h0 hG h157 n b u hc _) n b u hc

/-- The second layer's candidate bias, on every row. -/
theorem pay44_sem (w : Wts) (v240 : Vec Ideal S64 .f32) (h240 : ∀ o : Fin 64, v240 (ix1 o) = w.bc1 o)
    (r : Fin 4096) (o : Fin 64) :
    k0_pay44 v240 (ix2 r o) = w.bc1 o := by
  show broadcastTo S4096x64 (shapeCast S1x64 (shapeCast S1x64 v240 shapeCasts_S64_S1x64) shapeCasts_S1x64_S1x64) broadcasts_S1x64_S4096x64 _ = _
  rw [bc_1x64_4096x64, shapeCast_self, sc_64_1x64]
  exact h240 o

/-- The same product back at rows. -/
theorem pay45_sem (v157 : FVec Ideal S4096x64 .f32) (v166 : FVec Ideal S512x512 .f32) (v168 : FVec Ideal S3x64x128 .f32) (v170 : FVec Ideal S3x64x128 .f32) (v180 : FVec Ideal S512x512 .f32) (v215 : FVec Ideal S4096x128 .f32)
    (G : Fin 8 → Fin 512 → Fin 128 → EReal) (S : Fin 8 → Fin 512 → Fin 64 → EReal)
    (hG : ∀ (n : Fin 512) (b : Fin 8) (o : Fin 128) (hr : n.val * 8 + b.val < 4096), k0_pay37 v166 v168 v170 v180 v215 (ix2 ⟨n.val * 8 + b.val, hr⟩ o) = G b n o)
    (h157 : ∀ (n : Fin 512) (b : Fin 8) (u : Fin 64) (hr : n.val * 8 + b.val < 4096), v157 (ix2 ⟨n.val * 8 + b.val, hr⟩ u) = S b n u)
    (n : Fin 512) (b : Fin 8) (u : Fin 64) (hr : n.val * 8 + b.val < 4096) (hu : u.val < 128) :
    k0_pay45 v157 v166 v168 v170 v180 v215 (ix2 ⟨n.val * 8 + b.val, hr⟩ u) = G b n ⟨u.val, hu⟩ * S b n u := by
  have hc : b.val * 64 + u.val < 512 := by have := b.isLt; have := u.isLt; omega
  exact (nm_to_rows _ _ _ n b u hr hc).trans (pay41_sem v157 v166 v168 v170 v180 v215 G S hG h157 n b u hc hu)

/-- Slab 0 of the second layer's candidate state weights. -/
theorem pay46_sem (w : Wts) (v238 : Vec Ideal S3x64x64 .f32)
    (h238 : ∀ (m : Fin 3) (u o : Fin 64) (hk : (64 + u.val) * 3 + m.val < 384), v238 (ix3 m u o) = w.Wc1 ⟨(64 + u.val) * 3 + m.val, hk⟩ o)
    (u o : Fin 64) (hk : (64 + u.val) * 3 + 0 < 384) :
    k0_pay46 v238 (ix2 u o) = w.Wc1 ⟨(64 + u.val) * 3 + 0, hk⟩ o := by
  show shapeCast S64x64 (extractStridedSlice S1x64x64 ![0, 0, 0] (k0_pay40 v238) _) _ _ = _
  rw [sc_1x64x64_64x64, slice_slab0, pay40_eq]
  exact h238 0 u o hk

/-- The first layer's new state, rows to the 512 x 8 x 64 arrangement. -/
theorem pay48_sem (v152 : FVec Ideal S4096x64 .f32) (R : Fin 8 → Fin 512 → Fin 64 → EReal)
    (h152 : ∀ (n : Fin 512) (b : Fin 8) (u : Fin 64) (hr : n.val * 8 + b.val < 4096), v152 (ix2 ⟨n.val * 8 + b.val, hr⟩ u) = R b n u)
    (n : Fin 512) (b : Fin 8) (u : Fin 64) :
    k0_pay48 v152 (ix3 n b u) = R b n u := by
  have hr : n.val * 8 + b.val < 4096 := by have := n.isLt; have := b.isLt; omega
  exact (sc_4096x64_512x8x64 _ _ n b u hr).trans (h152 n b u hr)

/-- The 512 x 8 x 64 arrangement to the flat hidden arrangement. -/
theorem pay1_sem (v307 : FVec Ideal S512x8x64 .f32) (R : Fin 8 → Fin 512 → Fin 64 → EReal)
    (h307 : ∀ (n : Fin 512) (b : Fin 8) (u : Fin 64), v307 (ix3 n b u) = R b n u)
    (n : Fin 512) (b : Fin 8) (u : Fin 64) (hj : n.val * 64 + u.val < 32768) :
    k0_pay1 v307 (ix3 0 b ⟨n.val * 64 + u.val, hj⟩) = R b n u := by
  show shapeCast S1x8x32768 (shapeCast S8x32768 (transpose S8x512x64 [1, 0, 2] v307 _) _) _ _ = _
  rw [sc_8x32768_1x8x32768, sc_8x512x64_8x32768, tr_512x8x64_8x512x64]
  exact h307 n b u

/-- Rows to the flat hidden arrangement. -/
theorem pay2_sem (v306 : FVec Ideal S4096x64 .f32) (R : Fin 8 → Fin 512 → Fin 64 → EReal)
    (h306 : ∀ (n : Fin 512) (b : Fin 8) (u : Fin 64) (hr : n.val * 8 + b.val < 4096), v306 (ix2 ⟨n.val * 8 + b.val, hr⟩ u) = R b n u)
    (n : Fin 512) (b : Fin 8) (u : Fin 64) (hj : n.val * 64 + u.val < 32768) :
    k0_pay2 v306 (ix3 0 b ⟨n.val * 64 + u.val, hj⟩) = R b n u := by
  have hr : n.val * 8 + b.val < 4096 := by have := n.isLt; have := b.isLt; omega
  show shapeCast S1x8x32768 (shapeCast S8x32768 (transpose S8x512x64 [1, 0, 2] (shapeCast S512x8x64 v306 _) _) _) _ _ = _
  rw [sc_8x32768_1x8x32768, sc_8x512x64_8x32768, tr_512x8x64_8x512x64, sc_4096x64_512x8x64 _ _ _ _ _ hr]
  exact h306 n b u hr

/-! ### The identity casts of the stacked weights, read at an index -/

theorem pay31_sem (w : Wts) (v167 : Vec Ideal S3x64x128 .f32)
    (h167 : ∀ (m : Fin 3) (u : Fin 64) (o : Fin 128) (hk : u.val * 3 + m.val < 384), v167 (ix3 m u o) = w.Wg1 ⟨u.val * 3 + m.val, hk⟩ o)
    (m : Fin 3) (u : Fin 64) (o : Fin 128) (hk : u.val * 3 + m.val < 384) :
    k0_pay31 v167 (ix3 m u o) = w.Wg1 ⟨u.val * 3 + m.val, hk⟩ o := by
  rw [pay31_eq]; exact h167 m u o hk

theorem pay32_sem (w : Wts) (v169 : Vec Ideal S3x64x128 .f32)
    (h169 : ∀ (m : Fin 3) (u : Fin 64) (o : Fin 128) (hk : (64 + u.val) * 3 + m.val < 384), v169 (ix3 m u o) = w.Wg1 ⟨(64 + u.val) * 3 + m.val, hk⟩ o)
    (m : Fin 3) (u : Fin 64) (o : Fin 128) (hk : (64 + u.val) * 3 + m.val < 384) :
    k0_pay32 v169 (ix3 m u o) = w.Wg1 ⟨(64 + u.val) * 3 + m.val, hk⟩ o := by
  rw [pay32_eq]; exact h169 m u o hk

theorem pay39_sem (w : Wts) (v236 : Vec Ideal S3x64x64 .f32)
    (h236 : ∀ (m : Fin 3) (u o : Fin 64) (hk : u.val * 3 + m.val < 384), v236 (ix3 m u o) = w.Wc1 ⟨u.val * 3 + m.val, hk⟩ o)
    (m : Fin 3) (u o : Fin 64) (hk : u.val * 3 + m.val < 384) :
    k0_pay39 v236 (ix3 m u o) = w.Wc1 ⟨u.val * 3 + m.val, hk⟩ o := by
  rw [pay39_eq]; exact h236 m u o hk

theorem pay40_sem (w : Wts) (v238 : Vec Ideal S3x64x64 .f32)
    (h238 : ∀ (m : Fin 3) (u o : Fin 64) (hk : (64 + u.val) * 3 + m.val < 384), v238 (ix3 m u o) = w.Wc1 ⟨(64 + u.val) * 3 + m.val, hk⟩ o)
    (m : Fin 3) (u o : Fin 64) (hk : (64 + u.val) * 3 + m.val < 384) :
    k0_pay40 v238 (ix3 m u o) = w.Wc1 ⟨(64 + u.val) * 3 + m.val, hk⟩ o := by
  rw [pay40_eq]; exact h238 m u o hk

end Cert.Dcgru.KerA1
end
-- ==== Proof.KerG0.lean ====
/-
  The first cell's gate, read entry by entry. The gate's pre-activation is the bias plus six products:
  for each of the three diffusion taps, the state features' rows against the state rows of the weights
  (a 4096 × 64 by 64 × 128 product, rows ordered (node, batch)) and the scalar input's column against the
  block-diagonal weight identity ⊗ (input row of the weights) (a 512 × 8 by 8 × 1024 product whose
  columns are ordered (batch, channel)). Each array is read at one index; the block-diagonal products
  collapse to one term; the result is the gate's graph convolution written tap by tap.
-/
import proofs.«110417_g44504451121623_cont_8to1_c_180_11_alg».proof.Proof.Gen.KernelIdeal.Skeleton
import proofs.«110417_g44504451121623_cont_8to1_c_180_11_alg».proof.Proof.Spec
import proofs.«110417_g44504451121623_cont_8to1_c_180_11_alg».proof.Proof.Alg
import Idealize.ShloMosaic.Lib.Pipeline.Value
import Idealize.ShloMosaic.Lib.ValueIdx
import Idealize.ShloMosaic.PureOps.Ideal.Laws

noncomputable section
namespace Cert.Dcgru.KerG0
open Cert.Dcgru Cert.KernelIdeal Cert.KernelIdeal.Gen Idealize.ShloMosaic Idealize.ShloMosaic.ValueIdx
variable [Cert.KernelIdeal.Facts]

/-! ### Reshapes and slices read at an index -/

/-- Rows (node, batch) of a [4096, 64] array are the (node, batch) pairs of the [512, 8, 64] array. -/
theorem sc_512x8x64_4096x64 {α : Type} (x : S512x8x64.Idx → α) (h : S512x8x64.ShapeCasts S4096x64)
    (n : Fin 512) (b : Fin 8) (u : Fin 64) (hr : n.val * 8 + b.val < 4096) :
    shapeCast S4096x64 x h (ix2 ⟨n.val * 8 + b.val, hr⟩ u) = x (ix3 n b u) := by
  refine shapeCast_apply x h _ _ ?_
  rw [Shape.rowMajor_val_three, Shape.rowMajor_val_two]
  rfl

/-- The same for 128 channels. -/
theorem sc_512x8x128_4096x128 {α : Type} (x : S512x8x128.Idx → α) (h : S512x8x128.ShapeCasts S4096x128)
    (n : Fin 512) (b : Fin 8) (o : Fin 128) (hr : n.val * 8 + b.val < 4096) :
    shapeCast S4096x128 x h (ix2 ⟨n.val * 8 + b.val, hr⟩ o) = x (ix3 n b o) := by
  refine shapeCast_apply x h _ _ ?_
  rw [Shape.rowMajor_val_three, Shape.rowMajor_val_two]
  rfl

/-- Column (batch, channel) of a [512, 1024] array. -/
theorem sc_512x1024_512x8x128 {α : Type} (x : S512x1024.Idx → α) (h : S512x1024.ShapeCasts S512x8x128)
    (n : Fin 512) (b : Fin 8) (o : Fin 128) :
    shapeCast S512x8x128 x h (ix3 n b o) = x (ix2 n ⟨b.val * 128 + o.val, by omega⟩) := by
  refine shapeCast_apply x h _ _ ?_
  rw [Shape.rowMajor_val_three, Shape.rowMajor_val_two]
  show n.val * 1024 + (b.val * 128 + o.val) = (n.val * 8 + b.val) * 128 + o.val
  omega

/-- Column (batch, unit) of a [512, 512] array. -/
theorem sc_512x512_512x8x64 {α : Type} (x : S512x512.Idx → α) (h : S512x512.ShapeCasts S512x8x64)
    (n : Fin 512) (b : Fin 8) (u : Fin 64) :
    shapeCast S512x8x64 x h (ix3 n b u) = x (ix2 n ⟨b.val * 64 + u.val, by omega⟩) := by
  refine shapeCast_apply x h _ _ ?_
  rw [Shape.rowMajor_val_three, Shape.rowMajor_val_two]
  show n.val * 512 + (b.val * 64 + u.val) = (n.val * 8 + b.val) * 64 + u.val
  omega

/-- Dropping a leading unit axis. -/
theorem sc_1x8x1024_8x1024 {α : Type} (x : S1x8x1024.Idx → α) (h : S1x8x1024.ShapeCasts S8x1024)
    (b : Fin 8) (c : Fin 1024) :
    shapeCast S8x1024 x h (ix2 b c) = x (ix3 0 b c) := by
  refine shapeCast_apply x h _ _ ?_
  rw [Shape.rowMajor_val_three, Shape.rowMajor_val_two]
  show ((0:ℕ) * 8 + b.val) * 1024 + c.val = b.val * 1024 + c.val
  omega

theorem sc_1x64x128_64x128 {α : Type} (x : S1x64x128.Idx → α) (h : S1x64x128.ShapeCasts S64x128)
    (u : Fin 64) (o : Fin 128) :
    shapeCast S64x128 x h (ix2 u o) = x (ix3 0 u o) := by
  refine shapeCast_apply x h _ _ ?_
  rw [Shape.rowMajor_val_three, Shape.rowMajor_val_two]
  show ((0:ℕ) * 64 + u.val) * 128 + o.val = u.val * 128 + o.val
  omega

/-- Tap `m` of the stacked block-diagonal weights. -/
theorem ess_3x8x1024 {α : Type} (x : S3x8x1024.Idx → α) (off : Fin S3x8x1024.rank → Nat) (h : S3x8x1024.Slices off S1x8x1024)
    (m : Fin 3) (h0 : off 0 = m.val) (h1 : off 1 = 0) (h2 : off 2 = 0) (b : Fin 8) (c : Fin 1024) :
    extractStridedSlice S1x8x1024 off x h (ix3 0 b c) = x (ix3 m b c) := by
  refine extractStridedSlice_apply off x h _ _ (fun a => ?_)
  match a with
  | ⟨0, _⟩ => exact (show m.val = off 0 + 0 by rw [h0]; rfl)
  | ⟨1, _⟩ => exact (show _ = off 1 + _ by rw [h1]; exact (Nat.zero_add _).symm)
  | ⟨2, _⟩ => exact (show _ = off 2 + _ by rw [h2]; exact (Nat.zero_add _).symm)

/-- Tap `m` of the stacked state weights. -/
theorem ess_3x64x128 {α : Type} (x : S3x64x128.Idx → α) (off : Fin S3x64x128.rank → Nat) (h : S3x64x128.Slices off S1x64x128)
    (m : Fin 3) (h0 : off 0 = m.val) (h1 : off 1 = 0) (h2 : off 2 = 0) (u : Fin 64) (o : Fin 128) :
    extractStridedSlice S1x64x128 off x h (ix3 0 u o) = x (ix3 m u o) := by
  refine extractStridedSlice_apply off x h _ _ (fun a => ?_)
  match a with
  | ⟨0, _⟩ => exact (show m.val = off 0 + 0 by rw [h0]; rfl)
  | ⟨1, _⟩ => exact (show _ = off 1 + _ by rw [h1]; exact (Nat.zero_add _).symm)
  | ⟨2, _⟩ => exact (show _ = off 2 + _ by rw [h2]; exact (Nat.zero_add _).symm)

/-- A block of 64 columns starting at column `c` of a [4096, 128] array. -/
theorem ess_4096x128 {α : Type} (x : S4096x128.Idx → α) (off : Fin S4096x128.rank → Nat) (h : S4096x128.Slices off S4096x64)
    (c : ℕ) (h0 : off 0 = 0) (h1 : off 1 = c) (r : Fin 4096) (u : Fin 64) (hc : c + u.val < 128) :
    extractStridedSlice S4096x64 off x h (ix2 r u) = x (ix2 r ⟨c + u.val, hc⟩) := by
  refine extractStridedSlice_apply off x h _ _ (fun a => ?_)
  match a with
  | ⟨0, _⟩ => exact (show _ = off 0 + _ by rw [h0]; exact (Nat.zero_add _).symm)
  | ⟨1, _⟩ => exact (show c + u.val = off 1 + u.val by rw [h1])

/-- The three taps of the block-diagonal weights and the two non-zero taps of the state weights, at the literal offsets. -/
theorem ess14_0 {α : Type} (x : S3x8x1024.Idx → α) (h : S3x8x1024.Slices ![0, 0, 0] S1x8x1024) (b : Fin 8) (c : Fin 1024) :
    extractStridedSlice S1x8x1024 ![0, 0, 0] x h (ix3 0 b c) = x (ix3 (0 : Fin 3) b c) :=
  ess_3x8x1024 x _ h 0 rfl rfl rfl b c
theorem ess14_1 {α : Type} (x : S3x8x1024.Idx → α) (h : S3x8x1024.Slices ![1, 0, 0] S1x8x1024) (b : Fin 8) (c : Fin 1024) :
    extractStridedSlice S1x8x1024 ![1, 0, 0] x h (ix3 0 b c) = x (ix3 (1 : Fin 3) b c) :=
  ess_3x8x1024 x _ h 1 rfl rfl rfl b c
theorem ess14_2 {α : Type} (x : S3x8x1024.Idx → α) (h : S3x8x1024.Slices ![2, 0, 0] S1x8x1024) (b : Fin 8) (c : Fin 1024) :
    extractStridedSlice S1x8x1024 ![2, 0, 0] x h (ix3 0 b c) = x (ix3 (2 : Fin 3) b c) :=
  ess_3x8x1024 x _ h 2 rfl rfl rfl b c
theorem ess16_1 {α : Type} (x : S3x64x128.Idx → α) (h : S3x64x128.Slices ![1, 0, 0] S1x64x128) (u : Fin 64) (o : Fin 128) :
    extractStridedSlice S1x64x128 ![1, 0, 0] x h (ix3 0 u o) = x (ix3 (1 : Fin 3) u o) :=
  ess_3x64x128 x _ h 1 rfl rfl rfl u o
theorem ess16_2 {α : Type} (x : S3x64x128.Idx → α) (h : S3x64x128.Slices ![2, 0, 0] S1x64x128) (u : Fin 64) (o : Fin 128) :
    extractStridedSlice S1x64x128 ![2, 0, 0] x h (ix3 0 u o) = x (ix3 (2 : Fin 3) u o) :=
  ess_3x64x128 x _ h 2 rfl rfl rfl u o
/-- The upper and the lower half of the gate's 128 channels. -/
theorem ess78_hi {α : Type} (x : S4096x128.Idx → α) (h : S4096x128.Slices ![0, 64] S4096x64) (r : Fin 4096) (u : Fin 64) :
    extractStridedSlice S4096x64 ![0, 64] x h (ix2 r u) = x (ix2 r ⟨64 + u.val, by omega⟩) :=
  ess_4096x128 x _ h 64 rfl rfl r u (by omega)
theorem ess78_lo {α : Type} (x : S4096x128.Idx → α) (h : S4096x128.Slices ![0, 0] S4096x64) (r : Fin 4096) (u : Fin 64) :
    extractStridedSlice S4096x64 ![0, 0] x h (ix2 r u) = x (ix2 r ⟨u.val, by omega⟩) := by
  rw [ess_4096x128 x _ h 0 rfl rfl r u (by omega)]
  exact congrArg x (congrArg (ix2 r) (Fin.ext (Nat.zero_add _)))

/-! ### The two products read as sums -/

theorem mm_4096x64_64x128_lhs_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem mm_4096x64_64x128_lhs_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem mm_4096x64_64x128_rhs_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem mm_4096x64_64x128_rhs_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- The product into a zero accumulator, read at an index: entry (i, o) is the sum over the contracted axis. -/
theorem mm_4096x64_64x128 (l : FVec Ideal S4096x64 .f32) (r : FVec Ideal S64x128 .f32) (i : Fin 4096) (o : Fin 128) :
    matmul dot_S4096x64_S64x128_S4096x128_1_0_0_1_n_n none l r (constant S4096x128 .f32 0x00000000#32) (ix2 i o)
      = ∑ k : Fin 64, l (ix2 i k) * r (ix2 k o) := by
  simp only [matmul]
  rw [Ideal.matmul_constant_zero_apply, ← Equiv.sum_comp (ValueIdx.contrEquiv1 dot_S4096x64_S64x128_S4096x128_1_0_0_1_n_n 64 rfl rfl).symm]
  refine Finset.sum_congr rfl fun k _ => ?_
  have hk := ValueIdx.contrEquiv1_symm_val dot_S4096x64_S64x128_S4096x128_1_0_0_1_n_n 64 rfl rfl k
  have el : dot_S4096x64_S64x128_S4096x128_1_0_0_1_n_n.lhsIdx (ix2 i o) ((ValueIdx.contrEquiv1 dot_S4096x64_S64x128_S4096x128_1_0_0_1_n_n 64 rfl rfl).symm k) = ix2 i k := funext fun a => Fin.ext (by
    match a with
    | ⟨0, _⟩ => exact mm_4096x64_64x128_lhs_0 _ _
    | ⟨1, _⟩ => exact (mm_4096x64_64x128_lhs_1 _ _).trans hk)
  have er : dot_S4096x64_S64x128_S4096x128_1_0_0_1_n_n.rhsIdx (ix2 i o) ((ValueIdx.contrEquiv1 dot_S4096x64_S64x128_S4096x128_1_0_0_1_n_n 64 rfl rfl).symm k) = ix2 k o := funext fun a => Fin.ext (by
    match a with
    | ⟨0, _⟩ => exact (mm_4096x64_64x128_rhs_0 _ _).trans hk
    | ⟨1, _⟩ => exact mm_4096x64_64x128_rhs_1 _ _)
  rw [el, er]

theorem mm_512x8_8x1024_lhs_0 (i : S512x1024.Idx) (q : dot_S512x8_S8x1024_S512x1024_1_0_0_1_n_n.contr.Idx) :
    (dot_S512x8_S8x1024_S512x1024_1_0_0_1_n_n.lhsIdx i q 0).val = (i 0).val := by
  unfold DotDims.lhsIdx
  rw [dif_neg (show ¬(0 : Fin S512x8.rank) ∈ dot_S512x8_S8x1024_S512x1024_1_0_0_1_n_n.lhsBatch by decide), dif_pos (show (0 : Fin S512x8.rank) ∈ dot_S512x8_S8x1024_S512x1024_1_0_0_1_n_n.lhsNonContracting by decide)]
  rfl
theorem mm_512x8_8x1024_lhs_1 (i : S512x1024.Idx) (q : dot_S512x8_S8x1024_S512x1024_1_0_0_1_n_n.contr.Idx) :
    (dot_S512x8_S8x1024_S512x1024_1_0_0_1_n_n.lhsIdx i q 1).val = (q ⟨0, by decide⟩).val :=
  dot_S512x8_S8x1024_S512x1024_1_0_0_1_n_n.lhsIdx_val_of_single rfl i q
theorem mm_512x8_8x1024_rhs_0 (i : S512x1024.Idx) (q : dot_S512x8_S8x1024_S512x1024_1_0_0_1_n_n.contr.Idx) :
    (dot_S512x8_S8x1024_S512x1024_1_0_0_1_n_n.rhsIdx i q 0).val = (q ⟨0, by decide⟩).val :=
  dot_S512x8_S8x1024_S512x1024_1_0_0_1_n_n.rhsIdx_val_of_single rfl i q
theorem mm_512x8_8x1024_rhs_1 (i : S512x1024.Idx) (q : dot_S512x8_S8x1024_S512x1024_1_0_0_1_n_n.contr.Idx) :
    (dot_S512x8_S8x1024_S512x1024_1_0_0_1_n_n.rhsIdx i q 1).val = (i 1).val := by
  unfold DotDims.rhsIdx
  rw [dif_neg (show ¬(1 : Fin S8x1024.rank) ∈ dot_S512x8_S8x1024_S512x1024_1_0_0_1_n_n.rhsBatch by decide), dif_pos (show (1 : Fin S8x1024.rank) ∈ dot_S512x8_S8x1024_S512x1024_1_0_0_1_n_n.rhsNonContracting by decide)]
  rfl

/-- The product into a zero accumulator, read at an index: entry (i, o) is the sum over the contracted axis. -/
theorem mm_512x8_8x1024 (l : FVec Ideal S512x8 .f32) (r : FVec Ideal S8x1024 .f32) (i : Fin 512) (o : Fin 1024) :
    matmul dot_S512x8_S8x1024_S512x1024_1_0_0_1_n_n none l r (constant S512x1024 .f32 0x00000000#32) (ix2 i o)
      = ∑ k : Fin 8, l (ix2 i k) * r (ix2 k o) := by
  simp only [matmul]
  rw [Ideal.matmul_constant_zero_apply, ← Equiv.sum_comp (ValueIdx.contrEquiv1 dot_S512x8_S8x1024_S512x1024_1_0_0_1_n_n 8 rfl rfl).symm]
  refine Finset.sum_congr rfl fun k _ => ?_
  have hk := ValueIdx.contrEquiv1_symm_val dot_S512x8_S8x1024_S512x1024_1_0_0_1_n_n 8 rfl rfl k
  have el : dot_S512x8_S8x1024_S512x1024_1_0_0_1_n_n.lhsIdx (ix2 i o) ((ValueIdx.contrEquiv1 dot_S512x8_S8x1024_S512x1024_1_0_0_1_n_n 8 rfl rfl).symm k) = ix2 i k := funext fun a => Fin.ext (by
    match a with
    | ⟨0, _⟩ => exact mm_512x8_8x1024_lhs_0 _ _
    | ⟨1, _⟩ => exact (mm_512x8_8x1024_lhs_1 _ _).trans hk)
  have er : dot_S512x8_S8x1024_S512x1024_1_0_0_1_n_n.rhsIdx (ix2 i o) ((ValueIdx.contrEquiv1 dot_S512x8_S8x1024_S512x1024_1_0_0_1_n_n 8 rfl rfl).symm k) = ix2 k o := funext fun a => Fin.ext (by
    match a with
    | ⟨0, _⟩ => exact (mm_512x8_8x1024_rhs_0 _ _).trans hk
    | ⟨1, _⟩ => exact mm_512x8_8x1024_rhs_1 _ _)
  rw [el, er]

/-! ### The gate's pre-activation, entry by entry -/

/-- The gate at row (node, batch), channel `o`: the logistic function of the bias plus the six products, each a sum. -/
theorem pay16_nat (v7 v8 v12 : FVec Ideal S512x8 .f32) (v14 : FVec Ideal S3x8x1024 .f32) (v16 : FVec Ideal S3x64x128 .f32)
    (v22 v26 : FVec Ideal S512x512 .f32) (v29 : FVec Ideal S4096x128 .f32) (v33 : FVec Ideal S4096x64 .f32) (v35 : FVec Ideal S64x128 .f32)
    (n : Fin 512) (b : Fin 8) (o : Fin 128) (hr : n.val * 8 + b.val < 4096) :
    k0_pay16 v7 v8 v12 v14 v16 v22 v26 v29 v33 v35 (constant S4096x128 .f32 0x00000000#32) (ix2 ⟨n.val * 8 + b.val, hr⟩ o)
      = Ideal.logistic
        (((((((v29 (ix2 ⟨n.val * 8 + b.val, hr⟩ o) + ∑ k : Fin 64, v33 (ix2 ⟨n.val * 8 + b.val, hr⟩ k) * v35 (ix2 k o))
          + ∑ k : Fin 8, v7 (ix2 n k) * v14 (ix3 (0 : Fin 3) k ⟨b.val * 128 + o.val, by omega⟩))
          + ∑ k : Fin 64, v22 (ix2 n ⟨b.val * 64 + k.val, by omega⟩) * v16 (ix3 (1 : Fin 3) k o))
          + ∑ k : Fin 8, v8 (ix2 n k) * v14 (ix3 (1 : Fin 3) k ⟨b.val * 128 + o.val, by omega⟩))
          + ∑ k : Fin 64, v26 (ix2 n ⟨b.val * 64 + k.val, by omega⟩) * v16 (ix3 (2 : Fin 3) k o))
          + ∑ k : Fin 8, v12 (ix2 n k) * v14 (ix3 (2 : Fin 3) k ⟨b.val * 128 + o.val, by omega⟩))) := by
  unfold k0_pay16
  simp only [logistic, addf_apply, broadcast_apply, Ideal.logistic_def, Ideal.ofBits_def,
    sc_512x8x64_4096x64, sc_512x8x128_4096x128, sc_512x1024_512x8x128, sc_512x512_512x8x64,
    mm_4096x64_64x128, mm_512x8_8x1024, sc_1x8x1024_8x1024, sc_1x64x128_64x128,
    ess14_0, ess14_1, ess14_2, ess16_1, ess16_2,
    Cert.Dcgru.add_ofBits_zero]

/-! ### The gate and its two halves, in the block's data -/

/-- The gate: the bias plus the six products is the graph convolution written tap by tap. -/
theorem pay16_sem (w : Wts) (x : Fin 8 → Fin 512 → EReal) (s0 : Fin 8 → Fin 512 → Fin 64 → EReal)
    (v7 v8 v12 : FVec Ideal S512x8 .f32) (v14 : FVec Ideal S3x8x1024 .f32) (v16 : FVec Ideal S3x64x128 .f32) (v22 v26 : FVec Ideal S512x512 .f32)
    (v29 : FVec Ideal S4096x128 .f32) (v33 : FVec Ideal S4096x64 .f32) (v35 : FVec Ideal S64x128 .f32)
    (h7 : ∀ (n : Fin 512) (b : Fin 8), v7 (ix2 n b) = x b n) (h8 : ∀ (n : Fin 512) (b : Fin 8), v8 (ix2 n b) = d1 w (x b) n) (h12 : ∀ (n : Fin 512) (b : Fin 8), v12 (ix2 n b) = d2 w (x b) n)
    (h14 : ∀ (m : Fin 3) (b' b : Fin 8) (o : Fin 128) (hc : b.val * 128 + o.val < 1024), v14 (ix3 m b' ⟨b.val * 128 + o.val, hc⟩) = eye b' b * w.Wg0 ⟨m.val, by omega⟩ o)
    (h16 : ∀ (m : Fin 3) (u : Fin 64) (o : Fin 128), v16 (ix3 m u o) = w.Wg0 ⟨(1 + u.val) * 3 + m.val, by omega⟩ o)
    (h22 : ∀ (n : Fin 512) (b : Fin 8) (u : Fin 64) (hc : b.val * 64 + u.val < 512), v22 (ix2 n ⟨b.val * 64 + u.val, hc⟩) = d1 w (fun k => s0 b k u) n)
    (h26 : ∀ (n : Fin 512) (b : Fin 8) (u : Fin 64) (hc : b.val * 64 + u.val < 512), v26 (ix2 n ⟨b.val * 64 + u.val, hc⟩) = d2 w (fun k => s0 b k u) n)
    (h29 : ∀ (r : Fin 4096) (o : Fin 128), v29 (ix2 r o) = w.bg0 o)
    (h33 : ∀ (n : Fin 512) (b : Fin 8) (u : Fin 64) (hr : n.val * 8 + b.val < 4096), v33 (ix2 ⟨n.val * 8 + b.val, hr⟩ u) = s0 b n u)
    (h35 : ∀ (u : Fin 64) (o : Fin 128), v35 (ix2 u o) = w.Wg0 ⟨(1 + u.val) * 3 + 0, by omega⟩ o)
    (n : Fin 512) (b : Fin 8) (o : Fin 128) (hr : n.val * 8 + b.val < 4096) :
    k0_pay16 v7 v8 v12 v14 v16 v22 v26 v29 v33 v35 (constant S4096x128 .f32 0x00000000#32) (ix2 ⟨n.val * 8 + b.val, hr⟩ o) = g0 w (x b) (s0 b) n o := by
  rw [pay16_nat]
  simp only [h7, h8, h12, h14, h16, h22, h26, h29, h33, h35, Cert.Dcgru.kron_sum]
  unfold g0
  rw [gconv0_split]
  rfl

/-- The update gate: channels 64 … 127 of the gate. -/
theorem pay17_sem (w : Wts) (x : Fin 8 → Fin 512 → EReal) (s0 : Fin 8 → Fin 512 → Fin 64 → EReal)
    (v7 v8 v12 : FVec Ideal S512x8 .f32) (v14 : FVec Ideal S3x8x1024 .f32) (v16 : FVec Ideal S3x64x128 .f32) (v22 v26 : FVec Ideal S512x512 .f32)
    (v29 : FVec Ideal S4096x128 .f32) (v33 : FVec Ideal S4096x64 .f32) (v35 : FVec Ideal S64x128 .f32)
    (h7 : ∀ (n : Fin 512) (b : Fin 8), v7 (ix2 n b) = x b n) (h8 : ∀ (n : Fin 512) (b : Fin 8), v8 (ix2 n b) = d1 w (x b) n) (h12 : ∀ (n : Fin 512) (b : Fin 8), v12 (ix2 n b) = d2 w (x b) n)
    (h14 : ∀ (m : Fin 3) (b' b : Fin 8) (o : Fin 128) (hc : b.val * 128 + o.val < 1024), v14 (ix3 m b' ⟨b.val * 128 + o.val, hc⟩) = eye b' b * w.Wg0 ⟨m.val, by omega⟩ o)
    (h16 : ∀ (m : Fin 3) (u : Fin 64) (o : Fin 128), v16 (ix3 m u o) = w.Wg0 ⟨(1 + u.val) * 3 + m.val, by omega⟩ o)
    (h22 : ∀ (n : Fin 512) (b : Fin 8) (u : Fin 64) (hc : b.val * 64 + u.val < 512), v22 (ix2 n ⟨b.val * 64 + u.val, hc⟩) = d1 w (fun k => s0 b k u) n)
    (h26 : ∀ (n : Fin 512) (b : Fin 8) (u : Fin 64) (hc : b.val * 64 + u.val < 512), v26 (ix2 n ⟨b.val * 64 + u.val, hc⟩) = d2 w (fun k => s0 b k u) n)
    (h29 : ∀ (r : Fin 4096) (o : Fin 128), v29 (ix2 r o) = w.bg0 o)
    (h33 : ∀ (n : Fin 512) (b : Fin 8) (u : Fin 64) (hr : n.val * 8 + b.val < 4096), v33 (ix2 ⟨n.val * 8 + b.val, hr⟩ u) = s0 b n u)
    (h35 : ∀ (u : Fin 64) (o : Fin 128), v35 (ix2 u o) = w.Wg0 ⟨(1 + u.val) * 3 + 0, by omega⟩ o)
    (n : Fin 512) (b : Fin 8) (u : Fin 64) (hr : n.val * 8 + b.val < 4096) :
    k0_pay17 v7 v8 v12 v14 v16 v22 v26 v29 v33 v35 (constant S4096x128 .f32 0x00000000#32) (ix2 ⟨n.val * 8 + b.val, hr⟩ u) = u0 w (x b) (s0 b) n u := by
  unfold k0_pay17
  simp only [ess78_hi]
  exact pay16_sem w x s0 v7 v8 v12 v14 v16 v22 v26 v29 v33 v35 h7 h8 h12 h14 h16 h22 h26 h29 h33 h35 n b ⟨64 + u.val, by omega⟩ hr

/-- The reset gate (channels 0 … 63 of the gate) times the state. -/
theorem pay18_sem (w : Wts) (x : Fin 8 → Fin 512 → EReal) (s0 : Fin 8 → Fin 512 → Fin 64 → EReal) (v5 : FVec Ideal S4096x64 .f32)
    (v7 v8 v12 : FVec Ideal S512x8 .f32) (v14 : FVec Ideal S3x8x1024 .f32) (v16 : FVec Ideal S3x64x128 .f32) (v22 v26 : FVec Ideal S512x512 .f32)
        (v29 : FVec Ideal S4096x128 .f32) (v33 : FVec Ideal S4096x64 .f32) (v35 : FVec Ideal S64x128 .f32)
        (h7 : ∀ (n : Fin 512) (b : Fin 8), v7 (ix2 n b) = x b n) (h8 : ∀ (n : Fin 512) (b : Fin 8), v8 (ix2 n b) = d1 w (x b) n) (h12 : ∀ (n : Fin 512) (b : Fin 8), v12 (ix2 n b) = d2 w (x b) n)
        (h14 : ∀ (m : Fin 3) (b' b : Fin 8) (o : Fin 128) (hc : b.val * 128 + o.val < 1024), v14 (ix3 m b' ⟨b.val * 128 + o.val, hc⟩) = eye b' b * w.Wg0 ⟨m.val, by omega⟩ o)
        (h16 : ∀ (m : Fin 3) (u : Fin 64) (o : Fin 128), v16 (ix3 m u o) = w.Wg0 ⟨(1 + u.val) * 3 + m.val, by omega⟩ o)
        (h22 : ∀ (n : Fin 512) (b : Fin 8) (u : Fin 64) (hc : b.val * 64 + u.val < 512), v22 (ix2 n ⟨b.val * 64 + u.val, hc⟩) = d1 w (fun k => s0 b k u) n)
        (h26 : ∀ (n : Fin 512) (b : Fin 8) (u : Fin 64) (hc : b.val * 64 + u.val < 512), v26 (ix2 n ⟨b.val * 64 + u.val, hc⟩) = d2 w (fun k => s0 b k u) n)
        (h29 : ∀ (r : Fin 4096) (o : Fin 128), v29 (ix2 r o) = w.bg0 o)
        (h33 : ∀ (n : Fin 512) (b : Fin 8) (u : Fin 64) (hr : n.val * 8 + b.val < 4096), v33 (ix2 ⟨n.val * 8 + b.val, hr⟩ u) = s0 b n u)
        (h35 : ∀ (u : Fin 64) (o : Fin 128), v35 (ix2 u o) = w.Wg0 ⟨(1 + u.val) * 3 + 0, by omega⟩ o)
    (h5 : ∀ (n : Fin 512) (b : Fin 8) (u : Fin 64) (hr : n.val * 8 + b.val < 4096), v5 (ix2 ⟨n.val * 8 + b.val, hr⟩ u) = s0 b n u)
    (n : Fin 512) (b : Fin 8) (u : Fin 64) (hr : n.val * 8 + b.val < 4096) :
    k0_pay18 v5 v7 v8 v12 v14 v16 v22 v26 v29 v33 v35 (constant S4096x128 .f32 0x00000000#32) (ix2 ⟨n.val * 8 + b.val, hr⟩ u) = rs0 w (x b) (s0 b) n u := by
  unfold k0_pay18
  simp only [mulf_apply, ess78_lo, h5]
  rw [pay16_sem w x s0 v7 v8 v12 v14 v16 v22 v26 v29 v33 v35 h7 h8 h12 h14 h16 h22 h26 h29 h33 h35 n b ⟨u.val, by omega⟩ hr]
  rfl

end Cert.Dcgru.KerG0
end
-- ==== Proof.KerC0.lean ====
/-
  The first cell's candidate and new state, read off the fused kernel's three payloads. The kernel adds the
  graph convolution of the reset state tap by tap: the bias, then for each tap the rows of the tap of r ⊙ s times the
  state rows of the candidate weights and the tap of the scalar input times the block-diagonal input rows; a
  hyperbolic tangent and the update gate's blend finish the new state. Every array is read at an index, every
  product as a finite sum, and the whole is matched with the tap-by-tap form of the graph convolution.
-/
import proofs.«110417_g44504451121623_cont_8to1_c_180_11_alg».proof.Proof.Gen.KernelIdeal.Skeleton
import proofs.«110417_g44504451121623_cont_8to1_c_180_11_alg».proof.Proof.Spec
import proofs.«110417_g44504451121623_cont_8to1_c_180_11_alg».proof.Proof.Alg
import Idealize.ShloMosaic.Lib.Pipeline.Value
import Idealize.ShloMosaic.Lib.ValueIdx
import Idealize.ShloMosaic.PureOps.Ideal.Laws

noncomputable section
namespace Cert.Dcgru.KerC0
open Cert.Dcgru Cert.KernelIdeal Cert.KernelIdeal.Gen Idealize.ShloMosaic Idealize.ShloMosaic.ValueIdx
variable [Cert.KernelIdeal.Facts]

/-! ### Layout operations read at an index -/

/-- rows of a [4096, 64] array regrouped as [512, 8, 64]: row 8 n + b is (n, b). -/
theorem sc_4096x64_512x8x64 {α : Type} (x : S4096x64.Idx → α) (h : S4096x64.ShapeCasts S512x8x64)
    (n : Fin 512) (b : Fin 8) (u : Fin 64) :
    shapeCast S512x8x64 x h (ix3 n b u) = x (ix2 ⟨n.val * 8 + b.val, by omega⟩ u) := by
  refine shapeCast_apply x h _ _ ?_
  rw [Shape.rowMajor_val_three, Shape.rowMajor_val_two]
  rfl

/-- and back. -/
theorem sc_512x8x64_4096x64 {α : Type} (x : S512x8x64.Idx → α) (h : S512x8x64.ShapeCasts S4096x64)
    (n : Fin 512) (b : Fin 8) (u : Fin 64) (hr : n.val * 8 + b.val < 4096) :
    shapeCast S4096x64 x h (ix2 ⟨n.val * 8 + b.val, hr⟩ u) = x (ix3 n b u) := by
  refine shapeCast_apply x h _ _ ?_
  rw [Shape.rowMajor_val_three, Shape.rowMajor_val_two]
  rfl

/-- a [512, 8, 64] array flattened to [512, 512]: column 64 b + u is (b, u). -/
theorem sc_512x8x64_512x512 {α : Type} (x : S512x8x64.Idx → α) (h : S512x8x64.ShapeCasts S512x512)
    (n : Fin 512) (b : Fin 8) (u : Fin 64) (hc : b.val * 64 + u.val < 512) :
    shapeCast S512x512 x h (ix2 n ⟨b.val * 64 + u.val, hc⟩) = x (ix3 n b u) := by
  refine shapeCast_apply x h _ _ ?_
  rw [Shape.rowMajor_val_three, Shape.rowMajor_val_two]
  show (n.val * 8 + b.val) * 64 + u.val = n.val * 512 + (b.val * 64 + u.val)
  omega

/-- and back. -/
theorem sc_512x512_512x8x64 {α : Type} (x : S512x512.Idx → α) (h : S512x512.ShapeCasts S512x8x64)
    (n : Fin 512) (b : Fin 8) (u : Fin 64) :
    shapeCast S512x8x64 x h (ix3 n b u) = x (ix2 n ⟨b.val * 64 + u.val, by omega⟩) := by
  refine shapeCast_apply x h _ _ ?_
  rw [Shape.rowMajor_val_three, Shape.rowMajor_val_two]
  show n.val * 512 + (b.val * 64 + u.val) = (n.val * 8 + b.val) * 64 + u.val
  omega

/-- a vector of 64 read as one row. -/
theorem sc_64_1x64 {α : Type} (x : S64.Idx → α) (h : S64.ShapeCasts S1x64) (z : Fin 1) (o : Fin 64) :
    shapeCast S1x64 x h (ix2 z o) = x (ix1 o) := by
  refine shapeCast_apply x h _ _ ?_
  rw [Shape.rowMajor_val_one, Shape.rowMajor_val_two]
  show o.val = z.val * 64 + o.val
  omega

/-- one row repeated down 4096 rows. -/
theorem bt_1x64_4096x64 {α : Type} (x : S1x64.Idx → α) (h : S1x64.Broadcasts S4096x64) (r : Fin 4096) (o : Fin 64) :
    broadcastTo S4096x64 x h (ix2 r o) = x (ix2 0 o) := by
  refine broadcastTo_apply x h _ _ (fun a => ?_)
  match a with
  | ⟨0, _⟩ => rfl
  | ⟨1, _⟩ => rfl

/-- a leading unit axis dropped. -/
theorem sc_1x64x64_64x64 {α : Type} (x : S1x64x64.Idx → α) (h : S1x64x64.ShapeCasts S64x64) (u o : Fin 64) :
    shapeCast S64x64 x h (ix2 u o) = x (ix3 0 u o) := by
  refine shapeCast_apply x h _ _ ?_
  rw [Shape.rowMajor_val_three, Shape.rowMajor_val_two]
  show ((0:ℕ) * 64 + u.val) * 64 + o.val = u.val * 64 + o.val
  omega

theorem sc_1x8x512_8x512 {α : Type} (x : S1x8x512.Idx → α) (h : S1x8x512.ShapeCasts S8x512) (b : Fin 8) (j : Fin 512) :
    shapeCast S8x512 x h (ix2 b j) = x (ix3 0 b j) := by
  refine shapeCast_apply x h _ _ ?_
  rw [Shape.rowMajor_val_three, Shape.rowMajor_val_two]
  show ((0:ℕ) * 8 + b.val) * 512 + j.val = b.val * 512 + j.val
  omega

/-- tap m of the stacked state rows of the weights. -/
theorem ess_3x64x64 {α : Type} (m : ℕ) (hm : m < 3) (x : S3x64x64.Idx → α) (h : S3x64x64.Slices ![m, 0, 0] S1x64x64)
    (z : Fin 1) (u o : Fin 64) :
    extractStridedSlice S1x64x64 ![m, 0, 0] x h (ix3 z u o) = x (ix3 ⟨m, hm⟩ u o) := by
  refine extractStridedSlice_apply _ x h _ _ (fun a => ?_)
  match a with
  | ⟨0, _⟩ => show m = m + z.val; omega
  | ⟨1, _⟩ => show u.val = 0 + u.val; omega
  | ⟨2, _⟩ => show o.val = 0 + o.val; omega

/-- tap m of the stacked block-diagonal input rows of the weights. -/
theorem ess_3x8x512 {α : Type} (m : ℕ) (hm : m < 3) (x : S3x8x512.Idx → α) (h : S3x8x512.Slices ![m, 0, 0] S1x8x512)
    (z : Fin 1) (b : Fin 8) (j : Fin 512) :
    extractStridedSlice S1x8x512 ![m, 0, 0] x h (ix3 z b j) = x (ix3 ⟨m, hm⟩ b j) := by
  refine extractStridedSlice_apply _ x h _ _ (fun a => ?_)
  match a with
  | ⟨0, _⟩ => show m = m + z.val; omega
  | ⟨1, _⟩ => show b.val = 0 + b.val; omega
  | ⟨2, _⟩ => show j.val = 0 + j.val; omega

theorem ess64_0 {α : Type} (x : S3x64x64.Idx → α) (h : S3x64x64.Slices ![0, 0, 0] S1x64x64) (z : Fin 1) (u o : Fin 64) :
    extractStridedSlice S1x64x64 ![0, 0, 0] x h (ix3 z u o) = x (ix3 0 u o) := ess_3x64x64 0 (by decide) x h z u o
theorem ess512_0 {α : Type} (x : S3x8x512.Idx → α) (h : S3x8x512.Slices ![0, 0, 0] S1x8x512) (z : Fin 1) (b : Fin 8) (j : Fin 512) :
    extractStridedSlice S1x8x512 ![0, 0, 0] x h (ix3 z b j) = x (ix3 0 b j) := ess_3x8x512 0 (by decide) x h z b j

theorem ess64_1 {α : Type} (x : S3x64x64.Idx → α) (h : S3x64x64.Slices ![1, 0, 0] S1x64x64) (z : Fin 1) (u o : Fin 64) :
    extractStridedSlice S1x64x64 ![1, 0, 0] x h (ix3 z u o) = x (ix3 1 u o) := ess_3x64x64 1 (by decide) x h z u o
theorem ess512_1 {α : Type} (x : S3x8x512.Idx → α) (h : S3x8x512.Slices ![1, 0, 0] S1x8x512) (z : Fin 1) (b : Fin 8) (j : Fin 512) :
    extractStridedSlice S1x8x512 ![1, 0, 0] x h (ix3 z b j) = x (ix3 1 b j) := ess_3x8x512 1 (by decide) x h z b j

theorem ess64_2 {α : Type} (x : S3x64x64.Idx → α) (h : S3x64x64.Slices ![2, 0, 0] S1x64x64) (z : Fin 1) (u o : Fin 64) :
    extractStridedSlice S1x64x64 ![2, 0, 0] x h (ix3 z u o) = x (ix3 2 u o) := ess_3x64x64 2 (by decide) x h z u o
theorem ess512_2 {α : Type} (x : S3x8x512.Idx → α) (h : S3x8x512.Slices ![2, 0, 0] S1x8x512) (z : Fin 1) (b : Fin 8) (j : Fin 512) :
    extractStridedSlice S1x8x512 ![2, 0, 0] x h (ix3 z b j) = x (ix3 2 b j) := ess_3x8x512 2 (by decide) x h z b j

/-! ### The three products, read as sums -/

theorem mmH_lhs_0 (i : S4096x64.Idx) (q : dot_S4096x64_S64x64_S4096x64_1_0_0_1_n_n.contr.Idx) : (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem mmH_lhs_1 (i : S4096x64.Idx) (q : dot_S4096x64_S64x64_S4096x64_1_0_0_1_n_n.contr.Idx) : (dot_S4096x64_S64x64_S4096x64_1_0_0_1_n_n.lhsIdx i q 1).val = (q ⟨0, by decide⟩).val :=
  dot_S4096x64_S64x64_S4096x64_1_0_0_1_n_n.lhsIdx_val_of_single rfl i q
theorem mmH_rhs_0 (i : S4096x64.Idx) (q : dot_S4096x64_S64x64_S4096x64_1_0_0_1_n_n.contr.Idx) : (dot_S4096x64_S64x64_S4096x64_1_0_0_1_n_n.rhsIdx i q 0).val = (q ⟨0, by decide⟩).val :=
  dot_S4096x64_S64x64_S4096x64_1_0_0_1_n_n.rhsIdx_val_of_single rfl i q
theorem mmH_rhs_1 (i : S4096x64.Idx) (q : dot_S4096x64_S64x64_S4096x64_1_0_0_1_n_n.contr.Idx) : (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- the [4096, 64] · [64, 64] product into a zero accumulator, read at an index, is the sum over the 64 shared coordinates. -/
theorem mmH (l : FVec Ideal S4096x64 .f32) (r : FVec Ideal S64x64 .f32) (i : Fin 4096) (o : Fin 64) :
    matmul dot_S4096x64_S64x64_S4096x64_1_0_0_1_n_n none l r (constant S4096x64 .f32 0x00000000#32) (ix2 i o)
      = ∑ k : Fin 64, l (ix2 i k) * r (ix2 k o) := by
  simp only [matmul]
  rw [Ideal.matmul_constant_zero_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 i o) ((ValueIdx.contrEquiv1 dot_S4096x64_S64x64_S4096x64_1_0_0_1_n_n 64 rfl rfl).symm k) = ix2 i k := funext fun a => Fin.ext (by
    match a with
    | ⟨0, _⟩ => exact mmH_lhs_0 _ _
    | ⟨1, _⟩ => exact (mmH_lhs_1 _ _).trans hk)
  have er : dot_S4096x64_S64x64_S4096x64_1_0_0_1_n_n.rhsIdx (ix2 i o) ((ValueIdx.contrEquiv1 dot_S4096x64_S64x64_S4096x64_1_0_0_1_n_n 64 rfl rfl).symm k) = ix2 k o := funext fun a => Fin.ext (by
    match a with
    | ⟨0, _⟩ => exact (mmH_rhs_0 _ _).trans hk
    | ⟨1, _⟩ => exact mmH_rhs_1 _ _)
  rw [el, er]

theorem mmX_lhs_0 (i : S512x512.Idx) (q : dot_S512x8_S8x512_S512x512_1_0_0_1_n_n.contr.Idx) : (dot_S512x8_S8x512_S512x512_1_0_0_1_n_n.lhsIdx i q 0).val = (i 0).val := by
  unfold DotDims.lhsIdx
  rw [dif_neg (show ¬(0 : Fin S512x8.rank) ∈ dot_S512x8_S8x512_S512x512_1_0_0_1_n_n.lhsBatch by decide), dif_pos (show (0 : Fin S512x8.rank) ∈ dot_S512x8_S8x512_S512x512_1_0_0_1_n_n.lhsNonContracting by decide)]
  rfl
theorem mmX_lhs_1 (i : S512x512.Idx) (q : dot_S512x8_S8x512_S512x512_1_0_0_1_n_n.contr.Idx) : (dot_S512x8_S8x512_S512x512_1_0_0_1_n_n.lhsIdx i q 1).val = (q ⟨0, by decide⟩).val :=
  dot_S512x8_S8x512_S512x512_1_0_0_1_n_n.lhsIdx_val_of_single rfl i q
theorem mmX_rhs_0 (i : S512x512.Idx) (q : dot_S512x8_S8x512_S512x512_1_0_0_1_n_n.contr.Idx) : (dot_S512x8_S8x512_S512x512_1_0_0_1_n_n.rhsIdx i q 0).val = (q ⟨0, by decide⟩).val :=
  dot_S512x8_S8x512_S512x512_1_0_0_1_n_n.rhsIdx_val_of_single rfl i q
theorem mmX_rhs_1 (i : S512x512.Idx) (q : dot_S512x8_S8x512_S512x512_1_0_0_1_n_n.contr.Idx) : (dot_S512x8_S8x512_S512x512_1_0_0_1_n_n.rhsIdx i q 1).val = (i 1).val := by
  unfold DotDims.rhsIdx
  rw [dif_neg (show ¬(1 : Fin S8x512.rank) ∈ dot_S512x8_S8x512_S512x512_1_0_0_1_n_n.rhsBatch by decide), dif_pos (show (1 : Fin S8x512.rank) ∈ dot_S512x8_S8x512_S512x512_1_0_0_1_n_n.rhsNonContracting by decide)]
  rfl

/-- the [512, 8] · [8, 512] product into a zero accumulator, read at an index, is the sum over the 8 shared coordinates. -/
theorem mmX (l : FVec Ideal S512x8 .f32) (r : FVec Ideal S8x512 .f32) (i : Fin 512) (o : Fin 512) :
    matmul dot_S512x8_S8x512_S512x512_1_0_0_1_n_n none l r (constant S512x512 .f32 0x00000000#32) (ix2 i o)
      = ∑ k : Fin 8, l (ix2 i k) * r (ix2 k o) := by
  simp only [matmul]
  rw [Ideal.matmul_constant_zero_apply, ← Equiv.sum_comp (ValueIdx.contrEquiv1 dot_S512x8_S8x512_S512x512_1_0_0_1_n_n 8 rfl rfl).symm]
  refine Finset.sum_congr rfl fun k _ => ?_
  have hk := ValueIdx.contrEquiv1_symm_val dot_S512x8_S8x512_S512x512_1_0_0_1_n_n 8 rfl rfl k
  have el : dot_S512x8_S8x512_S512x512_1_0_0_1_n_n.lhsIdx (ix2 i o) ((ValueIdx.contrEquiv1 dot_S512x8_S8x512_S512x512_1_0_0_1_n_n 8 rfl rfl).symm k) = ix2 i k := funext fun a => Fin.ext (by
    match a with
    | ⟨0, _⟩ => exact mmX_lhs_0 _ _
    | ⟨1, _⟩ => exact (mmX_lhs_1 _ _).trans hk)
  have er : dot_S512x8_S8x512_S512x512_1_0_0_1_n_n.rhsIdx (ix2 i o) ((ValueIdx.contrEquiv1 dot_S512x8_S8x512_S512x512_1_0_0_1_n_n 8 rfl rfl).symm k) = ix2 k o := funext fun a => Fin.ext (by
    match a with
    | ⟨0, _⟩ => exact (mmX_rhs_0 _ _).trans hk
    | ⟨1, _⟩ => exact mmX_rhs_1 _ _)
  rw [el, er]

theorem mmA_lhs_0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem mmA_lhs_1 (i : S512x512.Idx) (q : dot_S512x512_S512x512_S512x512_1_0_0_1_n_n.contr.Idx) : (dot_S512x512_S512x512_S512x512_1_0_0_1_n_n.lhsIdx i q 1).val = (q ⟨0, by decide⟩).val :=
  dot_S512x512_S512x512_S512x512_1_0_0_1_n_n.lhsIdx_val_of_single rfl i q
theorem mmA_rhs_0 (i : S512x512.Idx) (q : dot_S512x512_S512x512_S512x512_1_0_0_1_n_n.contr.Idx) : (dot_S512x512_S512x512_S512x512_1_0_0_1_n_n.rhsIdx i q 0).val = (q ⟨0, by decide⟩).val :=
  dot_S512x512_S512x512_S512x512_1_0_0_1_n_n.rhsIdx_val_of_single rfl i q
theorem mmA_rhs_1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- the [512, 512] · [512, 512] product into a zero accumulator, read at an index, is the sum over the 512 shared coordinates. -/
theorem mmA (l : FVec Ideal S512x512 .f32) (r : FVec Ideal S512x512 .f32) (i : Fin 512) (o : Fin 512) :
    matmul dot_S512x512_S512x512_S512x512_1_0_0_1_n_n none l r (constant S512x512 .f32 0x00000000#32) (ix2 i o)
      = ∑ k : Fin 512, l (ix2 i k) * r (ix2 k o) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 i o) ((ValueIdx.contrEquiv1 dot_S512x512_S512x512_S512x512_1_0_0_1_n_n 512 rfl rfl).symm k) = ix2 i k := funext fun a => Fin.ext (by
    match a with
    | ⟨0, _⟩ => exact mmA_lhs_0 _ _
    | ⟨1, _⟩ => exact (mmA_lhs_1 _ _).trans hk)
  have er : dot_S512x512_S512x512_S512x512_1_0_0_1_n_n.rhsIdx (ix2 i o) ((ValueIdx.contrEquiv1 dot_S512x512_S512x512_S512x512_1_0_0_1_n_n 512 rfl rfl).symm k) = ix2 k o := funext fun a => Fin.ext (by
    match a with
    | ⟨0, _⟩ => exact (mmA_rhs_0 _ _).trans hk
    | ⟨1, _⟩ => exact mmA_rhs_1 _ _)
  rw [el, er]

/-! ### The payloads, read at an index -/

/-- the two weight stacks pass through a cast to their own shape. -/
theorem pay19_eq (v82 : Vec Ideal S3x8x512 .f32) : k0_pay19 v82 = v82 := by
  unfold k0_pay19
  exact shapeCast_self _ _

theorem pay20_eq (v84 : Vec Ideal S3x64x64 .f32) : k0_pay20 v84 = v84 := by
  unfold k0_pay20
  exact shapeCast_self _ _

/-- the rows (n, b) of a [4096, 64] array laid node-major: entry (n, 64 b + u) is row 8 n + b, column u. -/
theorem pay21_apply (v81 : FVec Ideal S4096x64 .f32) (n : Fin 512) (b : Fin 8) (u : Fin 64) (hc : b.val * 64 + u.val < 512) :
    k0_pay21 v81 (ix2 n ⟨b.val * 64 + u.val, hc⟩) = v81 (ix2 ⟨n.val * 8 + b.val, by omega⟩ u) := by
  unfold k0_pay21
  simp only [sc_512x8x64_512x512, addf_apply, broadcast_apply, sc_4096x64_512x8x64, Ideal.ofBits_def, add_ofBits_zero]

/-- one diffusion step of the node-major array: a sum over the 512 nodes. -/
theorem pay22_apply (v0 : Vec Ideal S512x512 .f32) (v81 : FVec Ideal S4096x64 .f32) (n : Fin 512) (b : Fin 8) (u : Fin 64)
    (hc : b.val * 64 + u.val < 512) :
    k0_pay22 v0 v81 (ix2 n ⟨b.val * 64 + u.val, hc⟩)
      = ∑ j : Fin 512, v0 (ix2 n j) * v81 (ix2 ⟨j.val * 8 + b.val, by omega⟩ u) := by
  unfold k0_pay22
  simp only [mmA, pay21_apply]

/-- the partial sum: bias, tap 0 of the state and of the input, tap 1 of the state. -/
theorem pay24_apply (v0 : Vec Ideal S512x512 .f32) (v7 : FVec Ideal S512x8 .f32) (v81 : FVec Ideal S4096x64 .f32)
    (v82 : Vec Ideal S3x8x512 .f32) (v84 : Vec Ideal S3x64x64 .f32) (v86 : Vec Ideal S64 .f32)
    (n : Fin 512) (b : Fin 8) (u : Fin 64) (hr : n.val * 8 + b.val < 4096) :
    k0_pay24 v0 v7 v81 v82 v84 v86 (ix2 ⟨n.val * 8 + b.val, hr⟩ u) =
      ((v86 (ix1 u) + ∑ k : Fin 64, v81 (ix2 ⟨n.val * 8 + b.val, hr⟩ k) * v84 (ix3 0 k u))
        + ∑ k : Fin 8, v7 (ix2 n k) * v82 (ix3 0 k ⟨b.val * 64 + u.val, by omega⟩))
        + ∑ k : Fin 64, (∑ j : Fin 512, v0 (ix2 n j) * v81 (ix2 ⟨j.val * 8 + b.val, by omega⟩ k)) * v84 (ix3 1 k u) := by
  unfold k0_pay24
  simp only [addf_apply, broadcast_apply, mmH, mmX, sc_512x8x64_4096x64, sc_512x512_512x8x64, pay21_apply, pay22_apply,
    pay19_eq, pay20_eq, sc_1x64x64_64x64, sc_1x8x512_8x512, ess64_0, ess64_1, ess512_0, bt_1x64_4096x64, sc_64_1x64,
    shapeCast_self, Ideal.ofBits_def, add_ofBits_zero]

/-- tap 1 of the input against its block-diagonal rows, as a [512, 8, 64] array. -/
theorem pay25_apply (v8 : FVec Ideal S512x8 .f32) (v82 : Vec Ideal S3x8x512 .f32) (n : Fin 512) (b : Fin 8) (u : Fin 64) :
    k0_pay25 v8 v82 (ix3 n b u) = ∑ k : Fin 8, v8 (ix2 n k) * v82 (ix3 1 k ⟨b.val * 64 + u.val, by omega⟩) := by
  unfold k0_pay25
  simp only [mmX, sc_512x512_512x8x64, pay19_eq, sc_1x8x512_8x512, ess512_1]

/-- the rest of the sum, the hyperbolic tangent and the blend with the old state. -/
theorem pay26_apply (v5 : FVec Ideal S4096x64 .f32) (v12 : FVec Ideal S512x8 .f32) (v80 : FVec Ideal S4096x64 .f32)
    (v83 : FVec Ideal S3x8x512 .f32) (v85 : FVec Ideal S3x64x64 .f32) (v95 : FVec Ideal S512x512 .f32)
    (v122 : FVec Ideal S4096x64 .f32) (v126 : FVec Ideal S512x8x64 .f32)
    (n : Fin 512) (b : Fin 8) (u : Fin 64) (hr : n.val * 8 + b.val < 4096) :
    k0_pay26 v5 v12 v80 v83 v85 v95 v122 v126 (Scalar.ofBits .f32 0x00000000#32) (ix2 ⟨n.val * 8 + b.val, hr⟩ u) =
      v80 (ix2 ⟨n.val * 8 + b.val, hr⟩ u) * v5 (ix2 ⟨n.val * 8 + b.val, hr⟩ u)
        + (Ideal.ofBits .f32 0x3F800000#32 - v80 (ix2 ⟨n.val * 8 + b.val, hr⟩ u))
          * Ideal.tanh ((((v122 (ix2 ⟨n.val * 8 + b.val, hr⟩ u) + v126 (ix3 n b u))
              + ∑ k : Fin 64, v95 (ix2 n ⟨b.val * 64 + k.val, by omega⟩) * v85 (ix3 2 k u))
              + ∑ k : Fin 8, v12 (ix2 n k) * v83 (ix3 2 k ⟨b.val * 64 + u.val, by omega⟩))) := by
  unfold k0_pay26
  simp only [tanh, addf_apply, mulf_apply, subf_apply, broadcast_apply, mmH, mmX, sc_512x8x64_4096x64, sc_512x512_512x8x64,
    sc_1x64x64_64x64, sc_1x8x512_8x512, ess64_2, ess512_2, Ideal.tanh_def, Ideal.ofBits_def, add_ofBits_zero]

/-! ### The new state of the first cell -/

/-- The composite the kernel builds is the first cell's new state at node n, batch row b, unit u. -/
theorem pay26_sem (w : Wts) (x : Fin 8 → Fin 512 → EReal) (s0 : Fin 8 → Fin 512 → Fin 64 → EReal)
    (v0 : Vec Ideal S512x512 .f32) (v5 : FVec Ideal S4096x64 .f32) (v7 v8 v12 : FVec Ideal S512x8 .f32)
    (v80 v81 : FVec Ideal S4096x64 .f32) (v82 : Vec Ideal S3x8x512 .f32) (v84 : Vec Ideal S3x64x64 .f32)
    (v86 : Vec Ideal S64 .f32) (v95 : FVec Ideal S512x512 .f32)
    (hA : ∀ (n k : Fin 512), v0 (ix2 n k) = w.A n k)
    (h5 : ∀ (n : Fin 512) (b : Fin 8) (u : Fin 64) (hr : n.val * 8 + b.val < 4096), v5 (ix2 ⟨n.val * 8 + b.val, hr⟩ u) = s0 b n u)
    (h7 : ∀ (n : Fin 512) (b : Fin 8), v7 (ix2 n b) = x b n)
    (h8 : ∀ (n : Fin 512) (b : Fin 8), v8 (ix2 n b) = d1 w (x b) n)
    (h12 : ∀ (n : Fin 512) (b : Fin 8), v12 (ix2 n b) = d2 w (x b) n)
    (h80 : ∀ (n : Fin 512) (b : Fin 8) (u : Fin 64) (hr : n.val * 8 + b.val < 4096),
      v80 (ix2 ⟨n.val * 8 + b.val, hr⟩ u) = u0 w (x b) (s0 b) n u)
    (h81 : ∀ (n : Fin 512) (b : Fin 8) (u : Fin 64) (hr : n.val * 8 + b.val < 4096),
      v81 (ix2 ⟨n.val * 8 + b.val, hr⟩ u) = rs0 w (x b) (s0 b) n u)
    (h82 : ∀ (m : Fin 3) (b' b : Fin 8) (o : Fin 64) (hc : b.val * 64 + o.val < 512),
      v82 (ix3 m b' ⟨b.val * 64 + o.val, hc⟩) = eye b' b * w.Wc0 ⟨m.val, by omega⟩ o)
    (h84 : ∀ (m : Fin 3) (u o : Fin 64), v84 (ix3 m u o) = w.Wc0 ⟨(1 + u.val) * 3 + m.val, by omega⟩ o)
    (h86 : ∀ (o : Fin 64), v86 (ix1 o) = w.bc0 o)
    (h95 : ∀ (n : Fin 512) (b : Fin 8) (u : Fin 64) (hc : b.val * 64 + u.val < 512),
      v95 (ix2 n ⟨b.val * 64 + u.val, hc⟩) = d2 w (fun k => rs0 w (x b) (s0 b) k u) n)
    (n : Fin 512) (b : Fin 8) (u : Fin 64) (hr : n.val * 8 + b.val < 4096) :
    k0_pay26 v5 v12 v80 (k0_pay19 v82) (k0_pay20 v84) v95 (k0_pay24 v0 v7 v81 v82 v84 v86) (k0_pay25 v8 v82)
      (Scalar.ofBits .f32 0x00000000#32) (ix2 ⟨n.val * 8 + b.val, hr⟩ u) = h0 w (x b) (s0 b) n u := by
  rw [pay26_apply, pay24_apply, pay25_apply, pay19_eq, pay20_eq]
  simp only [hA, h5, h7, h8, h12, h80, h81, h82, h84, h86, h95]
  rw [kron_sum (fun b' => x b' n) b, kron_sum (fun b' => d1 w (x b') n) b, kron_sum (fun b' => d2 w (x b') n) b]
  unfold Cert.Dcgru.h0 c0
  rw [gconv0_split]
  rfl

end Cert.Dcgru.KerC0
end
-- ==== Proof.KerG1.lean ====
/-
  The second cell's gate, read at an index. The gate's pre-activation is accumulated tap by tap: the bias row,
  then for each diffusion tap the product of the state's rows with the state rows of the weights and the product of
  the input's rows with the input rows of the weights; each product is a [4096, 64] · [64, 128] contraction whose
  left operand is a node-major [512, 512] array re-read as rows (node, batch) × unit.
-/
import proofs.«110417_g44504451121623_cont_8to1_c_180_11_alg».proof.Proof.Gen.KernelIdeal.Skeleton
import proofs.«110417_g44504451121623_cont_8to1_c_180_11_alg».proof.Proof.Spec
import proofs.«110417_g44504451121623_cont_8to1_c_180_11_alg».proof.Proof.Alg
import Idealize.ShloMosaic.Lib.Pipeline.Value
import Idealize.ShloMosaic.Lib.ValueIdx
import Idealize.ShloMosaic.PureOps.Ideal.Laws

noncomputable section
namespace Cert.Dcgru.KerG1
open Cert.Dcgru Cert.KernelIdeal Cert.KernelIdeal.Gen Idealize.ShloMosaic Idealize.ShloMosaic.ValueIdx
variable [Cert.KernelIdeal.Facts]

/-! ### Layout operations read at an index -/

/-- rows (node, batch) × unit of the [512, 8, 64] view -/
theorem sc_512x8x64_4096x64 {α : Type} (x : S512x8x64.Idx → α) (h : S512x8x64.ShapeCasts S4096x64)
    (n : Fin 512) (b : Fin 8) (u : Fin 64) (hr : n.val * 8 + b.val < 4096) :
    shapeCast S4096x64 x h (ix2 ⟨n.val * 8 + b.val, hr⟩ u) = x (ix3 n b u) := by
  refine shapeCast_apply x h _ _ ?_
  rw [Shape.rowMajor_val_three, Shape.rowMajor_val_two]
  rfl

theorem sc_4096x64_512x8x64 {α : Type} (x : S4096x64.Idx → α) (h : S4096x64.ShapeCasts S512x8x64)
    (n : Fin 512) (b : Fin 8) (u : Fin 64) :
    shapeCast S512x8x64 x h (ix3 n b u) = x (ix2 ⟨n.val * 8 + b.val, by omega⟩ u) := by
  refine shapeCast_apply x h _ _ ?_
  rw [Shape.rowMajor_val_three, Shape.rowMajor_val_two]
  rfl

/-- node-major column (batch, unit) of the [512, 8, 64] view -/
theorem sc_512x8x64_512x512 {α : Type} (x : S512x8x64.Idx → α) (h : S512x8x64.ShapeCasts S512x512)
    (n : Fin 512) (b : Fin 8) (u : Fin 64) (hc : b.val * 64 + u.val < 512) :
    shapeCast S512x512 x h (ix2 n ⟨b.val * 64 + u.val, hc⟩) = x (ix3 n b u) := by
  refine shapeCast_apply x h _ _ ?_
  rw [Shape.rowMajor_val_three, Shape.rowMajor_val_two]
  show (n.val * 8 + b.val) * 64 + u.val = n.val * 512 + (b.val * 64 + u.val)
  omega

theorem sc_512x512_512x8x64 {α : Type} (x : S512x512.Idx → α) (h : S512x512.ShapeCasts S512x8x64)
    (n : Fin 512) (b : Fin 8) (u : Fin 64) :
    shapeCast S512x8x64 x h (ix3 n b u) = x (ix2 n ⟨b.val * 64 + u.val, by omega⟩) := by
  refine shapeCast_apply x h _ _ ?_
  rw [Shape.rowMajor_val_three, Shape.rowMajor_val_two]
  show n.val * 512 + (b.val * 64 + u.val) = (n.val * 8 + b.val) * 64 + u.val
  omega

theorem sc_3x64x128_id {α : Type} (x : S3x64x128.Idx → α) (h : S3x64x128.ShapeCasts S3x64x128) (j : S3x64x128.Idx) :
    shapeCast S3x64x128 x h j = x j :=
  shapeCast_apply x h _ _ rfl

theorem sc_1x64x128_64x128 {α : Type} (x : S1x64x128.Idx → α) (h : S1x64x128.ShapeCasts S64x128) (u : Fin 64) (o : Fin 128) :
    shapeCast S64x128 x h (ix2 u o) = x (ix3 0 u o) := by
  refine shapeCast_apply x h _ _ ?_
  rw [Shape.rowMajor_val_three, Shape.rowMajor_val_two]
  show ((0 : ℕ) * 64 + u.val) * 128 + o.val = u.val * 128 + o.val
  omega

theorem sl0_3x64x128 {α : Type} (x : S3x64x128.Idx → α) (h : S3x64x128.Slices ![0, 0, 0] S1x64x128) (u : Fin 64) (o : Fin 128) :
    extractStridedSlice S1x64x128 ![0, 0, 0] x h (ix3 0 u o) = x (ix3 0 u o) := by
  refine extractStridedSlice_apply _ x h _ _ (fun a => ?_)
  match a with
  | ⟨0, _⟩ => rfl
  | ⟨1, _⟩ => exact (Nat.zero_add _).symm
  | ⟨2, _⟩ => exact (Nat.zero_add _).symm

theorem sl1_3x64x128 {α : Type} (x : S3x64x128.Idx → α) (h : S3x64x128.Slices ![1, 0, 0] S1x64x128) (u : Fin 64) (o : Fin 128) :
    extractStridedSlice S1x64x128 ![1, 0, 0] x h (ix3 0 u o) = x (ix3 1 u o) := by
  refine extractStridedSlice_apply _ x h _ _ (fun a => ?_)
  match a with
  | ⟨0, _⟩ => rfl
  | ⟨1, _⟩ => exact (Nat.zero_add _).symm
  | ⟨2, _⟩ => exact (Nat.zero_add _).symm

theorem sl2_3x64x128 {α : Type} (x : S3x64x128.Idx → α) (h : S3x64x128.Slices ![2, 0, 0] S1x64x128) (u : Fin 64) (o : Fin 128) :
    extractStridedSlice S1x64x128 ![2, 0, 0] x h (ix3 0 u o) = x (ix3 2 u o) := by
  refine extractStridedSlice_apply _ x h _ _ (fun a => ?_)
  match a with
  | ⟨0, _⟩ => rfl
  | ⟨1, _⟩ => exact (Nat.zero_add _).symm
  | ⟨2, _⟩ => exact (Nat.zero_add _).symm

theorem sc_128_1x128 {α : Type} (x : S128.Idx → α) (h : S128.ShapeCasts S1x128) (o : Fin 128) :
    shapeCast S1x128 x h (ix2 0 o) = x (ix1 o) := by
  refine shapeCast_apply x h _ _ ?_
  rw [Shape.rowMajor_val_one, Shape.rowMajor_val_two]
  show o.val = (0 : ℕ) * 128 + o.val
  omega

theorem sc_1x128_id {α : Type} (x : S1x128.Idx → α) (h : S1x128.ShapeCasts S1x128) (j : S1x128.Idx) :
    shapeCast S1x128 x h j = x j :=
  shapeCast_apply x h _ _ rfl

theorem bc_1x128_4096x128 {α : Type} (x : S1x128.Idx → α) (h : S1x128.Broadcasts S4096x128) (r : Fin 4096) (o : Fin 128) :
    broadcastTo S4096x128 x h (ix2 r o) = x (ix2 0 o) := by
  refine broadcastTo_apply x h _ _ (fun a => ?_)
  match a with
  | ⟨0, _⟩ => rfl
  | ⟨1, _⟩ => rfl

/-- columns 64 … 127 -/
theorem sl64_4096x128 {α : Type} (x : S4096x128.Idx → α) (h : S4096x128.Slices ![0, 64] S4096x64) (r : Fin 4096) (u : Fin 64) :
    extractStridedSlice S4096x64 ![0, 64] x h (ix2 r u) = x (ix2 r ⟨64 + u.val, by omega⟩) := by
  refine extractStridedSlice_apply _ x h _ _ (fun a => ?_)
  match a with
  | ⟨0, _⟩ => exact (Nat.zero_add _).symm
  | ⟨1, _⟩ => rfl

/-- columns 0 … 63 -/
theorem sl0_4096x128 {α : Type} (x : S4096x128.Idx → α) (h : S4096x128.Slices ![0, 0] S4096x64) (r : Fin 4096) (u : Fin 64) :
    extractStridedSlice S4096x64 ![0, 0] x h (ix2 r u) = x (ix2 r ⟨u.val, by omega⟩) := by
  refine extractStridedSlice_apply _ x h _ _ (fun a => ?_)
  match a with
  | ⟨0, _⟩ => exact (Nat.zero_add _).symm
  | ⟨1, _⟩ => exact (Nat.zero_add _).symm

theorem logistic_apply (x : FVec Ideal S4096x128 .f32) (i : S4096x128.Idx) : logistic x i = Ideal.logistic (x i) := rfl

/-! ### The two contractions read as sums -/

theorem mm_4096x64_64x128_lhs_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem mm_4096x64_64x128_lhs_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem mm_4096x64_64x128_rhs_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem mm_4096x64_64x128_rhs_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- the product into a zero accumulator, read at an index, is the sum over the contracted axis -/
theorem mm_4096x64_64x128 (l : FVec Ideal S4096x64 .f32) (r : FVec Ideal S64x128 .f32) (i : Fin 4096) (o : Fin 128) :
    matmul dot_S4096x64_S64x128_S4096x128_1_0_0_1_n_n none l r (constant S4096x128 .f32 0x00000000#32) (ix2 i o)
      = ∑ k : Fin 64, l (ix2 i k) * r (ix2 k o) := by
  simp only [matmul]
  rw [Ideal.matmul_constant_zero_apply, ← Equiv.sum_comp (ValueIdx.contrEquiv1 dot_S4096x64_S64x128_S4096x128_1_0_0_1_n_n 64 rfl rfl).symm]
  refine Finset.sum_congr rfl fun k _ => ?_
  have hk := ValueIdx.contrEquiv1_symm_val dot_S4096x64_S64x128_S4096x128_1_0_0_1_n_n 64 rfl rfl k
  have el : dot_S4096x64_S64x128_S4096x128_1_0_0_1_n_n.lhsIdx (ix2 i o) ((ValueIdx.contrEquiv1 dot_S4096x64_S64x128_S4096x128_1_0_0_1_n_n 64 rfl rfl).symm k) = ix2 i k := funext fun a => Fin.ext (by
    match a with
    | ⟨0, _⟩ => exact mm_4096x64_64x128_lhs_0 _ _
    | ⟨1, _⟩ => exact (mm_4096x64_64x128_lhs_1 _ _).trans hk)
  have er : dot_S4096x64_S64x128_S4096x128_1_0_0_1_n_n.rhsIdx (ix2 i o) ((ValueIdx.contrEquiv1 dot_S4096x64_S64x128_S4096x128_1_0_0_1_n_n 64 rfl rfl).symm k) = ix2 k o := funext fun a => Fin.ext (by
    match a with
    | ⟨0, _⟩ => exact (mm_4096x64_64x128_rhs_0 _ _).trans hk
    | ⟨1, _⟩ => exact mm_4096x64_64x128_rhs_1 _ _)
  rw [el, er]

theorem mm_512x512_512x512_lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem mm_512x512_512x512_lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem mm_512x512_512x512_rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem mm_512x512_512x512_rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- the product into a zero accumulator, read at an index, is the sum over the contracted axis -/
theorem mm_512x512_512x512 (l : FVec Ideal S512x512 .f32) (r : FVec Ideal S512x512 .f32) (i : Fin 512) (o : Fin 512) :
    matmul dot_S512x512_S512x512_S512x512_1_0_0_1_n_n none l r (constant S512x512 .f32 0x00000000#32) (ix2 i o)
      = ∑ k : Fin 512, l (ix2 i k) * r (ix2 k o) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 i o) ((ValueIdx.contrEquiv1 dot_S512x512_S512x512_S512x512_1_0_0_1_n_n 512 rfl rfl).symm k) = ix2 i k := funext fun a => Fin.ext (by
    match a with
    | ⟨0, _⟩ => exact mm_512x512_512x512_lhs_0 _ _
    | ⟨1, _⟩ => exact (mm_512x512_512x512_lhs_1 _ _).trans hk)
  have er : dot_S512x512_S512x512_S512x512_1_0_0_1_n_n.rhsIdx (ix2 i o) ((ValueIdx.contrEquiv1 dot_S512x512_S512x512_S512x512_1_0_0_1_n_n 512 rfl rfl).symm k) = ix2 k o := funext fun a => Fin.ext (by
    match a with
    | ⟨0, _⟩ => exact (mm_512x512_512x512_rhs_0 _ _).trans hk
    | ⟨1, _⟩ => exact mm_512x512_512x512_rhs_1 _ _)
  rw [el, er]

/-! ### The operands of the products -/

/-- a node-major array, plus the literal zero, re-read as rows (node, batch) × unit -/
theorem rows_nm (z : FVec Ideal S512x512 .f32) (h1 : S512x512.ShapeCasts S512x8x64) (h2 : S512x8x64.ShapeCasts S4096x64)
    (n : Fin 512) (b : Fin 8) (u : Fin 64) (hr : n.val * 8 + b.val < 4096) :
    shapeCast S4096x64 (addf (shapeCast S512x8x64 z h1) (broadcast S512x8x64 (Scalar.ofBits .f32 0x00000000#32))) h2
        (ix2 ⟨n.val * 8 + b.val, hr⟩ u)
      = z (ix2 n ⟨b.val * 64 + u.val, by omega⟩) := by
  rw [sc_512x8x64_4096x64, addf_apply, broadcast_apply, sc_512x512_512x8x64]
  exact add_ofBits_zero _

/-- the state's rows, re-read node-major -/
theorem pay33_apply (v157 : FVec Ideal S4096x64 .f32) (n : Fin 512) (b : Fin 8) (u : Fin 64) (hc : b.val * 64 + u.val < 512) :
    k0_pay33 v157 (ix2 n ⟨b.val * 64 + u.val, hc⟩) = v157 (ix2 ⟨n.val * 8 + b.val, by omega⟩ u) := by
  unfold k0_pay33
  simp only [sc_512x8x64_512x512]
  rw [addf_apply, broadcast_apply, sc_4096x64_512x8x64]
  exact add_ofBits_zero _

/-- one diffusion step of the state, node-major -/
theorem pay34_apply (v0 : Vec Ideal S512x512 .f32) (v157 : FVec Ideal S4096x64 .f32) (n : Fin 512) (b : Fin 8) (u : Fin 64)
    (hc : b.val * 64 + u.val < 512) :
    k0_pay34 v0 v157 (ix2 n ⟨b.val * 64 + u.val, hc⟩)
      = ∑ k : Fin 512, v0 (ix2 n k) * v157 (ix2 ⟨k.val * 8 + b.val, by omega⟩ u) := by
  unfold k0_pay34
  simp only [mm_512x512_512x512, pay33_apply]

/-! ### The partial sum of the first two taps, and the gate -/

/-- bias + state rows · state weights (tap 0) + input rows · input weights (tap 0) + the same two products at tap 1 -/
theorem pay36_nat (v0 : Vec Ideal S512x512 .f32) (v157 : FVec Ideal S4096x64 .f32) (v161 v162 : FVec Ideal S512x512 .f32)
    (v168 : FVec Ideal S3x64x128 .f32) (v169 : Vec Ideal S3x64x128 .f32) (v171 : Vec Ideal S128 .f32)
    (n : Fin 512) (b : Fin 8) (o : Fin 128) (hr : n.val * 8 + b.val < 4096) :
    k0_pay36 v0 v157 v161 v162 v168 v169 v171 (ix2 ⟨n.val * 8 + b.val, hr⟩ o) =
      ((((v171 (ix1 o) + ∑ u : Fin 64, v157 (ix2 ⟨n.val * 8 + b.val, hr⟩ u) * v169 (ix3 0 u o))
        + ∑ u : Fin 64, v161 (ix2 n ⟨b.val * 64 + u.val, by omega⟩) * v168 (ix3 0 u o))
        + ∑ u : Fin 64, (∑ k : Fin 512, v0 (ix2 n k) * v157 (ix2 ⟨k.val * 8 + b.val, by omega⟩ u)) * v169 (ix3 1 u o))
        + ∑ u : Fin 64, v162 (ix2 n ⟨b.val * 64 + u.val, by omega⟩) * v168 (ix3 1 u o)) := by
  unfold k0_pay36 k0_pay32
  simp only [addf_apply, mm_4096x64_64x128, rows_nm, sc_1x64x128_64x128, sl0_3x64x128, sl1_3x64x128, sc_3x64x128_id,
    bc_1x128_4096x128, sc_1x128_id, sc_128_1x128, pay33_apply, pay34_apply]

/-- the gate: the logistic function of the partial sum plus the two products at tap 2 -/
theorem pay37_nat (v166 : FVec Ideal S512x512 .f32) (v168 v170 : FVec Ideal S3x64x128 .f32) (v180 : FVec Ideal S512x512 .f32)
    (v215 : FVec Ideal S4096x128 .f32) (n : Fin 512) (b : Fin 8) (o : Fin 128) (hr : n.val * 8 + b.val < 4096) :
    k0_pay37 v166 v168 v170 v180 v215 (ix2 ⟨n.val * 8 + b.val, hr⟩ o) =
      Ideal.logistic ((v215 (ix2 ⟨n.val * 8 + b.val, hr⟩ o)
        + ∑ u : Fin 64, v180 (ix2 n ⟨b.val * 64 + u.val, by omega⟩) * v170 (ix3 2 u o))
        + ∑ u : Fin 64, v166 (ix2 n ⟨b.val * 64 + u.val, by omega⟩) * v168 (ix3 2 u o)) := by
  unfold k0_pay37
  simp only [logistic_apply, addf_apply, mm_4096x64_64x128, rows_nm, sc_1x64x128_64x128, sl2_3x64x128]

/-! ### The gate is the second cell's gate -/

/-- the gate at row (node n, batch b), channel o -/
theorem pay37_sem (w : Wts) (x : Fin 8 → Fin 512 → EReal) (s0 s1 : Fin 8 → Fin 512 → Fin 64 → EReal)
    (v0 : Vec Ideal S512x512 .f32) (v157 : FVec Ideal S4096x64 .f32) (v161 v162 v166 : FVec Ideal S512x512 .f32)
    (v168 : FVec Ideal S3x64x128 .f32) (v169 : Vec Ideal S3x64x128 .f32) (v170 : FVec Ideal S3x64x128 .f32)
    (v171 : Vec Ideal S128 .f32) (v180 : FVec Ideal S512x512 .f32)
    (hA : ∀ (n k : Fin 512), v0 (ix2 n k) = w.A n k)
    (h157 : ∀ (n : Fin 512) (b : Fin 8) (u : Fin 64) (hr : n.val * 8 + b.val < 4096), v157 (ix2 ⟨n.val * 8 + b.val, hr⟩ u) = s1 b n u)
    (h161 : ∀ (n : Fin 512) (b : Fin 8) (u : Fin 64) (hc : b.val * 64 + u.val < 512), v161 (ix2 n ⟨b.val * 64 + u.val, hc⟩) = h0 w (x b) (s0 b) n u)
    (h162 : ∀ (n : Fin 512) (b : Fin 8) (u : Fin 64) (hc : b.val * 64 + u.val < 512), v162 (ix2 n ⟨b.val * 64 + u.val, hc⟩) = d1 w (fun k => h0 w (x b) (s0 b) k u) n)
    (h166 : ∀ (n : Fin 512) (b : Fin 8) (u : Fin 64) (hc : b.val * 64 + u.val < 512), v166 (ix2 n ⟨b.val * 64 + u.val, hc⟩) = d2 w (fun k => h0 w (x b) (s0 b) k u) n)
    (h168 : ∀ (m : Fin 3) (u : Fin 64) (o : Fin 128), v168 (ix3 m u o) = w.Wg1 ⟨u.val * 3 + m.val, by omega⟩ o)
    (h169 : ∀ (m : Fin 3) (u : Fin 64) (o : Fin 128), v169 (ix3 m u o) = w.Wg1 ⟨(64 + u.val) * 3 + m.val, by omega⟩ o)
    (h170 : ∀ (m : Fin 3) (u : Fin 64) (o : Fin 128), v170 (ix3 m u o) = w.Wg1 ⟨(64 + u.val) * 3 + m.val, by omega⟩ o)
    (h171 : ∀ (o : Fin 128), v171 (ix1 o) = w.bg1 o)
    (h180 : ∀ (n : Fin 512) (b : Fin 8) (u : Fin 64) (hc : b.val * 64 + u.val < 512), v180 (ix2 n ⟨b.val * 64 + u.val, hc⟩) = d2 w (fun k => s1 b k u) n)
    (n : Fin 512) (b : Fin 8) (o : Fin 128) (hr : n.val * 8 + b.val < 4096) :
    k0_pay37 v166 v168 v170 v180 (k0_pay36 v0 v157 v161 v162 v168 v169 v171) (ix2 ⟨n.val * 8 + b.val, hr⟩ o)
      = g1 w (x b) (s0 b) (s1 b) n o := by
  rw [pay37_nat, pay36_nat]
  simp only [hA, h157, h161, h162, h166, h168, h169, h170, h171, h180]
  unfold g1
  rw [gconv1_split]
  rfl

/-- columns 64 … 127 of the gate: the update gate -/
theorem pay38_sem (w : Wts) (x : Fin 8 → Fin 512 → EReal) (s0 s1 : Fin 8 → Fin 512 → Fin 64 → EReal)
    (v0 : Vec Ideal S512x512 .f32) (v157 : FVec Ideal S4096x64 .f32) (v161 v162 v166 : FVec Ideal S512x512 .f32)
    (v168 : FVec Ideal S3x64x128 .f32) (v169 : Vec Ideal S3x64x128 .f32) (v170 : FVec Ideal S3x64x128 .f32)
    (v171 : Vec Ideal S128 .f32) (v180 : FVec Ideal S512x512 .f32)
    (hA : ∀ (n k : Fin 512), v0 (ix2 n k) = w.A n k)
    (h157 : ∀ (n : Fin 512) (b : Fin 8) (u : Fin 64) (hr : n.val * 8 + b.val < 4096), v157 (ix2 ⟨n.val * 8 + b.val, hr⟩ u) = s1 b n u)
    (h161 : ∀ (n : Fin 512) (b : Fin 8) (u : Fin 64) (hc : b.val * 64 + u.val < 512), v161 (ix2 n ⟨b.val * 64 + u.val, hc⟩) = h0 w (x b) (s0 b) n u)
    (h162 : ∀ (n : Fin 512) (b : Fin 8) (u : Fin 64) (hc : b.val * 64 + u.val < 512), v162 (ix2 n ⟨b.val * 64 + u.val, hc⟩) = d1 w (fun k => h0 w (x b) (s0 b) k u) n)
    (h166 : ∀ (n : Fin 512) (b : Fin 8) (u : Fin 64) (hc : b.val * 64 + u.val < 512), v166 (ix2 n ⟨b.val * 64 + u.val, hc⟩) = d2 w (fun k => h0 w (x b) (s0 b) k u) n)
    (h168 : ∀ (m : Fin 3) (u : Fin 64) (o : Fin 128), v168 (ix3 m u o) = w.Wg1 ⟨u.val * 3 + m.val, by omega⟩ o)
    (h169 : ∀ (m : Fin 3) (u : Fin 64) (o : Fin 128), v169 (ix3 m u o) = w.Wg1 ⟨(64 + u.val) * 3 + m.val, by omega⟩ o)
    (h170 : ∀ (m : Fin 3) (u : Fin 64) (o : Fin 128), v170 (ix3 m u o) = w.Wg1 ⟨(64 + u.val) * 3 + m.val, by omega⟩ o)
    (h171 : ∀ (o : Fin 128), v171 (ix1 o) = w.bg1 o)
    (h180 : ∀ (n : Fin 512) (b : Fin 8) (u : Fin 64) (hc : b.val * 64 + u.val < 512), v180 (ix2 n ⟨b.val * 64 + u.val, hc⟩) = d2 w (fun k => s1 b k u) n)
    (n : Fin 512) (b : Fin 8) (u : Fin 64) (hr : n.val * 8 + b.val < 4096) :
    k0_pay38 v166 v168 v170 v180 (k0_pay36 v0 v157 v161 v162 v168 v169 v171) (ix2 ⟨n.val * 8 + b.val, hr⟩ u)
      = u1 w (x b) (s0 b) (s1 b) n u := by
  unfold k0_pay38
  simp only [sl64_4096x128]
  rw [pay37_sem w x s0 s1 v0 v157 v161 v162 v166 v168 v169 v170 v171 v180 hA h157 h161 h162 h166 h168 h169 h170 h171 h180]
  rfl

/-- columns 0 … 63 of the gate: the reset gate -/
theorem pay37_r_sem (w : Wts) (x : Fin 8 → Fin 512 → EReal) (s0 s1 : Fin 8 → Fin 512 → Fin 64 → EReal)
    (v0 : Vec Ideal S512x512 .f32) (v157 : FVec Ideal S4096x64 .f32) (v161 v162 v166 : FVec Ideal S512x512 .f32)
    (v168 : FVec Ideal S3x64x128 .f32) (v169 : Vec Ideal S3x64x128 .f32) (v170 : FVec Ideal S3x64x128 .f32)
    (v171 : Vec Ideal S128 .f32) (v180 : FVec Ideal S512x512 .f32)
    (hA : ∀ (n k : Fin 512), v0 (ix2 n k) = w.A n k)
    (h157 : ∀ (n : Fin 512) (b : Fin 8) (u : Fin 64) (hr : n.val * 8 + b.val < 4096), v157 (ix2 ⟨n.val * 8 + b.val, hr⟩ u) = s1 b n u)
    (h161 : ∀ (n : Fin 512) (b : Fin 8) (u : Fin 64) (hc : b.val * 64 + u.val < 512), v161 (ix2 n ⟨b.val * 64 + u.val, hc⟩) = h0 w (x b) (s0 b) n u)
    (h162 : ∀ (n : Fin 512) (b : Fin 8) (u : Fin 64) (hc : b.val * 64 + u.val < 512), v162 (ix2 n ⟨b.val * 64 + u.val, hc⟩) = d1 w (fun k => h0 w (x b) (s0 b) k u) n)
    (h166 : ∀ (n : Fin 512) (b : Fin 8) (u : Fin 64) (hc : b.val * 64 + u.val < 512), v166 (ix2 n ⟨b.val * 64 + u.val, hc⟩) = d2 w (fun k => h0 w (x b) (s0 b) k u) n)
    (h168 : ∀ (m : Fin 3) (u : Fin 64) (o : Fin 128), v168 (ix3 m u o) = w.Wg1 ⟨u.val * 3 + m.val, by omega⟩ o)
    (h169 : ∀ (m : Fin 3) (u : Fin 64) (o : Fin 128), v169 (ix3 m u o) = w.Wg1 ⟨(64 + u.val) * 3 + m.val, by omega⟩ o)
    (h170 : ∀ (m : Fin 3) (u : Fin 64) (o : Fin 128), v170 (ix3 m u o) = w.Wg1 ⟨(64 + u.val) * 3 + m.val, by omega⟩ o)
    (h171 : ∀ (o : Fin 128), v171 (ix1 o) = w.bg1 o)
    (h180 : ∀ (n : Fin 512) (b : Fin 8) (u : Fin 64) (hc : b.val * 64 + u.val < 512), v180 (ix2 n ⟨b.val * 64 + u.val, hc⟩) = d2 w (fun k => s1 b k u) n)
    (h : S4096x128.Slices ![0, 0] S4096x64)
    (n : Fin 512) (b : Fin 8) (u : Fin 64) (hr : n.val * 8 + b.val < 4096) :
    extractStridedSlice S4096x64 ![0, 0] (k0_pay37 v166 v168 v170 v180 (k0_pay36 v0 v157 v161 v162 v168 v169 v171)) h
        (ix2 ⟨n.val * 8 + b.val, hr⟩ u)
      = r1 w (x b) (s0 b) (s1 b) n u := by
  rw [sl0_4096x128, pay37_sem w x s0 s1 v0 v157 v161 v162 v166 v168 v169 v170 v171 v180 hA h157 h161 h162 h166 h168 h169 h170 h171 h180]
  rfl

end Cert.Dcgru.KerG1
end
-- ==== Proof.KerC1.lean ====
/-
  The second cell's candidate and new state, and the read-out, as the kernel computes them.

  The candidate's pre-activation is a bias row plus six products of a [4096, 64] array of node-batch rows with a
  [64, 64] block of the candidate weights: the reset state and the first cell's new state, and one and two
  diffusion steps of each. Read at row 8 n + b and channel o, each product is a sum over the 64 units, and
  the seven terms are the second graph convolution's tap-by-tap form. The new state is
  u ⊙ s + (1 - u) ⊙ tanh(pre-activation). The read-out multiplies the new state by the projection row,
  sums over the units, adds the projection bias and exchanges the node and batch axes.
-/
import proofs.«110417_g44504451121623_cont_8to1_c_180_11_alg».proof.Proof.Gen.KernelIdeal.Skeleton
import proofs.«110417_g44504451121623_cont_8to1_c_180_11_alg».proof.Proof.Spec
import proofs.«110417_g44504451121623_cont_8to1_c_180_11_alg».proof.Proof.Alg
import Idealize.ShloMosaic.Lib.Pipeline.Value
import Idealize.ShloMosaic.Lib.ValueIdx
import Idealize.ShloMosaic.PureOps.Ideal.Laws

noncomputable section
namespace Cert.Dcgru.KerC1
open Cert.Dcgru Cert.KernelIdeal Cert.KernelIdeal.Gen Idealize.ShloMosaic Idealize.ShloMosaic.ValueIdx
variable [Cert.KernelIdeal.Facts]

/-! ### Layout operations read at an index -/

/-- A [512, 512] array whose column is 64 b + u, viewed as [512, 8, 64]. -/
theorem sc_512x512_512x8x64 {α : Type} (x : S512x512.Idx → α) (h : S512x512.ShapeCasts S512x8x64)
    (n : Fin 512) (b : Fin 8) (u : Fin 64) :
    shapeCast S512x8x64 x h (ix3 n b u) = x (ix2 n ⟨b.val * 64 + u.val, by omega⟩) := by
  refine shapeCast_apply x h _ _ ?_
  rw [Shape.rowMajor_val_three, Shape.rowMajor_val_two]
  show n.val * 512 + (b.val * 64 + u.val) = (n.val * 8 + b.val) * 64 + u.val
  omega

/-- A [512, 8, 64] array viewed as [4096, 64]: row 8 n + b. -/
theorem sc_512x8x64_4096x64 {α : Type} (x : S512x8x64.Idx → α) (h : S512x8x64.ShapeCasts S4096x64)
    (n : Fin 512) (b : Fin 8) (u : Fin 64) (hr : n.val * 8 + b.val < 4096) :
    shapeCast S4096x64 x h (ix2 ⟨n.val * 8 + b.val, hr⟩ u) = x (ix3 n b u) := by
  refine shapeCast_apply x h _ _ ?_
  rw [Shape.rowMajor_val_three, Shape.rowMajor_val_two]
  rfl

/-- Block 0 of a [3, 64, 64] array. -/
theorem sl0_3x64x64 {α : Type} (x : S3x64x64.Idx → α) (h : S3x64x64.Slices ![0, 0, 0] S1x64x64) (u o : Fin 64) :
    extractStridedSlice S1x64x64 ![0, 0, 0] x h (ix3 0 u o) = x (ix3 0 u o) := by
  refine extractStridedSlice_apply _ x h _ _ (fun a => ?_)
  match a with
  | ⟨0, _⟩ => rfl
  | ⟨1, _⟩ => exact (Nat.zero_add _).symm
  | ⟨2, _⟩ => exact (Nat.zero_add _).symm

/-- Block 1 of a [3, 64, 64] array. -/
theorem sl1_3x64x64 {α : Type} (x : S3x64x64.Idx → α) (h : S3x64x64.Slices ![1, 0, 0] S1x64x64) (u o : Fin 64) :
    extractStridedSlice S1x64x64 ![1, 0, 0] x h (ix3 0 u o) = x (ix3 1 u o) := by
  refine extractStridedSlice_apply _ x h _ _ (fun a => ?_)
  match a with
  | ⟨0, _⟩ => rfl
  | ⟨1, _⟩ => exact (Nat.zero_add _).symm
  | ⟨2, _⟩ => exact (Nat.zero_add _).symm

/-- Block 2 of a [3, 64, 64] array. -/
theorem sl2_3x64x64 {α : Type} (x : S3x64x64.Idx → α) (h : S3x64x64.Slices ![2, 0, 0] S1x64x64) (u o : Fin 64) :
    extractStridedSlice S1x64x64 ![2, 0, 0] x h (ix3 0 u o) = x (ix3 2 u o) := by
  refine extractStridedSlice_apply _ x h _ _ (fun a => ?_)
  match a with
  | ⟨0, _⟩ => rfl
  | ⟨1, _⟩ => exact (Nat.zero_add _).symm
  | ⟨2, _⟩ => exact (Nat.zero_add _).symm

/-- A [1, 64, 64] array viewed as [64, 64]. -/
theorem sc_1x64x64_64x64 {α : Type} (x : S1x64x64.Idx → α) (h : S1x64x64.ShapeCasts S64x64) (u o : Fin 64) :
    shapeCast S64x64 x h (ix2 u o) = x (ix3 0 u o) := by
  refine shapeCast_apply x h _ _ ?_
  rw [Shape.rowMajor_val_three, Shape.rowMajor_val_two]
  show ((0 : ℕ) * 64 + u.val) * 64 + o.val = u.val * 64 + o.val
  omega

/-! ### The [4096, 64] · [64, 64] product into a zero accumulator, read at an index -/

theorem lhs_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

theorem mm_4096x64_64x64 (l : FVec Ideal S4096x64 .f32) (r : FVec Ideal S64x64 .f32) (i : Fin 4096) (o : Fin 64) :
    matmul dot_S4096x64_S64x64_S4096x64_1_0_0_1_n_n none l r (constant S4096x64 .f32 0x00000000#32) (ix2 i o)
      = ∑ k : Fin 64, l (ix2 i k) * r (ix2 k o) := by
  simp only [matmul]
  rw [Ideal.matmul_constant_zero_apply, ← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 i o) ((ValueIdx.contrEquiv1 dot_S4096x64_S64x64_S4096x64_1_0_0_1_n_n 64 rfl rfl).symm k) = ix2 i k := funext fun a => Fin.ext (by
    match a with
    | ⟨0, _⟩ => exact lhs_0 _ _
    | ⟨1, _⟩ => exact (lhs_1 _ _).trans hk)
  have er : dot_S4096x64_S64x64_S4096x64_1_0_0_1_n_n.rhsIdx (ix2 i o) ((ValueIdx.contrEquiv1 dot_S4096x64_S64x64_S4096x64_1_0_0_1_n_n 64 rfl rfl).symm k) = ix2 k o := funext fun a => Fin.ext (by
    match a with
    | ⟨0, _⟩ => exact (rhs_0 _ _).trans hk
    | ⟨1, _⟩ => exact rhs_1 _ _)
  rw [el, er]

/-! ### The candidate and the new state in natural form -/

/-- The new state at row 8 n + b, channel o, in terms of the parameters at their indices. -/
theorem pay47_nat (v157 : FVec Ideal S4096x64 .f32) (v161 v162 v166 : FVec Ideal S512x512 .f32) (v234 : FVec Ideal S4096x64 .f32)
    (v237 v239 : FVec Ideal S3x64x64 .f32) (v245 v249 : FVec Ideal S512x512 .f32) (v252 v256 : FVec Ideal S4096x64 .f32)
    (v258 : FVec Ideal S64x64 .f32) (n : Fin 512) (b : Fin 8) (o : Fin 64) (hr : n.val * 8 + b.val < 4096) :
    k0_pay47 v157 v161 v162 v166 v234 v237 v239 v245 v249 v252 v256 v258 (constant S4096x64 .f32 0x00000000#32) (ix2 ⟨n.val * 8 + b.val, hr⟩ o)
      = v234 (ix2 ⟨n.val * 8 + b.val, hr⟩ o) * v157 (ix2 ⟨n.val * 8 + b.val, hr⟩ o)
        + (one - v234 (ix2 ⟨n.val * 8 + b.val, hr⟩ o)) * Ideal.tanh
          ((((((v252 (ix2 ⟨n.val * 8 + b.val, hr⟩ o)
            + ∑ k : Fin 64, v256 (ix2 ⟨n.val * 8 + b.val, hr⟩ k) * v258 (ix2 k o))
            + ∑ k : Fin 64, v161 (ix2 n ⟨b.val * 64 + k.val, by omega⟩) * v237 (ix3 0 k o))
            + ∑ k : Fin 64, v245 (ix2 n ⟨b.val * 64 + k.val, by omega⟩) * v239 (ix3 1 k o))
            + ∑ k : Fin 64, v162 (ix2 n ⟨b.val * 64 + k.val, by omega⟩) * v237 (ix3 1 k o))
            + ∑ k : Fin 64, v249 (ix2 n ⟨b.val * 64 + k.val, by omega⟩) * v239 (ix3 2 k o))
            + ∑ k : Fin 64, v166 (ix2 n ⟨b.val * 64 + k.val, by omega⟩) * v237 (ix3 2 k o)) := by
  unfold k0_pay47
  simp only [tanh, addf_apply, mulf_apply, subf_apply, broadcast_apply, mm_4096x64_64x64, sc_512x8x64_4096x64,
    sc_512x512_512x8x64, sc_1x64x64_64x64, sl0_3x64x64, sl1_3x64x64, sl2_3x64x64, Ideal.tanh_def, Ideal.ofBits_def, Ideal.ofBits_zero_f32, add_zero]
  rfl

/-- The kernel's new state of the second cell is the specification's. -/
theorem pay47_sem (w : Wts) (x : Fin 8 → Fin 512 → EReal) (s0 s1 : Fin 8 → Fin 512 → Fin 64 → EReal)
    (v157 : FVec Ideal S4096x64 .f32) (v161 v162 v166 : FVec Ideal S512x512 .f32) (v234 : FVec Ideal S4096x64 .f32)
    (v237 v239 : FVec Ideal S3x64x64 .f32) (v245 v249 : FVec Ideal S512x512 .f32) (v252 v256 : FVec Ideal S4096x64 .f32)
    (v258 : FVec Ideal S64x64 .f32)
    (h157 : ∀ (n : Fin 512) (b : Fin 8) (u : Fin 64) (hr : n.val * 8 + b.val < 4096), v157 (ix2 ⟨n.val * 8 + b.val, hr⟩ u) = s1 b n u)
    (h161 : ∀ (n : Fin 512) (b : Fin 8) (u : Fin 64) (hc : b.val * 64 + u.val < 512), v161 (ix2 n ⟨b.val * 64 + u.val, hc⟩) = h0 w (x b) (s0 b) n u)
    (h162 : ∀ (n : Fin 512) (b : Fin 8) (u : Fin 64) (hc : b.val * 64 + u.val < 512), v162 (ix2 n ⟨b.val * 64 + u.val, hc⟩) = d1 w (fun k => h0 w (x b) (s0 b) k u) n)
    (h166 : ∀ (n : Fin 512) (b : Fin 8) (u : Fin 64) (hc : b.val * 64 + u.val < 512), v166 (ix2 n ⟨b.val * 64 + u.val, hc⟩) = d2 w (fun k => h0 w (x b) (s0 b) k u) n)
    (h234 : ∀ (n : Fin 512) (b : Fin 8) (u : Fin 64) (hr : n.val * 8 + b.val < 4096), v234 (ix2 ⟨n.val * 8 + b.val, hr⟩ u) = u1 w (x b) (s0 b) (s1 b) n u)
    (h237 : ∀ (m : Fin 3) (u : Fin 64) (o : Fin 64), v237 (ix3 m u o) = w.Wc1 ⟨u.val * 3 + m.val, by omega⟩ o)
    (h239 : ∀ (m : Fin 3) (u : Fin 64) (o : Fin 64), v239 (ix3 m u o) = w.Wc1 ⟨(64 + u.val) * 3 + m.val, by omega⟩ o)
    (h245 : ∀ (n : Fin 512) (b : Fin 8) (u : Fin 64) (hc : b.val * 64 + u.val < 512), v245 (ix2 n ⟨b.val * 64 + u.val, hc⟩) = d1 w (fun k => rs1 w (x b) (s0 b) (s1 b) k u) n)
    (h249 : ∀ (n : Fin 512) (b : Fin 8) (u : Fin 64) (hc : b.val * 64 + u.val < 512), v249 (ix2 n ⟨b.val * 64 + u.val, hc⟩) = d2 w (fun k => rs1 w (x b) (s0 b) (s1 b) k u) n)
    (h252 : ∀ (r : Fin 4096) (o : Fin 64), v252 (ix2 r o) = w.bc1 o)
    (h256 : ∀ (n : Fin 512) (b : Fin 8) (u : Fin 64) (hr : n.val * 8 + b.val < 4096), v256 (ix2 ⟨n.val * 8 + b.val, hr⟩ u) = rs1 w (x b) (s0 b) (s1 b) n u)
    (h258 : ∀ (u : Fin 64) (o : Fin 64), v258 (ix2 u o) = w.Wc1 ⟨(64 + u.val) * 3 + 0, by omega⟩ o)
    (n : Fin 512) (b : Fin 8) (u : Fin 64) (hr : n.val * 8 + b.val < 4096) :
    k0_pay47 v157 v161 v162 v166 v234 v237 v239 v245 v249 v252 v256 v258 (constant S4096x64 .f32 0x00000000#32) (ix2 ⟨n.val * 8 + b.val, hr⟩ u)
      = h1 w (x b) (s0 b) (s1 b) n u := by
  -- block m of the input weights holds rows 3 u + m, block m of the state weights rows 3 (64 + u) + m, of the candidate weights
  have ex0 : ∀ (k o : Fin 64), v237 (ix3 0 k o) = w.Wc1 ⟨k.val * 3 + 0, by omega⟩ o := fun k o => h237 0 k o
  have ex1 : ∀ (k o : Fin 64), v237 (ix3 1 k o) = w.Wc1 ⟨k.val * 3 + 1, by omega⟩ o := fun k o => h237 1 k o
  have ex2 : ∀ (k o : Fin 64), v237 (ix3 2 k o) = w.Wc1 ⟨k.val * 3 + 2, by omega⟩ o := fun k o => h237 2 k o
  have eh1 : ∀ (k o : Fin 64), v239 (ix3 1 k o) = w.Wc1 ⟨(64 + k.val) * 3 + 1, by omega⟩ o := fun k o => h239 1 k o
  have eh2 : ∀ (k o : Fin 64), v239 (ix3 2 k o) = w.Wc1 ⟨(64 + k.val) * 3 + 2, by omega⟩ o := fun k o => h239 2 k o
  rw [pay47_nat]
  simp only [h157, h161, h162, h166, h234, h245, h249, h252, h256, h258, ex0, ex1, ex2, eh1, eh2]
  unfold h1 c1
  rw [gconv1_split]

/-! ### The read-out -/

/-- A [4096, 64] array viewed as [512, 8, 64]: row 8 n + b. -/
theorem sc_4096x64_512x8x64 {α : Type} (x : S4096x64.Idx → α) (h : S4096x64.ShapeCasts S512x8x64)
    (n : Fin 512) (b : Fin 8) (u : Fin 64) :
    shapeCast S512x8x64 x h (ix3 n b u) = x (ix2 ⟨n.val * 8 + b.val, by omega⟩ u) := by
  refine shapeCast_apply x h _ _ ?_
  rw [Shape.rowMajor_val_three, Shape.rowMajor_val_two]
  rfl

/-- A [1, 64] array viewed as [1, 64]. -/
theorem sc_1x64_1x64 {α : Type} (x : S1x64.Idx → α) (h : S1x64.ShapeCasts S1x64) (z : Fin 1) (u : Fin 64) :
    shapeCast S1x64 x h (ix2 z u) = x (ix2 z u) :=
  shapeCast_apply x h _ _ rfl

/-- A [1, 64] array viewed as [1, 1, 64]. -/
theorem sc_1x64_1x1x64 {α : Type} (x : S1x64.Idx → α) (h : S1x64.ShapeCasts S1x1x64) (u : Fin 64) :
    shapeCast S1x1x64 x h (ix3 0 0 u) = x (ix2 0 u) := by
  refine shapeCast_apply x h _ _ ?_
  rw [Shape.rowMajor_val_three, Shape.rowMajor_val_two]
  show (0 : ℕ) * 64 + u.val = ((0 : ℕ) * 1 + 0) * 64 + u.val
  omega

/-- A [1, 1, 64] array repeated along 512 nodes and 8 batch rows. -/
theorem bc_1x1x64_512x8x64 {α : Type} (x : S1x1x64.Idx → α) (h : S1x1x64.Broadcasts S512x8x64)
    (n : Fin 512) (b : Fin 8) (u : Fin 64) :
    broadcastTo S512x8x64 x h (ix3 n b u) = x (ix3 0 0 u) := by
  refine broadcastTo_apply x h _ _ (fun a => ?_)
  match a with
  | ⟨0, _⟩ => rfl
  | ⟨1, _⟩ => rfl
  | ⟨2, _⟩ => rfl

/-- The sum over the last axis of a [512, 8, 64] array, from a +0.0 start. -/
theorem red_512x8x64 (v : FVec Ideal S512x8x64 .f32) (h : S512x8x64.Reduces [2] S512x8) (hφ : FKind.Formats .f32)
    (hacc : (0x00000000#32 : BitVec 32) = FKind.add.neutral .f32 hφ) (n : Fin 512) (b : Fin 8) :
    multiReduction .add [2] S512x8 v 0x00000000#32 h hφ hacc (ix2 n b) = ∑ k : Fin 64, v (ix3 n b k) := by
  have e : multiReduction .add [2] S512x8 v 0x00000000#32 h hφ hacc (ix2 n b) = ∑ k : Fin 64, v (h.lift (ix2 n b) k) :=
    Ideal.multiReduction_add_single v _ h hφ hacc (ix2 n b)
  rw [e]
  refine Finset.sum_congr rfl fun k _ => ?_
  congr 1
  funext a
  apply Fin.ext
  match a with
  | ⟨0, _⟩ => rfl
  | ⟨1, _⟩ => rfl
  | ⟨2, _⟩ => rfl

/-- The one element of a [1] array. -/
theorem ext_1 {α : Type} (x : S1.Idx → α) (h : ∀ a, (![0] : Fin 1 → Nat) a < S1.size a) :
    extractAt ![0] x h = x (ix1 0) := by
  unfold extractAt
  congr 1
  funext a
  apply Fin.ext
  match a with
  | ⟨0, _⟩ => rfl

/-- The exchange of the two axes of a [512, 8] array. -/
theorem tr_512x8_8x512 {α : Type} (x : S512x8.Idx → α) (h : S512x8.Transposes [1, 0] S8x512) (b : Fin 8) (n : Fin 512) :
    transpose S8x512 [1, 0] x h (ix2 b n) = x (ix2 n b) := by
  refine transpose_apply _ x h _ _ (fun a => ?_)
  match a with
  | ⟨0, _⟩ => rfl
  | ⟨1, _⟩ => rfl

/-- The read-out at batch row b, node n, in terms of the parameters at their indices. -/
theorem pay3_nat (v306 : FVec Ideal S4096x64 .f32) (v320 : Vec Ideal S1x64 .f32) (v326 : Vec Ideal S1 .f32) (b : Fin 8) (n : Fin 512) :
    k0_pay3 v306 v320 v326 (ix2 b n)
      = (∑ k : Fin 64, v306 (ix2 ⟨n.val * 8 + b.val, by omega⟩ k) * v320 (ix2 0 k)) + v326 (ix1 0) := by
  unfold k0_pay3
  rw [tr_512x8_8x512]
  simp only [addf_apply, broadcast_apply, ext_1]
  congr 1
  refine (red_512x8x64 _ _ _ _ n b).trans ?_
  simp only [mulf_apply, sc_4096x64_512x8x64, bc_1x1x64_512x8x64, sc_1x64_1x1x64, sc_1x64_1x64]

/-- The kernel's read-out is the specification's. -/
theorem pay3_sem (w : Wts) (x : Fin 8 → Fin 512 → EReal) (s0 s1 : Fin 8 → Fin 512 → Fin 64 → EReal)
    (v306 : FVec Ideal S4096x64 .f32) (v320 : Vec Ideal S1x64 .f32) (v326 : Vec Ideal S1 .f32)
    (h306 : ∀ (n : Fin 512) (b : Fin 8) (u : Fin 64) (hr : n.val * 8 + b.val < 4096), v306 (ix2 ⟨n.val * 8 + b.val, hr⟩ u) = h1 w (x b) (s0 b) (s1 b) n u)
    (h320 : ∀ (u : Fin 64), v320 (ix2 0 u) = w.Wp u)
    (h326 : v326 (ix1 0) = w.bp)
    (b : Fin 8) (n : Fin 512) :
    k0_pay3 v306 v320 v326 (ix2 b n) = proj w (x b) (s0 b) (s1 b) n := by
  rw [pay3_nat]
  simp only [h306, h320, h326]
  rfl

end Cert.Dcgru.KerC1
end
-- ==== Proof.KerAsm.lean ====
/-
  The kernel body at one grid point, as mathematics. The body's values are named here in the order the body
  computes them (the state rows, the three taps of the input and of each state feature, the two gates, the
  candidates, the new states, the read-out), each as the payload function of the values before it, and each is
  identified, index by index, with the cell's quantity it holds for the eight batch rows of the chunk.
-/
import proofs.«110417_g44504451121623_cont_8to1_c_180_11_alg».proof.Proof.Gen.KernelIdeal.Frame
import proofs.«110417_g44504451121623_cont_8to1_c_180_11_alg».proof.Proof.Spec
import proofs.«110417_g44504451121623_cont_8to1_c_180_11_alg».proof.Proof.KerLd
import proofs.«110417_g44504451121623_cont_8to1_c_180_11_alg».proof.Proof.KerA0
import proofs.«110417_g44504451121623_cont_8to1_c_180_11_alg».proof.Proof.KerA1
import proofs.«110417_g44504451121623_cont_8to1_c_180_11_alg».proof.Proof.KerG0
import proofs.«110417_g44504451121623_cont_8to1_c_180_11_alg».proof.Proof.KerC0
import proofs.«110417_g44504451121623_cont_8to1_c_180_11_alg».proof.Proof.KerG1
import proofs.«110417_g44504451121623_cont_8to1_c_180_11_alg».proof.Proof.KerC1

set_option maxRecDepth 8192

noncomputable section

namespace Cert.Dcgru.KerAsm

open Cert.Dcgru Cert.KernelIdeal Cert.KernelIdeal.Gen Idealize.ShloMosaic Idealize.ShloMosaic.ValueIdx

variable [Cert.KernelIdeal.Facts]

/-- The seventeen input blocks of one grid point. -/
structure Blk where
  x0 : Vec Ideal S8x512 .f32
  x1 : Vec Ideal S512x512 .f32
  x2 : Vec Ideal S2x8x32768 .f32
  x3 : Vec Ideal S3x8x1024 .f32
  x4 : Vec Ideal S3x64x128 .f32
  x5 : Vec Ideal S3x8x512 .f32
  x6 : Vec Ideal S3x64x64 .f32
  x7 : Vec Ideal S128 .f32
  x8 : Vec Ideal S64 .f32
  x9 : Vec Ideal S3x64x128 .f32
  x10 : Vec Ideal S3x64x128 .f32
  x11 : Vec Ideal S3x64x64 .f32
  x12 : Vec Ideal S3x64x64 .f32
  x13 : Vec Ideal S128 .f32
  x14 : Vec Ideal S64 .f32
  x15 : Vec Ideal S1x64 .f32
  x16 : Vec Ideal S1 .f32

/-- What the blocks hold, in terms of the chunk's eight batch rows and the weights. -/
structure BlockOK (w : Wts) (x : Fin 8 → Fin 512 → EReal) (s0 s1 : Fin 8 → Fin 512 → Fin 64 → EReal) (B : Blk) : Prop where
  e0 : ∀ (b : Fin 8) (n : Fin 512), B.x0 (ix2 b n) = x b n
  e1 : ∀ (n k : Fin 512), B.x1 (ix2 n k) = w.A n k
  e2a : ∀ (b : Fin 8) (n : Fin 512) (u : Fin 64) (hj : n.val * 64 + u.val < 32768), B.x2 (ix3 0 b ⟨n.val * 64 + u.val, hj⟩) = s0 b n u
  e2b : ∀ (b : Fin 8) (n : Fin 512) (u : Fin 64) (hj : n.val * 64 + u.val < 32768), B.x2 (ix3 1 b ⟨n.val * 64 + u.val, hj⟩) = s1 b n u
  e3 : ∀ (m : Fin 3) (b' b : Fin 8) (o : Fin 128) (hc : b.val * 128 + o.val < 1024), B.x3 (ix3 m b' ⟨b.val * 128 + o.val, hc⟩) = eye b' b * w.Wg0 ⟨m.val, by omega⟩ o
  e4 : ∀ (m : Fin 3) (u : Fin 64) (o : Fin 128), B.x4 (ix3 m u o) = w.Wg0 ⟨(1 + u.val) * 3 + m.val, by omega⟩ o
  e5 : ∀ (m : Fin 3) (b' b : Fin 8) (o : Fin 64) (hc : b.val * 64 + o.val < 512), B.x5 (ix3 m b' ⟨b.val * 64 + o.val, hc⟩) = eye b' b * w.Wc0 ⟨m.val, by omega⟩ o
  e6 : ∀ (m : Fin 3) (u o : Fin 64), B.x6 (ix3 m u o) = w.Wc0 ⟨(1 + u.val) * 3 + m.val, by omega⟩ o
  e7 : ∀ (o : Fin 128), B.x7 (ix1 o) = w.bg0 o
  e8 : ∀ (o : Fin 64), B.x8 (ix1 o) = w.bc0 o
  e9 : ∀ (m : Fin 3) (u : Fin 64) (o : Fin 128), B.x9 (ix3 m u o) = w.Wg1 ⟨u.val * 3 + m.val, by omega⟩ o
  e10 : ∀ (m : Fin 3) (u : Fin 64) (o : Fin 128), B.x10 (ix3 m u o) = w.Wg1 ⟨(64 + u.val) * 3 + m.val, by omega⟩ o
  e11 : ∀ (m : Fin 3) (u o : Fin 64), B.x11 (ix3 m u o) = w.Wc1 ⟨u.val * 3 + m.val, by omega⟩ o
  e12 : ∀ (m : Fin 3) (u o : Fin 64), B.x12 (ix3 m u o) = w.Wc1 ⟨(64 + u.val) * 3 + m.val, by omega⟩ o
  e13 : ∀ (o : Fin 128), B.x13 (ix1 o) = w.bg1 o
  e14 : ∀ (o : Fin 64), B.x14 (ix1 o) = w.bc1 o
  e15 : ∀ (u : Fin 64), B.x15 (ix2 0 u) = w.Wp u
  e16 : B.x16 (ix1 0) = w.bp

variable (B : Blk)

/-! ### The body's loads -/
def lX := View.ld B.x0 r0_2
def lA := View.ld B.x1 r0_0
def L0 := View.ld B.x2 r0_1
def L1 := View.ld B.x2 r0_9
def l3 := View.ld B.x3 r0_3
def l4 := View.ld B.x4 r0_4
def l5 := View.ld B.x5 r0_6
def l6 := View.ld B.x6 r0_7
def l7 := View.ld B.x7 r0_5
def l8 := View.ld B.x8 r0_8
def l9 := View.ld B.x9 r0_4
def l10 := View.ld B.x10 r0_4
def l11 := View.ld B.x11 r0_7
def l12 := View.ld B.x12 r0_7
def l13 := View.ld B.x13 r0_5
def l14 := View.ld B.x14 r0_8
def l15 := View.ld B.x15 r0_10
def l16 := View.ld B.x16 r0_11

/-! ### The first cell's values -/
def v5 := k0_pay4 (L0 B)
def v7 := k0_pay5 (lX B)
def v8 := k0_pay6 (lA B) (lX B)
def v12 := k0_pay7 (lA B) (lX B)
def v14 := k0_pay8 (l3 B)
def v16 := k0_pay9 (l4 B)
def v22 := k0_pay11 (lA B) (L0 B)
def v26 := k0_pay12 (lA B) (L0 B)
def v29 := k0_pay13 (l7 B)
def v33 := k0_pay14 (L0 B)
def v35 := k0_pay15 (l4 B)
def v80 := k0_pay17 (v7 B) (v8 B) (v12 B) (v14 B) (v16 B) (v22 B) (v26 B) (v29 B) (v33 B) (v35 B) (constant S4096x128 .f32 0x00000000#32)
def v81 := k0_pay18 (v5 B) (v7 B) (v8 B) (v12 B) (v14 B) (v16 B) (v22 B) (v26 B) (v29 B) (v33 B) (v35 B) (constant S4096x128 .f32 0x00000000#32)
def v83 := k0_pay19 (l5 B)
def v85 := k0_pay20 (l6 B)
def v95 := k0_pay23 (lA B) (v81 B)
def v122 := k0_pay24 (lA B) (v7 B) (v81 B) (l5 B) (l6 B) (l8 B)
def v126 := k0_pay25 (v8 B) (l5 B)
def v152 := k0_pay26 (v5 B) (v12 B) (v80 B) (v83 B) (v85 B) (v95 B) (v122 B) (v126 B) (Scalar.ofBits .f32 0x00000000#32)
def v161 := k0_pay28 (v5 B) (v12 B) (v80 B) (v83 B) (v85 B) (v95 B) (v122 B) (v126 B) (Scalar.ofBits .f32 0x00000000#32)
def v162 := k0_pay29 (lA B) (v5 B) (v12 B) (v80 B) (v83 B) (v85 B) (v95 B) (v122 B) (v126 B) (Scalar.ofBits .f32 0x00000000#32)
def v166 := k0_pay30 (lA B) (v5 B) (v12 B) (v80 B) (v83 B) (v85 B) (v95 B) (v122 B) (v126 B) (Scalar.ofBits .f32 0x00000000#32)

/-! ### The second cell's values -/
def v157 := k0_pay27 (L1 B)
def v168 := k0_pay31 (l9 B)
def v170 := k0_pay32 (l10 B)
def v180 := k0_pay35 (lA B) (v157 B)
def v215 := k0_pay36 (lA B) (v157 B) (v161 B) (v162 B) (v168 B) (l10 B) (l13 B)
def v234 := k0_pay38 (v166 B) (v168 B) (v170 B) (v180 B) (v215 B)
def v237 := k0_pay39 (l11 B)
def v239 := k0_pay40 (l12 B)
def v245 := k0_pay42 (lA B) (v157 B) (v166 B) (v168 B) (v170 B) (v180 B) (v215 B)
def v249 := k0_pay43 (lA B) (v157 B) (v166 B) (v168 B) (v170 B) (v180 B) (v215 B)
def v252 := k0_pay44 (l14 B)
def v256 := k0_pay45 (v157 B) (v166 B) (v168 B) (v170 B) (v180 B) (v215 B)
def v258 := k0_pay46 (l12 B)
def v306 := k0_pay47 (v157 B) (v161 B) (v162 B) (v166 B) (v234 B) (v237 B) (v239 B) (v245 B) (v249 B) (v252 B) (v256 B) (v258 B) (constant S4096x64 .f32 0x00000000#32)

/-! ### The three stored payloads -/
def pOut := k0_pay3 (v306 B) (l15 B) (l16 B)
def pH1 := k0_pay2 (v306 B)
def pH0 := k0_pay1 (k0_pay48 (v152 B))

/-- The read-out block the body leaves, as the store of `pOut`. -/
theorem out17_eq : out0_17 B.x0 B.x1 B.x2 B.x3 B.x4 B.x5 B.x6 B.x7 B.x8 B.x9 B.x10 B.x11 B.x12 B.x13 B.x14 B.x15 B.x16
    = View.canon [(⟨r0_2, pOut B⟩ : View.Piece (Elt Ideal) S8x512 .f32)] := rfl

/-- The state block the body leaves, as the two stores of `pH1` and `pH0`. -/
theorem out18_eq : out0_18 B.x0 B.x1 B.x2 B.x3 B.x4 B.x5 B.x6 B.x7 B.x8 B.x9 B.x10 B.x11 B.x12 B.x13 B.x14 B.x15 B.x16
    = View.canon [(⟨r0_9, pH1 B⟩ : View.Piece (Elt Ideal) S2x8x32768 .f32), ⟨r0_1, pH0 B⟩] := rfl

variable (w : Wts) (x : Fin 8 → Fin 512 → EReal) (s0 s1 : Fin 8 → Fin 512 → Fin 64 → EReal)

/-- Every value of the body, index by index, is the cell's quantity for the chunk's batch rows. -/
theorem block_sem (H : BlockOK w x s0 s1 B) :
    (∀ (b : Fin 8) (n : Fin 512), pOut B (ix2 b n) = proj w (x b) (s0 b) (s1 b) n)
    ∧ (∀ (n : Fin 512) (b : Fin 8) (u : Fin 64) (hj : n.val * 64 + u.val < 32768), pH1 B (ix3 0 b ⟨n.val * 64 + u.val, hj⟩) = h1 w (x b) (s0 b) (s1 b) n u)
    ∧ (∀ (n : Fin 512) (b : Fin 8) (u : Fin 64) (hj : n.val * 64 + u.val < 32768), pH0 B (ix3 0 b ⟨n.val * 64 + u.val, hj⟩) = h0 w (x b) (s0 b) n u) := by
  -- the loads
  have fA : ∀ (n k : Fin 512), lA B (ix2 n k) = w.A n k := fun n k => by
    show View.ld B.x1 r0_0 (ix2 n k) = _; rw [KerLd.ld_r0_0]; exact H.e1 n k
  have fX : ∀ (b : Fin 8) (n : Fin 512), lX B (ix2 b n) = x b n := fun b n => by
    show View.ld B.x0 r0_2 (ix2 b n) = _; rw [KerLd.ld_r0_2]; exact H.e0 b n
  have f1 : ∀ (b : Fin 8) (n : Fin 512) (u : Fin 64) (hj : n.val * 64 + u.val < 32768), L0 B (ix3 0 b ⟨n.val * 64 + u.val, hj⟩) = s0 b n u :=
    fun b n u hj => (KerLd.ld_slab0 B.x2 b _).trans (H.e2a b n u hj)
  have f153 : ∀ (n : Fin 512) (b : Fin 8) (u : Fin 64) (hj : n.val * 64 + u.val < 32768), L1 B (ix3 0 b ⟨n.val * 64 + u.val, hj⟩) = s1 b n u :=
    fun n b u hj => (KerLd.ld_slab1 B.x2 b _).trans (H.e2b b n u hj)
  have f3 : ∀ (m : Fin 3) (b' b : Fin 8) (o : Fin 128) (hc : b.val * 128 + o.val < 1024), v14 B (ix3 m b' ⟨b.val * 128 + o.val, hc⟩) = eye b' b * w.Wg0 ⟨m.val, by omega⟩ o := fun m b' b o hc => by
    show k0_pay8 (View.ld B.x3 r0_3) _ = _; rw [KerA0.pay8_eq, KerLd.ld_r0_3]; exact H.e3 m b' b o hc
  have f4 : ∀ (m : Fin 3) (u : Fin 64) (o : Fin 128), l4 B (ix3 m u o) = w.Wg0 ⟨(1 + u.val) * 3 + m.val, by omega⟩ o := fun m u o => by
    show View.ld B.x4 r0_4 _ = _; rw [KerLd.ld_r0_4]; exact H.e4 m u o
  have f16 : ∀ (m : Fin 3) (u : Fin 64) (o : Fin 128), v16 B (ix3 m u o) = w.Wg0 ⟨(1 + u.val) * 3 + m.val, by omega⟩ o := fun m u o => by
    show k0_pay9 (l4 B) _ = _; rw [KerA0.pay9_eq]; exact f4 m u o
  have f5' : ∀ (m : Fin 3) (b' b : Fin 8) (o : Fin 64) (hc : b.val * 64 + o.val < 512), l5 B (ix3 m b' ⟨b.val * 64 + o.val, hc⟩) = eye b' b * w.Wc0 ⟨m.val, by omega⟩ o := fun m b' b o hc => by
    show View.ld B.x5 r0_6 _ = _; rw [KerLd.ld_r0_6]; exact H.e5 m b' b o hc
  have f6' : ∀ (m : Fin 3) (u o : Fin 64), l6 B (ix3 m u o) = w.Wc0 ⟨(1 + u.val) * 3 + m.val, by omega⟩ o := fun m u o => by
    show View.ld B.x6 r0_7 _ = _; rw [KerLd.ld_r0_7]; exact H.e6 m u o
  have f7' : ∀ (o : Fin 128), l7 B (ix1 o) = w.bg0 o := fun o => by
    show View.ld B.x7 r0_5 _ = _; rw [KerLd.ld_r0_5]; exact H.e7 o
  have f8' : ∀ (o : Fin 64), l8 B (ix1 o) = w.bc0 o := fun o => by
    show View.ld B.x8 r0_8 _ = _; rw [KerLd.ld_r0_8]; exact H.e8 o
  have f9' : ∀ (m : Fin 3) (u : Fin 64) (o : Fin 128), l9 B (ix3 m u o) = w.Wg1 ⟨u.val * 3 + m.val, by omega⟩ o := fun m u o => by
    show View.ld B.x9 r0_4 _ = _; rw [KerLd.ld_r0_4]; exact H.e9 m u o
  have f10' : ∀ (m : Fin 3) (u : Fin 64) (o : Fin 128), l10 B (ix3 m u o) = w.Wg1 ⟨(64 + u.val) * 3 + m.val, by omega⟩ o := fun m u o => by
    show View.ld B.x10 r0_4 _ = _; rw [KerLd.ld_r0_4]; exact H.e10 m u o
  have f11' : ∀ (m : Fin 3) (u o : Fin 64), l11 B (ix3 m u o) = w.Wc1 ⟨u.val * 3 + m.val, by omega⟩ o := fun m u o => by
    show View.ld B.x11 r0_7 _ = _; rw [KerLd.ld_r0_7]; exact H.e11 m u o
  have f12' : ∀ (m : Fin 3) (u o : Fin 64), l12 B (ix3 m u o) = w.Wc1 ⟨(64 + u.val) * 3 + m.val, by omega⟩ o := fun m u o => by
    show View.ld B.x12 r0_7 _ = _; rw [KerLd.ld_r0_7]; exact H.e12 m u o
  have f13' : ∀ (o : Fin 128), l13 B (ix1 o) = w.bg1 o := fun o => by
    show View.ld B.x13 r0_5 _ = _; rw [KerLd.ld_r0_5]; exact H.e13 o
  have f14' : ∀ (o : Fin 64), l14 B (ix1 o) = w.bc1 o := fun o => by
    show View.ld B.x14 r0_8 _ = _; rw [KerLd.ld_r0_8]; exact H.e14 o
  have f15' : ∀ (u : Fin 64), l15 B (ix2 0 u) = w.Wp u := fun u => by
    show View.ld B.x15 r0_10 _ = _; rw [KerLd.ld_r0_10]; exact H.e15 u
  have f16' : l16 B (ix1 0) = w.bp := by
    show View.ld B.x16 r0_11 _ = _; rw [KerLd.ld_r0_11]; exact H.e16
  -- the first cell
  have f5 : ∀ (n : Fin 512) (b : Fin 8) (u : Fin 64) (hr : n.val * 8 + b.val < 4096), v5 B (ix2 ⟨n.val * 8 + b.val, hr⟩ u) = s0 b n u :=
    fun n b u hr => KerA0.pay4_sem s0 (L0 B) f1 n b u hr
  have f7 : ∀ (n : Fin 512) (b : Fin 8), v7 B (ix2 n b) = x b n := fun n b => KerA0.pay5_sem x (lX B) fX n b
  have f8 : ∀ (n : Fin 512) (b : Fin 8), v8 B (ix2 n b) = d1 w (x b) n := fun n b => KerA0.pay6_sem w x (lA B) (lX B) fA fX n b
  have f12 : ∀ (n : Fin 512) (b : Fin 8), v12 B (ix2 n b) = d2 w (x b) n := fun n b => KerA0.pay7_sem w x (lA B) (lX B) fA fX n b
  have f22 : ∀ (n : Fin 512) (b : Fin 8) (u : Fin 64) (hc : b.val * 64 + u.val < 512), v22 B (ix2 n ⟨b.val * 64 + u.val, hc⟩) = d1 w (fun k => s0 b k u) n :=
    fun n b u hc => KerA0.pay11_sem w s0 (lA B) (L0 B) fA f1 n b u hc
  have f26 : ∀ (n : Fin 512) (b : Fin 8) (u : Fin 64) (hc : b.val * 64 + u.val < 512), v26 B (ix2 n ⟨b.val * 64 + u.val, hc⟩) = d2 w (fun k => s0 b k u) n :=
    fun n b u hc => KerA0.pay12_sem w s0 (lA B) (L0 B) fA f1 n b u hc
  have f29 : ∀ (r : Fin 4096) (o : Fin 128), v29 B (ix2 r o) = w.bg0 o := fun r o => KerA0.pay13_sem w (l7 B) f7' r o
  have f33 : ∀ (n : Fin 512) (b : Fin 8) (u : Fin 64) (hr : n.val * 8 + b.val < 4096), v33 B (ix2 ⟨n.val * 8 + b.val, hr⟩ u) = s0 b n u :=
    fun n b u hr => KerA0.pay14_sem s0 (L0 B) f1 n b u hr
  have f35 : ∀ (u : Fin 64) (o : Fin 128), v35 B (ix2 u o) = w.Wg0 ⟨(1 + u.val) * 3 + 0, by omega⟩ o :=
    fun u o => KerA0.pay15_sem w (l4 B) (fun m u o _ => f4 m u o) u o _
  have f80 : ∀ (n : Fin 512) (b : Fin 8) (u : Fin 64) (hr : n.val * 8 + b.val < 4096), v80 B (ix2 ⟨n.val * 8 + b.val, hr⟩ u) = u0 w (x b) (s0 b) n u :=
    fun n b u hr => KerG0.pay17_sem w x s0 (v7 B) (v8 B) (v12 B) (v14 B) (v16 B) (v22 B) (v26 B) (v29 B) (v33 B) (v35 B) f7 f8 f12 f3 f16 f22 f26 f29 f33 f35 n b u hr
  have f81 : ∀ (n : Fin 512) (b : Fin 8) (u : Fin 64) (hr : n.val * 8 + b.val < 4096), v81 B (ix2 ⟨n.val * 8 + b.val, hr⟩ u) = rs0 w (x b) (s0 b) n u :=
    fun n b u hr => KerG0.pay18_sem w x s0 (v5 B) (v7 B) (v8 B) (v12 B) (v14 B) (v16 B) (v22 B) (v26 B) (v29 B) (v33 B) (v35 B) f7 f8 f12 f3 f16 f22 f26 f29 f33 f35 f5 n b u hr
  have f95 : ∀ (n : Fin 512) (b : Fin 8) (u : Fin 64) (hc : b.val * 64 + u.val < 512), v95 B (ix2 n ⟨b.val * 64 + u.val, hc⟩) = d2 w (fun k => rs0 w (x b) (s0 b) k u) n :=
    fun n b u hc => KerA0.pay23_sem w (fun b n u => rs0 w (x b) (s0 b) n u) (lA B) (v81 B) fA f81 n b u hc
  have f152 : ∀ (n : Fin 512) (b : Fin 8) (u : Fin 64) (hr : n.val * 8 + b.val < 4096),
      k0_pay26 (v5 B) (v12 B) (v80 B) (v83 B) (v85 B) (v95 B) (v122 B) (v126 B) (Scalar.ofBits .f32 0x00000000#32 : Ideal .f32) (ix2 ⟨n.val * 8 + b.val, hr⟩ u) = h0 w (x b) (s0 b) n u :=
    fun n b u hr => KerC0.pay26_sem w x s0 (lA B) (v5 B) (v7 B) (v8 B) (v12 B) (v80 B) (v81 B) (l5 B) (l6 B) (l8 B) (v95 B) fA f5 f7 f8 f12 f80 f81 f5' f6' f8' f95 n b u hr
  -- the second cell
  have f157 : ∀ (n : Fin 512) (b : Fin 8) (u : Fin 64) (hr : n.val * 8 + b.val < 4096), v157 B (ix2 ⟨n.val * 8 + b.val, hr⟩ u) = s1 b n u :=
    fun n b u hr => KerA1.pay27_sem (L1 B) s1 f153 n b u hr
  have f161 : ∀ (n : Fin 512) (b : Fin 8) (u : Fin 64) (hc : b.val * 64 + u.val < 512), v161 B (ix2 n ⟨b.val * 64 + u.val, hc⟩) = h0 w (x b) (s0 b) n u :=
    fun n b u hc => KerA1.pay28_sem (v5 B) (v12 B) (v80 B) (v83 B) (v85 B) (v95 B) (v122 B) (v126 B) (fun b n u => h0 w (x b) (s0 b) n u) f152 n b u hc
  have f162 : ∀ (n : Fin 512) (b : Fin 8) (u : Fin 64) (hc : b.val * 64 + u.val < 512), v162 B (ix2 n ⟨b.val * 64 + u.val, hc⟩) = d1 w (fun k => h0 w (x b) (s0 b) k u) n :=
    fun n b u hc => KerA1.pay29_sem w (lA B) (v5 B) (v12 B) (v80 B) (v83 B) (v85 B) (v95 B) (v122 B) (v126 B) (fun b n u => h0 w (x b) (s0 b) n u) fA f152 n b u hc
  have f166 : ∀ (n : Fin 512) (b : Fin 8) (u : Fin 64) (hc : b.val * 64 + u.val < 512), v166 B (ix2 n ⟨b.val * 64 + u.val, hc⟩) = d2 w (fun k => h0 w (x b) (s0 b) k u) n :=
    fun n b u hc => KerA1.pay30_sem w (lA B) (v5 B) (v12 B) (v80 B) (v83 B) (v85 B) (v95 B) (v122 B) (v126 B) (fun b n u => h0 w (x b) (s0 b) n u) fA f152 n b u hc
  have f168 : ∀ (m : Fin 3) (u : Fin 64) (o : Fin 128), v168 B (ix3 m u o) = w.Wg1 ⟨u.val * 3 + m.val, by omega⟩ o := fun m u o => by
    show k0_pay31 (l9 B) _ = _; rw [KerA1.pay31_eq]; exact f9' m u o
  have f170 : ∀ (m : Fin 3) (u : Fin 64) (o : Fin 128), v170 B (ix3 m u o) = w.Wg1 ⟨(64 + u.val) * 3 + m.val, by omega⟩ o := fun m u o => by
    show k0_pay32 (l10 B) _ = _; rw [KerA1.pay32_eq]; exact f10' m u o
  have f180 : ∀ (n : Fin 512) (b : Fin 8) (u : Fin 64) (hc : b.val * 64 + u.val < 512), v180 B (ix2 n ⟨b.val * 64 + u.val, hc⟩) = d2 w (fun k => s1 b k u) n :=
    fun n b u hc => KerA1.pay35_sem w (lA B) (v157 B) s1 fA f157 n b u hc
  have fG : ∀ (n : Fin 512) (b : Fin 8) (o : Fin 128) (hr : n.val * 8 + b.val < 4096),
      k0_pay37 (v166 B) (v168 B) (v170 B) (v180 B) (v215 B) (ix2 ⟨n.val * 8 + b.val, hr⟩ o) = g1 w (x b) (s0 b) (s1 b) n o :=
    fun n b o hr => KerG1.pay37_sem w x s0 s1 (lA B) (v157 B) (v161 B) (v162 B) (v166 B) (v168 B) (l10 B) (v170 B) (l13 B) (v180 B) fA f157 f161 f162 f166 f168 f10' f170 f13' f180 n b o hr
  have f234 : ∀ (n : Fin 512) (b : Fin 8) (u : Fin 64) (hr : n.val * 8 + b.val < 4096), v234 B (ix2 ⟨n.val * 8 + b.val, hr⟩ u) = u1 w (x b) (s0 b) (s1 b) n u :=
    fun n b u hr => KerG1.pay38_sem w x s0 s1 (lA B) (v157 B) (v161 B) (v162 B) (v166 B) (v168 B) (l10 B) (v170 B) (l13 B) (v180 B) fA f157 f161 f162 f166 f168 f10' f170 f13' f180 n b u hr
  have f237 : ∀ (m : Fin 3) (u o : Fin 64), v237 B (ix3 m u o) = w.Wc1 ⟨u.val * 3 + m.val, by omega⟩ o := fun m u o => by
    show k0_pay39 (l11 B) _ = _; rw [KerA1.pay39_eq]; exact f11' m u o
  have f239 : ∀ (m : Fin 3) (u o : Fin 64), v239 B (ix3 m u o) = w.Wc1 ⟨(64 + u.val) * 3 + m.val, by omega⟩ o := fun m u o => by
    show k0_pay40 (l12 B) _ = _; rw [KerA1.pay40_eq]; exact f12' m u o
  have f245 : ∀ (n : Fin 512) (b : Fin 8) (u : Fin 64) (hc : b.val * 64 + u.val < 512), v245 B (ix2 n ⟨b.val * 64 + u.val, hc⟩) = d1 w (fun k => rs1 w (x b) (s0 b) (s1 b) k u) n :=
    fun n b u hc => KerA1.pay42_sem w (lA B) (v157 B) (v166 B) (v168 B) (v170 B) (v180 B) (v215 B) (fun b n o => g1 w (x b) (s0 b) (s1 b) n o) s1 fA fG f157 n b u hc (by omega)
  have f249 : ∀ (n : Fin 512) (b : Fin 8) (u : Fin 64) (hc : b.val * 64 + u.val < 512), v249 B (ix2 n ⟨b.val * 64 + u.val, hc⟩) = d2 w (fun k => rs1 w (x b) (s0 b) (s1 b) k u) n :=
    fun n b u hc => KerA1.pay43_sem w (lA B) (v157 B) (v166 B) (v168 B) (v170 B) (v180 B) (v215 B) (fun b n o => g1 w (x b) (s0 b) (s1 b) n o) s1 fA fG f157 n b u hc (by omega)
  have f252 : ∀ (r : Fin 4096) (o : Fin 64), v252 B (ix2 r o) = w.bc1 o := fun r o => KerA1.pay44_sem w (l14 B) f14' r o
  have f256 : ∀ (n : Fin 512) (b : Fin 8) (u : Fin 64) (hr : n.val * 8 + b.val < 4096), v256 B (ix2 ⟨n.val * 8 + b.val, hr⟩ u) = rs1 w (x b) (s0 b) (s1 b) n u :=
    fun n b u hr => KerA1.pay45_sem (v157 B) (v166 B) (v168 B) (v170 B) (v180 B) (v215 B) (fun b n o => g1 w (x b) (s0 b) (s1 b) n o) s1 fG f157 n b u hr (by omega)
  have f258 : ∀ (u o : Fin 64), v258 B (ix2 u o) = w.Wc1 ⟨(64 + u.val) * 3 + 0, by omega⟩ o :=
    fun u o => KerA1.pay46_sem w (l12 B) (fun m u o _ => f12' m u o) u o _
  have f306 : ∀ (n : Fin 512) (b : Fin 8) (u : Fin 64) (hr : n.val * 8 + b.val < 4096), v306 B (ix2 ⟨n.val * 8 + b.val, hr⟩ u) = h1 w (x b) (s0 b) (s1 b) n u :=
    fun n b u hr => KerC1.pay47_sem w x s0 s1 (v157 B) (v161 B) (v162 B) (v166 B) (v234 B) (v237 B) (v239 B) (v245 B) (v249 B) (v252 B) (v256 B) (v258 B)
      f157 f161 f162 f166 f234 f237 f239 f245 f249 f252 f256 f258 n b u hr
  refine ⟨fun b n => KerC1.pay3_sem w x s0 s1 (v306 B) (l15 B) (l16 B) f306 f15' f16' b n, fun n b u hj => ?_, fun n b u hj => ?_⟩
  · exact KerA1.pay2_sem (v306 B) (fun b n u => h1 w (x b) (s0 b) (s1 b) n u) f306 n b u hj
  · exact KerA1.pay1_sem (k0_pay48 (v152 B)) (fun b n u => h0 w (x b) (s0 b) n u)
      (fun n b u => KerA1.pay48_sem (v152 B) (fun b n u => h0 w (x b) (s0 b) n u) f152 n b u) n b u hj

/-- The read-out block of one grid point. -/
theorem out17_block (H : BlockOK w x s0 s1 B) (b : Fin 8) (n : Fin 512) :
    out0_17 B.x0 B.x1 B.x2 B.x3 B.x4 B.x5 B.x6 B.x7 B.x8 B.x9 B.x10 B.x11 B.x12 B.x13 B.x14 B.x15 B.x16 (ix2 b n) = proj w (x b) (s0 b) (s1 b) n := by
  rw [out17_eq, KerLd.canon17]; exact (block_sem B w x s0 s1 H).1 b n

/-- Layer 0's slab of the state block of one grid point. -/
theorem out18_block0 (H : BlockOK w x s0 s1 B) (b : Fin 8) (n : Fin 512) (u : Fin 64) (hj : n.val * 64 + u.val < 32768) :
    out0_18 B.x0 B.x1 B.x2 B.x3 B.x4 B.x5 B.x6 B.x7 B.x8 B.x9 B.x10 B.x11 B.x12 B.x13 B.x14 B.x15 B.x16 (ix3 0 b ⟨n.val * 64 + u.val, hj⟩) = h0 w (x b) (s0 b) n u := by
  rw [out18_eq, KerLd.canon18_0]; exact (block_sem B w x s0 s1 H).2.2 n b u hj

/-- Layer 1's slab. -/
theorem out18_block1 (H : BlockOK w x s0 s1 B) (b : Fin 8) (n : Fin 512) (u : Fin 64) (hj : n.val * 64 + u.val < 32768) :
    out0_18 B.x0 B.x1 B.x2 B.x3 B.x4 B.x5 B.x6 B.x7 B.x8 B.x9 B.x10 B.x11 B.x12 B.x13 B.x14 B.x15 B.x16 (ix3 1 b ⟨n.val * 64 + u.val, hj⟩) = h1 w (x b) (s0 b) (s1 b) n u := by
  rw [out18_eq, KerLd.canon18_1]; exact (block_sem B w x s0 s1 H).2.1 n b u hj

/-! ### The same three facts over seventeen plain vectors (no record between the caller's blocks and the body) -/

theorem out17_vars (w : Wts) (x : Fin 8 → Fin 512 → EReal) (s0 s1 : Fin 8 → Fin 512 → Fin 64 → EReal)
    (x0 : Vec Ideal S8x512 .f32) (x1 : Vec Ideal S512x512 .f32) (x2 : Vec Ideal S2x8x32768 .f32) (x3 : Vec Ideal S3x8x1024 .f32)
    (x4 : Vec Ideal S3x64x128 .f32) (x5 : Vec Ideal S3x8x512 .f32) (x6 : Vec Ideal S3x64x64 .f32) (x7 : Vec Ideal S128 .f32)
    (x8 : Vec Ideal S64 .f32) (x9 x10 : Vec Ideal S3x64x128 .f32) (x11 x12 : Vec Ideal S3x64x64 .f32) (x13 : Vec Ideal S128 .f32)
    (x14 : Vec Ideal S64 .f32) (x15 : Vec Ideal S1x64 .f32) (x16 : Vec Ideal S1 .f32)
    (e0 : ∀ (b : Fin 8) (n : Fin 512), x0 (ix2 b n) = x b n)
    (e1 : ∀ (n k : Fin 512), x1 (ix2 n k) = w.A n k)
    (e2a : ∀ (b : Fin 8) (n : Fin 512) (u : Fin 64) (hj : n.val * 64 + u.val < 32768), x2 (ix3 0 b ⟨n.val * 64 + u.val, hj⟩) = s0 b n u)
    (e2b : ∀ (b : Fin 8) (n : Fin 512) (u : Fin 64) (hj : n.val * 64 + u.val < 32768), x2 (ix3 1 b ⟨n.val * 64 + u.val, hj⟩) = s1 b n u)
    (e3 : ∀ (m : Fin 3) (b' b : Fin 8) (o : Fin 128) (hc : b.val * 128 + o.val < 1024), x3 (ix3 m b' ⟨b.val * 128 + o.val, hc⟩) = eye b' b * w.Wg0 ⟨m.val, by omega⟩ o)
    (e4 : ∀ (m : Fin 3) (u : Fin 64) (o : Fin 128), x4 (ix3 m u o) = w.Wg0 ⟨(1 + u.val) * 3 + m.val, by omega⟩ o)
    (e5 : ∀ (m : Fin 3) (b' b : Fin 8) (o : Fin 64) (hc : b.val * 64 + o.val < 512), x5 (ix3 m b' ⟨b.val * 64 + o.val, hc⟩) = eye b' b * w.Wc0 ⟨m.val, by omega⟩ o)
    (e6 : ∀ (m : Fin 3) (u o : Fin 64), x6 (ix3 m u o) = w.Wc0 ⟨(1 + u.val) * 3 + m.val, by omega⟩ o)
    (e7 : ∀ (o : Fin 128), x7 (ix1 o) = w.bg0 o)
    (e8 : ∀ (o : Fin 64), x8 (ix1 o) = w.bc0 o)
    (e9 : ∀ (m : Fin 3) (u : Fin 64) (o : Fin 128), x9 (ix3 m u o) = w.Wg1 ⟨u.val * 3 + m.val, by omega⟩ o)
    (e10 : ∀ (m : Fin 3) (u : Fin 64) (o : Fin 128), x10 (ix3 m u o) = w.Wg1 ⟨(64 + u.val) * 3 + m.val, by omega⟩ o)
    (e11 : ∀ (m : Fin 3) (u o : Fin 64), x11 (ix3 m u o) = w.Wc1 ⟨u.val * 3 + m.val, by omega⟩ o)
    (e12 : ∀ (m : Fin 3) (u o : Fin 64), x12 (ix3 m u o) = w.Wc1 ⟨(64 + u.val) * 3 + m.val, by omega⟩ o)
    (e13 : ∀ (o : Fin 128), x13 (ix1 o) = w.bg1 o)
    (e14 : ∀ (o : Fin 64), x14 (ix1 o) = w.bc1 o)
    (e15 : ∀ (u : Fin 64), x15 (ix2 0 u) = w.Wp u)
    (e16 : x16 (ix1 0) = w.bp)
    (b : Fin 8) (n : Fin 512) :
    out0_17 x0 x1 x2 x3 x4 x5 x6 x7 x8 x9 x10 x11 x12 x13 x14 x15 x16 (ix2 b n) = proj w (x b) (s0 b) (s1 b) n :=
  out17_block (Blk.mk x0 x1 x2 x3 x4 x5 x6 x7 x8 x9 x10 x11 x12 x13 x14 x15 x16) w x s0 s1 (BlockOK.mk e0 e1 e2a e2b e3 e4 e5 e6 e7 e8 e9 e10 e11 e12 e13 e14 e15 e16) b n

theorem out18_vars0 (w : Wts) (x : Fin 8 → Fin 512 → EReal) (s0 s1 : Fin 8 → Fin 512 → Fin 64 → EReal)
    (x0 : Vec Ideal S8x512 .f32) (x1 : Vec Ideal S512x512 .f32) (x2 : Vec Ideal S2x8x32768 .f32) (x3 : Vec Ideal S3x8x1024 .f32)
    (x4 : Vec Ideal S3x64x128 .f32) (x5 : Vec Ideal S3x8x512 .f32) (x6 : Vec Ideal S3x64x64 .f32) (x7 : Vec Ideal S128 .f32)
    (x8 : Vec Ideal S64 .f32) (x9 x10 : Vec Ideal S3x64x128 .f32) (x11 x12 : Vec Ideal S3x64x64 .f32) (x13 : Vec Ideal S128 .f32)
    (x14 : Vec Ideal S64 .f32) (x15 : Vec Ideal S1x64 .f32) (x16 : Vec Ideal S1 .f32)
    (e0 : ∀ (b : Fin 8) (n : Fin 512), x0 (ix2 b n) = x b n)
    (e1 : ∀ (n k : Fin 512), x1 (ix2 n k) = w.A n k)
    (e2a : ∀ (b : Fin 8) (n : Fin 512) (u : Fin 64) (hj : n.val * 64 + u.val < 32768), x2 (ix3 0 b ⟨n.val * 64 + u.val, hj⟩) = s0 b n u)
    (e2b : ∀ (b : Fin 8) (n : Fin 512) (u : Fin 64) (hj : n.val * 64 + u.val < 32768), x2 (ix3 1 b ⟨n.val * 64 + u.val, hj⟩) = s1 b n u)
    (e3 : ∀ (m : Fin 3) (b' b : Fin 8) (o : Fin 128) (hc : b.val * 128 + o.val < 1024), x3 (ix3 m b' ⟨b.val * 128 + o.val, hc⟩) = eye b' b * w.Wg0 ⟨m.val, by omega⟩ o)
    (e4 : ∀ (m : Fin 3) (u : Fin 64) (o : Fin 128), x4 (ix3 m u o) = w.Wg0 ⟨(1 + u.val) * 3 + m.val, by omega⟩ o)
    (e5 : ∀ (m : Fin 3) (b' b : Fin 8) (o : Fin 64) (hc : b.val * 64 + o.val < 512), x5 (ix3 m b' ⟨b.val * 64 + o.val, hc⟩) = eye b' b * w.Wc0 ⟨m.val, by omega⟩ o)
    (e6 : ∀ (m : Fin 3) (u o : Fin 64), x6 (ix3 m u o) = w.Wc0 ⟨(1 + u.val) * 3 + m.val, by omega⟩ o)
    (e7 : ∀ (o : Fin 128), x7 (ix1 o) = w.bg0 o)
    (e8 : ∀ (o : Fin 64), x8 (ix1 o) = w.bc0 o)
    (e9 : ∀ (m : Fin 3) (u : Fin 64) (o : Fin 128), x9 (ix3 m u o) = w.Wg1 ⟨u.val * 3 + m.val, by omega⟩ o)
    (e10 : ∀ (m : Fin 3) (u : Fin 64) (o : Fin 128), x10 (ix3 m u o) = w.Wg1 ⟨(64 + u.val) * 3 + m.val, by omega⟩ o)
    (e11 : ∀ (m : Fin 3) (u o : Fin 64), x11 (ix3 m u o) = w.Wc1 ⟨u.val * 3 + m.val, by omega⟩ o)
    (e12 : ∀ (m : Fin 3) (u o : Fin 64), x12 (ix3 m u o) = w.Wc1 ⟨(64 + u.val) * 3 + m.val, by omega⟩ o)
    (e13 : ∀ (o : Fin 128), x13 (ix1 o) = w.bg1 o)
    (e14 : ∀ (o : Fin 64), x14 (ix1 o) = w.bc1 o)
    (e15 : ∀ (u : Fin 64), x15 (ix2 0 u) = w.Wp u)
    (e16 : x16 (ix1 0) = w.bp)
    (b : Fin 8) (n : Fin 512) (u : Fin 64) (hj : n.val * 64 + u.val < 32768) :
    out0_18 x0 x1 x2 x3 x4 x5 x6 x7 x8 x9 x10 x11 x12 x13 x14 x15 x16 (ix3 0 b ⟨n.val * 64 + u.val, hj⟩) = h0 w (x b) (s0 b) n u :=
  out18_block0 (Blk.mk x0 x1 x2 x3 x4 x5 x6 x7 x8 x9 x10 x11 x12 x13 x14 x15 x16) w x s0 s1 (BlockOK.mk e0 e1 e2a e2b e3 e4 e5 e6 e7 e8 e9 e10 e11 e12 e13 e14 e15 e16) b n u hj

theorem out18_vars1 (w : Wts) (x : Fin 8 → Fin 512 → EReal) (s0 s1 : Fin 8 → Fin 512 → Fin 64 → EReal)
    (x0 : Vec Ideal S8x512 .f32) (x1 : Vec Ideal S512x512 .f32) (x2 : Vec Ideal S2x8x32768 .f32) (x3 : Vec Ideal S3x8x1024 .f32)
    (x4 : Vec Ideal S3x64x128 .f32) (x5 : Vec Ideal S3x8x512 .f32) (x6 : Vec Ideal S3x64x64 .f32) (x7 : Vec Ideal S128 .f32)
    (x8 : Vec Ideal S64 .f32) (x9 x10 : Vec Ideal S3x64x128 .f32) (x11 x12 : Vec Ideal S3x64x64 .f32) (x13 : Vec Ideal S128 .f32)
    (x14 : Vec Ideal S64 .f32) (x15 : Vec Ideal S1x64 .f32) (x16 : Vec Ideal S1 .f32)
    (e0 : ∀ (b : Fin 8) (n : Fin 512), x0 (ix2 b n) = x b n)
    (e1 : ∀ (n k : Fin 512), x1 (ix2 n k) = w.A n k)
    (e2a : ∀ (b : Fin 8) (n : Fin 512) (u : Fin 64) (hj : n.val * 64 + u.val < 32768), x2 (ix3 0 b ⟨n.val * 64 + u.val, hj⟩) = s0 b n u)
    (e2b : ∀ (b : Fin 8) (n : Fin 512) (u : Fin 64) (hj : n.val * 64 + u.val < 32768), x2 (ix3 1 b ⟨n.val * 64 + u.val, hj⟩) = s1 b n u)
    (e3 : ∀ (m : Fin 3) (b' b : Fin 8) (o : Fin 128) (hc : b.val * 128 + o.val < 1024), x3 (ix3 m b' ⟨b.val * 128 + o.val, hc⟩) = eye b' b * w.Wg0 ⟨m.val, by omega⟩ o)
    (e4 : ∀ (m : Fin 3) (u : Fin 64) (o : Fin 128), x4 (ix3 m u o) = w.Wg0 ⟨(1 + u.val) * 3 + m.val, by omega⟩ o)
    (e5 : ∀ (m : Fin 3) (b' b : Fin 8) (o : Fin 64) (hc : b.val * 64 + o.val < 512), x5 (ix3 m b' ⟨b.val * 64 + o.val, hc⟩) = eye b' b * w.Wc0 ⟨m.val, by omega⟩ o)
    (e6 : ∀ (m : Fin 3) (u o : Fin 64), x6 (ix3 m u o) = w.Wc0 ⟨(1 + u.val) * 3 + m.val, by omega⟩ o)
    (e7 : ∀ (o : Fin 128), x7 (ix1 o) = w.bg0 o)
    (e8 : ∀ (o : Fin 64), x8 (ix1 o) = w.bc0 o)
    (e9 : ∀ (m : Fin 3) (u : Fin 64) (o : Fin 128), x9 (ix3 m u o) = w.Wg1 ⟨u.val * 3 + m.val, by omega⟩ o)
    (e10 : ∀ (m : Fin 3) (u : Fin 64) (o : Fin 128), x10 (ix3 m u o) = w.Wg1 ⟨(64 + u.val) * 3 + m.val, by omega⟩ o)
    (e11 : ∀ (m : Fin 3) (u o : Fin 64), x11 (ix3 m u o) = w.Wc1 ⟨u.val * 3 + m.val, by omega⟩ o)
    (e12 : ∀ (m : Fin 3) (u o : Fin 64), x12 (ix3 m u o) = w.Wc1 ⟨(64 + u.val) * 3 + m.val, by omega⟩ o)
    (e13 : ∀ (o : Fin 128), x13 (ix1 o) = w.bg1 o)
    (e14 : ∀ (o : Fin 64), x14 (ix1 o) = w.bc1 o)
    (e15 : ∀ (u : Fin 64), x15 (ix2 0 u) = w.Wp u)
    (e16 : x16 (ix1 0) = w.bp)
    (b : Fin 8) (n : Fin 512) (u : Fin 64) (hj : n.val * 64 + u.val < 32768) :
    out0_18 x0 x1 x2 x3 x4 x5 x6 x7 x8 x9 x10 x11 x12 x13 x14 x15 x16 (ix3 1 b ⟨n.val * 64 + u.val, hj⟩) = h1 w (x b) (s0 b) (s1 b) n u :=
  out18_block1 (Blk.mk x0 x1 x2 x3 x4 x5 x6 x7 x8 x9 x10 x11 x12 x13 x14 x15 x16) w x s0 s1 (BlockOK.mk e0 e1 e2a e2b e3 e4 e5 e6 e7 e8 e9 e10 e11 e12 e13 e14 e15 e16) b n u hj

end Cert.Dcgru.KerAsm

end
-- ==== Proof.KerBlocks.lean ====
/-
  From the blocks the grid's four points write to the whole output arrays, and the input blocks as parts of the
  argument arrays.

  The grid has four points t = 0 … 3. The inputs array [32, 512] and the projection output [32, 512] are cut into row
  blocks [8, 512] (block t holds batch rows 8t … 8t + 7); the hidden-state arrays [2, 32, 32768] into blocks
  [2, 8, 32768] along the batch axis; every other window is its whole array at every point. So: an output array equals a
  function G as soon as each point's block equals the matching rows of G; an input block at (b, ·) is the array at
  (8t + b, ·); a whole-array window's block is the array.
-/
import proofs.«110417_g44504451121623_cont_8to1_c_180_11_alg».proof.Proof.Gen.KernelIdeal.Value
import proofs.«110417_g44504451121623_cont_8to1_c_180_11_alg».proof.Proof.Spec
import Idealize.ShloMosaic.Lib.Pipeline.Value
import Idealize.ShloMosaic.Lib.ValueIdx

noncomputable section

namespace Cert.Dcgru.KerBlocks

open Cert.Dcgru Idealize.ShloMosaic Idealize.ShloMosaic.ValueIdx Idealize.ShloMosaic.TcCoe
open Cert.KernelIdeal Cert.KernelIdeal.Gen Cert.KernelIdeal.Value
open Idealize.ShloMosaic.Pipeline (Dat)

variable (m : (ℓ : Loc nD τ sig) → Buf (Elt Ideal) ℓ)

/-! ## The projection output: row blocks [8, 512] of [32, 512] -/

/-- The grid has four points. -/
theorem t_lt (t : Fin cfg0.N) : t.val < 4 := lt_of_lt_of_eq t.isLt N_0

/-- The printed index maps of the two row-blocked [·, 512] windows, decided over the grid: block t starts at row block t,
    column block 0. -/
theorem idx_rows : ∀ t : Fin cfg0.N, win0_0.index t (0 : Fin 2) = t.val ∧ win0_0.index t (1 : Fin 2) = 0
    ∧ win0_17.index t (0 : Fin 2) = t.val ∧ win0_17.index t (1 : Fin 2) = 0 :=
  (by decide +kernel : ∀ t : Fin grid0.N, _)

/-- An index of the [32, 512] array is in point t's block iff each coordinate is in the block's range on its axis. -/
theorem mem_blk17 (t : Fin cfg0.N) (i : S32x512.Idx) :
    i ∈ ((cfg0.win 17).blk t).view.set ↔ ∀ a : Fin 2, win0_17.index t a * S8x512.size a ≤ (i a).val ∧ (i a).val < win0_17.index t a * S8x512.size a + S8x512.size a := by
  show i ∈ ((View.whole main_v35_0).slice (win0_17.rect t)).set ↔ _
  rw [View.set_slice_whole, Rect.mem_set_unit]
  exact Iff.rfl

/-- What point t writes back is rows 8t … 8t + 7 of G, when the body's result at (b, n) is G at (8t + b, n). -/
theorem cut17_apply (t : Fin cfg0.N) (X : S8x512.Idx → EReal) (y : ((cfg0.win 17).xblock (grid0.coords t)).Idx)
    (hy0 : (y 0).val < 8) (hy1 : (y 1).val < 512) :
    (cfg0.win 17).cut (grid0.coords t) X y = X (ix2 (⟨(y 0).val, hy0⟩ : Fin 8) (⟨(y 1).val, hy1⟩ : Fin 512)) := by
  show X _ = X _
  refine congrArg X ?_
  funext a
  match a with
  | ⟨0, _⟩ => rfl
  | ⟨1, _⟩ => rfl

/-- What point t writes back is rows 8t … 8t + 7 of G, when the body's result at (b, n) is G at (8t + b, n). -/
theorem flushed17_eq (c : Dev nD) (G : S32x512.Idx → EReal)
    (hblk : ∀ (t : Fin cfg0.N) (b : Fin 8) (n : Fin 512) (hb : t.val * 8 + b.val < 32),
      out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 b n) = G (ix2 ⟨t.val * 8 + b.val, hb⟩ n))
    (t : Fin cfg0.N) :
    (dats m 0 c).flushed 17 t = ((cfg0.win 17).blk t).view.read (Elt Ideal) G := by
  rw [Value.flushed17]
  obtain ⟨-, -, e0, e1⟩ := idx_rows t
  have ht := t_lt t
  funext y
  have hy0 : (y 0).val < 8 := (y 0).isLt
  have hy1 : (y 1).val < 512 := (y 1).isLt
  have hb : t.val * 8 + (y 0).val < 32 := by omega
  refine (cut17_apply t _ y hy0 hy1).trans ?_
  refine (hblk t ⟨(y 0).val, hy0⟩ ⟨(y 1).val, hy1⟩ hb).trans ?_
  show G _ = G (((cfg0.win 17).blk t).view.emb y)
  refine congrArg G ?_
  funext a; apply Fin.ext
  match a with
  | ⟨0, _⟩ => show t.val * 8 + (y 0).val = win0_17.index t (0 : Fin 2) * 8 + 1 * (y 0).val; omega
  | ⟨1, _⟩ => show (y 1).val = win0_17.index t (1 : Fin 2) * 512 + 1 * (y 1).val; omega

/-- Every index of the [32, 512] array is in the block of the point its row's chunk names. -/
theorem cover17 (i : S32x512.Idx) : ∃ t : Fin cfg0.N, (cfg0.win 17).flush t = true ∧ i ∈ ((cfg0.win 17).blk t).view.set := by
  have hi0 : (i 0).val < 32 := (i 0).isLt
  have hi1 : (i 1).val < 512 := (i 1).isLt
  refine ⟨⟨(i 0).val / 8, lt_of_lt_of_eq (by omega : (i 0).val / 8 < 4) N_0.symm⟩, flush0_17 _, ?_⟩
  rw [mem_blk17]
  obtain ⟨-, -, e0, e1⟩ := idx_rows ⟨(i 0).val / 8, lt_of_lt_of_eq (by omega : (i 0).val / 8 < 4) N_0.symm⟩
  have e0' : win0_17.index ⟨(i 0).val / 8, lt_of_lt_of_eq (by omega : (i 0).val / 8 < 4) N_0.symm⟩ (0 : Fin 2) = (i 0).val / 8 := e0
  intro a
  match a with
  | ⟨0, _⟩ => show win0_17.index _ (0 : Fin 2) * 8 ≤ (i 0).val ∧ (i 0).val < win0_17.index _ (0 : Fin 2) * 8 + 8; omega
  | ⟨1, _⟩ => show win0_17.index _ (1 : Fin 2) * 512 ≤ (i 1).val ∧ (i 1).val < win0_17.index _ (1 : Fin 2) * 512 + 512; omega

/-- THE PROJECTION OUTPUT after the run is G, when each point's block is the matching rows of G. -/
theorem final17_of (c : Dev nD) (G : S32x512.Idx → EReal)
    (hblk : ∀ (t : Fin cfg0.N) (b : Fin 8) (n : Fin 512) (hb : t.val * 8 + b.val < 32),
      out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 b n) = G (ix2 ⟨t.val * 8 + b.val, hb⟩ n)) :
    (dats m 0 c).arrAt 17 cfg0.N = G :=
  (dats m 0 c).arrAt_eq_of_cover 17 G (fun t _ => flushed17_eq m c G hblk t) cover17

/-- The inputs block at point t is rows 8t … 8t + 7 of the inputs array. -/
theorem iblk0_apply (c : Dev nD) (t : Fin cfg0.N) (b : Fin 8) (n : Fin 512) (hb : t.val * 8 + b.val < 32) :
    (iblk m c 0 t : S8x512.Idx → EReal) (ix2 b n) = (V m c main_arg0 : S32x512.Idx → EReal) (ix2 ⟨t.val * 8 + b.val, hb⟩ n) := by
  obtain ⟨e0, e1, -, -⟩ := idx_rows t
  unfold iblk
  rw [View.read_apply]
  show (V m c main_arg0 : S32x512.Idx → EReal) (((cfg0.win 0).blk t).view.emb (ix2 b n)) = _
  congr 1
  funext a; apply Fin.ext
  match a with
  | ⟨0, _⟩ => show win0_0.index t (0 : Fin 2) * 8 + 1 * b.val = t.val * 8 + b.val; omega
  | ⟨1, _⟩ => show win0_0.index t (1 : Fin 2) * 512 + 1 * n.val = n.val; omega

/-! ## The hidden states: batch blocks [2, 8, 32768] of [2, 32, 32768] -/

/-- The printed index maps of the two batch-blocked hidden-state windows, decided over the grid: block t starts at layer
    block 0, batch block t, column block 0. -/
theorem idx_hid : ∀ t : Fin cfg0.N, win0_2.index t (0 : Fin 3) = 0 ∧ win0_2.index t (1 : Fin 3) = t.val ∧ win0_2.index t (2 : Fin 3) = 0
    ∧ win0_18.index t (0 : Fin 3) = 0 ∧ win0_18.index t (1 : Fin 3) = t.val ∧ win0_18.index t (2 : Fin 3) = 0 :=
  (by decide +kernel : ∀ t : Fin grid0.N, _)

/-- An index of the [2, 32, 32768] array is in point t's block iff each coordinate is in the block's range on its axis. -/
theorem mem_blk18 (t : Fin cfg0.N) (i : S2x32x32768.Idx) :
    i ∈ ((cfg0.win 18).blk t).view.set ↔ ∀ a : Fin 3, win0_18.index t a * S2x8x32768.size a ≤ (i a).val ∧ (i a).val < win0_18.index t a * S2x8x32768.size a + S2x8x32768.size a := by
  show i ∈ ((View.whole main_v35_1).slice (win0_18.rect t)).set ↔ _
  rw [View.set_slice_whole, Rect.mem_set_unit]
  exact Iff.rfl

/-- The part of a [2, 8, 32768] block a write-back moves is the block: read at its own coordinates. -/
theorem cut18_apply (t : Fin cfg0.N) (X : S2x8x32768.Idx → EReal) (y : ((cfg0.win 18).xblock (grid0.coords t)).Idx)
    (hy0 : (y 0).val < 2) (hy1 : (y 1).val < 8) (hy2 : (y 2).val < 32768) :
    (cfg0.win 18).cut (grid0.coords t) X y = X (ix3 (⟨(y 0).val, hy0⟩ : Fin 2) (⟨(y 1).val, hy1⟩ : Fin 8) (⟨(y 2).val, hy2⟩ : Fin 32768)) := by
  show X _ = X _
  refine congrArg X ?_
  funext a
  match a with
  | ⟨0, _⟩ => rfl
  | ⟨1, _⟩ => rfl
  | ⟨2, _⟩ => rfl

/-- What point t writes back is batch rows 8t … 8t + 7 of G, when the body's result at (l, b, j) is G at (l, 8t + b, j). -/
theorem flushed18_eq (c : Dev nD) (G : S2x32x32768.Idx → EReal)
    (hblk : ∀ (t : Fin cfg0.N) (l : Fin 2) (b : Fin 8) (j : Fin 32768) (hb : t.val * 8 + b.val < 32),
      out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 l b j) = G (ix3 l ⟨t.val * 8 + b.val, hb⟩ j))
    (t : Fin cfg0.N) :
    (dats m 0 c).flushed 18 t = ((cfg0.win 18).blk t).view.read (Elt Ideal) G := by
  rw [Value.flushed18]
  obtain ⟨-, -, -, e0, e1, e2⟩ := idx_hid t
  have ht := t_lt t
  funext y
  have hy0 : (y 0).val < 2 := (y 0).isLt
  have hy1 : (y 1).val < 8 := (y 1).isLt
  have hy2 : (y 2).val < 32768 := (y 2).isLt
  have hb : t.val * 8 + (y 1).val < 32 := by omega
  refine (cut18_apply t _ y hy0 hy1 hy2).trans ?_
  refine (hblk t ⟨(y 0).val, hy0⟩ ⟨(y 1).val, hy1⟩ ⟨(y 2).val, hy2⟩ hb).trans ?_
  show G _ = G (((cfg0.win 18).blk t).view.emb y)
  refine congrArg G ?_
  funext a; apply Fin.ext
  match a with
  | ⟨0, _⟩ => show (y 0).val = win0_18.index t (0 : Fin 3) * 2 + 1 * (y 0).val; omega
  | ⟨1, _⟩ => show t.val * 8 + (y 1).val = win0_18.index t (1 : Fin 3) * 8 + 1 * (y 1).val; omega
  | ⟨2, _⟩ => show (y 2).val = win0_18.index t (2 : Fin 3) * 32768 + 1 * (y 2).val; omega

/-- Every index of the [2, 32, 32768] array is in the block of the point its batch row's chunk names. -/
theorem cover18 (i : S2x32x32768.Idx) : ∃ t : Fin cfg0.N, (cfg0.win 18).flush t = true ∧ i ∈ ((cfg0.win 18).blk t).view.set := by
  have hi0 : (i 0).val < 2 := (i 0).isLt
  have hi1 : (i 1).val < 32 := (i 1).isLt
  have hi2 : (i 2).val < 32768 := (i 2).isLt
  refine ⟨⟨(i 1).val / 8, lt_of_lt_of_eq (by omega : (i 1).val / 8 < 4) N_0.symm⟩, flush0_18 _, ?_⟩
  rw [mem_blk18]
  obtain ⟨-, -, -, e0, e1, e2⟩ := idx_hid ⟨(i 1).val / 8, lt_of_lt_of_eq (by omega : (i 1).val / 8 < 4) N_0.symm⟩
  have e1' : win0_18.index ⟨(i 1).val / 8, lt_of_lt_of_eq (by omega : (i 1).val / 8 < 4) N_0.symm⟩ (1 : Fin 3) = (i 1).val / 8 := e1
  intro a
  match a with
  | ⟨0, _⟩ => show win0_18.index _ (0 : Fin 3) * 2 ≤ (i 0).val ∧ (i 0).val < win0_18.index _ (0 : Fin 3) * 2 + 2; omega
  | ⟨1, _⟩ => show win0_18.index _ (1 : Fin 3) * 8 ≤ (i 1).val ∧ (i 1).val < win0_18.index _ (1 : Fin 3) * 8 + 8; omega
  | ⟨2, _⟩ => show win0_18.index _ (2 : Fin 3) * 32768 ≤ (i 2).val ∧ (i 2).val < win0_18.index _ (2 : Fin 3) * 32768 + 32768; omega

/-- THE HIDDEN-STATE OUTPUT after the run is G, when each point's block is the matching batch rows of G. -/
theorem final18_of (c : Dev nD) (G : S2x32x32768.Idx → EReal)
    (hblk : ∀ (t : Fin cfg0.N) (l : Fin 2) (b : Fin 8) (j : Fin 32768) (hb : t.val * 8 + b.val < 32),
      out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 l b j) = G (ix3 l ⟨t.val * 8 + b.val, hb⟩ j)) :
    (dats m 0 c).arrAt 18 cfg0.N = G :=
  (dats m 0 c).arrAt_eq_of_cover 18 G (fun t _ => flushed18_eq m c G hblk t) cover18

/-- The hidden-state block at point t is batch rows 8t … 8t + 7 of the hidden-state array. -/
theorem iblk2_apply (c : Dev nD) (t : Fin cfg0.N) (l : Fin 2) (b : Fin 8) (j : Fin 32768) (hb : t.val * 8 + b.val < 32) :
    (iblk m c 2 t : S2x8x32768.Idx → EReal) (ix3 l b j) = (V m c main_arg2 : S2x32x32768.Idx → EReal) (ix3 l ⟨t.val * 8 + b.val, hb⟩ j) := by
  obtain ⟨e0, e1, e2, -, -, -⟩ := idx_hid t
  unfold iblk
  rw [View.read_apply]
  show (V m c main_arg2 : S2x32x32768.Idx → EReal) (((cfg0.win 2).blk t).view.emb (ix3 l b j)) = _
  refine congrArg (V m c main_arg2 : S2x32x32768.Idx → EReal) ?_
  funext a; apply Fin.ext
  match a with
  | ⟨0, _⟩ => show win0_2.index t (0 : Fin 3) * 2 + 1 * l.val = l.val; omega
  | ⟨1, _⟩ => show win0_2.index t (1 : Fin 3) * 8 + 1 * b.val = t.val * 8 + b.val; omega
  | ⟨2, _⟩ => show win0_2.index t (2 : Fin 3) * 32768 + 1 * j.val = j.val; omega

/-! ## The windows that are whole arrays: the block at every point is the array -/

/-- Window 1's printed index map, decided over the grid: block 0 on every axis. -/
theorem idx_w1 : ∀ t : Fin cfg0.N, win0_1.index t (0 : Fin 2) = 0 ∧ win0_1.index t (1 : Fin 2) = 0 :=
  (by decide +kernel : ∀ t : Fin grid0.N, _)

/-- Window 1's block at every point is its whole [512, 512] array. -/
theorem iblk1_eq (c : Dev nD) (t : Fin cfg0.N) : (iblk m c 1 t : S512x512.Idx → EReal) = (V m c main_arg1 : S512x512.Idx → EReal) := by
  obtain ⟨e0, e1⟩ := idx_w1 t
  funext y
  unfold iblk
  rw [View.read_apply]
  show (V m c main_arg1 : S512x512.Idx → EReal) (((cfg0.win 1).blk t).view.emb y) = _
  refine congrArg (V m c main_arg1 : S512x512.Idx → EReal) ?_
  funext a; apply Fin.ext
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- Window 3's printed index map, decided over the grid: block 0 on every axis. -/
theorem idx_w3 : ∀ t : Fin cfg0.N, win0_3.index t (0 : Fin 3) = 0 ∧ win0_3.index t (1 : Fin 3) = 0 ∧ win0_3.index t (2 : Fin 3) = 0 :=
  (by decide +kernel : ∀ t : Fin grid0.N, _)

/-- Window 3's block at every point is its whole [3, 8, 1024] array. -/
theorem iblk3_eq (c : Dev nD) (t : Fin cfg0.N) : (iblk m c 3 t : S3x8x1024.Idx → EReal) = (V m c main_v16 : S3x8x1024.Idx → EReal) := by
  obtain ⟨e0, e1, e2⟩ := idx_w3 t
  funext y
  unfold iblk
  rw [View.read_apply]
  show (V m c main_v16 : S3x8x1024.Idx → EReal) (((cfg0.win 3).blk t).view.emb y) = _
  refine congrArg (V m c main_v16 : S3x8x1024.Idx → EReal) ?_
  funext a; apply Fin.ext
  match a with
  | ⟨0, _⟩ => show win0_3.index t (0 : Fin 3) * 3 + 1 * (y 0).val = (y 0).val; omega
  | ⟨1, _⟩ => show win0_3.index t (1 : Fin 3) * 8 + 1 * (y 1).val = (y 1).val; omega
  | ⟨2, _⟩ => show win0_3.index t (2 : Fin 3) * 1024 + 1 * (y 2).val = (y 2).val; omega

/-- Window 4's printed index map, decided over the grid: block 0 on every axis. -/
theorem idx_w4 : ∀ t : Fin cfg0.N, win0_4.index t (0 : Fin 3) = 0 ∧ win0_4.index t (1 : Fin 3) = 0 ∧ win0_4.index t (2 : Fin 3) = 0 :=
  (by decide +kernel : ∀ t : Fin grid0.N, _)

/-- Window 4's block at every point is its whole [3, 64, 128] array. -/
theorem iblk4_eq (c : Dev nD) (t : Fin cfg0.N) : (iblk m c 4 t : S3x64x128.Idx → EReal) = (V m c main_v4 : S3x64x128.Idx → EReal) := by
  obtain ⟨e0, e1, e2⟩ := idx_w4 t
  funext y
  unfold iblk
  rw [View.read_apply]
  show (V m c main_v4 : S3x64x128.Idx → EReal) (((cfg0.win 4).blk t).view.emb y) = _
  refine congrArg (V m c main_v4 : S3x64x128.Idx → EReal) ?_
  funext a; apply Fin.ext
  match a with
  | ⟨0, _⟩ => show win0_4.index t (0 : Fin 3) * 3 + 1 * (y 0).val = (y 0).val; omega
  | ⟨1, _⟩ => show win0_4.index t (1 : Fin 3) * 64 + 1 * (y 1).val = (y 1).val; omega
  | ⟨2, _⟩ => show win0_4.index t (2 : Fin 3) * 128 + 1 * (y 2).val = (y 2).val; omega

/-- Window 5's printed index map, decided over the grid: block 0 on every axis. -/
theorem idx_w5 : ∀ t : Fin cfg0.N, win0_5.index t (0 : Fin 3) = 0 ∧ win0_5.index t (1 : Fin 3) = 0 ∧ win0_5.index t (2 : Fin 3) = 0 :=
  (by decide +kernel : ∀ t : Fin grid0.N, _)

/-- Window 5's block at every point is its whole [3, 8, 512] array. -/
theorem iblk5_eq (c : Dev nD) (t : Fin cfg0.N) : (iblk m c 5 t : S3x8x512.Idx → EReal) = (V m c main_v23 : S3x8x512.Idx → EReal) := by
  obtain ⟨e0, e1, e2⟩ := idx_w5 t
  funext y
  unfold iblk
  rw [View.read_apply]
  show (V m c main_v23 : S3x8x512.Idx → EReal) (((cfg0.win 5).blk t).view.emb y) = _
  refine congrArg (V m c main_v23 : S3x8x512.Idx → EReal) ?_
  funext a; apply Fin.ext
  match a with
  | ⟨0, _⟩ => show win0_5.index t (0 : Fin 3) * 3 + 1 * (y 0).val = (y 0).val; omega
  | ⟨1, _⟩ => show win0_5.index t (1 : Fin 3) * 8 + 1 * (y 1).val = (y 1).val; omega
  | ⟨2, _⟩ => show win0_5.index t (2 : Fin 3) * 512 + 1 * (y 2).val = (y 2).val; omega

/-- Window 6's printed index map, decided over the grid: block 0 on every axis. -/
theorem idx_w6 : ∀ t : Fin cfg0.N, win0_6.index t (0 : Fin 3) = 0 ∧ win0_6.index t (1 : Fin 3) = 0 ∧ win0_6.index t (2 : Fin 3) = 0 :=
  (by decide +kernel : ∀ t : Fin grid0.N, _)

/-- Window 6's block at every point is its whole [3, 64, 64] array. -/
theorem iblk6_eq (c : Dev nD) (t : Fin cfg0.N) : (iblk m c 6 t : S3x64x64.Idx → EReal) = (V m c main_v9 : S3x64x64.Idx → EReal) := by
  obtain ⟨e0, e1, e2⟩ := idx_w6 t
  funext y
  unfold iblk
  rw [View.read_apply]
  show (V m c main_v9 : S3x64x64.Idx → EReal) (((cfg0.win 6).blk t).view.emb y) = _
  refine congrArg (V m c main_v9 : S3x64x64.Idx → EReal) ?_
  funext a; apply Fin.ext
  match a with
  | ⟨0, _⟩ => show win0_6.index t (0 : Fin 3) * 3 + 1 * (y 0).val = (y 0).val; omega
  | ⟨1, _⟩ => show win0_6.index t (1 : Fin 3) * 64 + 1 * (y 1).val = (y 1).val; omega
  | ⟨2, _⟩ => show win0_6.index t (2 : Fin 3) * 64 + 1 * (y 2).val = (y 2).val; omega

/-- Window 7's printed index map, decided over the grid: block 0 on every axis. -/
theorem idx_w7 : ∀ t : Fin cfg0.N, win0_7.index t (0 : Fin 1) = 0 :=
  (by decide +kernel : ∀ t : Fin grid0.N, _)

/-- Window 7's block at every point is its whole [128] array. -/
theorem iblk7_eq (c : Dev nD) (t : Fin cfg0.N) : (iblk m c 7 t : S128.Idx → EReal) = (V m c main_arg4 : S128.Idx → EReal) := by
  obtain e0 := idx_w7 t
  funext y
  unfold iblk
  rw [View.read_apply]
  show (V m c main_arg4 : S128.Idx → EReal) (((cfg0.win 7).blk t).view.emb y) = _
  refine congrArg (V m c main_arg4 : S128.Idx → EReal) ?_
  funext a; apply Fin.ext
  match a with
  | ⟨0, _⟩ => show win0_7.index t (0 : Fin 1) * 128 + 1 * (y 0).val = (y 0).val; omega

/-- Window 8's printed index map, decided over the grid: block 0 on every axis. -/
theorem idx_w8 : ∀ t : Fin cfg0.N, win0_8.index t (0 : Fin 1) = 0 :=
  (by decide +kernel : ∀ t : Fin grid0.N, _)

/-- Window 8's block at every point is its whole [64] array. -/
theorem iblk8_eq (c : Dev nD) (t : Fin cfg0.N) : (iblk m c 8 t : S64.Idx → EReal) = (V m c main_arg6 : S64.Idx → EReal) := by
  obtain e0 := idx_w8 t
  funext y
  unfold iblk
  rw [View.read_apply]
  show (V m c main_arg6 : S64.Idx → EReal) (((cfg0.win 8).blk t).view.emb y) = _
  refine congrArg (V m c main_arg6 : S64.Idx → EReal) ?_
  funext a; apply Fin.ext
  match a with
  | ⟨0, _⟩ => show win0_8.index t (0 : Fin 1) * 64 + 1 * (y 0).val = (y 0).val; omega

/-- Window 9's printed index map, decided over the grid: block 0 on every axis. -/
theorem idx_w9 : ∀ t : Fin cfg0.N, win0_9.index t (0 : Fin 3) = 0 ∧ win0_9.index t (1 : Fin 3) = 0 ∧ win0_9.index t (2 : Fin 3) = 0 :=
  (by decide +kernel : ∀ t : Fin grid0.N, _)

/-- Window 9's block at every point is its whole [3, 64, 128] array. -/
theorem iblk9_eq (c : Dev nD) (t : Fin cfg0.N) : (iblk m c 9 t : S3x64x128.Idx → EReal) = (V m c main_v26 : S3x64x128.Idx → EReal) := by
  obtain ⟨e0, e1, e2⟩ := idx_w9 t
  funext y
  unfold iblk
  rw [View.read_apply]
  show (V m c main_v26 : S3x64x128.Idx → EReal) (((cfg0.win 9).blk t).view.emb y) = _
  refine congrArg (V m c main_v26 : S3x64x128.Idx → EReal) ?_
  funext a; apply Fin.ext
  match a with
  | ⟨0, _⟩ => show win0_9.index t (0 : Fin 3) * 3 + 1 * (y 0).val = (y 0).val; omega
  | ⟨1, _⟩ => show win0_9.index t (1 : Fin 3) * 64 + 1 * (y 1).val = (y 1).val; omega
  | ⟨2, _⟩ => show win0_9.index t (2 : Fin 3) * 128 + 1 * (y 2).val = (y 2).val; omega

/-- Window 10's printed index map, decided over the grid: block 0 on every axis. -/
theorem idx_w10 : ∀ t : Fin cfg0.N, win0_10.index t (0 : Fin 3) = 0 ∧ win0_10.index t (1 : Fin 3) = 0 ∧ win0_10.index t (2 : Fin 3) = 0 :=
  (by decide +kernel : ∀ t : Fin grid0.N, _)

/-- Window 10's block at every point is its whole [3, 64, 128] array. -/
theorem iblk10_eq (c : Dev nD) (t : Fin cfg0.N) : (iblk m c 10 t : S3x64x128.Idx → EReal) = (V m c main_v28 : S3x64x128.Idx → EReal) := by
  obtain ⟨e0, e1, e2⟩ := idx_w10 t
  funext y
  unfold iblk
  rw [View.read_apply]
  show (V m c main_v28 : S3x64x128.Idx → EReal) (((cfg0.win 10).blk t).view.emb y) = _
  refine congrArg (V m c main_v28 : S3x64x128.Idx → EReal) ?_
  funext a; apply Fin.ext
  match a with
  | ⟨0, _⟩ => show win0_10.index t (0 : Fin 3) * 3 + 1 * (y 0).val = (y 0).val; omega
  | ⟨1, _⟩ => show win0_10.index t (1 : Fin 3) * 64 + 1 * (y 1).val = (y 1).val; omega
  | ⟨2, _⟩ => show win0_10.index t (2 : Fin 3) * 128 + 1 * (y 2).val = (y 2).val; omega

/-- Window 11's printed index map, decided over the grid: block 0 on every axis. -/
theorem idx_w11 : ∀ t : Fin cfg0.N, win0_11.index t (0 : Fin 3) = 0 ∧ win0_11.index t (1 : Fin 3) = 0 ∧ win0_11.index t (2 : Fin 3) = 0 :=
  (by decide +kernel : ∀ t : Fin grid0.N, _)

/-- Window 11's block at every point is its whole [3, 64, 64] array. -/
theorem iblk11_eq (c : Dev nD) (t : Fin cfg0.N) : (iblk m c 11 t : S3x64x64.Idx → EReal) = (V m c main_v31 : S3x64x64.Idx → EReal) := by
  obtain ⟨e0, e1, e2⟩ := idx_w11 t
  funext y
  unfold iblk
  rw [View.read_apply]
  show (V m c main_v31 : S3x64x64.Idx → EReal) (((cfg0.win 11).blk t).view.emb y) = _
  refine congrArg (V m c main_v31 : S3x64x64.Idx → EReal) ?_
  funext a; apply Fin.ext
  match a with
  | ⟨0, _⟩ => show win0_11.index t (0 : Fin 3) * 3 + 1 * (y 0).val = (y 0).val; omega
  | ⟨1, _⟩ => show win0_11.index t (1 : Fin 3) * 64 + 1 * (y 1).val = (y 1).val; omega
  | ⟨2, _⟩ => show win0_11.index t (2 : Fin 3) * 64 + 1 * (y 2).val = (y 2).val; omega

/-- Window 12's printed index map, decided over the grid: block 0 on every axis. -/
theorem idx_w12 : ∀ t : Fin cfg0.N, win0_12.index t (0 : Fin 3) = 0 ∧ win0_12.index t (1 : Fin 3) = 0 ∧ win0_12.index t (2 : Fin 3) = 0 :=
  (by decide +kernel : ∀ t : Fin grid0.N, _)

/-- Window 12's block at every point is its whole [3, 64, 64] array. -/
theorem iblk12_eq (c : Dev nD) (t : Fin cfg0.N) : (iblk m c 12 t : S3x64x64.Idx → EReal) = (V m c main_v33 : S3x64x64.Idx → EReal) := by
  obtain ⟨e0, e1, e2⟩ := idx_w12 t
  funext y
  unfold iblk
  rw [View.read_apply]
  show (V m c main_v33 : S3x64x64.Idx → EReal) (((cfg0.win 12).blk t).view.emb y) = _
  refine congrArg (V m c main_v33 : S3x64x64.Idx → EReal) ?_
  funext a; apply Fin.ext
  match a with
  | ⟨0, _⟩ => show win0_12.index t (0 : Fin 3) * 3 + 1 * (y 0).val = (y 0).val; omega
  | ⟨1, _⟩ => show win0_12.index t (1 : Fin 3) * 64 + 1 * (y 1).val = (y 1).val; omega
  | ⟨2, _⟩ => show win0_12.index t (2 : Fin 3) * 64 + 1 * (y 2).val = (y 2).val; omega

/-- Window 13's printed index map, decided over the grid: block 0 on every axis. -/
theorem idx_w13 : ∀ t : Fin cfg0.N, win0_13.index t (0 : Fin 1) = 0 :=
  (by decide +kernel : ∀ t : Fin grid0.N, _)

/-- Window 13's block at every point is its whole [128] array. -/
theorem iblk13_eq (c : Dev nD) (t : Fin cfg0.N) : (iblk m c 13 t : S128.Idx → EReal) = (V m c main_arg8 : S128.Idx → EReal) := by
  obtain e0 := idx_w13 t
  funext y
  unfold iblk
  rw [View.read_apply]
  show (V m c main_arg8 : S128.Idx → EReal) (((cfg0.win 13).blk t).view.emb y) = _
  refine congrArg (V m c main_arg8 : S128.Idx → EReal) ?_
  funext a; apply Fin.ext
  match a with
  | ⟨0, _⟩ => show win0_13.index t (0 : Fin 1) * 128 + 1 * (y 0).val = (y 0).val; omega

/-- Window 14's printed index map, decided over the grid: block 0 on every axis. -/
theorem idx_w14 : ∀ t : Fin cfg0.N, win0_14.index t (0 : Fin 1) = 0 :=
  (by decide +kernel : ∀ t : Fin grid0.N, _)

/-- Window 14's block at every point is its whole [64] array. -/
theorem iblk14_eq (c : Dev nD) (t : Fin cfg0.N) : (iblk m c 14 t : S64.Idx → EReal) = (V m c main_arg10 : S64.Idx → EReal) := by
  obtain e0 := idx_w14 t
  funext y
  unfold iblk
  rw [View.read_apply]
  show (V m c main_arg10 : S64.Idx → EReal) (((cfg0.win 14).blk t).view.emb y) = _
  refine congrArg (V m c main_arg10 : S64.Idx → EReal) ?_
  funext a; apply Fin.ext
  match a with
  | ⟨0, _⟩ => show win0_14.index t (0 : Fin 1) * 64 + 1 * (y 0).val = (y 0).val; omega

/-- Window 15's printed index map, decided over the grid: block 0 on every axis. -/
theorem idx_w15 : ∀ t : Fin cfg0.N, win0_15.index t (0 : Fin 2) = 0 ∧ win0_15.index t (1 : Fin 2) = 0 :=
  (by decide +kernel : ∀ t : Fin grid0.N, _)

/-- Window 15's block at every point is its whole [1, 64] array. -/
theorem iblk15_eq (c : Dev nD) (t : Fin cfg0.N) : (iblk m c 15 t : S1x64.Idx → EReal) = (V m c main_v34 : S1x64.Idx → EReal) := by
  obtain ⟨e0, e1⟩ := idx_w15 t
  funext y
  unfold iblk
  rw [View.read_apply]
  show (V m c main_v34 : S1x64.Idx → EReal) (((cfg0.win 15).blk t).view.emb y) = _
  refine congrArg (V m c main_v34 : S1x64.Idx → EReal) ?_
  funext a; apply Fin.ext
  match a with
  | ⟨0, _⟩ => show win0_15.index t (0 : Fin 2) * 1 + 1 * (y 0).val = (y 0).val; omega
  | ⟨1, _⟩ => show win0_15.index t (1 : Fin 2) * 64 + 1 * (y 1).val = (y 1).val; omega

/-- Window 16's printed index map, decided over the grid: block 0 on every axis. -/
theorem idx_w16 : ∀ t : Fin cfg0.N, win0_16.index t (0 : Fin 1) = 0 :=
  (by decide +kernel : ∀ t : Fin grid0.N, _)

/-- Window 16's block at every point is its whole [1] array. -/
theorem iblk16_eq (c : Dev nD) (t : Fin cfg0.N) : (iblk m c 16 t : S1.Idx → EReal) = (V m c main_arg12 : S1.Idx → EReal) := by
  obtain e0 := idx_w16 t
  funext y
  unfold iblk
  rw [View.read_apply]
  show (V m c main_arg12 : S1.Idx → EReal) (((cfg0.win 16).blk t).view.emb y) = _
  refine congrArg (V m c main_arg12 : S1.Idx → EReal) ?_
  funext a; apply Fin.ext
  match a with
  | ⟨0, _⟩ => show win0_16.index t (0 : Fin 1) * 1 + 1 * (y 0).val = (y 0).val; omega

end Cert.Dcgru.KerBlocks

end
-- ==== Proof.KerHost.lean ====
/-
  The weight operands as the region finds them. Before the region the program reshapes each gate / candidate weight
  matrix `[F·3, O]` (rows ordered feature-major, tap-minor) to `[F, 3, O]`, cuts the feature axis into the input
  features and the 64 state features, and moves the tap axis to the front: the array `[3, ·, O]` read at `(t, u, o)`
  is the weight matrix at row `(first feature + u) · 3 + t`, column `o`. The first cell has one input feature; its
  `[3, 1, O]` stack is multiplied, entry by entry, with the 8 × 8 identity (the Kronecker product), giving
  `[3, 8, 8·O]` whose entry `(t, b', b·O + o)` is `δ(b', b) · W[t, o]`. The read-out weights `[64, 1]` are transposed.
-/
import proofs.«110417_g44504451121623_cont_8to1_c_180_11_alg».proof.Proof.Gen.KernelIdeal.Frame
import proofs.«110417_g44504451121623_cont_8to1_c_180_11_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

noncomputable section

namespace Cert.Dcgru.KerHost

open Cert.Dcgru Idealize.ShloMosaic Idealize.ShloMosaic.ValueIdx
open Cert.KernelIdeal Cert.KernelIdeal.Gen Idealize.ShloMosaic.TcCoe

variable (m : (ℓ : Loc nD τ sig) → Buf (Elt Ideal) ℓ)

/-! ### Layout operations read at an index -/

/-- The transpose of a `[64, 1]` array read at `(0, u)` is the array at `(u, 0)`. -/
theorem tr_64x1_1x64 {α : Type} (x : S64x1.Idx → α) (h : S64x1.Transposes [1, 0] S1x64) (u : Fin 64) :
    transpose S1x64 [1, 0] x h (ix2 0 u) = x (ix2 u 0) := by
  refine transpose_apply _ x h _ _ (fun a => ?_)
  match a with
  | ⟨0, _⟩ => rfl
  | ⟨1, _⟩ => rfl

/-! ### The arrays the region finds -/

/-- The read-out weights, transposed: entry `(0, u)` is the argument's `(u, 0)`. -/
theorem V_v34 (c : Dev nD) (u : Fin 64) :
    (V m c main_v34 : S1x64.Idx → EReal) (ix2 0 u) = (m ((c : Thread nD τ).loc main_arg11) : S64x1.Idx → EReal) (ix2 u 0) := by
  have e : (V m c main_v34 : S1x64.Idx → EReal)
      = transpose S1x64 [1, 0] (m ((c : Thread nD τ).loc main_arg11) : S64x1.Idx → EReal) transposes_S64x1_S1x64_1_0 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
  rw [e, tr_64x1_1x64]

theorem tr_64x3x128 {α : Type} (x : S64x3x128.Idx → α) (h : S64x3x128.Transposes [1, 0, 2] S3x64x128)
    (a : Fin 64) (b : Fin 3) (c : Fin 128) :
    transpose S3x64x128 [1, 0, 2] x h (ix3 b a c) = x (ix3 a b c) := by
  refine transpose_apply _ x h _ _ (fun d => ?_)
  match d with
  | ⟨0, _⟩ => rfl
  | ⟨1, _⟩ => rfl
  | ⟨2, _⟩ => rfl

theorem tr_64x3x64 {α : Type} (x : S64x3x64.Idx → α) (h : S64x3x64.Transposes [1, 0, 2] S3x64x64)
    (a : Fin 64) (b : Fin 3) (c : Fin 64) :
    transpose S3x64x64 [1, 0, 2] x h (ix3 b a c) = x (ix3 a b c) := by
  refine transpose_apply _ x h _ _ (fun d => ?_)
  match d with
  | ⟨0, _⟩ => rfl
  | ⟨1, _⟩ => rfl
  | ⟨2, _⟩ => rfl

theorem sl_65x3x128_1_64 {α : Type} (x : S65x3x128.Idx → α) (h : S65x3x128.Slices ![1, 0, 0] S64x3x128)
    (a : Fin 64) (b : Fin 3) (c : Fin 128) (ha : 1 + a.val < 65) :
    extractStridedSlice S64x3x128 ![1, 0, 0] x h (ix3 a b c) = x (ix3 ⟨1 + a.val, ha⟩ b c) := by
  refine extractStridedSlice_apply _ x h _ _ (fun d => ?_)
  match d with
  | ⟨0, _⟩ => rfl
  | ⟨1, _⟩ => exact (Nat.zero_add _).symm
  | ⟨2, _⟩ => exact (Nat.zero_add _).symm

theorem sl_65x3x64_1_64 {α : Type} (x : S65x3x64.Idx → α) (h : S65x3x64.Slices ![1, 0, 0] S64x3x64)
    (a : Fin 64) (b : Fin 3) (c : Fin 64) (ha : 1 + a.val < 65) :
    extractStridedSlice S64x3x64 ![1, 0, 0] x h (ix3 a b c) = x (ix3 ⟨1 + a.val, ha⟩ b c) := by
  refine extractStridedSlice_apply _ x h _ _ (fun d => ?_)
  match d with
  | ⟨0, _⟩ => rfl
  | ⟨1, _⟩ => exact (Nat.zero_add _).symm
  | ⟨2, _⟩ => exact (Nat.zero_add _).symm

theorem sl_128x3x128_0_64 {α : Type} (x : S128x3x128.Idx → α) (h : S128x3x128.Slices ![0, 0, 0] S64x3x128)
    (a : Fin 64) (b : Fin 3) (c : Fin 128) (ha : a.val < 128) :
    extractStridedSlice S64x3x128 ![0, 0, 0] x h (ix3 a b c) = x (ix3 ⟨a.val, ha⟩ b c) := by
  refine extractStridedSlice_apply _ x h _ _ (fun d => ?_)
  match d with
  | ⟨0, _⟩ => exact (Nat.zero_add _).symm
  | ⟨1, _⟩ => exact (Nat.zero_add _).symm
  | ⟨2, _⟩ => exact (Nat.zero_add _).symm

theorem sl_128x3x128_64_64 {α : Type} (x : S128x3x128.Idx → α) (h : S128x3x128.Slices ![64, 0, 0] S64x3x128)
    (a : Fin 64) (b : Fin 3) (c : Fin 128) (ha : 64 + a.val < 128) :
    extractStridedSlice S64x3x128 ![64, 0, 0] x h (ix3 a b c) = x (ix3 ⟨64 + a.val, ha⟩ b c) := by
  refine extractStridedSlice_apply _ x h _ _ (fun d => ?_)
  match d with
  | ⟨0, _⟩ => rfl
  | ⟨1, _⟩ => exact (Nat.zero_add _).symm
  | ⟨2, _⟩ => exact (Nat.zero_add _).symm

theorem sl_128x3x64_0_64 {α : Type} (x : S128x3x64.Idx → α) (h : S128x3x64.Slices ![0, 0, 0] S64x3x64)
    (a : Fin 64) (b : Fin 3) (c : Fin 64) (ha : a.val < 128) :
    extractStridedSlice S64x3x64 ![0, 0, 0] x h (ix3 a b c) = x (ix3 ⟨a.val, ha⟩ b c) := by
  refine extractStridedSlice_apply _ x h _ _ (fun d => ?_)
  match d with
  | ⟨0, _⟩ => exact (Nat.zero_add _).symm
  | ⟨1, _⟩ => exact (Nat.zero_add _).symm
  | ⟨2, _⟩ => exact (Nat.zero_add _).symm

theorem sl_128x3x64_64_64 {α : Type} (x : S128x3x64.Idx → α) (h : S128x3x64.Slices ![64, 0, 0] S64x3x64)
    (a : Fin 64) (b : Fin 3) (c : Fin 64) (ha : 64 + a.val < 128) :
    extractStridedSlice S64x3x64 ![64, 0, 0] x h (ix3 a b c) = x (ix3 ⟨64 + a.val, ha⟩ b c) := by
  refine extractStridedSlice_apply _ x h _ _ (fun d => ?_)
  match d with
  | ⟨0, _⟩ => rfl
  | ⟨1, _⟩ => exact (Nat.zero_add _).symm
  | ⟨2, _⟩ => exact (Nat.zero_add _).symm

theorem sc_195x128_65x3x128 {α : Type} (x : S195x128.Idx → α) (h : S195x128.ShapeCasts S65x3x128)
    (a : Fin 65) (b : Fin 3) (c : Fin 128) (hr : a.val * 3 + b.val < 195) :
    shapeCast S65x3x128 x h (ix3 a b c) = x (ix2 ⟨a.val * 3 + b.val, hr⟩ c) := by
  refine shapeCast_apply x h _ _ ?_
  rw [Shape.rowMajor_val_three, Shape.rowMajor_val_two]
  rfl

theorem sc_195x64_65x3x64 {α : Type} (x : S195x64.Idx → α) (h : S195x64.ShapeCasts S65x3x64)
    (a : Fin 65) (b : Fin 3) (c : Fin 64) (hr : a.val * 3 + b.val < 195) :
    shapeCast S65x3x64 x h (ix3 a b c) = x (ix2 ⟨a.val * 3 + b.val, hr⟩ c) := by
  refine shapeCast_apply x h _ _ ?_
  rw [Shape.rowMajor_val_three, Shape.rowMajor_val_two]
  rfl

theorem sc_384x128_128x3x128 {α : Type} (x : S384x128.Idx → α) (h : S384x128.ShapeCasts S128x3x128)
    (a : Fin 128) (b : Fin 3) (c : Fin 128) (hr : a.val * 3 + b.val < 384) :
    shapeCast S128x3x128 x h (ix3 a b c) = x (ix2 ⟨a.val * 3 + b.val, hr⟩ c) := by
  refine shapeCast_apply x h _ _ ?_
  rw [Shape.rowMajor_val_three, Shape.rowMajor_val_two]
  rfl

theorem sc_384x64_128x3x64 {α : Type} (x : S384x64.Idx → α) (h : S384x64.ShapeCasts S128x3x64)
    (a : Fin 128) (b : Fin 3) (c : Fin 64) (hr : a.val * 3 + b.val < 384) :
    shapeCast S128x3x64 x h (ix3 a b c) = x (ix2 ⟨a.val * 3 + b.val, hr⟩ c) := by
  refine shapeCast_apply x h _ _ ?_
  rw [Shape.rowMajor_val_three, Shape.rowMajor_val_two]
  rfl

/-- The first cell's gate state-feature weights: entry `(t, u, o)` is `Wg0[(1 + u)·3 + t, o]`. -/
theorem V_v4 (c : Dev nD) (t : Fin 3) (u : Fin 64) (o : Fin 128) (hr : (1 + u.val) * 3 + t.val < 195) :
    (V m c main_v4 : S3x64x128.Idx → EReal) (ix3 t u o)
      = (m ((c : Thread nD τ).loc main_arg3) : S195x128.Idx → EReal) (ix2 ⟨(1 + u.val) * 3 + t.val, hr⟩ o) := by
  have e : (V m c main_v4 : S3x64x128.Idx → EReal)
      = transpose S3x64x128 [1, 0, 2] (extractStridedSlice S64x3x128 ![1, 0, 0]
          (shapeCast S65x3x128 (m ((c : Thread nD τ).loc main_arg3) : S195x128.Idx → EReal) shapeCasts_S195x128_S65x3x128)
          slices_S65x3x128_S64x3x128_1_0_0) transposes_S64x3x128_S3x64x128_1_0_2 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
    try rfl
  rw [e, tr_64x3x128, sl_65x3x128_1_64 _ _ _ _ _ (by omega), sc_195x128_65x3x128 _ _ _ _ _ hr]

/-- The first cell's candidate state-feature weights: entry `(t, u, o)` is `Wc0[(1 + u)·3 + t, o]`. -/
theorem V_v9 (c : Dev nD) (t : Fin 3) (u : Fin 64) (o : Fin 64) (hr : (1 + u.val) * 3 + t.val < 195) :
    (V m c main_v9 : S3x64x64.Idx → EReal) (ix3 t u o)
      = (m ((c : Thread nD τ).loc main_arg5) : S195x64.Idx → EReal) (ix2 ⟨(1 + u.val) * 3 + t.val, hr⟩ o) := by
  have e : (V m c main_v9 : S3x64x64.Idx → EReal)
      = transpose S3x64x64 [1, 0, 2] (extractStridedSlice S64x3x64 ![1, 0, 0]
          (shapeCast S65x3x64 (m ((c : Thread nD τ).loc main_arg5) : S195x64.Idx → EReal) shapeCasts_S195x64_S65x3x64)
          slices_S65x3x64_S64x3x64_1_0_0) transposes_S64x3x64_S3x64x64_1_0_2 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
    try rfl
  rw [e, tr_64x3x64, sl_65x3x64_1_64 _ _ _ _ _ (by omega), sc_195x64_65x3x64 _ _ _ _ _ hr]

/-- The second cell's gate input-feature weights: entry `(t, u, o)` is `Wg1[u·3 + t, o]`. -/
theorem V_v26 (c : Dev nD) (t : Fin 3) (u : Fin 64) (o : Fin 128) (hr : u.val * 3 + t.val < 384) :
    (V m c main_v26 : S3x64x128.Idx → EReal) (ix3 t u o)
      = (m ((c : Thread nD τ).loc main_arg7) : S384x128.Idx → EReal) (ix2 ⟨u.val * 3 + t.val, hr⟩ o) := by
  have e : (V m c main_v26 : S3x64x128.Idx → EReal)
      = transpose S3x64x128 [1, 0, 2] (extractStridedSlice S64x3x128 ![0, 0, 0]
          (shapeCast S128x3x128 (m ((c : Thread nD τ).loc main_arg7) : S384x128.Idx → EReal) shapeCasts_S384x128_S128x3x128)
          slices_S128x3x128_S64x3x128_0_0_0) transposes_S64x3x128_S3x64x128_1_0_2 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
    try rfl
  rw [e, tr_64x3x128, sl_128x3x128_0_64 _ _ _ _ _ (by omega), sc_384x128_128x3x128 _ _ _ _ _ hr]

/-- The second cell's gate state-feature weights: entry `(t, u, o)` is `Wg1[(64 + u)·3 + t, o]`. -/
theorem V_v28 (c : Dev nD) (t : Fin 3) (u : Fin 64) (o : Fin 128) (hr : (64 + u.val) * 3 + t.val < 384) :
    (V m c main_v28 : S3x64x128.Idx → EReal) (ix3 t u o)
      = (m ((c : Thread nD τ).loc main_arg7) : S384x128.Idx → EReal) (ix2 ⟨(64 + u.val) * 3 + t.val, hr⟩ o) := by
  have e : (V m c main_v28 : S3x64x128.Idx → EReal)
      = transpose S3x64x128 [1, 0, 2] (extractStridedSlice S64x3x128 ![64, 0, 0]
          (shapeCast S128x3x128 (m ((c : Thread nD τ).loc main_arg7) : S384x128.Idx → EReal) shapeCasts_S384x128_S128x3x128)
          slices_S128x3x128_S64x3x128_64_0_0) transposes_S64x3x128_S3x64x128_1_0_2 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
    try rfl
  rw [e, tr_64x3x128, sl_128x3x128_64_64 _ _ _ _ _ (by omega), sc_384x128_128x3x128 _ _ _ _ _ hr]

/-- The second cell's candidate input-feature weights: entry `(t, u, o)` is `Wc1[u·3 + t, o]`. -/
theorem V_v31 (c : Dev nD) (t : Fin 3) (u : Fin 64) (o : Fin 64) (hr : u.val * 3 + t.val < 384) :
    (V m c main_v31 : S3x64x64.Idx → EReal) (ix3 t u o)
      = (m ((c : Thread nD τ).loc main_arg9) : S384x64.Idx → EReal) (ix2 ⟨u.val * 3 + t.val, hr⟩ o) := by
  have e : (V m c main_v31 : S3x64x64.Idx → EReal)
      = transpose S3x64x64 [1, 0, 2] (extractStridedSlice S64x3x64 ![0, 0, 0]
          (shapeCast S128x3x64 (m ((c : Thread nD τ).loc main_arg9) : S384x64.Idx → EReal) shapeCasts_S384x64_S128x3x64)
          slices_S128x3x64_S64x3x64_0_0_0) transposes_S64x3x64_S3x64x64_1_0_2 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
    try rfl
  rw [e, tr_64x3x64, sl_128x3x64_0_64 _ _ _ _ _ (by omega), sc_384x64_128x3x64 _ _ _ _ _ hr]

/-- The second cell's candidate state-feature weights: entry `(t, u, o)` is `Wc1[(64 + u)·3 + t, o]`. -/
theorem V_v33 (c : Dev nD) (t : Fin 3) (u : Fin 64) (o : Fin 64) (hr : (64 + u.val) * 3 + t.val < 384) :
    (V m c main_v33 : S3x64x64.Idx → EReal) (ix3 t u o)
      = (m ((c : Thread nD τ).loc main_arg9) : S384x64.Idx → EReal) (ix2 ⟨(64 + u.val) * 3 + t.val, hr⟩ o) := by
  have e : (V m c main_v33 : S3x64x64.Idx → EReal)
      = transpose S3x64x64 [1, 0, 2] (extractStridedSlice S64x3x64 ![64, 0, 0]
          (shapeCast S128x3x64 (m ((c : Thread nD τ).loc main_arg9) : S384x64.Idx → EReal) shapeCasts_S384x64_S128x3x64)
          slices_S128x3x64_S64x3x64_64_0_0) transposes_S64x3x64_S3x64x64_1_0_2 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
    try rfl
  rw [e, tr_64x3x64, sl_128x3x64_64_64 _ _ _ _ _ (by omega), sc_384x64_128x3x64 _ _ _ _ _ hr]

/-- The 8 × 8 identity as the program builds it: the row index (plus a zero) compared with the column index, the
    truth value read as a number. Its entry is `1` on the diagonal and `0` off it. -/
theorem eye_apply (h : S_.BroadcastsInDim S8x8 (![] : Fin 0 → Fin S8x8.rank)) (b' b : Fin 8) :
    (uitofp (F := Ideal) .f32 (cmpi .eq (addi (iotaInDim S8x8 32 0) (broadcastInDim S8x8 ![] h (constantI S_ 32 0#32)))
      (iotaInDim S8x8 32 1)) : FVec Ideal S8x8 .f32) (ix2 b' b) = eye b' b := by
  show (((BitVec.ofBool (BitVec.ofNat 32 b'.val + 0#32 == BitVec.ofNat 32 b.val)).toNat : ℝ) : EReal) = _
  unfold eye
  by_cases hbb : b' = b
  · subst hbb
    simp
  · rw [if_neg hbb]
    have hne : (BitVec.ofNat 32 b'.val + 0#32 == BitVec.ofNat 32 b.val) = false := by
      rw [BitVec.add_zero]
      refine beq_false_of_ne (fun heq => hbb (Fin.ext ?_))
      have h1 := congrArg BitVec.toNat heq
      simp only [BitVec.toNat_ofNat] at h1
      have := b'.isLt
      have := b.isLt
      omega
    rw [hne]
    simp

/-! ### The Kronecker product's layout operations read at an index -/

theorem bc_8x8_8x1x8x1 {α : Type} (x : S8x8.Idx → α) (h : S8x8.BroadcastsInDim S8x1x8x1 (![0, 2] : Fin 2 → Fin S8x1x8x1.rank))
    (b' b : Fin 8) (z1 z2 : Fin 1) :
    broadcastInDim S8x1x8x1 ![0, 2] h x (ix4 b' z1 b z2) = x (ix2 b' b) := by
  refine broadcastInDim_apply _ h x _ _ (fun a => ?_)
  match a with
  | ⟨0, _⟩ => rfl
  | ⟨1, _⟩ => rfl

theorem bc_8x1x8x1_1x8x1x8x1 {α : Type} (x : S8x1x8x1.Idx → α)
    (h : S8x1x8x1.BroadcastsInDim S1x8x1x8x1 (![1, 2, 3, 4] : Fin 4 → Fin S1x8x1x8x1.rank)) (b' b : Fin 8) (z0 z1 z2 : Fin 1) :
    broadcastInDim S1x8x1x8x1 ![1, 2, 3, 4] h x (ix5 z0 b' z1 b z2) = x (ix4 b' 0 b 0) := by
  refine broadcastInDim_apply _ h x _ _ (fun a => ?_)
  match a with
  | ⟨0, _⟩ => rfl
  | ⟨1, _⟩ => rfl
  | ⟨2, _⟩ => rfl
  | ⟨3, _⟩ => rfl

theorem sc_3x8x1x8x128 {α : Type} (x : S3x8x1x8x128.Idx → α) (h : S3x8x1x8x128.ShapeCasts S3x8x1024)
    (t : Fin 3) (b' b : Fin 8) (o : Fin 128) (hj : b.val * 128 + o.val < 1024) :
    shapeCast S3x8x1024 x h (ix3 t b' ⟨b.val * 128 + o.val, hj⟩) = x (ix5 t b' 0 b o) := by
  refine shapeCast_apply x h _ _ ?_
  rw [Shape.rowMajor_val_five, Shape.rowMajor_val_three]
  show ((((t.val * 8 + b'.val) * 1 + (0 : ℕ)) * 8 + b.val) * 128 + o.val) = (t.val * 8 + b'.val) * 1024 + (b.val * 128 + o.val)
  omega

theorem bc_1x8x1x8x1_3x8x1x8x128 {α : Type} (x : S1x8x1x8x1.Idx → α)
    (h : S1x8x1x8x1.BroadcastsInDim S3x8x1x8x128 (![0, 1, 2, 3, 4] : Fin 5 → Fin S3x8x1x8x128.rank))
    (t : Fin 3) (b' b : Fin 8) (z : Fin 1) (o : Fin 128) :
    broadcastInDim S3x8x1x8x128 ![0, 1, 2, 3, 4] h x (ix5 t b' z b o) = x (ix5 0 b' 0 b 0) := by
  refine broadcastInDim_apply _ h x _ _ (fun a => ?_)
  match a with
  | ⟨0, _⟩ => rfl
  | ⟨1, _⟩ => rfl
  | ⟨2, _⟩ => rfl
  | ⟨3, _⟩ => rfl
  | ⟨4, _⟩ => rfl

theorem bc_3x1x1x1x128_3x8x1x8x128 {α : Type} (x : S3x1x1x1x128.Idx → α)
    (h : S3x1x1x1x128.BroadcastsInDim S3x8x1x8x128 (![0, 1, 2, 3, 4] : Fin 5 → Fin S3x8x1x8x128.rank))
    (t : Fin 3) (b' b : Fin 8) (z : Fin 1) (o : Fin 128) :
    broadcastInDim S3x8x1x8x128 ![0, 1, 2, 3, 4] h x (ix5 t b' z b o) = x (ix5 t 0 0 0 o) := by
  refine broadcastInDim_apply _ h x _ _ (fun a => ?_)
  match a with
  | ⟨0, _⟩ => rfl
  | ⟨1, _⟩ => rfl
  | ⟨2, _⟩ => rfl
  | ⟨3, _⟩ => rfl
  | ⟨4, _⟩ => rfl

theorem bc_3x1x128_3x1x1x1x128 {α : Type} (x : S3x1x128.Idx → α)
    (h : S3x1x128.BroadcastsInDim S3x1x1x1x128 (![0, 2, 4] : Fin 3 → Fin S3x1x1x1x128.rank))
    (t : Fin 3) (z1 z2 z3 : Fin 1) (o : Fin 128) :
    broadcastInDim S3x1x1x1x128 ![0, 2, 4] h x (ix5 t z1 z2 z3 o) = x (ix3 t 0 o) := by
  refine broadcastInDim_apply _ h x _ _ (fun a => ?_)
  match a with
  | ⟨0, _⟩ => rfl
  | ⟨1, _⟩ => rfl
  | ⟨2, _⟩ => rfl

theorem tr_1x3x128 {α : Type} (x : S1x3x128.Idx → α) (h : S1x3x128.Transposes [1, 0, 2] S3x1x128)
    (t : Fin 3) (z : Fin 1) (o : Fin 128) :
    transpose S3x1x128 [1, 0, 2] x h (ix3 t z o) = x (ix3 z t o) := by
  refine transpose_apply _ x h _ _ (fun d => ?_)
  match d with
  | ⟨0, _⟩ => rfl
  | ⟨1, _⟩ => rfl
  | ⟨2, _⟩ => rfl

theorem sl_65x3x128_row0 {α : Type} (x : S65x3x128.Idx → α) (h : S65x3x128.Slices ![0, 0, 0] S1x3x128)
    (t : Fin 3) (o : Fin 128) :
    extractStridedSlice S1x3x128 ![0, 0, 0] x h (ix3 0 t o) = x (ix3 0 t o) := by
  refine extractStridedSlice_apply _ x h _ _ (fun d => ?_)
  match d with
  | ⟨0, _⟩ => rfl
  | ⟨1, _⟩ => exact (Nat.zero_add _).symm
  | ⟨2, _⟩ => exact (Nat.zero_add _).symm

theorem sc_195x128_row0 {α : Type} (x : S195x128.Idx → α) (h : S195x128.ShapeCasts S65x3x128)
    (t : Fin 3) (o : Fin 128) (ht : t.val < 195) :
    shapeCast S65x3x128 x h (ix3 0 t o) = x (ix2 ⟨t.val, ht⟩ o) := by
  refine shapeCast_apply x h _ _ ?_
  rw [Shape.rowMajor_val_three, Shape.rowMajor_val_two]
  show t.val * 128 + o.val = ((0 : ℕ) * 3 + t.val) * 128 + o.val
  omega

theorem sc_3x8x1x8x64 {α : Type} (x : S3x8x1x8x64.Idx → α) (h : S3x8x1x8x64.ShapeCasts S3x8x512)
    (t : Fin 3) (b' b : Fin 8) (o : Fin 64) (hj : b.val * 64 + o.val < 512) :
    shapeCast S3x8x512 x h (ix3 t b' ⟨b.val * 64 + o.val, hj⟩) = x (ix5 t b' 0 b o) := by
  refine shapeCast_apply x h _ _ ?_
  rw [Shape.rowMajor_val_five, Shape.rowMajor_val_three]
  show ((((t.val * 8 + b'.val) * 1 + (0 : ℕ)) * 8 + b.val) * 64 + o.val) = (t.val * 8 + b'.val) * 512 + (b.val * 64 + o.val)
  omega

theorem bc_1x8x1x8x1_3x8x1x8x64 {α : Type} (x : S1x8x1x8x1.Idx → α)
    (h : S1x8x1x8x1.BroadcastsInDim S3x8x1x8x64 (![0, 1, 2, 3, 4] : Fin 5 → Fin S3x8x1x8x64.rank))
    (t : Fin 3) (b' b : Fin 8) (z : Fin 1) (o : Fin 64) :
    broadcastInDim S3x8x1x8x64 ![0, 1, 2, 3, 4] h x (ix5 t b' z b o) = x (ix5 0 b' 0 b 0) := by
  refine broadcastInDim_apply _ h x _ _ (fun a => ?_)
  match a with
  | ⟨0, _⟩ => rfl
  | ⟨1, _⟩ => rfl
  | ⟨2, _⟩ => rfl
  | ⟨3, _⟩ => rfl
  | ⟨4, _⟩ => rfl

theorem bc_3x1x1x1x64_3x8x1x8x64 {α : Type} (x : S3x1x1x1x64.Idx → α)
    (h : S3x1x1x1x64.BroadcastsInDim S3x8x1x8x64 (![0, 1, 2, 3, 4] : Fin 5 → Fin S3x8x1x8x64.rank))
    (t : Fin 3) (b' b : Fin 8) (z : Fin 1) (o : Fin 64) :
    broadcastInDim S3x8x1x8x64 ![0, 1, 2, 3, 4] h x (ix5 t b' z b o) = x (ix5 t 0 0 0 o) := by
  refine broadcastInDim_apply _ h x _ _ (fun a => ?_)
  match a with
  | ⟨0, _⟩ => rfl
  | ⟨1, _⟩ => rfl
  | ⟨2, _⟩ => rfl
  | ⟨3, _⟩ => rfl
  | ⟨4, _⟩ => rfl

theorem bc_3x1x64_3x1x1x1x64 {α : Type} (x : S3x1x64.Idx → α)
    (h : S3x1x64.BroadcastsInDim S3x1x1x1x64 (![0, 2, 4] : Fin 3 → Fin S3x1x1x1x64.rank))
    (t : Fin 3) (z1 z2 z3 : Fin 1) (o : Fin 64) :
    broadcastInDim S3x1x1x1x64 ![0, 2, 4] h x (ix5 t z1 z2 z3 o) = x (ix3 t 0 o) := by
  refine broadcastInDim_apply _ h x _ _ (fun a => ?_)
  match a with
  | ⟨0, _⟩ => rfl
  | ⟨1, _⟩ => rfl
  | ⟨2, _⟩ => rfl

theorem tr_1x3x64 {α : Type} (x : S1x3x64.Idx → α) (h : S1x3x64.Transposes [1, 0, 2] S3x1x64)
    (t : Fin 3) (z : Fin 1) (o : Fin 64) :
    transpose S3x1x64 [1, 0, 2] x h (ix3 t z o) = x (ix3 z t o) := by
  refine transpose_apply _ x h _ _ (fun d => ?_)
  match d with
  | ⟨0, _⟩ => rfl
  | ⟨1, _⟩ => rfl
  | ⟨2, _⟩ => rfl

theorem sl_65x3x64_row0 {α : Type} (x : S65x3x64.Idx → α) (h : S65x3x64.Slices ![0, 0, 0] S1x3x64)
    (t : Fin 3) (o : Fin 64) :
    extractStridedSlice S1x3x64 ![0, 0, 0] x h (ix3 0 t o) = x (ix3 0 t o) := by
  refine extractStridedSlice_apply _ x h _ _ (fun d => ?_)
  match d with
  | ⟨0, _⟩ => rfl
  | ⟨1, _⟩ => exact (Nat.zero_add _).symm
  | ⟨2, _⟩ => exact (Nat.zero_add _).symm

theorem sc_195x64_row0 {α : Type} (x : S195x64.Idx → α) (h : S195x64.ShapeCasts S65x3x64)
    (t : Fin 3) (o : Fin 64) (ht : t.val < 195) :
    shapeCast S65x3x64 x h (ix3 0 t o) = x (ix2 ⟨t.val, ht⟩ o) := by
  refine shapeCast_apply x h _ _ ?_
  rw [Shape.rowMajor_val_three, Shape.rowMajor_val_two]
  show t.val * 64 + o.val = ((0 : ℕ) * 3 + t.val) * 64 + o.val
  omega

/-! ### The two Kronecker-multiplied arrays the region finds -/

/-- The first cell's gate input-feature weights, Kronecker-multiplied with the identity: entry `(t, b', b·128 + o)` is
    `δ(b', b) · Wg0[t, o]` (feature 0's row `0·3 + t = t`). -/
theorem V_v16 (c : Dev nD) (t : Fin 3) (b' b : Fin 8) (o : Fin 128) (hj : b.val * 128 + o.val < 1024) (ht : t.val < 195) :
    (V m c main_v16 : S3x8x1024.Idx → EReal) (ix3 t b' ⟨b.val * 128 + o.val, hj⟩)
      = eye b' b * (m ((c : Thread nD τ).loc main_arg3) : S195x128.Idx → EReal) (ix2 ⟨t.val, ht⟩ o) := by
  have e : (V m c main_v16 : S3x8x1024.Idx → EReal)
      = shapeCast S3x8x1024 (mulf (F := Ideal) (φ := .f32)
          (broadcastInDim S3x8x1x8x128 ![0, 1, 2, 3, 4] bcast_S1x8x1x8x1_S3x8x1x8x128_0_1_2_3_4
            (broadcastInDim S1x8x1x8x1 ![1, 2, 3, 4] bcast_S8x1x8x1_S1x8x1x8x1_1_2_3_4
              (broadcastInDim S8x1x8x1 ![0, 2] bcast_S8x8_S8x1x8x1_0_2
                (uitofp (F := Ideal) .f32 (cmpi .eq (addi (iotaInDim S8x8 32 0) (broadcastInDim S8x8 ![] bcast_S_S8x8 (constantI S_ 32 0#32)))
                  (iotaInDim S8x8 32 1))))))
          (broadcastInDim S3x8x1x8x128 ![0, 1, 2, 3, 4] bcast_S3x1x1x1x128_S3x8x1x8x128_0_1_2_3_4
            (broadcastInDim S3x1x1x1x128 ![0, 2, 4] bcast_S3x1x128_S3x1x1x1x128_0_2_4
              (transpose S3x1x128 [1, 0, 2] (extractStridedSlice S1x3x128 ![0, 0, 0]
                (shapeCast S65x3x128 (m ((c : Thread nD τ).loc main_arg3) : S195x128.Idx → EReal) shapeCasts_S195x128_S65x3x128)
                slices_S65x3x128_S1x3x128_0_0_0) transposes_S1x3x128_S3x1x128_1_0_2))))
          shapeCasts_S3x8x1x8x128_S3x8x1024 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results_simp
    try rfl
  rw [e, sc_3x8x1x8x128, mulf_apply, bc_1x8x1x8x1_3x8x1x8x128, bc_8x1x8x1_1x8x1x8x1, bc_8x8_8x1x8x1, eye_apply,
    bc_3x1x1x1x128_3x8x1x8x128, bc_3x1x128_3x1x1x1x128, tr_1x3x128, sl_65x3x128_row0, sc_195x128_row0 _ _ _ _ ht]

/-- The first cell's candidate input-feature weights, Kronecker-multiplied with the identity: entry `(t, b', b·64 + o)` is
    `δ(b', b) · Wc0[t, o]`. -/
theorem V_v23 (c : Dev nD) (t : Fin 3) (b' b : Fin 8) (o : Fin 64) (hj : b.val * 64 + o.val < 512) (ht : t.val < 195) :
    (V m c main_v23 : S3x8x512.Idx → EReal) (ix3 t b' ⟨b.val * 64 + o.val, hj⟩)
      = eye b' b * (m ((c : Thread nD τ).loc main_arg5) : S195x64.Idx → EReal) (ix2 ⟨t.val, ht⟩ o) := by
  have e : (V m c main_v23 : S3x8x512.Idx → EReal)
      = shapeCast S3x8x512 (mulf (F := Ideal) (φ := .f32)
          (broadcastInDim S3x8x1x8x64 ![0, 1, 2, 3, 4] bcast_S1x8x1x8x1_S3x8x1x8x64_0_1_2_3_4
            (broadcastInDim S1x8x1x8x1 ![1, 2, 3, 4] bcast_S8x1x8x1_S1x8x1x8x1_1_2_3_4
              (broadcastInDim S8x1x8x1 ![0, 2] bcast_S8x8_S8x1x8x1_0_2
                (uitofp (F := Ideal) .f32 (cmpi .eq (addi (iotaInDim S8x8 32 0) (broadcastInDim S8x8 ![] bcast_S_S8x8 (constantI S_ 32 0#32)))
                  (iotaInDim S8x8 32 1))))))
          (broadcastInDim S3x8x1x8x64 ![0, 1, 2, 3, 4] bcast_S3x1x1x1x64_S3x8x1x8x64_0_1_2_3_4
            (broadcastInDim S3x1x1x1x64 ![0, 2, 4] bcast_S3x1x64_S3x1x1x1x64_0_2_4
              (transpose S3x1x64 [1, 0, 2] (extractStridedSlice S1x3x64 ![0, 0, 0]
                (shapeCast S65x3x64 (m ((c : Thread nD τ).loc main_arg5) : S195x64.Idx → EReal) shapeCasts_S195x64_S65x3x64)
                slices_S65x3x64_S1x3x64_0_0_0) transposes_S1x3x64_S3x1x64_1_0_2))))
          shapeCasts_S3x8x1x8x64_S3x8x512 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results_simp
    try rfl
  rw [e, sc_3x8x1x8x64, mulf_apply, bc_1x8x1x8x1_3x8x1x8x64, bc_8x1x8x1_1x8x1x8x1, bc_8x8_8x1x8x1, eye_apply,
    bc_3x1x1x1x64_3x8x1x8x64, bc_3x1x64_3x1x1x1x64, tr_1x3x64, sl_65x3x64_row0, sc_195x64_row0 _ _ _ _ ht]

end Cert.Dcgru.KerHost
end
-- ==== Proof.KerFinal.lean ====
/-
  The idealized kernel's run as mathematics: at every grid point the seventeen input blocks hold batch rows
  8 t … 8 t + 7 of the input and of the two states and the (host-rearranged) weights, so the point writes
  rows 8 t … 8 t + 7 of the read-out and of the two new states; the four points cover both result arrays.
-/
import proofs.«110417_g44504451121623_cont_8to1_c_180_11_alg».proof.Proof.Gen.KernelIdeal.Value
import proofs.«110417_g44504451121623_cont_8to1_c_180_11_alg».proof.Proof.Spec
import proofs.«110417_g44504451121623_cont_8to1_c_180_11_alg».proof.Proof.KerAsm
import proofs.«110417_g44504451121623_cont_8to1_c_180_11_alg».proof.Proof.KerBlocks
import proofs.«110417_g44504451121623_cont_8to1_c_180_11_alg».proof.Proof.KerHost

set_option maxRecDepth 8192

noncomputable section

namespace Cert.Dcgru.KerFinal

open Cert.Dcgru Idealize.ShloMosaic Idealize.ShloMosaic.ValueIdx Idealize.ShloMosaic.TcCoe Idealize.SL.Sem
open Cert.KernelIdeal Cert.KernelIdeal.Gen Cert.KernelIdeal.Value
open Idealize.ShloMosaic.Pipeline (Dat)

variable (m : (ℓ : Loc nD τ sig) → Buf (Elt Ideal) ℓ)

/-! ### The argument arrays of a core, and the weights and rows read off them -/
abbrev a0 (c : Dev nD) : A32x512 := m ((c : Thread nD τ).loc main_arg0)
abbrev a1 (c : Dev nD) : A512x512 := m ((c : Thread nD τ).loc main_arg1)
abbrev a2 (c : Dev nD) : A2x32x32768 := m ((c : Thread nD τ).loc main_arg2)
abbrev a3 (c : Dev nD) : A195x128 := m ((c : Thread nD τ).loc main_arg3)
abbrev a4 (c : Dev nD) : A128 := m ((c : Thread nD τ).loc main_arg4)
abbrev a5 (c : Dev nD) : A195x64 := m ((c : Thread nD τ).loc main_arg5)
abbrev a6 (c : Dev nD) : A64 := m ((c : Thread nD τ).loc main_arg6)
abbrev a7 (c : Dev nD) : A384x128 := m ((c : Thread nD τ).loc main_arg7)
abbrev a8 (c : Dev nD) : A128 := m ((c : Thread nD τ).loc main_arg8)
abbrev a9 (c : Dev nD) : A384x64 := m ((c : Thread nD τ).loc main_arg9)
abbrev a10 (c : Dev nD) : A64 := m ((c : Thread nD τ).loc main_arg10)
abbrev a11 (c : Dev nD) : A64x1 := m ((c : Thread nD τ).loc main_arg11)
abbrev a12 (c : Dev nD) : A1 := m ((c : Thread nD τ).loc main_arg12)

/-- The weights of core `c`. -/
abbrev W (c : Dev nD) : Wts := wOf (a1 m c) (a3 m c) (a4 m c) (a5 m c) (a6 m c) (a7 m c) (a8 m c) (a9 m c) (a10 m c) (a11 m c) (a12 m c)

theorem row_lt (t : Fin cfg0.N) (b : Fin 8) : t.val * 8 + b.val < 32 := by
  have := KerBlocks.t_lt t; have := b.isLt; omega

/-- Batch row `8 t + b`. -/
abbrev row (t : Fin cfg0.N) (b : Fin 8) : Fin 32 := ⟨t.val * 8 + b.val, row_lt t b⟩

/-! What the blocks hold: rows `8 t + b` of the input and the states, and the weights as the host rearranged them. -/
section Fields
variable (c : Dev nD) (t : Fin cfg0.N)

theorem k0 (b : Fin 8) (n : Fin 512) : (iblk m c 0 t : S8x512.Idx → EReal) (ix2 b n) = xOf (a0 m c) (row t b) n :=
  (KerBlocks.iblk0_apply m c t b n (row_lt t b)).trans (congrFun (V_main_arg0 m c) _)
theorem k1 (n k : Fin 512) : (iblk m c 1 t : S512x512.Idx → EReal) (ix2 n k) = (W m c).A n k :=
  (congrFun (KerBlocks.iblk1_eq m c t) _).trans (congrFun (V_main_arg1 m c) _)
theorem k2a (b : Fin 8) (n : Fin 512) (u : Fin 64) (hj : n.val * 64 + u.val < 32768) :
    (iblk m c 2 t : S2x8x32768.Idx → EReal) (ix3 0 b ⟨n.val * 64 + u.val, hj⟩) = sOf (a2 m c) 0 (row t b) n u :=
  (KerBlocks.iblk2_apply m c t 0 b ⟨n.val * 64 + u.val, hj⟩ (row_lt t b)).trans (congrFun (V_main_arg2 m c) _)
theorem k2b (b : Fin 8) (n : Fin 512) (u : Fin 64) (hj : n.val * 64 + u.val < 32768) :
    (iblk m c 2 t : S2x8x32768.Idx → EReal) (ix3 1 b ⟨n.val * 64 + u.val, hj⟩) = sOf (a2 m c) 1 (row t b) n u :=
  (KerBlocks.iblk2_apply m c t 1 b ⟨n.val * 64 + u.val, hj⟩ (row_lt t b)).trans (congrFun (V_main_arg2 m c) _)
theorem k3 (t3 : Fin 3) (b' b : Fin 8) (o : Fin 128) (hc : b.val * 128 + o.val < 1024) :
    (iblk m c 3 t : S3x8x1024.Idx → EReal) (ix3 t3 b' ⟨b.val * 128 + o.val, hc⟩) = eye b' b * (W m c).Wg0 ⟨t3.val, by omega⟩ o :=
  (congrFun (KerBlocks.iblk3_eq m c t) _).trans (KerHost.V_v16 m c t3 b' b o hc (by omega))
theorem k4 (t3 : Fin 3) (u : Fin 64) (o : Fin 128) :
    (iblk m c 4 t : S3x64x128.Idx → EReal) (ix3 t3 u o) = (W m c).Wg0 ⟨(1 + u.val) * 3 + t3.val, by omega⟩ o :=
  (congrFun (KerBlocks.iblk4_eq m c t) _).trans (KerHost.V_v4 m c t3 u o (by omega))
theorem k5 (t3 : Fin 3) (b' b : Fin 8) (o : Fin 64) (hc : b.val * 64 + o.val < 512) :
    (iblk m c 5 t : S3x8x512.Idx → EReal) (ix3 t3 b' ⟨b.val * 64 + o.val, hc⟩) = eye b' b * (W m c).Wc0 ⟨t3.val, by omega⟩ o :=
  (congrFun (KerBlocks.iblk5_eq m c t) _).trans (KerHost.V_v23 m c t3 b' b o hc (by omega))
theorem k6 (t3 : Fin 3) (u o : Fin 64) :
    (iblk m c 6 t : S3x64x64.Idx → EReal) (ix3 t3 u o) = (W m c).Wc0 ⟨(1 + u.val) * 3 + t3.val, by omega⟩ o :=
  (congrFun (KerBlocks.iblk6_eq m c t) _).trans (KerHost.V_v9 m c t3 u o (by omega))
theorem k7 (o : Fin 128) : (iblk m c 7 t : S128.Idx → EReal) (ix1 o) = (W m c).bg0 o :=
  (congrFun (KerBlocks.iblk7_eq m c t) _).trans (congrFun (V_main_arg4 m c) _)
theorem k8 (o : Fin 64) : (iblk m c 8 t : S64.Idx → EReal) (ix1 o) = (W m c).bc0 o :=
  (congrFun (KerBlocks.iblk8_eq m c t) _).trans (congrFun (V_main_arg6 m c) _)
theorem k9 (t3 : Fin 3) (u : Fin 64) (o : Fin 128) :
    (iblk m c 9 t : S3x64x128.Idx → EReal) (ix3 t3 u o) = (W m c).Wg1 ⟨u.val * 3 + t3.val, by omega⟩ o :=
  (congrFun (KerBlocks.iblk9_eq m c t) _).trans (KerHost.V_v26 m c t3 u o (by omega))
theorem k10 (t3 : Fin 3) (u : Fin 64) (o : Fin 128) :
    (iblk m c 10 t : S3x64x128.Idx → EReal) (ix3 t3 u o) = (W m c).Wg1 ⟨(64 + u.val) * 3 + t3.val, by omega⟩ o :=
  (congrFun (KerBlocks.iblk10_eq m c t) _).trans (KerHost.V_v28 m c t3 u o (by omega))
theorem k11 (t3 : Fin 3) (u o : Fin 64) :
    (iblk m c 11 t : S3x64x64.Idx → EReal) (ix3 t3 u o) = (W m c).Wc1 ⟨u.val * 3 + t3.val, by omega⟩ o :=
  (congrFun (KerBlocks.iblk11_eq m c t) _).trans (KerHost.V_v31 m c t3 u o (by omega))
theorem k12 (t3 : Fin 3) (u o : Fin 64) :
    (iblk m c 12 t : S3x64x64.Idx → EReal) (ix3 t3 u o) = (W m c).Wc1 ⟨(64 + u.val) * 3 + t3.val, by omega⟩ o :=
  (congrFun (KerBlocks.iblk12_eq m c t) _).trans (KerHost.V_v33 m c t3 u o (by omega))
theorem k13 (o : Fin 128) : (iblk m c 13 t : S128.Idx → EReal) (ix1 o) = (W m c).bg1 o :=
  (congrFun (KerBlocks.iblk13_eq m c t) _).trans (congrFun (V_main_arg8 m c) _)
theorem k14 (o : Fin 64) : (iblk m c 14 t : S64.Idx → EReal) (ix1 o) = (W m c).bc1 o :=
  (congrFun (KerBlocks.iblk14_eq m c t) _).trans (congrFun (V_main_arg10 m c) _)
theorem k15 (u : Fin 64) : (iblk m c 15 t : S1x64.Idx → EReal) (ix2 0 u) = (W m c).Wp u :=
  (congrFun (KerBlocks.iblk15_eq m c t) _).trans (KerHost.V_v34 m c u)
theorem k16 : (iblk m c 16 t : S1.Idx → EReal) (ix1 0) = (W m c).bp :=
  (congrFun (KerBlocks.iblk16_eq m c t) _).trans (congrFun (V_main_arg12 m c) _)

end Fields

/-- The read-out block of grid point `t`. -/
theorem blk17 (c : Dev nD) (t : Fin cfg0.N) (b : Fin 8) (n : Fin 512) :
    out0_17 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t) (ix2 b n)
      = proj (W m c) (xOf (a0 m c) (row t b)) (sOf (a2 m c) 0 (row t b)) (sOf (a2 m c) 1 (row t b)) n :=
  KerAsm.out17_vars (W m c) (fun b => xOf (a0 m c) (row t b)) (fun b => sOf (a2 m c) 0 (row t b)) (fun b => sOf (a2 m c) 1 (row t b))
    (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t)
    (k0 m c t) (k1 m c t) (k2a m c t) (k2b m c t) (k3 m c t) (k4 m c t) (k5 m c t) (k6 m c t) (k7 m c t) (k8 m c t) (k9 m c t) (k10 m c t)
    (k11 m c t) (k12 m c t) (k13 m c t) (k14 m c t) (k15 m c t) (k16 m c t) b n

theorem blk18_0 (c : Dev nD) (t : Fin cfg0.N) (b : Fin 8) (n : Fin 512) (u : Fin 64) (hj : n.val * 64 + u.val < 32768) :
    out0_18 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t) (ix3 0 b ⟨n.val * 64 + u.val, hj⟩)
      = h0 (W m c) (xOf (a0 m c) (row t b)) (sOf (a2 m c) 0 (row t b)) n u :=
  KerAsm.out18_vars0 (W m c) (fun b => xOf (a0 m c) (row t b)) (fun b => sOf (a2 m c) 0 (row t b)) (fun b => sOf (a2 m c) 1 (row t b))
    (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t)
    (k0 m c t) (k1 m c t) (k2a m c t) (k2b m c t) (k3 m c t) (k4 m c t) (k5 m c t) (k6 m c t) (k7 m c t) (k8 m c t) (k9 m c t) (k10 m c t)
    (k11 m c t) (k12 m c t) (k13 m c t) (k14 m c t) (k15 m c t) (k16 m c t) b n u hj

theorem blk18_1 (c : Dev nD) (t : Fin cfg0.N) (b : Fin 8) (n : Fin 512) (u : Fin 64) (hj : n.val * 64 + u.val < 32768) :
    out0_18 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t) (ix3 1 b ⟨n.val * 64 + u.val, hj⟩)
      = h1 (W m c) (xOf (a0 m c) (row t b)) (sOf (a2 m c) 0 (row t b)) (sOf (a2 m c) 1 (row t b)) n u :=
  KerAsm.out18_vars1 (W m c) (fun b => xOf (a0 m c) (row t b)) (fun b => sOf (a2 m c) 0 (row t b)) (fun b => sOf (a2 m c) 1 (row t b))
    (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t)
    (k0 m c t) (k1 m c t) (k2a m c t) (k2b m c t) (k3 m c t) (k4 m c t) (k5 m c t) (k6 m c t) (k7 m c t) (k8 m c t) (k9 m c t) (k10 m c t)
    (k11 m c t) (k12 m c t) (k13 m c t) (k14 m c t) (k15 m c t) (k16 m c t) b n u hj

/-- After the run the read-out array is the read-out of every batch row. -/
theorem final17 (c : Dev nD) : (dats m 0 c).arrAt 17 cfg0.N = outOf (W m c) (a0 m c) (a2 m c) :=
  KerBlocks.final17_of m c _ fun t b n hb => (blk17 m c t b n).trans (outOf_apply (W m c) (a0 m c) (a2 m c) ⟨t.val * 8 + b.val, hb⟩ n).symm

/-- Every flat state position is `64 n + u`. -/
theorem flat_split (j : Fin 32768) : ∃ (n : Fin 512) (u : Fin 64) (hj : n.val * 64 + u.val < 32768), j = ⟨n.val * 64 + u.val, hj⟩ :=
  ⟨⟨j.val / 64, by have := j.isLt; omega⟩, ⟨j.val % 64, Nat.mod_lt _ (by decide)⟩, by have := j.isLt; show j.val / 64 * 64 + j.val % 64 < 32768; omega,
    Fin.ext (by show j.val = j.val / 64 * 64 + j.val % 64; omega)⟩

/-- After the run the stacked state array is the two new states of every batch row. -/
theorem final18 (c : Dev nD) : (dats m 0 c).arrAt 18 cfg0.N = hsOf (W m c) (a0 m c) (a2 m c) :=
  KerBlocks.final18_of m c _ fun t l b j hb => by
    obtain ⟨n, u, hj, rfl⟩ := flat_split j
    match l with
    | ⟨0, _⟩ =>
      exact (blk18_0 m c t b n u hj).trans (hsOf_apply0 (W m c) (a0 m c) (a2 m c) ⟨t.val * 8 + b.val, hb⟩ n u hj).symm
    | ⟨1, _⟩ =>
      exact (blk18_1 m c t b n u hj).trans (hsOf_apply1 (W m c) (a0 m c) (a2 m c) ⟨t.val * 8 + b.val, hb⟩ n u hj).symm

/-- The idealized kernel's run: both results as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v35_0) = outOf (W m c) (a0 m c) (a2 m c)
      ∧ r.2.mem ((c : Thread nD τ).loc main_v35_1) = hsOf (W m c) (a0 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final17 m c), (h c).2.1.trans (final18 m c), (h c).2.2⟩)
    (Cert.KernelIdeal.Value.run_blocks m ρ)

end Cert.Dcgru.KerFinal

end
-- ==== Proof.RefL0.lean ====
/-
  The reference's first cell, read index by index. Its arrays are stored node-major with the batch as the
  fastest coordinate of a column: the value of feature f of batch row b at node n sits at [n, 32 f + b]. A
  graph convolution stacks the three diffusion taps of that array, regroups the stack as [32·512, 3·features]
  with column 3 f + m holding tap m of feature f, and multiplies by the weight matrix; so the dot product's
  sum over the 195 columns is, term by term, the specification's sum over (feature, tap).
-/
import proofs.«110417_g44504451121623_cont_8to1_c_180_11_alg».proof.Proof.RefRun
import proofs.«110417_g44504451121623_cont_8to1_c_180_11_alg».proof.Proof.Spec
import proofs.«110417_g44504451121623_cont_8to1_c_180_11_alg».proof.Proof.Alg
import Idealize.ShloMosaic.Lib.Pipeline.Value
import Idealize.ShloMosaic.Lib.ValueIdx
import Idealize.ShloMosaic.Lib.ValueLayout
import Idealize.ShloMosaic.PureOps.Ideal.Laws

noncomputable section

namespace Cert.Dcgru.RefL0

open Cert.Dcgru Idealize.ShloMosaic Idealize.ShloMosaic.ValueIdx
open Cert.ReferenceIdeal Cert.ReferenceIdeal.Gen

/-! ### Layout operations of the reference at an index -/

section Layout
variable {α : Type}

/-- [1, 32, 32768] read as [32, 32768]. -/
theorem sc_1x32x32768_32x32768 (x : S1x32x32768.Idx → α) (h : S1x32x32768.ShapeCasts S32x32768) (b : Fin 32) (j : Fin 32768) :
    shapeCast S32x32768 x h (ix2 b j) = x (ix3 0 b j) := by
  refine shapeCast_apply x h _ _ ?_
  rw [Shape.rowMajor_val_three, Shape.rowMajor_val_two]
  show ((0:ℕ) * 32 + b.val) * 32768 + j.val = b.val * 32768 + j.val
  omega

/-- Layer 0 of the stacked states. -/
theorem sl_2x32x32768_l0 (x : S2x32x32768.Idx → α) (h : S2x32x32768.Slices ![0, 0, 0] S1x32x32768) (b : Fin 32) (j : Fin 32768) :
    extractStridedSlice S1x32x32768 ![0, 0, 0] x h (ix3 0 b j) = x (ix3 0 b j) := by
  refine extractStridedSlice_apply _ x h _ _ (fun a => ?_)
  match a with
  | ⟨0, _⟩ => rfl
  | ⟨1, _⟩ => show b.val = 0 + b.val; omega
  | ⟨2, _⟩ => show j.val = 0 + j.val; omega

/-- [32, 512] read as [32, 512, 1]. -/
theorem sc_32x512_32x512x1 (x : S32x512.Idx → α) (h : S32x512.ShapeCasts S32x512x1) (b : Fin 32) (n : Fin 512) :
    shapeCast S32x512x1 x h (ix3 b n 0) = x (ix2 b n) := by
  refine shapeCast_apply x h _ _ ?_
  rw [Shape.rowMajor_val_three, Shape.rowMajor_val_two]
  show b.val * 512 + n.val = (b.val * 512 + n.val) * 1 + 0
  omega

/-- [32, 32768] read as [32, 512, 64]: unit u of node n sits at 64 n + u. -/
theorem sc_32x32768_32x512x64 (x : S32x32768.Idx → α) (h : S32x32768.ShapeCasts S32x512x64) (b : Fin 32) (n : Fin 512) (u : Fin 64)
    (hj : n.val * 64 + u.val < 32768) :
    shapeCast S32x512x64 x h (ix3 b n u) = x (ix2 b ⟨n.val * 64 + u.val, hj⟩) := by
  refine shapeCast_apply x h _ _ ?_
  rw [Shape.rowMajor_val_three, Shape.rowMajor_val_two]
  show b.val * 32768 + (n.val * 64 + u.val) = (b.val * 512 + n.val) * 64 + u.val
  omega

/-- [32, 512, 64] read as [32, 32768]. -/
theorem sc_32x512x64_32x32768 (x : S32x512x64.Idx → α) (h : S32x512x64.ShapeCasts S32x32768) (b : Fin 32) (n : Fin 512) (u : Fin 64)
    (hj : n.val * 64 + u.val < 32768) :
    shapeCast S32x32768 x h (ix2 b ⟨n.val * 64 + u.val, hj⟩) = x (ix3 b n u) := by
  refine shapeCast_apply x h _ _ ?_
  rw [Shape.rowMajor_val_three, Shape.rowMajor_val_two]
  show (b.val * 512 + n.val) * 64 + u.val = b.val * 32768 + (n.val * 64 + u.val)
  omega

/-- The feature axis of the first cell: feature 0 is the input, feature 1 + u the state's unit u. -/
theorem cat_feat_zero (x₁ : S32x512x1.Idx → α) (x₂ : S32x512x64.Idx → α)
    (h : Shape.Concatenates [S32x512x1, S32x512x64] S32x512x65 2) (b : Fin 32) (n : Fin 512) (f : Fin 65) (hf : f.val = 0) :
    concatenate S32x512x65 2 [⟨S32x512x1, x₁⟩, ⟨S32x512x64, x₂⟩] h (ix3 b n f) = x₁ (ix3 b n 0) := by
  refine concatenate_pair_apply_left (2 : Fin S32x512x65.rank) x₁ x₂ h (ix3 b n f) rfl (ix3 b n 0) (fun a => ?_)
  match a with
  | ⟨0, _⟩ => rfl
  | ⟨1, _⟩ => rfl
  | ⟨2, _⟩ => show (0 : ℕ) = f.val; omega

theorem cat_feat_succ (x₁ : S32x512x1.Idx → α) (x₂ : S32x512x64.Idx → α)
    (h : Shape.Concatenates [S32x512x1, S32x512x64] S32x512x65 2) (b : Fin 32) (n : Fin 512) (f : Fin 65) (u : Fin 64)
    (hf : u.val + 1 = f.val) :
    concatenate S32x512x65 2 [⟨S32x512x1, x₁⟩, ⟨S32x512x64, x₂⟩] h (ix3 b n f) = x₂ (ix3 b n u) := by
  refine concatenate_pair_apply_right (2 : Fin S32x512x65.rank) x₁ x₂ h (ix3 b n f) rfl rfl (ix3 b n u) (fun a ha => ?_) ?_
  · match a with
    | ⟨0, _⟩ => rfl
    | ⟨1, _⟩ => rfl
    | ⟨2, _⟩ => exact absurd rfl ha
  · show u.val + 1 = f.val
    exact hf

/-- [32, 512, 65] transposed to [512, 65, 32]. -/
theorem tr_32x512x65_512x65x32 (x : S32x512x65.Idx → α) (h : S32x512x65.Transposes [1, 2, 0] S512x65x32)
    (n : Fin 512) (f : Fin 65) (b : Fin 32) :
    transpose S512x65x32 [1, 2, 0] x h (ix3 n f b) = x (ix3 b n f) := by
  refine transpose_apply _ x h _ _ (fun a => ?_)
  match a with
  | ⟨0, _⟩ => rfl
  | ⟨1, _⟩ => rfl
  | ⟨2, _⟩ => rfl

/-- [512, 65, 32] read as [512, 2080]: column 32 f + b. -/
theorem sc_512x65x32_512x2080 (x : S512x65x32.Idx → α) (h : S512x65x32.ShapeCasts S512x2080) (n : Fin 512) (f : Fin 65) (b : Fin 32)
    (hq : f.val * 32 + b.val < 2080) :
    shapeCast S512x2080 x h (ix2 n ⟨f.val * 32 + b.val, hq⟩) = x (ix3 n f b) := by
  refine shapeCast_apply x h _ _ ?_
  rw [Shape.rowMajor_val_three, Shape.rowMajor_val_two]
  show (n.val * 65 + f.val) * 32 + b.val = n.val * 2080 + (f.val * 32 + b.val)
  omega

/-- A [512, 2080] array under a new leading unit axis. -/
theorem bc_512x2080_1x512x2080 (x : S512x2080.Idx → α) (h : S512x2080.BroadcastsInDim S1x512x2080 (![1, 2] : Fin 2 → Fin S1x512x2080.rank))
    (n : Fin 512) (q : Fin 2080) :
    broadcastInDim S1x512x2080 ![1, 2] h x (ix3 0 n q) = x (ix2 n q) := by
  refine broadcastInDim_apply _ h x _ _ (fun a => ?_)
  match a with
  | ⟨0, _⟩ => rfl
  | ⟨1, _⟩ => rfl

/-- The stack of the three taps along a new leading axis. -/
theorem cat_taps (y₀ y₁ y₂ : S1x512x2080.Idx → α)
    (h : Shape.Concatenates [S1x512x2080, S1x512x2080, S1x512x2080] S3x512x2080 0) (n : Fin 512) (q : Fin 2080) :
    concatenate S3x512x2080 0 [⟨S1x512x2080, y₀⟩, ⟨S1x512x2080, y₁⟩, ⟨S1x512x2080, y₂⟩] h (ix3 0 n q) = y₀ (ix3 0 n q)
    ∧ concatenate S3x512x2080 0 [⟨S1x512x2080, y₀⟩, ⟨S1x512x2080, y₁⟩, ⟨S1x512x2080, y₂⟩] h (ix3 1 n q) = y₁ (ix3 0 n q)
    ∧ concatenate S3x512x2080 0 [⟨S1x512x2080, y₀⟩, ⟨S1x512x2080, y₁⟩, ⟨S1x512x2080, y₂⟩] h (ix3 2 n q) = y₂ (ix3 0 n q) := by
  refine ⟨?_, ?_, ?_⟩
  · refine concatenate_apply_piece (0 : Fin S3x512x2080.rank) [⟨S1x512x2080, y₀⟩, ⟨S1x512x2080, y₁⟩, ⟨S1x512x2080, y₂⟩] h (ix3 0 n q) 0 (by show 0 < 3; omega) S1x512x2080 y₀ rfl rfl 0 rfl (ix3 0 n q) (fun a ha => ?_) rfl
    match a with
    | ⟨0, _⟩ => exact absurd rfl ha
    | ⟨1, _⟩ => rfl
    | ⟨2, _⟩ => rfl
  · refine concatenate_apply_piece (0 : Fin S3x512x2080.rank) [⟨S1x512x2080, y₀⟩, ⟨S1x512x2080, y₁⟩, ⟨S1x512x2080, y₂⟩] h (ix3 1 n q) 1 (by show 1 < 3; omega) S1x512x2080 y₁ rfl rfl 1 rfl (ix3 0 n q) (fun a ha => ?_) rfl
    match a with
    | ⟨0, _⟩ => exact absurd rfl ha
    | ⟨1, _⟩ => rfl
    | ⟨2, _⟩ => rfl
  · refine concatenate_apply_piece (0 : Fin S3x512x2080.rank) [⟨S1x512x2080, y₀⟩, ⟨S1x512x2080, y₁⟩, ⟨S1x512x2080, y₂⟩] h (ix3 2 n q) 2 (by show 2 < 3; omega) S1x512x2080 y₂ rfl rfl 2 rfl (ix3 0 n q) (fun a ha => ?_) rfl
    match a with
    | ⟨0, _⟩ => exact absurd rfl ha
    | ⟨1, _⟩ => rfl
    | ⟨2, _⟩ => rfl

/-- [3, 512, 2080] read as [3, 512, 65, 32]. -/
theorem sc_3x512x2080_3x512x65x32 (x : S3x512x2080.Idx → α) (h : S3x512x2080.ShapeCasts S3x512x65x32) (m : Fin 3) (n : Fin 512) (f : Fin 65)
    (b : Fin 32) (hq : f.val * 32 + b.val < 2080) :
    shapeCast S3x512x65x32 x h (ix4 m n f b) = x (ix3 m n ⟨f.val * 32 + b.val, hq⟩) := by
  refine shapeCast_apply x h _ _ ?_
  rw [Shape.rowMajor_val_three, Shape.rowMajor_val_four]
  show (m.val * 512 + n.val) * 2080 + (f.val * 32 + b.val) = ((m.val * 512 + n.val) * 65 + f.val) * 32 + b.val
  omega

/-- [3, 512, 65, 32] transposed to [32, 512, 65, 3]. -/
theorem tr_3x512x65x32_32x512x65x3 (x : S3x512x65x32.Idx → α) (h : S3x512x65x32.Transposes [3, 1, 2, 0] S32x512x65x3)
    (b : Fin 32) (n : Fin 512) (f : Fin 65) (m : Fin 3) :
    transpose S32x512x65x3 [3, 1, 2, 0] x h (ix4 b n f m) = x (ix4 m n f b) := by
  refine transpose_apply _ x h _ _ (fun a => ?_)
  match a with
  | ⟨0, _⟩ => rfl
  | ⟨1, _⟩ => rfl
  | ⟨2, _⟩ => rfl
  | ⟨3, _⟩ => rfl

/-- [32, 512, 65, 3] read as [16384, 195]: row 512 b + n; column k holds tap k % 3 of feature k / 3. -/
theorem sc_32x512x65x3_16384x195 (x : S32x512x65x3.Idx → α) (h : S32x512x65x3.ShapeCasts S16384x195) (b : Fin 32) (n : Fin 512) (k : Fin 195)
    (hr : b.val * 512 + n.val < 16384) (hf : k.val / 3 < 65) (hm : k.val % 3 < 3) :
    shapeCast S16384x195 x h (ix2 ⟨b.val * 512 + n.val, hr⟩ k) = x (ix4 b n ⟨k.val / 3, hf⟩ ⟨k.val % 3, hm⟩) := by
  refine shapeCast_apply x h _ _ ?_
  rw [Shape.rowMajor_val_four, Shape.rowMajor_val_two]
  show ((b.val * 512 + n.val) * 65 + k.val / 3) * 3 + k.val % 3 = (b.val * 512 + n.val) * 195 + k.val
  omega

/-- A bias row under every row of a [16384, 128] array. -/
theorem bc_128_16384x128 (x : S128.Idx → α) (h₁ : S128.BroadcastsInDim S1x128 (![1] : Fin 1 → Fin S1x128.rank))
    (h₂ : S1x128.BroadcastsInDim S16384x128 (![0, 1] : Fin 2 → Fin S16384x128.rank)) (r : Fin 16384) (o : Fin 128) :
    broadcastInDim S16384x128 ![0, 1] h₂ (broadcastInDim S1x128 ![1] h₁ x) (ix2 r o) = x (ix1 o) := by
  refine (broadcastInDim_apply _ h₂ _ _ (ix2 0 o) (fun a => ?_)).trans (broadcastInDim_apply _ h₁ x _ (ix1 o) (fun a => ?_))
  · match a with
    | ⟨0, _⟩ => rfl
    | ⟨1, _⟩ => rfl
  · match a with
    | ⟨0, _⟩ => rfl

theorem bc_64_16384x64 (x : S64.Idx → α) (h₁ : S64.BroadcastsInDim S1x64 (![1] : Fin 1 → Fin S1x64.rank))
    (h₂ : S1x64.BroadcastsInDim S16384x64 (![0, 1] : Fin 2 → Fin S16384x64.rank)) (r : Fin 16384) (o : Fin 64) :
    broadcastInDim S16384x64 ![0, 1] h₂ (broadcastInDim S1x64 ![1] h₁ x) (ix2 r o) = x (ix1 o) := by
  refine (broadcastInDim_apply _ h₂ _ _ (ix2 0 o) (fun a => ?_)).trans (broadcastInDim_apply _ h₁ x _ (ix1 o) (fun a => ?_))
  · match a with
    | ⟨0, _⟩ => rfl
    | ⟨1, _⟩ => rfl
  · match a with
    | ⟨0, _⟩ => rfl

/-- [16384, 128] read as [32, 65536], then as [32, 512, 128]. -/
theorem sc_16384x128_32x65536 (x : S16384x128.Idx → α) (h : S16384x128.ShapeCasts S32x65536) (b : Fin 32) (n : Fin 512) (o : Fin 128)
    (hr : b.val * 512 + n.val < 16384) (hc : n.val * 128 + o.val < 65536) :
    shapeCast S32x65536 x h (ix2 b ⟨n.val * 128 + o.val, hc⟩) = x (ix2 ⟨b.val * 512 + n.val, hr⟩ o) := by
  refine shapeCast_apply x h _ _ ?_
  rw [Shape.rowMajor_val_two, Shape.rowMajor_val_two]
  show (b.val * 512 + n.val) * 128 + o.val = b.val * 65536 + (n.val * 128 + o.val)
  omega

theorem sc_32x65536_32x512x128 (x : S32x65536.Idx → α) (h : S32x65536.ShapeCasts S32x512x128) (b : Fin 32) (n : Fin 512) (o : Fin 128)
    (hc : n.val * 128 + o.val < 65536) :
    shapeCast S32x512x128 x h (ix3 b n o) = x (ix2 b ⟨n.val * 128 + o.val, hc⟩) := by
  refine shapeCast_apply x h _ _ ?_
  rw [Shape.rowMajor_val_two, Shape.rowMajor_val_three]
  show b.val * 65536 + (n.val * 128 + o.val) = (b.val * 512 + n.val) * 128 + o.val
  omega

/-- [16384, 64] read as [32, 32768]. -/
theorem sc_16384x64_32x32768 (x : S16384x64.Idx → α) (h : S16384x64.ShapeCasts S32x32768) (b : Fin 32) (n : Fin 512) (u : Fin 64)
    (hr : b.val * 512 + n.val < 16384) (hj : n.val * 64 + u.val < 32768) :
    shapeCast S32x32768 x h (ix2 b ⟨n.val * 64 + u.val, hj⟩) = x (ix2 ⟨b.val * 512 + n.val, hr⟩ u) := by
  refine shapeCast_apply x h _ _ ?_
  rw [Shape.rowMajor_val_two, Shape.rowMajor_val_two]
  show (b.val * 512 + n.val) * 64 + u.val = b.val * 32768 + (n.val * 64 + u.val)
  omega

/-- The two halves of the gate's channels. -/
theorem sl_32x512x128_lo (x : S32x512x128.Idx → α) (h : S32x512x128.Slices ![0, 0, 0] S32x512x64) (b : Fin 32) (n : Fin 512) (u : Fin 64)
    (ho : u.val < 128) :
    extractStridedSlice S32x512x64 ![0, 0, 0] x h (ix3 b n u) = x (ix3 b n ⟨u.val, ho⟩) := by
  refine extractStridedSlice_apply _ x h _ _ (fun a => ?_)
  match a with
  | ⟨0, _⟩ => show b.val = 0 + b.val; omega
  | ⟨1, _⟩ => show n.val = 0 + n.val; omega
  | ⟨2, _⟩ => show u.val = 0 + u.val; omega

theorem sl_32x512x128_hi (x : S32x512x128.Idx → α) (h : S32x512x128.Slices ![0, 0, 64] S32x512x64) (b : Fin 32) (n : Fin 512) (u : Fin 64)
    (ho : 64 + u.val < 128) :
    extractStridedSlice S32x512x64 ![0, 0, 64] x h (ix3 b n u) = x (ix3 b n ⟨64 + u.val, ho⟩) := by
  refine extractStridedSlice_apply _ x h _ _ (fun a => ?_)
  match a with
  | ⟨0, _⟩ => show b.val = 0 + b.val; omega
  | ⟨1, _⟩ => show n.val = 0 + n.val; omega
  | ⟨2, _⟩ => show 64 + u.val = 64 + u.val; rfl

end Layout

/-! ### A product of two matrices at an index: the plain sum over the contracted coordinate -/

/-- For dimension numbers whose operand indices are (row, contracted) and (contracted, column), the host's product
    at (i, o) is the sum over k of l i k * r k o. -/
theorem dg_plain {M K N : ℕ} (d : DotDims ⟨2, ![M, K]⟩ ⟨2, ![K, N]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (l : FVec Ideal ⟨2, ![M, K]⟩ .f32) (r : FVec Ideal ⟨2, ![K, N]⟩ .f32) (i : Fin M) (o : Fin N) :
    Host.dotGeneral d none l r (ix2 i o) = ∑ k : Fin K, l (ix2 i k) * r (ix2 k o) := by
  simp only [Host.dotGeneral]
  rw [Ideal.dotGeneral_apply, ← Equiv.sum_comp (ValueIdx.contrEquiv1 d K hr hs).symm]
  refine Finset.sum_congr rfl fun k _ => ?_
  have hk := ValueIdx.contrEquiv1_symm_val d K hr hs k
  have el : d.lhsIdx (ix2 i o) ((ValueIdx.contrEquiv1 d K hr hs).symm k) = ix2 i k := funext fun a => Fin.ext (by
    match a with
    | ⟨0, _⟩ => exact l0 _ _
    | ⟨1, _⟩ => exact (l1 _ _).trans hk)
  have er : d.rhsIdx (ix2 i o) ((ValueIdx.contrEquiv1 d K hr hs).symm k) = ix2 k o := funext fun a => Fin.ext (by
    match a with
    | ⟨0, _⟩ => exact (r0 _ _).trans hk
    | ⟨1, _⟩ => exact r1 _ _)
  rw [el, er]

/-- The support times a node-major array. -/
theorem dgA_apply (l : FVec Ideal S512x512 .f32) (r : FVec Ideal S512x2080 .f32) (n : Fin 512) (q : Fin 2080) :
    Host.dotGeneral dot_S512x512_S512x2080_S512x2080_1_0_0_1_n_n none l r (ix2 n q) = ∑ k : Fin 512, l (ix2 n k) * r (ix2 k q) := by
  refine dg_plain dot_S512x512_S512x2080_S512x2080_1_0_0_1_n_n rfl rfl (fun i q => ?_)
    (fun i q => dot_S512x512_S512x2080_S512x2080_1_0_0_1_n_n.lhsIdx_val_of_single rfl i q)
    (fun i q => dot_S512x512_S512x2080_S512x2080_1_0_0_1_n_n.rhsIdx_val_of_single rfl i q) (fun i q => ?_) l r n q
  · unfold DotDims.lhsIdx
    rw [dif_neg (show ¬(0 : Fin S512x512.rank) ∈ dot_S512x512_S512x2080_S512x2080_1_0_0_1_n_n.lhsBatch by decide),
      dif_pos (show (0 : Fin S512x512.rank) ∈ dot_S512x512_S512x2080_S512x2080_1_0_0_1_n_n.lhsNonContracting by decide)]
    rfl
  · unfold DotDims.rhsIdx
    rw [dif_neg (show ¬(1 : Fin S512x2080.rank) ∈ dot_S512x512_S512x2080_S512x2080_1_0_0_1_n_n.rhsBatch by decide),
      dif_pos (show (1 : Fin S512x2080.rank) ∈ dot_S512x512_S512x2080_S512x2080_1_0_0_1_n_n.rhsNonContracting by decide)]
    rfl

/-- The stacked taps times the gate's weights. -/
theorem dgG_apply (l : FVec Ideal S16384x195 .f32) (r : FVec Ideal S195x128 .f32) (i : Fin 16384) (o : Fin 128) :
    Host.dotGeneral dot_S16384x195_S195x128_S16384x128_1_0_0_1_n_n none l r (ix2 i o) = ∑ k : Fin 195, l (ix2 i k) * r (ix2 k o) := by
  refine dg_plain dot_S16384x195_S195x128_S16384x128_1_0_0_1_n_n rfl rfl (fun i q => ?_)
    (fun i q => dot_S16384x195_S195x128_S16384x128_1_0_0_1_n_n.lhsIdx_val_of_single rfl i q)
    (fun i q => dot_S16384x195_S195x128_S16384x128_1_0_0_1_n_n.rhsIdx_val_of_single rfl i q) (fun i q => ?_) l r i o
  · unfold DotDims.lhsIdx
    rw [dif_neg (show ¬(0 : Fin S16384x195.rank) ∈ dot_S16384x195_S195x128_S16384x128_1_0_0_1_n_n.lhsBatch by decide),
      dif_pos (show (0 : Fin S16384x195.rank) ∈ dot_S16384x195_S195x128_S16384x128_1_0_0_1_n_n.lhsNonContracting by decide)]
    rfl
  · unfold DotDims.rhsIdx
    rw [dif_neg (show ¬(1 : Fin S195x128.rank) ∈ dot_S16384x195_S195x128_S16384x128_1_0_0_1_n_n.rhsBatch by decide),
      dif_pos (show (1 : Fin S195x128.rank) ∈ dot_S16384x195_S195x128_S16384x128_1_0_0_1_n_n.rhsNonContracting by decide)]
    rfl

/-- The stacked taps times the candidate's weights. -/
theorem dgC_apply (l : FVec Ideal S16384x195 .f32) (r : FVec Ideal S195x64 .f32) (i : Fin 16384) (o : Fin 64) :
    Host.dotGeneral dot_S16384x195_S195x64_S16384x64_1_0_0_1_n_n none l r (ix2 i o) = ∑ k : Fin 195, l (ix2 i k) * r (ix2 k o) := by
  refine dg_plain dot_S16384x195_S195x64_S16384x64_1_0_0_1_n_n rfl rfl (fun i q => ?_)
    (fun i q => dot_S16384x195_S195x64_S16384x64_1_0_0_1_n_n.lhsIdx_val_of_single rfl i q)
    (fun i q => dot_S16384x195_S195x64_S16384x64_1_0_0_1_n_n.rhsIdx_val_of_single rfl i q) (fun i q => ?_) l r i o
  · unfold DotDims.lhsIdx
    rw [dif_neg (show ¬(0 : Fin S16384x195.rank) ∈ dot_S16384x195_S195x64_S16384x64_1_0_0_1_n_n.lhsBatch by decide),
      dif_pos (show (0 : Fin S16384x195.rank) ∈ dot_S16384x195_S195x64_S16384x64_1_0_0_1_n_n.lhsNonContracting by decide)]
    rfl
  · unfold DotDims.rhsIdx
    rw [dif_neg (show ¬(1 : Fin S195x64.rank) ∈ dot_S16384x195_S195x64_S16384x64_1_0_0_1_n_n.rhsBatch by decide),
      dif_pos (show (1 : Fin S195x64.rank) ∈ dot_S16384x195_S195x64_S16384x64_1_0_0_1_n_n.rhsNonContracting by decide)]
    rfl

/-! ### The stacked taps, regrouped -/

/-- The [16384, 195] matrix the reference multiplies by the weights: in row 512 b + n, column k holds tap k % 3 of
    feature k / 3 of batch row b at node n. -/
theorem stack_apply {α : Type} (x₀ x₁ x₂ : S512x2080.Idx → α)
    (hb : S512x2080.BroadcastsInDim S1x512x2080 (![1, 2] : Fin 2 → Fin S1x512x2080.rank))
    (hc : Shape.Concatenates [S1x512x2080, S1x512x2080, S1x512x2080] S3x512x2080 0)
    (h₁ : S3x512x2080.ShapeCasts S3x512x65x32) (ht : S3x512x65x32.Transposes [3, 1, 2, 0] S32x512x65x3)
    (h₂ : S32x512x65x3.ShapeCasts S16384x195)
    (b : Fin 32) (n : Fin 512) (k : Fin 195) (hr : b.val * 512 + n.val < 16384) (hq : k.val / 3 * 32 + b.val < 2080) :
    shapeCast S16384x195 (transpose S32x512x65x3 [3, 1, 2, 0] (shapeCast S3x512x65x32
      (concatenate S3x512x2080 0 [⟨S1x512x2080, broadcastInDim S1x512x2080 ![1, 2] hb x₀⟩,
        ⟨S1x512x2080, broadcastInDim S1x512x2080 ![1, 2] hb x₁⟩,
        ⟨S1x512x2080, broadcastInDim S1x512x2080 ![1, 2] hb x₂⟩] hc) h₁) ht) h₂ (ix2 ⟨b.val * 512 + n.val, hr⟩ k)
      = if k.val % 3 = 0 then x₀ (ix2 n ⟨k.val / 3 * 32 + b.val, hq⟩)
        else if k.val % 3 = 1 then x₁ (ix2 n ⟨k.val / 3 * 32 + b.val, hq⟩) else x₂ (ix2 n ⟨k.val / 3 * 32 + b.val, hq⟩) := by
  have hf : k.val / 3 < 65 := by omega
  have hm : k.val % 3 < 3 := by omega
  rw [sc_32x512x65x3_16384x195 _ _ b n k hr hf hm, tr_3x512x65x32_32x512x65x3,
    sc_3x512x2080_3x512x65x32 _ _ _ n ⟨k.val / 3, hf⟩ b hq]
  have T := cat_taps (broadcastInDim S1x512x2080 ![1, 2] hb x₀) (broadcastInDim S1x512x2080 ![1, 2] hb x₁)
    (broadcastInDim S1x512x2080 ![1, 2] hb x₂) hc n ⟨k.val / 3 * 32 + b.val, hq⟩
  rcases (show k.val % 3 = 0 ∨ k.val % 3 = 1 ∨ k.val % 3 = 2 by omega) with h | h | h
  · rw [if_pos h]
    have e : (⟨k.val % 3, hm⟩ : Fin 3) = 0 := Fin.ext h
    rw [e]
    exact T.1.trans (bc_512x2080_1x512x2080 _ _ _ _)
  · rw [if_neg (by omega), if_pos h]
    have e : (⟨k.val % 3, hm⟩ : Fin 3) = 1 := Fin.ext h
    rw [e]
    exact T.2.1.trans (bc_512x2080_1x512x2080 _ _ _ _)
  · rw [if_neg (by omega), if_neg (by omega)]
    have e : (⟨k.val % 3, hm⟩ : Fin 3) = 2 := Fin.ext h
    rw [e]
    exact T.2.2.trans (bc_512x2080_1x512x2080 _ _ _ _)

/-! ### One graph convolution of the reference, against the specification's sum -/

section Gconv
variable (w : Wts)

theorem tap_zero (m : Fin 3) (z : Fin 512 → EReal) (h : m.val = 0) : tap w m z = z := by
  unfold tap; rw [if_pos h]
theorem tap_one (m : Fin 3) (z : Fin 512 → EReal) (h : m.val = 1) : tap w m z = d1 w z := by
  unfold tap; rw [if_neg (by omega), if_pos h]
theorem tap_two (m : Fin 3) (z : Fin 512 → EReal) (h : m.val = 2) : tap w m z = d2 w z := by
  unfold tap; rw [if_neg (by omega), if_neg (by omega)]

variable (z : Fin 65 → Fin 512 → EReal) (b : Fin 32)

/-- The third tap as the reference spells it, 2 · A x₁ - x₀, where x₀ holds the features and x₁ their first diffusion. -/
theorem tap2_apply (A : FVec Ideal S512x512 .f32) (x₀ x₁ : FVec Ideal S512x2080 .f32)
    (hA : ∀ n k : Fin 512, A (ix2 n k) = w.A n k)
    (h₀ : ∀ (n : Fin 512) (f : Fin 65) (hq : f.val * 32 + b.val < 2080), x₀ (ix2 n ⟨f.val * 32 + b.val, hq⟩) = z f n)
    (h₁ : ∀ (n : Fin 512) (f : Fin 65) (hq : f.val * 32 + b.val < 2080), x₁ (ix2 n ⟨f.val * 32 + b.val, hq⟩) = d1 w (z f) n)
    (n : Fin 512) (f : Fin 65) (hq : f.val * 32 + b.val < 2080) :
    subf (mulf (broadcastInDim S512x2080 ![] bcast_S_S512x2080 (constant (F := Ideal) S_ .f32 0x40000000#32))
      (Host.dotGeneral dot_S512x512_S512x2080_S512x2080_1_0_0_1_n_n none A x₁)) x₀ (ix2 n ⟨f.val * 32 + b.val, hq⟩)
      = d2 w (z f) n := by
  rw [subf_apply, mulf_apply, dgA_apply, h₀]
  have e : ∑ k : Fin 512, A (ix2 n k) * x₁ (ix2 k ⟨f.val * 32 + b.val, hq⟩) = d1 w (d1 w (z f)) n :=
    Finset.sum_congr rfl (fun k _ => by rw [hA, h₁])
  rw [e]
  rfl

/-- The gate's pre-activation at row 512 b + n, channel o. -/
theorem gconvG_apply (A : FVec Ideal S512x512 .f32) (x₀ x₁ : FVec Ideal S512x2080 .f32) (Wm : FVec Ideal S195x128 .f32)
    (bias : FVec Ideal S128 .f32)
    (hA : ∀ n k : Fin 512, A (ix2 n k) = w.A n k)
    (h₀ : ∀ (n : Fin 512) (f : Fin 65) (hq : f.val * 32 + b.val < 2080), x₀ (ix2 n ⟨f.val * 32 + b.val, hq⟩) = z f n)
    (h₁ : ∀ (n : Fin 512) (f : Fin 65) (hq : f.val * 32 + b.val < 2080), x₁ (ix2 n ⟨f.val * 32 + b.val, hq⟩) = d1 w (z f) n)
    (n : Fin 512) (o : Fin 128) (hr : b.val * 512 + n.val < 16384) :
    addf (Host.dotGeneral dot_S16384x195_S195x128_S16384x128_1_0_0_1_n_n none
        (shapeCast S16384x195 (transpose S32x512x65x3 [3, 1, 2, 0] (shapeCast S3x512x65x32
          (concatenate S3x512x2080 0 [⟨S1x512x2080, broadcastInDim S1x512x2080 ![1, 2] bcast_S512x2080_S1x512x2080_1_2 x₀⟩,
            ⟨S1x512x2080, broadcastInDim S1x512x2080 ![1, 2] bcast_S512x2080_S1x512x2080_1_2 x₁⟩,
            ⟨S1x512x2080, broadcastInDim S1x512x2080 ![1, 2] bcast_S512x2080_S1x512x2080_1_2
              (subf (mulf (broadcastInDim S512x2080 ![] bcast_S_S512x2080 (constant (F := Ideal) S_ .f32 0x40000000#32))
                (Host.dotGeneral dot_S512x512_S512x2080_S512x2080_1_0_0_1_n_n none A x₁)) x₀)⟩]
            concatenates_S1x512x2080_S1x512x2080_S1x512x2080_S3x512x2080_d0) shapeCasts_S3x512x2080_S3x512x65x32)
          transposes_S3x512x65x32_S32x512x65x3_3_1_2_0) shapeCasts_S32x512x65x3_S16384x195) Wm)
      (broadcastInDim S16384x128 ![0, 1] bcast_S1x128_S16384x128_0_1 (broadcastInDim S1x128 ![1] bcast_S128_S1x128_1 bias))
      (ix2 ⟨b.val * 512 + n.val, hr⟩ o)
    = (∑ k : Fin 195, tap w ⟨k.val % 3, Nat.mod_lt _ (by decide)⟩ (z ⟨k.val / 3, by omega⟩) n * Wm (ix2 k o)) + bias (ix1 o) := by
  rw [addf_apply, dgG_apply, bc_128_16384x128]
  refine congrArg (fun t => t + bias (ix1 o)) ?_
  refine Finset.sum_congr rfl fun k _ => ?_
  have hq : k.val / 3 * 32 + b.val < 2080 := by omega
  rw [stack_apply _ _ _ _ _ _ _ _ b n k hr hq]
  refine congrArg (fun t => t * Wm (ix2 k o)) ?_
  rcases (show k.val % 3 = 0 ∨ k.val % 3 = 1 ∨ k.val % 3 = 2 by omega) with h | h | h
  · rw [if_pos h, tap_zero w _ _ h]
    exact h₀ n ⟨k.val / 3, by omega⟩ hq
  · rw [if_neg (by omega), if_pos h, tap_one w _ _ h]
    exact h₁ n ⟨k.val / 3, by omega⟩ hq
  · rw [if_neg (by omega), if_neg (by omega), tap_two w _ _ h]
    exact tap2_apply w z b A x₀ x₁ hA h₀ h₁ n ⟨k.val / 3, by omega⟩ hq

/-- The candidate's pre-activation at row 512 b + n, unit o. -/
theorem gconvC_apply (A : FVec Ideal S512x512 .f32) (x₀ x₁ : FVec Ideal S512x2080 .f32) (Wm : FVec Ideal S195x64 .f32)
    (bias : FVec Ideal S64 .f32)
    (hA : ∀ n k : Fin 512, A (ix2 n k) = w.A n k)
    (h₀ : ∀ (n : Fin 512) (f : Fin 65) (hq : f.val * 32 + b.val < 2080), x₀ (ix2 n ⟨f.val * 32 + b.val, hq⟩) = z f n)
    (h₁ : ∀ (n : Fin 512) (f : Fin 65) (hq : f.val * 32 + b.val < 2080), x₁ (ix2 n ⟨f.val * 32 + b.val, hq⟩) = d1 w (z f) n)
    (n : Fin 512) (o : Fin 64) (hr : b.val * 512 + n.val < 16384) :
    addf (Host.dotGeneral dot_S16384x195_S195x64_S16384x64_1_0_0_1_n_n none
        (shapeCast S16384x195 (transpose S32x512x65x3 [3, 1, 2, 0] (shapeCast S3x512x65x32
          (concatenate S3x512x2080 0 [⟨S1x512x2080, broadcastInDim S1x512x2080 ![1, 2] bcast_S512x2080_S1x512x2080_1_2 x₀⟩,
            ⟨S1x512x2080, broadcastInDim S1x512x2080 ![1, 2] bcast_S512x2080_S1x512x2080_1_2 x₁⟩,
            ⟨S1x512x2080, broadcastInDim S1x512x2080 ![1, 2] bcast_S512x2080_S1x512x2080_1_2
              (subf (mulf (broadcastInDim S512x2080 ![] bcast_S_S512x2080 (constant (F := Ideal) S_ .f32 0x40000000#32))
                (Host.dotGeneral dot_S512x512_S512x2080_S512x2080_1_0_0_1_n_n none A x₁)) x₀)⟩]
            concatenates_S1x512x2080_S1x512x2080_S1x512x2080_S3x512x2080_d0) shapeCasts_S3x512x2080_S3x512x65x32)
          transposes_S3x512x65x32_S32x512x65x3_3_1_2_0) shapeCasts_S32x512x65x3_S16384x195) Wm)
      (broadcastInDim S16384x64 ![0, 1] bcast_S1x64_S16384x64_0_1 (broadcastInDim S1x64 ![1] bcast_S64_S1x64_1 bias))
      (ix2 ⟨b.val * 512 + n.val, hr⟩ o)
    = (∑ k : Fin 195, tap w ⟨k.val % 3, Nat.mod_lt _ (by decide)⟩ (z ⟨k.val / 3, by omega⟩) n * Wm (ix2 k o)) + bias (ix1 o) := by
  rw [addf_apply, dgC_apply, bc_64_16384x64]
  refine congrArg (fun t => t + bias (ix1 o)) ?_
  refine Finset.sum_congr rfl fun k _ => ?_
  have hq : k.val / 3 * 32 + b.val < 2080 := by omega
  rw [stack_apply _ _ _ _ _ _ _ _ b n k hr hq]
  refine congrArg (fun t => t * Wm (ix2 k o)) ?_
  rcases (show k.val % 3 = 0 ∨ k.val % 3 = 1 ∨ k.val % 3 = 2 by omega) with h | h | h
  · rw [if_pos h, tap_zero w _ _ h]
    exact h₀ n ⟨k.val / 3, by omega⟩ hq
  · rw [if_neg (by omega), if_pos h, tap_one w _ _ h]
    exact h₁ n ⟨k.val / 3, by omega⟩ hq
  · rw [if_neg (by omega), if_neg (by omega), tap_two w _ _ h]
    exact tap2_apply w z b A x₀ x₁ hA h₀ h₁ n ⟨k.val / 3, by omega⟩ hq

end Gconv

/-! ### The node-major feature array of the first cell -/

/-- Column 32 f + b of row n of the feature array: the input at (b, n) for f = 0, else unit f - 1 of the state. -/
theorem feat_apply {α : Type} (xa : S32x512.Idx → α) (xs : S32x32768.Idx → α)
    (h₁ : S32x512.ShapeCasts S32x512x1) (h₂ : S32x32768.ShapeCasts S32x512x64)
    (hc : Shape.Concatenates [S32x512x1, S32x512x64] S32x512x65 2) (ht : S32x512x65.Transposes [1, 2, 0] S512x65x32)
    (h₃ : S512x65x32.ShapeCasts S512x2080) (n : Fin 512) (f : Fin 65) (b : Fin 32) (hq : f.val * 32 + b.val < 2080)
    (s : Fin 512 → Fin 64 → α)
    (hs : ∀ (n : Fin 512) (u : Fin 64) (hj : n.val * 64 + u.val < 32768), xs (ix2 b ⟨n.val * 64 + u.val, hj⟩) = s n u) :
    shapeCast S512x2080 (transpose S512x65x32 [1, 2, 0] (concatenate S32x512x65 2
      [⟨S32x512x1, shapeCast S32x512x1 xa h₁⟩, ⟨S32x512x64, shapeCast S32x512x64 xs h₂⟩] hc) ht) h₃
      (ix2 n ⟨f.val * 32 + b.val, hq⟩)
      = if h : f.val = 0 then xa (ix2 b n) else s n ⟨f.val - 1, by omega⟩ := by
  rw [sc_512x65x32_512x2080 _ _ n f b hq, tr_32x512x65_512x65x32]
  by_cases h : f.val = 0
  · rw [dif_pos h, cat_feat_zero _ _ _ b n f h, sc_32x512_32x512x1]
  · rw [dif_neg h]
    have hu : f.val - 1 < 64 := by omega
    rw [cat_feat_succ _ _ _ b n f ⟨f.val - 1, hu⟩ (by show f.val - 1 + 1 = f.val; omega),
      sc_32x32768_32x512x64 _ _ b n ⟨f.val - 1, hu⟩ (by show n.val * 64 + (f.val - 1) < 32768; omega)]
    exact hs n ⟨f.val - 1, hu⟩ _

/-! ### The host's elementwise operations and a broadcast literal at an index -/

theorem hostDivf_apply {s : Shape} {φ : FTy} (x y : FVec Ideal s φ) (i : s.Idx) : Host.divf x y i = Ideal.div (x i) (y i) := rfl
theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl
theorem hostTanh_apply {s : Shape} {φ : FTy} (x : FVec Ideal s φ) (i : s.Idx) : Host.tanh x i = Ideal.tanh (x i) := rfl
theorem bconst_apply {t : Shape} (h : S_.BroadcastsInDim t (![] : Fin 0 → Fin t.rank)) (w : BitVec 32) (i : t.Idx) :
    broadcastInDim t ![] h (constant (F := Ideal) S_ .f32 w) i = Ideal.ofBits .f32 w := rfl

/-! ### The thirteen argument arrays and the data the specification reads off them -/

section Args
open Idealize.ShloMosaic.TcCoe Idealize.SL.Sem Idealize.ShloMosaic.StableHlo

abbrev a0 (V0 : Valuation τ sig (Elt Ideal)) : A32x512 := V0 (Proc.devRef .tc main_arg0)
abbrev a1 (V0 : Valuation τ sig (Elt Ideal)) : A512x512 := V0 (Proc.devRef .tc main_arg1)
abbrev a2 (V0 : Valuation τ sig (Elt Ideal)) : A2x32x32768 := V0 (Proc.devRef .tc main_arg2)
abbrev a3 (V0 : Valuation τ sig (Elt Ideal)) : A195x128 := V0 (Proc.devRef .tc main_arg3)
abbrev a4 (V0 : Valuation τ sig (Elt Ideal)) : A128 := V0 (Proc.devRef .tc main_arg4)
abbrev a5 (V0 : Valuation τ sig (Elt Ideal)) : A195x64 := V0 (Proc.devRef .tc main_arg5)
abbrev a6 (V0 : Valuation τ sig (Elt Ideal)) : A64 := V0 (Proc.devRef .tc main_arg6)
abbrev a7 (V0 : Valuation τ sig (Elt Ideal)) : A384x128 := V0 (Proc.devRef .tc main_arg7)
abbrev a8 (V0 : Valuation τ sig (Elt Ideal)) : A128 := V0 (Proc.devRef .tc main_arg8)
abbrev a9 (V0 : Valuation τ sig (Elt Ideal)) : A384x64 := V0 (Proc.devRef .tc main_arg9)
abbrev a10 (V0 : Valuation τ sig (Elt Ideal)) : A64 := V0 (Proc.devRef .tc main_arg10)
abbrev a11 (V0 : Valuation τ sig (Elt Ideal)) : A64x1 := V0 (Proc.devRef .tc main_arg11)
abbrev a12 (V0 : Valuation τ sig (Elt Ideal)) : A1 := V0 (Proc.devRef .tc main_arg12)

/-- The weights of a valuation of the arguments. -/
abbrev WOf (V0 : Valuation τ sig (Elt Ideal)) : Wts :=
  wOf (a1 V0) (a3 V0) (a4 V0) (a5 V0) (a6 V0) (a7 V0) (a8 V0) (a9 V0) (a10 V0) (a11 V0) (a12 V0)

end Args

/-! ### The reference's first cell, value by value -/

section Sem
open Idealize.ShloMosaic.TcCoe Idealize.SL.Sem Idealize.ShloMosaic.StableHlo Cert.ReferenceIdeal.Value
variable (V0 : Valuation τ sig (Elt Ideal))

/-- The first layer's state. -/
theorem v1_sem (b : Fin 32) (n : Fin 512) (u : Fin 64) (hj : n.val * 64 + u.val < 32768) :
    res_main_v1 V0 (ix2 b ⟨n.val * 64 + u.val, hj⟩) = sOf (a2 V0) 0 b n u := by
  unfold res_main_v1
  exact (sc_1x32x32768_32x32768 _ _ b _).trans (sl_2x32x32768_l0 _ _ b _)

/-- The gate's features. -/
theorem v6_sem
    (h1 : ∀ (b : Fin 32) (n : Fin 512) (u : Fin 64) (hj : n.val * 64 + u.val < 32768),
      res_main_v1 V0 (ix2 b ⟨n.val * 64 + u.val, hj⟩) = sOf (a2 V0) 0 b n u)
    (n : Fin 512) (f : Fin 65) (b : Fin 32) (hq : f.val * 32 + b.val < 2080) :
    res_main_v6 V0 (ix2 n ⟨f.val * 32 + b.val, hq⟩)
      = col0 (xOf (a0 V0) b) (sOf (a2 V0) 0 b) f n := by
  unfold res_main_v6
  exact feat_apply (a0 V0) (res_main_v1 V0) _ _ _ _ _ n f b hq (sOf (a2 V0) 0 b) (fun n u hj => h1 b n u hj)

/-- Their first diffusion. -/
theorem v7_sem
    (h6 : ∀ (n : Fin 512) (f : Fin 65) (b : Fin 32) (hq : f.val * 32 + b.val < 2080),
      res_main_v6 V0 (ix2 n ⟨f.val * 32 + b.val, hq⟩)
        = col0 (xOf (a0 V0) b) (sOf (a2 V0) 0 b) f n)
    (n : Fin 512) (f : Fin 65) (b : Fin 32) (hq : f.val * 32 + b.val < 2080) :
    res_main_v7 V0 (ix2 n ⟨f.val * 32 + b.val, hq⟩)
      = d1 (WOf V0) (col0 (xOf (a0 V0) b) (sOf (a2 V0) 0 b) f) n := by
  change @Eq EReal _ _
  unfold res_main_v7
  rw [dgA_apply]
  exact Finset.sum_congr rfl (fun k _ => congrArg (fun t => a1 V0 (ix2 n k) * t) (h6 k f b hq))

/-- The gate: the logistic function of the first graph convolution. -/
theorem v30_sem
    (h6 : ∀ (n : Fin 512) (f : Fin 65) (b : Fin 32) (hq : f.val * 32 + b.val < 2080),
      res_main_v6 V0 (ix2 n ⟨f.val * 32 + b.val, hq⟩)
        = col0 (xOf (a0 V0) b) (sOf (a2 V0) 0 b) f n)
    (h7 : ∀ (n : Fin 512) (f : Fin 65) (b : Fin 32) (hq : f.val * 32 + b.val < 2080),
      res_main_v7 V0 (ix2 n ⟨f.val * 32 + b.val, hq⟩)
        = d1 (WOf V0) (col0 (xOf (a0 V0) b) (sOf (a2 V0) 0 b) f) n)
    (b : Fin 32) (n : Fin 512) (o : Fin 128) :
    res_main_v30 V0 (ix3 b n o) = g0 (WOf V0) (xOf (a0 V0) b) (sOf (a2 V0) 0 b) n o := by
  have hc : n.val * 128 + o.val < 65536 := by omega
  have hr : b.val * 512 + n.val < 16384 := by omega
  unfold res_main_v30
  refine (sc_32x65536_32x512x128 _ _ b n o hc).trans ?_
  rw [hostDivf_apply, addf_apply, hostExp_apply, hostNegf_apply, bconst_apply,
    sc_16384x128_32x65536 _ _ b n o hr hc,
    gconvG_apply (WOf V0) (col0 (xOf (a0 V0) b) (sOf (a2 V0) 0 b)) b _ _ _ _ _ (fun _ _ => rfl) (fun n f hq => h6 n f b hq)
      (fun n f hq => h7 n f b hq) n o hr]
  exact logistic_expand _

/-- The update gate: the upper 64 channels. -/
theorem v34_sem
    (h30 : ∀ (b : Fin 32) (n : Fin 512) (o : Fin 128),
      res_main_v30 V0 (ix3 b n o) = g0 (WOf V0) (xOf (a0 V0) b) (sOf (a2 V0) 0 b) n o)
    (b : Fin 32) (n : Fin 512) (u : Fin 64) (hj : n.val * 64 + u.val < 32768) :
    res_main_v34 V0 (ix2 b ⟨n.val * 64 + u.val, hj⟩)
      = u0 (WOf V0) (xOf (a0 V0) b) (sOf (a2 V0) 0 b) n u := by
  unfold res_main_v34
  exact ((sc_32x512x64_32x32768 _ _ b n u hj).trans (sl_32x512x128_hi _ _ b n u (by omega))).trans (h30 b n _)

/-- The candidate's features: the input, then the reset gate times the state. -/
theorem v40_sem
    (h1 : ∀ (b : Fin 32) (n : Fin 512) (u : Fin 64) (hj : n.val * 64 + u.val < 32768),
      res_main_v1 V0 (ix2 b ⟨n.val * 64 + u.val, hj⟩) = sOf (a2 V0) 0 b n u)
    (h30 : ∀ (b : Fin 32) (n : Fin 512) (o : Fin 128),
      res_main_v30 V0 (ix3 b n o) = g0 (WOf V0) (xOf (a0 V0) b) (sOf (a2 V0) 0 b) n o)
    (n : Fin 512) (f : Fin 65) (b : Fin 32) (hq : f.val * 32 + b.val < 2080) :
    res_main_v40 V0 (ix2 n ⟨f.val * 32 + b.val, hq⟩)
      = col0 (xOf (a0 V0) b) (rs0 (WOf V0) (xOf (a0 V0) b) (sOf (a2 V0) 0 b)) f n := by
  unfold res_main_v40
  refine feat_apply (a0 V0) _ _ _ _ _ _ n f b hq (rs0 (WOf V0) (xOf (a0 V0) b) (sOf (a2 V0) 0 b)) (fun n u hj => ?_)
  rw [mulf_apply, h1]
  exact congrArg (fun t => t * sOf (a2 V0) 0 b n u)
    (((sc_32x512x64_32x32768 _ _ b n u hj).trans (sl_32x512x128_lo _ _ b n u (by omega))).trans (h30 b n _))

/-- Their first diffusion. -/
theorem v41_sem
    (h40 : ∀ (n : Fin 512) (f : Fin 65) (b : Fin 32) (hq : f.val * 32 + b.val < 2080),
      res_main_v40 V0 (ix2 n ⟨f.val * 32 + b.val, hq⟩)
        = col0 (xOf (a0 V0) b) (rs0 (WOf V0) (xOf (a0 V0) b) (sOf (a2 V0) 0 b)) f n)
    (n : Fin 512) (f : Fin 65) (b : Fin 32) (hq : f.val * 32 + b.val < 2080) :
    res_main_v41 V0 (ix2 n ⟨f.val * 32 + b.val, hq⟩)
      = d1 (WOf V0) (col0 (xOf (a0 V0) b) (rs0 (WOf V0) (xOf (a0 V0) b) (sOf (a2 V0) 0 b)) f) n := by
  change @Eq EReal _ _
  unfold res_main_v41
  rw [dgA_apply]
  exact Finset.sum_congr rfl (fun k _ => congrArg (fun t => a1 V0 (ix2 n k) * t) (h40 k f b hq))

/-- The first cell's new state. -/
theorem v63_sem
    (h1 : ∀ (b : Fin 32) (n : Fin 512) (u : Fin 64) (hj : n.val * 64 + u.val < 32768),
      res_main_v1 V0 (ix2 b ⟨n.val * 64 + u.val, hj⟩) = sOf (a2 V0) 0 b n u)
    (h34 : ∀ (b : Fin 32) (n : Fin 512) (u : Fin 64) (hj : n.val * 64 + u.val < 32768),
      res_main_v34 V0 (ix2 b ⟨n.val * 64 + u.val, hj⟩)
        = u0 (WOf V0) (xOf (a0 V0) b) (sOf (a2 V0) 0 b) n u)
    (h40 : ∀ (n : Fin 512) (f : Fin 65) (b : Fin 32) (hq : f.val * 32 + b.val < 2080),
      res_main_v40 V0 (ix2 n ⟨f.val * 32 + b.val, hq⟩)
        = col0 (xOf (a0 V0) b) (rs0 (WOf V0) (xOf (a0 V0) b) (sOf (a2 V0) 0 b)) f n)
    (h41 : ∀ (n : Fin 512) (f : Fin 65) (b : Fin 32) (hq : f.val * 32 + b.val < 2080),
      res_main_v41 V0 (ix2 n ⟨f.val * 32 + b.val, hq⟩)
        = d1 (WOf V0) (col0 (xOf (a0 V0) b) (rs0 (WOf V0) (xOf (a0 V0) b) (sOf (a2 V0) 0 b)) f) n)
    (b : Fin 32) (n : Fin 512) (u : Fin 64) (hj : n.val * 64 + u.val < 32768) :
    res_main_v63 V0 (ix2 b ⟨n.val * 64 + u.val, hj⟩)
      = h0 (WOf V0) (xOf (a0 V0) b) (sOf (a2 V0) 0 b) n u := by
  have hr : b.val * 512 + n.val < 16384 := by omega
  unfold res_main_v63
  rw [addf_apply, mulf_apply, mulf_apply, subf_apply, hostTanh_apply, bconst_apply, h34, h1]
  exact congrArg
    (fun t => u0 (WOf V0) (xOf (a0 V0) b) (sOf (a2 V0) 0 b) n u * sOf (a2 V0) 0 b n u
      + (one - u0 (WOf V0) (xOf (a0 V0) b) (sOf (a2 V0) 0 b) n u) * Ideal.tanh t)
    ((sc_16384x64_32x32768 _ _ b n u hr hj).trans
      (gconvC_apply (WOf V0) (col0 (xOf (a0 V0) b) (rs0 (WOf V0) (xOf (a0 V0) b) (sOf (a2 V0) 0 b))) b _ _ _ _ _ (fun _ _ => rfl)
        (fun n f hq => h40 n f b hq) (fun n f hq => h41 n f b hq) n u hr))

end Sem

end Cert.Dcgru.RefL0

end
-- ==== Proof.RefL1.lean ====
/-
  The reference's second cell, read index by index.

  Every array of the second cell is a rearrangement of a few others: the stacked features `[512, 128·32]` put
  feature `f` of batch row `b` at column `32 f + b`; the three diffusion taps are stacked on a leading axis,
  and the weight product's left matrix `[32·512, 128·3]` holds, at row `512 b + n` and column `k`, tap `k % 3`
  of feature `k / 3` at node `n` of batch row `b`. So the weight product's sum over `k : Fin 384` is, term by
  term, the graph convolution's sum of the specification.
-/
import proofs.«110417_g44504451121623_cont_8to1_c_180_11_alg».proof.Proof.Gen.ReferenceIdeal
import proofs.«110417_g44504451121623_cont_8to1_c_180_11_alg».proof.Proof.RefRun
import proofs.«110417_g44504451121623_cont_8to1_c_180_11_alg».proof.Proof.Spec
import proofs.«110417_g44504451121623_cont_8to1_c_180_11_alg».proof.Proof.Alg
import Idealize.ShloMosaic.Lib.Pipeline.Value
import Idealize.ShloMosaic.Lib.ValueIdx
import Idealize.ShloMosaic.Lib.ValueLayout
import Idealize.ShloMosaic.PureOps.Ideal.Laws

noncomputable section
namespace Cert.Dcgru.RefL1
open Cert.Dcgru Cert.ReferenceIdeal Cert.ReferenceIdeal.Gen Idealize.ShloMosaic Idealize.ShloMosaic.ValueIdx

/-! ### Rearrangements read at an index -/

section Layout
variable {α : Type}

/-- `[1, 32, 32768] → [32, 32768]`: the unit axis dropped. -/
theorem sc_1x32x32768_32x32768 (x : S1x32x32768.Idx → α) (h : S1x32x32768.ShapeCasts S32x32768) (b : Fin 32) (j : Fin 32768) :
    shapeCast S32x32768 x h (ix2 b j) = x (ix3 0 b j) := by
  refine shapeCast_apply x h _ _ ?_
  rw [Shape.rowMajor_val_three, Shape.rowMajor_val_two]
  show ((0:ℕ) * 32 + b.val) * 32768 + j.val = b.val * 32768 + j.val
  omega

/-- Layer 1 of the stacked states. -/
theorem sl_2x32x32768_1 (x : S2x32x32768.Idx → α) (h : S2x32x32768.Slices ![1, 0, 0] S1x32x32768) (b : Fin 32) (j : Fin 32768) :
    extractStridedSlice S1x32x32768 ![1, 0, 0] x h (ix3 0 b j) = x (ix3 1 b j) := by
  refine extractStridedSlice_apply _ x h _ _ (fun a => ?_)
  match a with
  | ⟨0, _⟩ => rfl
  | ⟨1, _⟩ => show b.val = 0 + b.val; omega
  | ⟨2, _⟩ => show j.val = 0 + j.val; omega

/-- `[32, 32768] → [32, 512, 64]`: flat position `64 n + u`. -/
theorem sc_32x32768_32x512x64 (x : S32x32768.Idx → α) (h : S32x32768.ShapeCasts S32x512x64)
    (b : Fin 32) (n : Fin 512) (u : Fin 64) (hj : n.val * 64 + u.val < 32768) :
    shapeCast S32x512x64 x h (ix3 b n u) = x (ix2 b ⟨n.val * 64 + u.val, hj⟩) := by
  refine shapeCast_apply x h _ _ ?_
  rw [Shape.rowMajor_val_three, Shape.rowMajor_val_two]
  show b.val * 32768 + (n.val * 64 + u.val) = (b.val * 512 + n.val) * 64 + u.val
  omega

/-- `[32, 512, 64] → [32, 32768]`. -/
theorem sc_32x512x64_32x32768 (x : S32x512x64.Idx → α) (h : S32x512x64.ShapeCasts S32x32768)
    (b : Fin 32) (n : Fin 512) (u : Fin 64) (hj : n.val * 64 + u.val < 32768) :
    shapeCast S32x32768 x h (ix2 b ⟨n.val * 64 + u.val, hj⟩) = x (ix3 b n u) := by
  refine shapeCast_apply x h _ _ ?_
  rw [Shape.rowMajor_val_three, Shape.rowMajor_val_two]
  show (b.val * 512 + n.val) * 64 + u.val = b.val * 32768 + (n.val * 64 + u.val)
  omega

/-- `[512, 128, 32] → [512, 4096]`: column `32 f + b`. -/
theorem sc_512x128x32_512x4096 (x : S512x128x32.Idx → α) (h : S512x128x32.ShapeCasts S512x4096)
    (n : Fin 512) (f : Fin 128) (b : Fin 32) (hq : f.val * 32 + b.val < 4096) :
    shapeCast S512x4096 x h (ix2 n ⟨f.val * 32 + b.val, hq⟩) = x (ix3 n f b) := by
  refine shapeCast_apply x h _ _ ?_
  rw [Shape.rowMajor_val_three, Shape.rowMajor_val_two]
  show (n.val * 128 + f.val) * 32 + b.val = n.val * 4096 + (f.val * 32 + b.val)
  omega

/-- `[32, 512, 128] → [512, 128, 32]` by the permutation (1, 2, 0). -/
theorem tr_32x512x128_512x128x32 (x : S32x512x128.Idx → α) (h : S32x512x128.Transposes [1, 2, 0] S512x128x32)
    (n : Fin 512) (f : Fin 128) (b : Fin 32) :
    transpose S512x128x32 [1, 2, 0] x h (ix3 n f b) = x (ix3 b n f) := by
  refine transpose_apply _ x h _ _ (fun a => ?_)
  match a with
  | ⟨0, _⟩ => rfl
  | ⟨1, _⟩ => rfl
  | ⟨2, _⟩ => rfl

/-- The two feature blocks side by side: the first 64 features. -/
theorem cat_32x512x128_left (x₁ x₂ : S32x512x64.Idx → α) (h : Shape.Concatenates [S32x512x64, S32x512x64] S32x512x128 2)
    (b : Fin 32) (n : Fin 512) (f : Fin 128) (hf : f.val < 64) :
    concatenate S32x512x128 2 [⟨S32x512x64, x₁⟩, ⟨S32x512x64, x₂⟩] h (ix3 b n f) = x₁ (ix3 b n ⟨f.val, hf⟩) := by
  refine concatenate_pair_apply_left (t := S32x512x128) 2 x₁ x₂ h _ rfl _ (fun a => ?_)
  match a with
  | ⟨0, _⟩ => rfl
  | ⟨1, _⟩ => rfl
  | ⟨2, _⟩ => rfl

/-- … and the last 64. -/
theorem cat_32x512x128_right (x₁ x₂ : S32x512x64.Idx → α) (h : Shape.Concatenates [S32x512x64, S32x512x64] S32x512x128 2)
    (b : Fin 32) (n : Fin 512) (f : Fin 128) (hf : ¬ f.val < 64) :
    concatenate S32x512x128 2 [⟨S32x512x64, x₁⟩, ⟨S32x512x64, x₂⟩] h (ix3 b n f) = x₂ (ix3 b n ⟨f.val - 64, by omega⟩) := by
  refine concatenate_pair_apply_right (t := S32x512x128) 2 x₁ x₂ h _ rfl rfl _ (fun a ha => ?_) ?_
  · match a with
    | ⟨0, _⟩ => rfl
    | ⟨1, _⟩ => rfl
    | ⟨2, _⟩ => exact absurd rfl ha
  · show (f.val - 64) + 64 = f.val
    omega

end Layout

/-! ### The stacked taps and the weight product's left matrix -/

section Stack
variable {α : Type}

/-- A `[512, 4096]` array under a leading unit axis. -/
theorem bc_512x4096_1x512x4096 (x : S512x4096.Idx → α) (h : S512x4096.BroadcastsInDim S1x512x4096 (![1, 2] : Fin 2 → Fin S1x512x4096.rank))
    (n : Fin 512) (c : Fin 4096) :
    broadcastInDim S1x512x4096 ![1, 2] h x (ix3 0 n c) = x (ix2 n c) := by
  refine broadcastInDim_apply _ h x _ _ (fun a => ?_)
  match a with
  | ⟨0, _⟩ => rfl
  | ⟨1, _⟩ => rfl

private theorem cat3_hi (m : Fin 3) (n : Fin 512) (c : Fin 4096) :
    ∀ b : Fin S1x512x4096.rank, b.cast (rfl : S1x512x4096.rank = S3x512x4096.rank) ≠ (0 : Fin S3x512x4096.rank) →
      ((ix3 (0 : Fin 1) n c) b).val = ((ix3 m n c) (b.cast rfl)).val := by
  intro a ha
  match a with
  | ⟨0, _⟩ => exact absurd rfl ha
  | ⟨1, _⟩ => rfl
  | ⟨2, _⟩ => rfl

/-- Three `[1, 512, 4096]` pieces on the leading axis: piece `m`. -/
theorem cat_3x512x4096_0 (y₀ y₁ y₂ : S1x512x4096.Idx → α)
    (h : Shape.Concatenates [S1x512x4096, S1x512x4096, S1x512x4096] S3x512x4096 0) (m : Fin 3) (n : Fin 512) (c : Fin 4096) (hm : m.val = 0) :
    concatenate S3x512x4096 0 [⟨S1x512x4096, y₀⟩, ⟨S1x512x4096, y₁⟩, ⟨S1x512x4096, y₂⟩] h (ix3 m n c) = y₀ (ix3 0 n c) :=
  concatenate_apply_piece (t := S3x512x4096) 0 [⟨S1x512x4096, y₀⟩, ⟨S1x512x4096, y₁⟩, ⟨S1x512x4096, y₂⟩] h _ 0 (by simp)
    S1x512x4096 y₀ rfl rfl 0 rfl _ (cat3_hi m n c) (by show 0 + 0 = m.val; omega)

theorem cat_3x512x4096_1 (y₀ y₁ y₂ : S1x512x4096.Idx → α)
    (h : Shape.Concatenates [S1x512x4096, S1x512x4096, S1x512x4096] S3x512x4096 0) (m : Fin 3) (n : Fin 512) (c : Fin 4096) (hm : m.val = 1) :
    concatenate S3x512x4096 0 [⟨S1x512x4096, y₀⟩, ⟨S1x512x4096, y₁⟩, ⟨S1x512x4096, y₂⟩] h (ix3 m n c) = y₁ (ix3 0 n c) :=
  concatenate_apply_piece (t := S3x512x4096) 0 [⟨S1x512x4096, y₀⟩, ⟨S1x512x4096, y₁⟩, ⟨S1x512x4096, y₂⟩] h _ 1 (by simp)
    S1x512x4096 y₁ rfl rfl 1 rfl _ (cat3_hi m n c) (by show 1 + 0 = m.val; omega)

theorem cat_3x512x4096_2 (y₀ y₁ y₂ : S1x512x4096.Idx → α)
    (h : Shape.Concatenates [S1x512x4096, S1x512x4096, S1x512x4096] S3x512x4096 0) (m : Fin 3) (n : Fin 512) (c : Fin 4096) (hm : m.val = 2) :
    concatenate S3x512x4096 0 [⟨S1x512x4096, y₀⟩, ⟨S1x512x4096, y₁⟩, ⟨S1x512x4096, y₂⟩] h (ix3 m n c) = y₂ (ix3 0 n c) :=
  concatenate_apply_piece (t := S3x512x4096) 0 [⟨S1x512x4096, y₀⟩, ⟨S1x512x4096, y₁⟩, ⟨S1x512x4096, y₂⟩] h _ 2 (by simp)
    S1x512x4096 y₂ rfl rfl 2 rfl _ (cat3_hi m n c) (by show 2 + 0 = m.val; omega)

/-- `[3, 512, 4096] → [3, 512, 128, 32]`. -/
theorem sc_3x512x4096_3x512x128x32 (x : S3x512x4096.Idx → α) (h : S3x512x4096.ShapeCasts S3x512x128x32)
    (m : Fin 3) (n : Fin 512) (f : Fin 128) (b : Fin 32) (hq : f.val * 32 + b.val < 4096) :
    shapeCast S3x512x128x32 x h (ix4 m n f b) = x (ix3 m n ⟨f.val * 32 + b.val, hq⟩) := by
  refine shapeCast_apply x h _ _ ?_
  rw [Shape.rowMajor_val_four, Shape.rowMajor_val_three]
  show (m.val * 512 + n.val) * 4096 + (f.val * 32 + b.val) = ((m.val * 512 + n.val) * 128 + f.val) * 32 + b.val
  omega

/-- `[3, 512, 128, 32] → [32, 512, 128, 3]` by the permutation (3, 1, 2, 0). -/
theorem tr_3x512x128x32_32x512x128x3 (x : S3x512x128x32.Idx → α) (h : S3x512x128x32.Transposes [3, 1, 2, 0] S32x512x128x3)
    (b : Fin 32) (n : Fin 512) (f : Fin 128) (m : Fin 3) :
    transpose S32x512x128x3 [3, 1, 2, 0] x h (ix4 b n f m) = x (ix4 m n f b) := by
  refine transpose_apply _ x h _ _ (fun a => ?_)
  match a with
  | ⟨0, _⟩ => rfl
  | ⟨1, _⟩ => rfl
  | ⟨2, _⟩ => rfl
  | ⟨3, _⟩ => rfl

/-- `[32, 512, 128, 3] → [16384, 384]`: row `512 b + n`, column `k` is feature `k / 3`, tap `k % 3`. -/
theorem sc_32x512x128x3_16384x384 (x : S32x512x128x3.Idx → α) (h : S32x512x128x3.ShapeCasts S16384x384)
    (b : Fin 32) (n : Fin 512) (k : Fin 384) (hr : b.val * 512 + n.val < 16384) :
    shapeCast S16384x384 x h (ix2 ⟨b.val * 512 + n.val, hr⟩ k)
      = x (ix4 b n ⟨k.val / 3, by omega⟩ ⟨k.val % 3, Nat.mod_lt _ (by decide)⟩) := by
  refine shapeCast_apply x h _ _ ?_
  rw [Shape.rowMajor_val_four, Shape.rowMajor_val_two]
  show ((b.val * 512 + n.val) * 128 + k.val / 3) * 3 + k.val % 3 = (b.val * 512 + n.val) * 384 + k.val
  omega

/-- The weight product's left matrix, read at (row `512 b + n`, column `k`), up to the stack of the three taps. -/
theorem stack_pre (T : S3x512x4096.Idx → α)
    (h1 : S3x512x4096.ShapeCasts S3x512x128x32) (h2 : S3x512x128x32.Transposes [3, 1, 2, 0] S32x512x128x3)
    (h3 : S32x512x128x3.ShapeCasts S16384x384)
    (b : Fin 32) (n : Fin 512) (k : Fin 384) (hr : b.val * 512 + n.val < 16384) (hq : k.val / 3 * 32 + b.val < 4096) :
    shapeCast S16384x384 (transpose S32x512x128x3 [3, 1, 2, 0] (shapeCast S3x512x128x32 T h1) h2) h3 (ix2 ⟨b.val * 512 + n.val, hr⟩ k)
      = T (ix3 ⟨k.val % 3, Nat.mod_lt _ (by decide)⟩ n ⟨k.val / 3 * 32 + b.val, hq⟩) :=
  (sc_32x512x128x3_16384x384 _ h3 b n k hr).trans
    ((tr_3x512x128x32_32x512x128x3 _ h2 _ _ _ _).trans (sc_3x512x4096_3x512x128x32 T h1 _ _ ⟨k.val / 3, by omega⟩ _ hq))

end Stack

/-! ### The products read at an entry -/

section
private theorem dg_adj_l0 (i : S512x4096.Idx) (q : dot_S512x512_S512x4096_S512x4096_1_0_0_1_n_n.contr.Idx) : (dot_S512x512_S512x4096_S512x4096_1_0_0_1_n_n.lhsIdx i q 0).val = (i 0).val := by
  unfold DotDims.lhsIdx
  rw [dif_neg (show ¬(0 : Fin S512x512.rank) ∈ dot_S512x512_S512x4096_S512x4096_1_0_0_1_n_n.lhsBatch by decide), dif_pos (show (0 : Fin S512x512.rank) ∈ dot_S512x512_S512x4096_S512x4096_1_0_0_1_n_n.lhsNonContracting by decide)]
  rfl
private theorem dg_adj_l1 (i : S512x4096.Idx) (q : dot_S512x512_S512x4096_S512x4096_1_0_0_1_n_n.contr.Idx) : (dot_S512x512_S512x4096_S512x4096_1_0_0_1_n_n.lhsIdx i q 1).val = (q ⟨0, by decide⟩).val :=
  dot_S512x512_S512x4096_S512x4096_1_0_0_1_n_n.lhsIdx_val_of_single rfl i q
private theorem dg_adj_r0 (i : S512x4096.Idx) (q : dot_S512x512_S512x4096_S512x4096_1_0_0_1_n_n.contr.Idx) : (dot_S512x512_S512x4096_S512x4096_1_0_0_1_n_n.rhsIdx i q 0).val = (q ⟨0, by decide⟩).val :=
  dot_S512x512_S512x4096_S512x4096_1_0_0_1_n_n.rhsIdx_val_of_single rfl i q
private theorem dg_adj_r1 (i : S512x4096.Idx) (q : dot_S512x512_S512x4096_S512x4096_1_0_0_1_n_n.contr.Idx) : (dot_S512x512_S512x4096_S512x4096_1_0_0_1_n_n.rhsIdx i q 1).val = (i 1).val := by
  unfold DotDims.rhsIdx
  rw [dif_neg (show ¬(1 : Fin S512x4096.rank) ∈ dot_S512x512_S512x4096_S512x4096_1_0_0_1_n_n.rhsBatch by decide), dif_pos (show (1 : Fin S512x4096.rank) ∈ dot_S512x512_S512x4096_S512x4096_1_0_0_1_n_n.rhsNonContracting by decide)]
  rfl

/-- The `[512, 512] · [512, 4096]` product read at an entry: the sum over the 512 contracted positions. -/
theorem dg_adj (l : FVec Ideal S512x512 .f32) (r : FVec Ideal S512x4096 .f32) (i : Fin 512) (o : Fin 4096) :
    Host.dotGeneral dot_S512x512_S512x4096_S512x4096_1_0_0_1_n_n none l r (ix2 i o) = ∑ k : Fin 512, l (ix2 i k) * r (ix2 k o) := by
  simp only [Host.dotGeneral]
  rw [Ideal.dotGeneral_apply, ← Equiv.sum_comp (ValueIdx.contrEquiv1 dot_S512x512_S512x4096_S512x4096_1_0_0_1_n_n 512 rfl rfl).symm]
  refine Finset.sum_congr rfl fun k _ => ?_
  have hk := ValueIdx.contrEquiv1_symm_val dot_S512x512_S512x4096_S512x4096_1_0_0_1_n_n 512 rfl rfl k
  have el : dot_S512x512_S512x4096_S512x4096_1_0_0_1_n_n.lhsIdx (ix2 i o) ((ValueIdx.contrEquiv1 dot_S512x512_S512x4096_S512x4096_1_0_0_1_n_n 512 rfl rfl).symm k) = ix2 i k := funext fun a => Fin.ext (by
    match a with
    | ⟨0, _⟩ => exact dg_adj_l0 _ _
    | ⟨1, _⟩ => exact (dg_adj_l1 _ _).trans hk)
  have er : dot_S512x512_S512x4096_S512x4096_1_0_0_1_n_n.rhsIdx (ix2 i o) ((ValueIdx.contrEquiv1 dot_S512x512_S512x4096_S512x4096_1_0_0_1_n_n 512 rfl rfl).symm k) = ix2 k o := funext fun a => Fin.ext (by
    match a with
    | ⟨0, _⟩ => exact (dg_adj_r0 _ _).trans hk
    | ⟨1, _⟩ => exact dg_adj_r1 _ _)
  rw [el, er]
end

section
private theorem dg_w128_l0 (i : S16384x128.Idx) (q : dot_S16384x384_S384x128_S16384x128_1_0_0_1_n_n.contr.Idx) : (dot_S16384x384_S384x128_S16384x128_1_0_0_1_n_n.lhsIdx i q 0).val = (i 0).val := by
  unfold DotDims.lhsIdx
  rw [dif_neg (show ¬(0 : Fin S16384x384.rank) ∈ dot_S16384x384_S384x128_S16384x128_1_0_0_1_n_n.lhsBatch by decide), dif_pos (show (0 : Fin S16384x384.rank) ∈ dot_S16384x384_S384x128_S16384x128_1_0_0_1_n_n.lhsNonContracting by decide)]
  rfl
private theorem dg_w128_l1 (i : S16384x128.Idx) (q : dot_S16384x384_S384x128_S16384x128_1_0_0_1_n_n.contr.Idx) : (dot_S16384x384_S384x128_S16384x128_1_0_0_1_n_n.lhsIdx i q 1).val = (q ⟨0, by decide⟩).val :=
  dot_S16384x384_S384x128_S16384x128_1_0_0_1_n_n.lhsIdx_val_of_single rfl i q
private theorem dg_w128_r0 (i : S16384x128.Idx) (q : dot_S16384x384_S384x128_S16384x128_1_0_0_1_n_n.contr.Idx) : (dot_S16384x384_S384x128_S16384x128_1_0_0_1_n_n.rhsIdx i q 0).val = (q ⟨0, by decide⟩).val :=
  dot_S16384x384_S384x128_S16384x128_1_0_0_1_n_n.rhsIdx_val_of_single rfl i q
private theorem dg_w128_r1 (i : S16384x128.Idx) (q : dot_S16384x384_S384x128_S16384x128_1_0_0_1_n_n.contr.Idx) : (dot_S16384x384_S384x128_S16384x128_1_0_0_1_n_n.rhsIdx i q 1).val = (i 1).val := by
  unfold DotDims.rhsIdx
  rw [dif_neg (show ¬(1 : Fin S384x128.rank) ∈ dot_S16384x384_S384x128_S16384x128_1_0_0_1_n_n.rhsBatch by decide), dif_pos (show (1 : Fin S384x128.rank) ∈ dot_S16384x384_S384x128_S16384x128_1_0_0_1_n_n.rhsNonContracting by decide)]
  rfl

/-- The `[16384, 384] · [384, 128]` product read at an entry: the sum over the 384 contracted positions. -/
theorem dg_w128 (l : FVec Ideal S16384x384 .f32) (r : FVec Ideal S384x128 .f32) (i : Fin 16384) (o : Fin 128) :
    Host.dotGeneral dot_S16384x384_S384x128_S16384x128_1_0_0_1_n_n none l r (ix2 i o) = ∑ k : Fin 384, l (ix2 i k) * r (ix2 k o) := by
  simp only [Host.dotGeneral]
  rw [Ideal.dotGeneral_apply, ← Equiv.sum_comp (ValueIdx.contrEquiv1 dot_S16384x384_S384x128_S16384x128_1_0_0_1_n_n 384 rfl rfl).symm]
  refine Finset.sum_congr rfl fun k _ => ?_
  have hk := ValueIdx.contrEquiv1_symm_val dot_S16384x384_S384x128_S16384x128_1_0_0_1_n_n 384 rfl rfl k
  have el : dot_S16384x384_S384x128_S16384x128_1_0_0_1_n_n.lhsIdx (ix2 i o) ((ValueIdx.contrEquiv1 dot_S16384x384_S384x128_S16384x128_1_0_0_1_n_n 384 rfl rfl).symm k) = ix2 i k := funext fun a => Fin.ext (by
    match a with
    | ⟨0, _⟩ => exact dg_w128_l0 _ _
    | ⟨1, _⟩ => exact (dg_w128_l1 _ _).trans hk)
  have er : dot_S16384x384_S384x128_S16384x128_1_0_0_1_n_n.rhsIdx (ix2 i o) ((ValueIdx.contrEquiv1 dot_S16384x384_S384x128_S16384x128_1_0_0_1_n_n 384 rfl rfl).symm k) = ix2 k o := funext fun a => Fin.ext (by
    match a with
    | ⟨0, _⟩ => exact (dg_w128_r0 _ _).trans hk
    | ⟨1, _⟩ => exact dg_w128_r1 _ _)
  rw [el, er]
end

section
private theorem dg_w64_l0 (i : S16384x64.Idx) (q : dot_S16384x384_S384x64_S16384x64_1_0_0_1_n_n.contr.Idx) : (dot_S16384x384_S384x64_S16384x64_1_0_0_1_n_n.lhsIdx i q 0).val = (i 0).val := by
  unfold DotDims.lhsIdx
  rw [dif_neg (show ¬(0 : Fin S16384x384.rank) ∈ dot_S16384x384_S384x64_S16384x64_1_0_0_1_n_n.lhsBatch by decide), dif_pos (show (0 : Fin S16384x384.rank) ∈ dot_S16384x384_S384x64_S16384x64_1_0_0_1_n_n.lhsNonContracting by decide)]
  rfl
private theorem dg_w64_l1 (i : S16384x64.Idx) (q : dot_S16384x384_S384x64_S16384x64_1_0_0_1_n_n.contr.Idx) : (dot_S16384x384_S384x64_S16384x64_1_0_0_1_n_n.lhsIdx i q 1).val = (q ⟨0, by decide⟩).val :=
  dot_S16384x384_S384x64_S16384x64_1_0_0_1_n_n.lhsIdx_val_of_single rfl i q
private theorem dg_w64_r0 (i : S16384x64.Idx) (q : dot_S16384x384_S384x64_S16384x64_1_0_0_1_n_n.contr.Idx) : (dot_S16384x384_S384x64_S16384x64_1_0_0_1_n_n.rhsIdx i q 0).val = (q ⟨0, by decide⟩).val :=
  dot_S16384x384_S384x64_S16384x64_1_0_0_1_n_n.rhsIdx_val_of_single rfl i q
private theorem dg_w64_r1 (i : S16384x64.Idx) (q : dot_S16384x384_S384x64_S16384x64_1_0_0_1_n_n.contr.Idx) : (dot_S16384x384_S384x64_S16384x64_1_0_0_1_n_n.rhsIdx i q 1).val = (i 1).val := by
  unfold DotDims.rhsIdx
  rw [dif_neg (show ¬(1 : Fin S384x64.rank) ∈ dot_S16384x384_S384x64_S16384x64_1_0_0_1_n_n.rhsBatch by decide), dif_pos (show (1 : Fin S384x64.rank) ∈ dot_S16384x384_S384x64_S16384x64_1_0_0_1_n_n.rhsNonContracting by decide)]
  rfl

/-- The `[16384, 384] · [384, 64]` product read at an entry: the sum over the 384 contracted positions. -/
theorem dg_w64 (l : FVec Ideal S16384x384 .f32) (r : FVec Ideal S384x64 .f32) (i : Fin 16384) (o : Fin 64) :
    Host.dotGeneral dot_S16384x384_S384x64_S16384x64_1_0_0_1_n_n none l r (ix2 i o) = ∑ k : Fin 384, l (ix2 i k) * r (ix2 k o) := by
  simp only [Host.dotGeneral]
  rw [Ideal.dotGeneral_apply, ← Equiv.sum_comp (ValueIdx.contrEquiv1 dot_S16384x384_S384x64_S16384x64_1_0_0_1_n_n 384 rfl rfl).symm]
  refine Finset.sum_congr rfl fun k _ => ?_
  have hk := ValueIdx.contrEquiv1_symm_val dot_S16384x384_S384x64_S16384x64_1_0_0_1_n_n 384 rfl rfl k
  have el : dot_S16384x384_S384x64_S16384x64_1_0_0_1_n_n.lhsIdx (ix2 i o) ((ValueIdx.contrEquiv1 dot_S16384x384_S384x64_S16384x64_1_0_0_1_n_n 384 rfl rfl).symm k) = ix2 i k := funext fun a => Fin.ext (by
    match a with
    | ⟨0, _⟩ => exact dg_w64_l0 _ _
    | ⟨1, _⟩ => exact (dg_w64_l1 _ _).trans hk)
  have er : dot_S16384x384_S384x64_S16384x64_1_0_0_1_n_n.rhsIdx (ix2 i o) ((ValueIdx.contrEquiv1 dot_S16384x384_S384x64_S16384x64_1_0_0_1_n_n 384 rfl rfl).symm k) = ix2 k o := funext fun a => Fin.ext (by
    match a with
    | ⟨0, _⟩ => exact (dg_w64_r0 _ _).trans hk
    | ⟨1, _⟩ => exact dg_w64_r1 _ _)
  rw [el, er]
end

/-! ### Bias rows, the literal constants, and the results' rearrangements -/

section Misc
variable {α : Type}

theorem bias128_apply (x : S128.Idx → α) (h1 : S128.BroadcastsInDim S1x128 (![1] : Fin 1 → Fin S1x128.rank))
    (h2 : S1x128.BroadcastsInDim S16384x128 (![0, 1] : Fin 2 → Fin S16384x128.rank)) (r : Fin 16384) (o : Fin 128) :
    broadcastInDim S16384x128 ![0, 1] h2 (broadcastInDim S1x128 ![1] h1 x) (ix2 r o) = x (ix1 o) := by
  refine (broadcastInDim_apply _ h2 _ _ (ix2 0 o) (fun a => ?_)).trans (broadcastInDim_apply _ h1 _ _ _ (fun a => ?_))
  · match a with
    | ⟨0, _⟩ => rfl
    | ⟨1, _⟩ => rfl
  · match a with
    | ⟨0, _⟩ => rfl

theorem bias64_apply (x : S64.Idx → α) (h1 : S64.BroadcastsInDim S1x64 (![1] : Fin 1 → Fin S1x64.rank))
    (h2 : S1x64.BroadcastsInDim S16384x64 (![0, 1] : Fin 2 → Fin S16384x64.rank)) (r : Fin 16384) (o : Fin 64) :
    broadcastInDim S16384x64 ![0, 1] h2 (broadcastInDim S1x64 ![1] h1 x) (ix2 r o) = x (ix1 o) := by
  refine (broadcastInDim_apply _ h2 _ _ (ix2 0 o) (fun a => ?_)).trans (broadcastInDim_apply _ h1 _ _ _ (fun a => ?_))
  · match a with
    | ⟨0, _⟩ => rfl
    | ⟨1, _⟩ => rfl
  · match a with
    | ⟨0, _⟩ => rfl

/-- A scalar spread over any shape. -/
theorem bc_scalar_apply {t : Shape} (x : S_.Idx → α) (h : S_.BroadcastsInDim t (![] : Fin 0 → Fin t.rank)) (j : t.Idx) :
    broadcastInDim t ![] h x j = x ix0 :=
  broadcastInDim_apply _ h x j ix0 (fun a => a.elim0)

/-- `[16384, 128] → [32, 65536] → [32, 512, 128]`. -/
theorem sc_32x65536_32x512x128 (x : S32x65536.Idx → α) (h : S32x65536.ShapeCasts S32x512x128)
    (b : Fin 32) (n : Fin 512) (o : Fin 128) (hc : n.val * 128 + o.val < 65536) :
    shapeCast S32x512x128 x h (ix3 b n o) = x (ix2 b ⟨n.val * 128 + o.val, hc⟩) := by
  refine shapeCast_apply x h _ _ ?_
  rw [Shape.rowMajor_val_three, Shape.rowMajor_val_two]
  show b.val * 65536 + (n.val * 128 + o.val) = (b.val * 512 + n.val) * 128 + o.val
  omega

theorem sc_16384x128_32x65536 (x : S16384x128.Idx → α) (h : S16384x128.ShapeCasts S32x65536)
    (b : Fin 32) (n : Fin 512) (o : Fin 128) (hc : n.val * 128 + o.val < 65536) (hr : b.val * 512 + n.val < 16384) :
    shapeCast S32x65536 x h (ix2 b ⟨n.val * 128 + o.val, hc⟩) = x (ix2 ⟨b.val * 512 + n.val, hr⟩ o) := by
  refine shapeCast_apply x h _ _ ?_
  rw [Shape.rowMajor_val_two, Shape.rowMajor_val_two]
  show (b.val * 512 + n.val) * 128 + o.val = b.val * 65536 + (n.val * 128 + o.val)
  omega

theorem sc_16384x64_32x32768 (x : S16384x64.Idx → α) (h : S16384x64.ShapeCasts S32x32768)
    (b : Fin 32) (n : Fin 512) (u : Fin 64) (hj : n.val * 64 + u.val < 32768) (hr : b.val * 512 + n.val < 16384) :
    shapeCast S32x32768 x h (ix2 b ⟨n.val * 64 + u.val, hj⟩) = x (ix2 ⟨b.val * 512 + n.val, hr⟩ u) := by
  refine shapeCast_apply x h _ _ ?_
  rw [Shape.rowMajor_val_two, Shape.rowMajor_val_two]
  show (b.val * 512 + n.val) * 64 + u.val = b.val * 32768 + (n.val * 64 + u.val)
  omega

/-- The reset half and the update half of the gates. -/
theorem sl_32x512x128_lo (x : S32x512x128.Idx → α) (h : S32x512x128.Slices ![0, 0, 0] S32x512x64) (b : Fin 32) (n : Fin 512) (u : Fin 64) :
    extractStridedSlice S32x512x64 ![0, 0, 0] x h (ix3 b n u) = x (ix3 b n ⟨u.val, by omega⟩) := by
  refine extractStridedSlice_apply _ x h _ _ (fun a => ?_)
  match a with
  | ⟨0, _⟩ => show b.val = 0 + b.val; omega
  | ⟨1, _⟩ => show n.val = 0 + n.val; omega
  | ⟨2, _⟩ => show u.val = 0 + u.val; omega

theorem sl_32x512x128_hi (x : S32x512x128.Idx → α) (h : S32x512x128.Slices ![0, 0, 64] S32x512x64) (b : Fin 32) (n : Fin 512) (u : Fin 64) :
    extractStridedSlice S32x512x64 ![0, 0, 64] x h (ix3 b n u) = x (ix3 b n ⟨64 + u.val, by omega⟩) := by
  refine extractStridedSlice_apply _ x h _ _ (fun a => ?_)
  match a with
  | ⟨0, _⟩ => show b.val = 0 + b.val; omega
  | ⟨1, _⟩ => show n.val = 0 + n.val; omega
  | ⟨2, _⟩ => rfl

end Misc

section Host
variable {s : Shape}
theorem hdivf_apply (a b : FVec Ideal s .f32) (i : s.Idx) : Host.divf a b i = Ideal.div (a i) (b i) := rfl
theorem hexp_apply (a : FVec Ideal s .f32) (i : s.Idx) : Host.exp a i = Ideal.exp (a i) := rfl
theorem hnegf_apply (a : FVec Ideal s .f32) (i : s.Idx) : Host.negf a i = -(a i) := rfl
theorem htanh_apply (a : FVec Ideal s .f32) (i : s.Idx) : Host.tanh a i = Ideal.tanh (a i) := rfl
end Host

/-! ### The composed arrays of one graph convolution, over abstract operands -/

section Terms

/-- The stacked features `[512, 128·32]`: the cell's input `P` (features 0 … 63) and a state `Q` (features 64 … 127). -/
def catT (P Q : FVec Ideal S32x32768 .f32) : FVec Ideal S512x4096 .f32 :=
  shapeCast _ (transpose S512x128x32 [1, 2, 0] (concatenate S32x512x128 2 [⟨S32x512x64, (shapeCast _ P shapeCasts_S32x32768_S32x512x64)⟩, ⟨S32x512x64, (shapeCast _ Q shapeCasts_S32x32768_S32x512x64)⟩] concatenates_S32x512x64_S32x512x64_S32x512x128_d2) transposes_S32x512x128_S512x128x32_1_2_0) shapeCasts_S512x128x32_S512x4096

/-- The weight product's left matrix `[32·512, 128·3]` from the features `X0` and their first diffusion `X1`. -/
def stackT (A : FVec Ideal S512x512 .f32) (X0 X1 : FVec Ideal S512x4096 .f32) : FVec Ideal S16384x384 .f32 :=
  shapeCast _ (transpose S32x512x128x3 [3, 1, 2, 0] (shapeCast _ (concatenate S3x512x4096 0 [⟨S1x512x4096, (broadcastInDim S1x512x4096 ![1, 2] bcast_S512x4096_S1x512x4096_1_2 X0)⟩, ⟨S1x512x4096, (broadcastInDim S1x512x4096 ![1, 2] bcast_S512x4096_S1x512x4096_1_2 X1)⟩, ⟨S1x512x4096, (broadcastInDim S1x512x4096 ![1, 2] bcast_S512x4096_S1x512x4096_1_2 (subf (mulf (broadcastInDim S512x4096 ![] bcast_S_S512x4096 (constant S_ .f32 0x40000000#32)) (Host.dotGeneral dot_S512x512_S512x4096_S512x4096_1_0_0_1_n_n none A X1)) X0))⟩] concatenates_S1x512x4096_S1x512x4096_S1x512x4096_S3x512x4096_d0) shapeCasts_S3x512x4096_S3x512x128x32) transposes_S3x512x128x32_S32x512x128x3_3_1_2_0) shapeCasts_S32x512x128x3_S16384x384

/-- The gates `[32, 512, 128]`: the expanded logistic function of the graph convolution. -/
def gateT (A : FVec Ideal S512x512 .f32) (X0 X1 : FVec Ideal S512x4096 .f32) (Wm : FVec Ideal S384x128 .f32) (bias : FVec Ideal S128 .f32) :
    FVec Ideal S32x512x128 .f32 :=
  shapeCast _ (Host.divf (broadcastInDim S32x65536 ![] bcast_S_S32x65536 (constant S_ .f32 0x3F800000#32)) (addf (broadcastInDim S32x65536 ![] bcast_S_S32x65536 (constant S_ .f32 0x3F800000#32)) (Host.exp (Host.negf (shapeCast _ (addf (Host.dotGeneral dot_S16384x384_S384x128_S16384x128_1_0_0_1_n_n none (stackT A X0 X1) Wm) (broadcastInDim S16384x128 ![0, 1] bcast_S1x128_S16384x128_0_1 (broadcastInDim S1x128 ![1] bcast_S128_S1x128_1 bias))) shapeCasts_S16384x128_S32x65536))))) shapeCasts_S32x65536_S32x512x128

/-- The candidate `[32, 32768]`: the hyperbolic tangent of the graph convolution. -/
def candT (A : FVec Ideal S512x512 .f32) (X0 X1 : FVec Ideal S512x4096 .f32) (Wm : FVec Ideal S384x64 .f32) (bias : FVec Ideal S64 .f32) :
    FVec Ideal S32x32768 .f32 :=
  Host.tanh (shapeCast _ (addf (Host.dotGeneral dot_S16384x384_S384x64_S16384x64_1_0_0_1_n_n none (stackT A X0 X1) Wm) (broadcastInDim S16384x64 ![0, 1] bcast_S1x64_S16384x64_0_1 (broadcastInDim S1x64 ![1] bcast_S64_S1x64_1 bias))) shapeCasts_S16384x64_S32x32768)

end Terms

section Sem
variable (w : Wts)

theorem tap_zero (m : Fin 3) (z : Fin 512 → EReal) (hm : m.val = 0) : tap w m z = z := by
  unfold tap; rw [if_pos hm]
theorem tap_one (m : Fin 3) (z : Fin 512 → EReal) (hm : m.val = 1) : tap w m z = d1 w z := by
  unfold tap; rw [if_neg (by omega), if_pos hm]
theorem tap_two (m : Fin 3) (z : Fin 512 → EReal) (hm : m.val = 2) : tap w m z = d2 w z := by
  unfold tap; rw [if_neg (by omega), if_neg (by omega)]

/-- The stacked features at (node `n`, column `32 f + b`): feature `f` of batch row `b`. -/
theorem catT_apply (P Q : FVec Ideal S32x32768 .f32) (x s : Fin 32 → Fin 512 → Fin 64 → EReal)
    (hP : ∀ (b : Fin 32) (n : Fin 512) (u : Fin 64) (hj : n.val * 64 + u.val < 32768), P (ix2 b ⟨n.val * 64 + u.val, hj⟩) = x b n u)
    (hQ : ∀ (b : Fin 32) (n : Fin 512) (u : Fin 64) (hj : n.val * 64 + u.val < 32768), Q (ix2 b ⟨n.val * 64 + u.val, hj⟩) = s b n u)
    (n : Fin 512) (f : Fin 128) (b : Fin 32) (hq : f.val * 32 + b.val < 4096) :
    catT P Q (ix2 n ⟨f.val * 32 + b.val, hq⟩) = col1 (x b) (s b) f n := by
  unfold catT
  rw [sc_512x128x32_512x4096, tr_32x512x128_512x128x32]
  unfold col1
  by_cases hf : f.val < 64
  · rw [cat_32x512x128_left _ _ _ _ _ _ hf, sc_32x32768_32x512x64 _ _ _ _ _ (by omega), hP, dif_pos hf]
  · rw [cat_32x512x128_right _ _ _ _ _ _ hf, sc_32x32768_32x512x64 _ _ _ _ _ (by show n.val * 64 + (f.val - 64) < 32768; omega), hQ, dif_neg hf]

/-- The weight product's left matrix at (row `512 b + n`, column `k`): tap `k % 3` of feature `k / 3`. -/
theorem stackT_apply (A : FVec Ideal S512x512 .f32) (X0 X1 : FVec Ideal S512x4096 .f32) (x s : Fin 32 → Fin 512 → Fin 64 → EReal)
    (hA : ∀ n k : Fin 512, A (ix2 n k) = w.A n k)
    (h0 : ∀ (n : Fin 512) (f : Fin 128) (b : Fin 32) (hq : f.val * 32 + b.val < 4096), X0 (ix2 n ⟨f.val * 32 + b.val, hq⟩) = col1 (x b) (s b) f n)
    (h1 : ∀ (n : Fin 512) (f : Fin 128) (b : Fin 32) (hq : f.val * 32 + b.val < 4096), X1 (ix2 n ⟨f.val * 32 + b.val, hq⟩) = d1 w (col1 (x b) (s b) f) n)
    (b : Fin 32) (n : Fin 512) (k : Fin 384) (hr : b.val * 512 + n.val < 16384) :
    stackT A X0 X1 (ix2 ⟨b.val * 512 + n.val, hr⟩ k)
      = tap w ⟨k.val % 3, Nat.mod_lt _ (by decide)⟩ (col1 (x b) (s b) ⟨k.val / 3, by omega⟩) n := by
  have hq : k.val / 3 * 32 + b.val < 4096 := by omega
  unfold stackT
  rw [stack_pre _ _ _ _ b n k hr hq]
  have hm : k.val % 3 = 0 ∨ k.val % 3 = 1 ∨ k.val % 3 = 2 := by omega
  rcases hm with hm | hm | hm
  · rw [cat_3x512x4096_0 _ _ _ _ _ _ _ hm, bc_512x4096_1x512x4096, tap_zero w _ _ hm]
    exact h0 n ⟨k.val / 3, by omega⟩ b hq
  · rw [cat_3x512x4096_1 _ _ _ _ _ _ _ hm, bc_512x4096_1x512x4096, tap_one w _ _ hm]
    exact h1 n ⟨k.val / 3, by omega⟩ b hq
  · rw [cat_3x512x4096_2 _ _ _ _ _ _ _ hm, bc_512x4096_1x512x4096, tap_two w _ _ hm]
    rw [subf_apply, mulf_apply, bc_scalar_apply, constant_apply, dg_adj, h0 n ⟨k.val / 3, by omega⟩ b hq]
    have e : ∑ k' : Fin 512, A (ix2 n k') * X1 (ix2 k' ⟨k.val / 3 * 32 + b.val, hq⟩)
        = d1 w (d1 w (col1 (x b) (s b) ⟨k.val / 3, by omega⟩)) n :=
      Finset.sum_congr rfl fun k' _ => by rw [hA, h1 k' ⟨k.val / 3, by omega⟩ b hq]
    rw [e]
    rfl

/-- The gates at (batch row `b`, node `n`, channel `o`). -/
theorem gateT_apply (A : FVec Ideal S512x512 .f32) (X0 X1 : FVec Ideal S512x4096 .f32) (Wm : FVec Ideal S384x128 .f32)
    (bias : FVec Ideal S128 .f32) (x s : Fin 32 → Fin 512 → Fin 64 → EReal)
    (hA : ∀ n k : Fin 512, A (ix2 n k) = w.A n k)
    (h0 : ∀ (n : Fin 512) (f : Fin 128) (b : Fin 32) (hq : f.val * 32 + b.val < 4096), X0 (ix2 n ⟨f.val * 32 + b.val, hq⟩) = col1 (x b) (s b) f n)
    (h1 : ∀ (n : Fin 512) (f : Fin 128) (b : Fin 32) (hq : f.val * 32 + b.val < 4096), X1 (ix2 n ⟨f.val * 32 + b.val, hq⟩) = d1 w (col1 (x b) (s b) f) n)
    (b : Fin 32) (n : Fin 512) (o : Fin 128) :
    gateT A X0 X1 Wm bias (ix3 b n o)
      = Ideal.logistic (gconv1 w (x b) (s b) (fun k o => Wm (ix2 k o)) (fun o => bias (ix1 o)) n o) := by
  have hc : n.val * 128 + o.val < 65536 := by omega
  have hr : b.val * 512 + n.val < 16384 := by omega
  unfold gateT
  rw [sc_32x65536_32x512x128 _ _ _ _ _ hc, hdivf_apply, addf_apply, hexp_apply, hnegf_apply, bc_scalar_apply, constant_apply,
    sc_16384x128_32x65536 _ _ _ _ _ hc hr, addf_apply, dg_w128, bias128_apply]
  refine (logistic_expand _).trans ?_
  unfold gconv1
  congr 2
  exact Finset.sum_congr rfl fun k _ => by rw [stackT_apply w A X0 X1 x s hA h0 h1 b n k hr]

/-- The candidate at (batch row `b`, flat position `64 n + u`). -/
theorem candT_apply (A : FVec Ideal S512x512 .f32) (X0 X1 : FVec Ideal S512x4096 .f32) (Wm : FVec Ideal S384x64 .f32)
    (bias : FVec Ideal S64 .f32) (x s : Fin 32 → Fin 512 → Fin 64 → EReal)
    (hA : ∀ n k : Fin 512, A (ix2 n k) = w.A n k)
    (h0 : ∀ (n : Fin 512) (f : Fin 128) (b : Fin 32) (hq : f.val * 32 + b.val < 4096), X0 (ix2 n ⟨f.val * 32 + b.val, hq⟩) = col1 (x b) (s b) f n)
    (h1 : ∀ (n : Fin 512) (f : Fin 128) (b : Fin 32) (hq : f.val * 32 + b.val < 4096), X1 (ix2 n ⟨f.val * 32 + b.val, hq⟩) = d1 w (col1 (x b) (s b) f) n)
    (b : Fin 32) (n : Fin 512) (u : Fin 64) (hj : n.val * 64 + u.val < 32768) :
    candT A X0 X1 Wm bias (ix2 b ⟨n.val * 64 + u.val, hj⟩)
      = Ideal.tanh (gconv1 w (x b) (s b) (fun k o => Wm (ix2 k o)) (fun o => bias (ix1 o)) n u) := by
  have hr : b.val * 512 + n.val < 16384 := by omega
  unfold candT
  rw [htanh_apply, sc_16384x64_32x32768 _ _ _ _ _ hj hr, addf_apply, dg_w64, bias64_apply]
  unfold gconv1
  congr 2
  exact Finset.sum_congr rfl fun k _ => by rw [stackT_apply w A X0 X1 x s hA h0 h1 b n k hr]

end Sem

/-! ### The second cell of the reference

  `a0 … a12` are the thirteen argument arrays, `W` the weights read off them; batch row `b`'s input is `xOf a0 b`, its two
  states `sOf a2 0 b` and `sOf a2 1 b`. Each lemma reads one named array of the reference at an index, given the readings of
  the named arrays it is composed of. -/

section Ref
open Idealize.SL.Sem Cert.ReferenceIdeal.Value
variable (V0 : Valuation τ sig (Elt Ideal))

abbrev a0 : A32x512 := V0 (Proc.devRef .tc main_arg0)
abbrev a1 : A512x512 := V0 (Proc.devRef .tc main_arg1)
abbrev a2 : A2x32x32768 := V0 (Proc.devRef .tc main_arg2)
abbrev a3 : A195x128 := V0 (Proc.devRef .tc main_arg3)
abbrev a4 : A128 := V0 (Proc.devRef .tc main_arg4)
abbrev a5 : A195x64 := V0 (Proc.devRef .tc main_arg5)
abbrev a6 : A64 := V0 (Proc.devRef .tc main_arg6)
abbrev a7 : A384x128 := V0 (Proc.devRef .tc main_arg7)
abbrev a8 : A128 := V0 (Proc.devRef .tc main_arg8)
abbrev a9 : A384x64 := V0 (Proc.devRef .tc main_arg9)
abbrev a10 : A64 := V0 (Proc.devRef .tc main_arg10)
abbrev a11 : A64x1 := V0 (Proc.devRef .tc main_arg11)
abbrev a12 : A1 := V0 (Proc.devRef .tc main_arg12)
abbrev W : Wts := wOf (a1 V0) (a3 V0) (a4 V0) (a5 V0) (a6 V0) (a7 V0) (a8 V0) (a9 V0) (a10 V0) (a11 V0) (a12 V0)

/-- The second layer's state. -/
theorem v65_sem (b : Fin 32) (n : Fin 512) (u : Fin 64) (hj : n.val * 64 + u.val < 32768) :
    res_main_v65 V0 (ix2 b ⟨n.val * 64 + u.val, hj⟩) = sOf (a2 V0) 1 b n u := by
  unfold res_main_v65
  refine (sc_1x32x32768_32x32768 _ _ b _).trans ?_
  rw [sl_2x32x32768_1]
  rfl

/-- The gate convolution's stacked features: the first cell's new state, then the second layer's state. -/
theorem v70_sem
    (h63 : ∀ (b : Fin 32) (n : Fin 512) (u : Fin 64) (hj : n.val * 64 + u.val < 32768),
      res_main_v63 V0 (ix2 b ⟨n.val * 64 + u.val, hj⟩) = h0 (W V0) (xOf (a0 V0) b) (sOf (a2 V0) 0 b) n u)
    (h65 : ∀ (b : Fin 32) (n : Fin 512) (u : Fin 64) (hj : n.val * 64 + u.val < 32768),
      res_main_v65 V0 (ix2 b ⟨n.val * 64 + u.val, hj⟩) = sOf (a2 V0) 1 b n u)
    (n : Fin 512) (f : Fin 128) (b : Fin 32) (hq : f.val * 32 + b.val < 4096) :
    res_main_v70 V0 (ix2 n ⟨f.val * 32 + b.val, hq⟩) = col1 (h0 (W V0) (xOf (a0 V0) b) (sOf (a2 V0) 0 b)) (sOf (a2 V0) 1 b) f n :=
  catT_apply (res_main_v63 V0) (res_main_v65 V0) (fun b => h0 (W V0) (xOf (a0 V0) b) (sOf (a2 V0) 0 b)) (fun b => sOf (a2 V0) 1 b) h63 h65 n f b hq

/-- Their first diffusion. -/
theorem v71_sem
    (h70 : ∀ (n : Fin 512) (f : Fin 128) (b : Fin 32) (hq : f.val * 32 + b.val < 4096),
      res_main_v70 V0 (ix2 n ⟨f.val * 32 + b.val, hq⟩) = col1 (h0 (W V0) (xOf (a0 V0) b) (sOf (a2 V0) 0 b)) (sOf (a2 V0) 1 b) f n)
    (n : Fin 512) (f : Fin 128) (b : Fin 32) (hq : f.val * 32 + b.val < 4096) :
    res_main_v71 V0 (ix2 n ⟨f.val * 32 + b.val, hq⟩) = d1 (W V0) (col1 (h0 (W V0) (xOf (a0 V0) b) (sOf (a2 V0) 0 b)) (sOf (a2 V0) 1 b) f) n := by
  unfold res_main_v71
  refine (dg_adj _ _ n _).trans ?_
  exact Finset.sum_congr rfl fun k _ => by rw [h70 k f b hq]; rfl

/-- The second cell's gates. -/
theorem v94_sem
    (h70 : ∀ (n : Fin 512) (f : Fin 128) (b : Fin 32) (hq : f.val * 32 + b.val < 4096),
      res_main_v70 V0 (ix2 n ⟨f.val * 32 + b.val, hq⟩) = col1 (h0 (W V0) (xOf (a0 V0) b) (sOf (a2 V0) 0 b)) (sOf (a2 V0) 1 b) f n)
    (h71 : ∀ (n : Fin 512) (f : Fin 128) (b : Fin 32) (hq : f.val * 32 + b.val < 4096),
      res_main_v71 V0 (ix2 n ⟨f.val * 32 + b.val, hq⟩) = d1 (W V0) (col1 (h0 (W V0) (xOf (a0 V0) b) (sOf (a2 V0) 0 b)) (sOf (a2 V0) 1 b) f) n)
    (b : Fin 32) (n : Fin 512) (o : Fin 128) :
    res_main_v94 V0 (ix3 b n o) = g1 (W V0) (xOf (a0 V0) b) (sOf (a2 V0) 0 b) (sOf (a2 V0) 1 b) n o :=
  gateT_apply (W V0) (a1 V0) (res_main_v70 V0) (res_main_v71 V0) (a7 V0) (a8 V0) (fun b => h0 (W V0) (xOf (a0 V0) b) (sOf (a2 V0) 0 b)) (fun b => sOf (a2 V0) 1 b)
    (fun _ _ => rfl) h70 h71 b n o

/-- The update gate: channels 64 … 127. -/
theorem v98_sem
    (h94 : ∀ (b : Fin 32) (n : Fin 512) (o : Fin 128), res_main_v94 V0 (ix3 b n o) = g1 (W V0) (xOf (a0 V0) b) (sOf (a2 V0) 0 b) (sOf (a2 V0) 1 b) n o)
    (b : Fin 32) (n : Fin 512) (u : Fin 64) (hj : n.val * 64 + u.val < 32768) :
    res_main_v98 V0 (ix2 b ⟨n.val * 64 + u.val, hj⟩) = u1 (W V0) (xOf (a0 V0) b) (sOf (a2 V0) 0 b) (sOf (a2 V0) 1 b) n u := by
  unfold res_main_v98
  refine (sc_32x512x64_32x32768 _ _ b n u hj).trans ?_
  rw [sl_32x512x128_hi, h94]
  rfl

set_option maxRecDepth 8192 in
/-- The candidate convolution's stacked features: the first cell's new state, then the reset state. -/
theorem v104_sem
    (h63 : ∀ (b : Fin 32) (n : Fin 512) (u : Fin 64) (hj : n.val * 64 + u.val < 32768),
      res_main_v63 V0 (ix2 b ⟨n.val * 64 + u.val, hj⟩) = h0 (W V0) (xOf (a0 V0) b) (sOf (a2 V0) 0 b) n u)
    (h65 : ∀ (b : Fin 32) (n : Fin 512) (u : Fin 64) (hj : n.val * 64 + u.val < 32768),
      res_main_v65 V0 (ix2 b ⟨n.val * 64 + u.val, hj⟩) = sOf (a2 V0) 1 b n u)
    (h94 : ∀ (b : Fin 32) (n : Fin 512) (o : Fin 128), res_main_v94 V0 (ix3 b n o) = g1 (W V0) (xOf (a0 V0) b) (sOf (a2 V0) 0 b) (sOf (a2 V0) 1 b) n o)
    (n : Fin 512) (f : Fin 128) (b : Fin 32) (hq : f.val * 32 + b.val < 4096) :
    res_main_v104 V0 (ix2 n ⟨f.val * 32 + b.val, hq⟩) = col1 (h0 (W V0) (xOf (a0 V0) b) (sOf (a2 V0) 0 b)) (rs1 (W V0) (xOf (a0 V0) b) (sOf (a2 V0) 0 b) (sOf (a2 V0) 1 b)) f n := by
  have hQ : ∀ (b : Fin 32) (n : Fin 512) (u : Fin 64) (hj : n.val * 64 + u.val < 32768),
      (mulf (shapeCast S32x32768 (extractStridedSlice S32x512x64 ![0, 0, 0] (res_main_v94 V0) slices_S32x512x128_S32x512x64_0_0_0) shapeCasts_S32x512x64_S32x32768) (res_main_v65 V0) : FVec Ideal S32x32768 .f32)
        (ix2 b ⟨n.val * 64 + u.val, hj⟩) = rs1 (W V0) (xOf (a0 V0) b) (sOf (a2 V0) 0 b) (sOf (a2 V0) 1 b) n u := by
    intro b n u hj
    rw [mulf_apply, sc_32x512x64_32x32768 _ _ b n u hj, sl_32x512x128_lo, h94, h65]
    rfl
  exact catT_apply (res_main_v63 V0) _ (fun b => h0 (W V0) (xOf (a0 V0) b) (sOf (a2 V0) 0 b)) (fun b => rs1 (W V0) (xOf (a0 V0) b) (sOf (a2 V0) 0 b) (sOf (a2 V0) 1 b)) h63 hQ n f b hq

/-- Their first diffusion. -/
theorem v105_sem
    (h104 : ∀ (n : Fin 512) (f : Fin 128) (b : Fin 32) (hq : f.val * 32 + b.val < 4096),
      res_main_v104 V0 (ix2 n ⟨f.val * 32 + b.val, hq⟩) = col1 (h0 (W V0) (xOf (a0 V0) b) (sOf (a2 V0) 0 b)) (rs1 (W V0) (xOf (a0 V0) b) (sOf (a2 V0) 0 b) (sOf (a2 V0) 1 b)) f n)
    (n : Fin 512) (f : Fin 128) (b : Fin 32) (hq : f.val * 32 + b.val < 4096) :
    res_main_v105 V0 (ix2 n ⟨f.val * 32 + b.val, hq⟩) = d1 (W V0) (col1 (h0 (W V0) (xOf (a0 V0) b) (sOf (a2 V0) 0 b)) (rs1 (W V0) (xOf (a0 V0) b) (sOf (a2 V0) 0 b) (sOf (a2 V0) 1 b)) f) n := by
  unfold res_main_v105
  refine (dg_adj _ _ n _).trans ?_
  exact Finset.sum_congr rfl fun k _ => by rw [h104 k f b hq]; rfl

/-- The second cell's new state. -/
theorem v127_sem
    (h65 : ∀ (b : Fin 32) (n : Fin 512) (u : Fin 64) (hj : n.val * 64 + u.val < 32768),
      res_main_v65 V0 (ix2 b ⟨n.val * 64 + u.val, hj⟩) = sOf (a2 V0) 1 b n u)
    (h98 : ∀ (b : Fin 32) (n : Fin 512) (u : Fin 64) (hj : n.val * 64 + u.val < 32768),
      res_main_v98 V0 (ix2 b ⟨n.val * 64 + u.val, hj⟩) = u1 (W V0) (xOf (a0 V0) b) (sOf (a2 V0) 0 b) (sOf (a2 V0) 1 b) n u)
    (h104 : ∀ (n : Fin 512) (f : Fin 128) (b : Fin 32) (hq : f.val * 32 + b.val < 4096),
      res_main_v104 V0 (ix2 n ⟨f.val * 32 + b.val, hq⟩) = col1 (h0 (W V0) (xOf (a0 V0) b) (sOf (a2 V0) 0 b)) (rs1 (W V0) (xOf (a0 V0) b) (sOf (a2 V0) 0 b) (sOf (a2 V0) 1 b)) f n)
    (h105 : ∀ (n : Fin 512) (f : Fin 128) (b : Fin 32) (hq : f.val * 32 + b.val < 4096),
      res_main_v105 V0 (ix2 n ⟨f.val * 32 + b.val, hq⟩) = d1 (W V0) (col1 (h0 (W V0) (xOf (a0 V0) b) (sOf (a2 V0) 0 b)) (rs1 (W V0) (xOf (a0 V0) b) (sOf (a2 V0) 0 b) (sOf (a2 V0) 1 b)) f) n)
    (b : Fin 32) (n : Fin 512) (u : Fin 64) (hj : n.val * 64 + u.val < 32768) :
    res_main_v127 V0 (ix2 b ⟨n.val * 64 + u.val, hj⟩) = h1 (W V0) (xOf (a0 V0) b) (sOf (a2 V0) 0 b) (sOf (a2 V0) 1 b) n u := by
  show addf (mulf (res_main_v98 V0) (res_main_v65 V0)) (mulf (subf (broadcastInDim S32x32768 ![] bcast_S_S32x32768 (constant S_ .f32 0x3F800000#32)) (res_main_v98 V0))
      (candT (a1 V0) (res_main_v104 V0) (res_main_v105 V0) (a9 V0) (a10 V0))) (ix2 b ⟨n.val * 64 + u.val, hj⟩) = _
  rw [addf_apply, mulf_apply, mulf_apply, subf_apply, bc_scalar_apply, constant_apply, h98, h65,
    candT_apply (W V0) (a1 V0) (res_main_v104 V0) (res_main_v105 V0) (a9 V0) (a10 V0) (fun b => h0 (W V0) (xOf (a0 V0) b) (sOf (a2 V0) 0 b)) (fun b => rs1 (W V0) (xOf (a0 V0) b) (sOf (a2 V0) 0 b) (sOf (a2 V0) 1 b))
      (fun _ _ => rfl) h104 h105 b n u hj]
  rfl

end Ref

end Cert.Dcgru.RefL1
end
-- ==== Proof.RefOut.lean ====
/-
  The reference's two results, read index by index.

  The read-out array [32, 512] is the [16384, 1] column  h1' · Wp + bp  reshaped: row  b · 512 + n  of the
  [16384, 64] reshape of the second cell's new state [32, 32768] is batch row b, node n, and the contraction
  runs over the 64 units. The stacked states [2, 32, 32768] are the two cells' new states, one after the
  other along the leading axis.
-/
import proofs.«110417_g44504451121623_cont_8to1_c_180_11_alg».proof.Proof.RefRun
import proofs.«110417_g44504451121623_cont_8to1_c_180_11_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.Dcgru.RefOut
open Cert.Dcgru Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Value

/-! ### Layout: the reshapes, the two broadcasts, the stacking -/

/-- The [16384, 1] column reshaped to [32, 512]: entry (b, n) is row b · 512 + n. -/
theorem sc_16384x1_32x512 {α : Type} (x : S16384x1.Idx → α) (h : S16384x1.ShapeCasts S32x512)
    (b : Fin 32) (n : Fin 512) (hr : b.val * 512 + n.val < 16384) :
    shapeCast S32x512 x h (ix2 b n) = x (ix2 ⟨b.val * 512 + n.val, hr⟩ 0) := by
  refine shapeCast_apply x h _ _ ?_
  rw [Shape.rowMajor_val_two, Shape.rowMajor_val_two]
  show (b.val * 512 + n.val) * 1 + 0 = b.val * 512 + n.val
  omega

/-- The [32, 32768] state reshaped to [16384, 64]: row b · 512 + n, column u is flat position 64 n + u of batch row b. -/
theorem sc_32x32768_16384x64 {α : Type} (x : S32x32768.Idx → α) (h : S32x32768.ShapeCasts S16384x64)
    (b : Fin 32) (n : Fin 512) (u : Fin 64) (hr : b.val * 512 + n.val < 16384) (hj : n.val * 64 + u.val < 32768) :
    shapeCast S16384x64 x h (ix2 ⟨b.val * 512 + n.val, hr⟩ u) = x (ix2 b ⟨n.val * 64 + u.val, hj⟩) := by
  refine shapeCast_apply x h _ _ ?_
  rw [Shape.rowMajor_val_two, Shape.rowMajor_val_two]
  show b.val * 32768 + (n.val * 64 + u.val) = (b.val * 512 + n.val) * 64 + u.val
  omega

/-- The bias [1] broadcast to [1, 1] and then to [16384, 1] reads the one bias entry everywhere. -/
theorem bc_1_16384x1 {α : Type} (x : S1.Idx → α) (h1 : S1.BroadcastsInDim S1x1 (![1] : Fin 1 → Fin S1x1.rank))
    (h2 : S1x1.BroadcastsInDim S16384x1 (![0, 1] : Fin 2 → Fin S16384x1.rank)) (i : Fin 16384) :
    broadcastInDim S16384x1 ![0, 1] h2 (broadcastInDim S1x1 ![1] h1 x) (ix2 i 0) = x (ix1 0) := by
  rw [broadcastInDim_apply ![0, 1] h2 _ (ix2 i 0) (ix2 0 0) (fun a => by
    match a with
    | ⟨0, _⟩ => rfl
    | ⟨1, _⟩ => rfl)]
  exact broadcastInDim_apply ![1] h1 x (ix2 0 0) (ix1 0) (fun a => by
    match a with
    | ⟨0, _⟩ => rfl)

/-- A [32, 32768] array broadcast to [1, 32, 32768]: the same entries under a leading unit axis. -/
theorem bc_32x32768_1x32x32768 {α : Type} (x : S32x32768.Idx → α)
    (h : S32x32768.BroadcastsInDim S1x32x32768 (![1, 2] : Fin 2 → Fin S1x32x32768.rank)) (b : Fin 32) (j : Fin 32768) :
    broadcastInDim S1x32x32768 ![1, 2] h x (ix3 0 b j) = x (ix2 b j) := by
  refine broadcastInDim_apply ![1, 2] h x _ _ (fun a => ?_)
  match a with
  | ⟨0, _⟩ => rfl
  | ⟨1, _⟩ => rfl

/-- Two [1, 32, 32768] arrays stacked along the leading axis: layer 0 is the first … -/
theorem cat_left {α : Type} (x y : S1x32x32768.Idx → α) (h : Shape.Concatenates [S1x32x32768, S1x32x32768] S2x32x32768 0)
    (b : Fin 32) (j : Fin 32768) :
    concatenate S2x32x32768 0 [⟨S1x32x32768, x⟩, ⟨S1x32x32768, y⟩] h (ix3 0 b j) = x (ix3 0 b j) := by
  refine concatenate_pair_apply_left 0 x y h _ rfl _ (fun a => ?_)
  match a with
  | ⟨0, _⟩ => rfl
  | ⟨1, _⟩ => rfl
  | ⟨2, _⟩ => rfl

/-- … and layer 1 the second. -/
theorem cat_right {α : Type} (x y : S1x32x32768.Idx → α) (h : Shape.Concatenates [S1x32x32768, S1x32x32768] S2x32x32768 0)
    (b : Fin 32) (j : Fin 32768) :
    concatenate S2x32x32768 0 [⟨S1x32x32768, x⟩, ⟨S1x32x32768, y⟩] h (ix3 1 b j) = y (ix3 0 b j) := by
  refine concatenate_pair_apply_right 0 x y h _ rfl rfl _ (fun a ha => ?_) rfl
  match a, ha with
  | ⟨0, _⟩, ha => exact absurd rfl ha
  | ⟨1, _⟩, _ => rfl
  | ⟨2, _⟩, _ => rfl

/-- Every index of the stacked array is (layer 0 or 1, batch row, 64 · node + unit). -/
theorem idx_cases (j : S2x32x32768.Idx) :
    ∃ (l : Fin 2) (b : Fin 32) (n : Fin 512) (u : Fin 64) (hj : n.val * 64 + u.val < 32768),
      j = ix3 l b ⟨n.val * 64 + u.val, hj⟩ := by
  have hlt : (j 2).val < 32768 := (j 2).isLt
  refine ⟨j 0, j 1, ⟨(j 2).val / 64, by omega⟩, ⟨(j 2).val % 64, Nat.mod_lt _ (by decide)⟩, by show (j 2).val / 64 * 64 + (j 2).val % 64 < 32768; omega, ?_⟩
  funext a
  match a with
  | ⟨0, _⟩ => rfl
  | ⟨1, _⟩ => rfl
  | ⟨2, _⟩ => exact Fin.ext (by show (j 2).val = (j 2).val / 64 * 64 + (j 2).val % 64; omega)

/-! ### The read-out contraction [16384, 64] · [64, 1] at an index -/

theorem lhs_0 (i : S16384x1.Idx) (q : dot_S16384x64_S64x1_S16384x1_1_0_0_1_n_n.contr.Idx) :
    (dot_S16384x64_S64x1_S16384x1_1_0_0_1_n_n.lhsIdx i q 0).val = (i 0).val := by
  unfold DotDims.lhsIdx
  rw [dif_neg (show ¬(0 : Fin S16384x64.rank) ∈ dot_S16384x64_S64x1_S16384x1_1_0_0_1_n_n.lhsBatch by decide), dif_pos (show (0 : Fin S16384x64.rank) ∈ dot_S16384x64_S64x1_S16384x1_1_0_0_1_n_n.lhsNonContracting by decide)]
  rfl
theorem lhs_1 (i : S16384x1.Idx) (q : dot_S16384x64_S64x1_S16384x1_1_0_0_1_n_n.contr.Idx) :
    (dot_S16384x64_S64x1_S16384x1_1_0_0_1_n_n.lhsIdx i q 1).val = (q ⟨0, by decide⟩).val :=
  dot_S16384x64_S64x1_S16384x1_1_0_0_1_n_n.lhsIdx_val_of_single rfl i q
theorem rhs_0 (i : S16384x1.Idx) (q : dot_S16384x64_S64x1_S16384x1_1_0_0_1_n_n.contr.Idx) :
    (dot_S16384x64_S64x1_S16384x1_1_0_0_1_n_n.rhsIdx i q 0).val = (q ⟨0, by decide⟩).val :=
  dot_S16384x64_S64x1_S16384x1_1_0_0_1_n_n.rhsIdx_val_of_single rfl i q
theorem rhs_1 (i : S16384x1.Idx) (q : dot_S16384x64_S64x1_S16384x1_1_0_0_1_n_n.contr.Idx) :
    (dot_S16384x64_S64x1_S16384x1_1_0_0_1_n_n.rhsIdx i q 1).val = (i 1).val := by
  unfold DotDims.rhsIdx
  rw [dif_neg (show ¬(1 : Fin S64x1.rank) ∈ dot_S16384x64_S64x1_S16384x1_1_0_0_1_n_n.rhsBatch by decide), dif_pos (show (1 : Fin S64x1.rank) ∈ dot_S16384x64_S64x1_S16384x1_1_0_0_1_n_n.rhsNonContracting by decide)]
  rfl

/-- The product of a [16384, 64] matrix with a [64, 1] column, at row i: the sum over the 64 units. -/
theorem dot_16384x64_64x1 (l : FVec Ideal S16384x64 .f32) (r : FVec Ideal S64x1 .f32) (i : Fin 16384) :
    Host.dotGeneral dot_S16384x64_S64x1_S16384x1_1_0_0_1_n_n none l r (ix2 i 0)
      = ∑ k : Fin 64, l (ix2 i k) * r (ix2 k 0) := by
  simp only [Host.dotGeneral]
  rw [Ideal.dotGeneral_apply, ← Equiv.sum_comp (ValueIdx.contrEquiv1 dot_S16384x64_S64x1_S16384x1_1_0_0_1_n_n 64 rfl rfl).symm]
  refine Finset.sum_congr rfl fun k _ => ?_
  have hk := ValueIdx.contrEquiv1_symm_val dot_S16384x64_S64x1_S16384x1_1_0_0_1_n_n 64 rfl rfl k
  have el : dot_S16384x64_S64x1_S16384x1_1_0_0_1_n_n.lhsIdx (ix2 i 0) ((ValueIdx.contrEquiv1 dot_S16384x64_S64x1_S16384x1_1_0_0_1_n_n 64 rfl rfl).symm k) = ix2 i k := funext fun a => Fin.ext (by
    match a with
    | ⟨0, _⟩ => exact lhs_0 _ _
    | ⟨1, _⟩ => exact (lhs_1 _ _).trans hk)
  have er : dot_S16384x64_S64x1_S16384x1_1_0_0_1_n_n.rhsIdx (ix2 i 0) ((ValueIdx.contrEquiv1 dot_S16384x64_S64x1_S16384x1_1_0_0_1_n_n 64 rfl rfl).symm k) = ix2 k 0 := funext fun a => Fin.ext (by
    match a with
    | ⟨0, _⟩ => exact (rhs_0 _ _).trans hk
    | ⟨1, _⟩ => exact rhs_1 _ _)
  rw [el, er]

/-! ### The thirteen argument arrays, and the weights they spell -/

abbrev a0 (V0 : Valuation τ sig (Elt Ideal)) : A32x512 := V0 (Proc.devRef .tc main_arg0)
abbrev a1 (V0 : Valuation τ sig (Elt Ideal)) : A512x512 := V0 (Proc.devRef .tc main_arg1)
abbrev a2 (V0 : Valuation τ sig (Elt Ideal)) : A2x32x32768 := V0 (Proc.devRef .tc main_arg2)
abbrev a3 (V0 : Valuation τ sig (Elt Ideal)) : A195x128 := V0 (Proc.devRef .tc main_arg3)
abbrev a4 (V0 : Valuation τ sig (Elt Ideal)) : A128 := V0 (Proc.devRef .tc main_arg4)
abbrev a5 (V0 : Valuation τ sig (Elt Ideal)) : A195x64 := V0 (Proc.devRef .tc main_arg5)
abbrev a6 (V0 : Valuation τ sig (Elt Ideal)) : A64 := V0 (Proc.devRef .tc main_arg6)
abbrev a7 (V0 : Valuation τ sig (Elt Ideal)) : A384x128 := V0 (Proc.devRef .tc main_arg7)
abbrev a8 (V0 : Valuation τ sig (Elt Ideal)) : A128 := V0 (Proc.devRef .tc main_arg8)
abbrev a9 (V0 : Valuation τ sig (Elt Ideal)) : A384x64 := V0 (Proc.devRef .tc main_arg9)
abbrev a10 (V0 : Valuation τ sig (Elt Ideal)) : A64 := V0 (Proc.devRef .tc main_arg10)
abbrev a11 (V0 : Valuation τ sig (Elt Ideal)) : A64x1 := V0 (Proc.devRef .tc main_arg11)
abbrev a12 (V0 : Valuation τ sig (Elt Ideal)) : A1 := V0 (Proc.devRef .tc main_arg12)

/-- The weights the argument arrays spell. -/
abbrev W (V0 : Valuation τ sig (Elt Ideal)) : Wts :=
  wOf (a1 V0) (a3 V0) (a4 V0) (a5 V0) (a6 V0) (a7 V0) (a8 V0) (a9 V0) (a10 V0) (a11 V0) (a12 V0)

/-! ### The read-out, over any second-cell state array -/

/-- If an array [32, 32768] holds the second cell's new state, its [16384, 64] reshape times Wp plus bp, reshaped to
    [32, 512], is the read-out  h1' · Wp + bp  at every (batch row, node). -/
theorem out_gen (V0 : Valuation τ sig (Elt Ideal)) (r127 : FVec Ideal S32x32768 .f32)
    (h127 : ∀ (b : Fin 32) (n : Fin 512) (u : Fin 64) (hj : n.val * 64 + u.val < 32768),
      r127 (ix2 b ⟨n.val * 64 + u.val, hj⟩) = h1 (W V0) (xOf (a0 V0) b) (sOf (a2 V0) 0 b) (sOf (a2 V0) 1 b) n u) :
    shapeCast _ (addf (Host.dotGeneral (φ₁ := .f32) (φ₂ := .f32) dot_S16384x64_S64x1_S16384x1_1_0_0_1_n_n none (shapeCast _ r127 shapeCasts_S32x32768_S16384x64) (V0 (Proc.devRef .tc main_arg11))) (broadcastInDim S16384x1 ![0, 1] bcast_S1x1_S16384x1_0_1 (broadcastInDim S1x1 ![1] bcast_S1_S1x1_1 (V0 (Proc.devRef .tc main_arg12))))) shapeCasts_S16384x1_S32x512
      = outOf (W V0) (a0 V0) (a2 V0) := by
  funext j
  obtain ⟨b, n, rfl⟩ : ∃ (b : Fin 32) (n : Fin 512), j = ix2 b n := ⟨j 0, j 1, eq_ix2 j⟩
  have hr : b.val * 512 + n.val < 16384 := by omega
  rw [outOf_apply, sc_16384x1_32x512 _ _ b n hr, addf_apply, dot_16384x64_64x1, bc_1_16384x1]
  show _ = (∑ u : Fin 64, h1 (W V0) (xOf (a0 V0) b) (sOf (a2 V0) 0 b) (sOf (a2 V0) 1 b) n u * (a11 V0) (ix2 u 0)) + (a12 V0) (ix1 0)
  congr 1
  refine Finset.sum_congr rfl fun u _ => ?_
  have hj : n.val * 64 + u.val < 32768 := by omega
  rw [sc_32x32768_16384x64 _ _ b n u hr hj, h127 b n u hj]

/-! ### The stacked new states, over any two state arrays -/

/-- If two arrays [32, 32768] hold the two cells' new states, their stack along a new leading axis is the stacked
    state array: the first cell's on layer 0, the second cell's on layer 1. -/
theorem hs_gen (V0 : Valuation τ sig (Elt Ideal)) (r63 r127 : FVec Ideal S32x32768 .f32)
    (h63 : ∀ (b : Fin 32) (n : Fin 512) (u : Fin 64) (hj : n.val * 64 + u.val < 32768),
      r63 (ix2 b ⟨n.val * 64 + u.val, hj⟩) = h0 (W V0) (xOf (a0 V0) b) (sOf (a2 V0) 0 b) n u)
    (h127 : ∀ (b : Fin 32) (n : Fin 512) (u : Fin 64) (hj : n.val * 64 + u.val < 32768),
      r127 (ix2 b ⟨n.val * 64 + u.val, hj⟩) = h1 (W V0) (xOf (a0 V0) b) (sOf (a2 V0) 0 b) (sOf (a2 V0) 1 b) n u) :
    concatenate S2x32x32768 0 [⟨S1x32x32768, (broadcastInDim S1x32x32768 ![1, 2] bcast_S32x32768_S1x32x32768_1_2 r63)⟩, ⟨S1x32x32768, (broadcastInDim S1x32x32768 ![1, 2] bcast_S32x32768_S1x32x32768_1_2 r127)⟩] concatenates_S1x32x32768_S1x32x32768_S2x32x32768_d0
      = hsOf (W V0) (a0 V0) (a2 V0) := by
  funext j
  obtain ⟨l, b, n, u, hj, rfl⟩ := idx_cases j
  match l with
  | ⟨0, _⟩ =>
    show concatenate S2x32x32768 0 _ _ (ix3 0 b ⟨n.val * 64 + u.val, hj⟩) = hsOf (W V0) (a0 V0) (a2 V0) (ix3 0 b ⟨n.val * 64 + u.val, hj⟩)
    rw [cat_left, bc_32x32768_1x32x32768, h63 b n u hj, hsOf_apply0]
  | ⟨1, _⟩ =>
    show concatenate S2x32x32768 0 _ _ (ix3 1 b ⟨n.val * 64 + u.val, hj⟩) = hsOf (W V0) (a0 V0) (a2 V0) (ix3 1 b ⟨n.val * 64 + u.val, hj⟩)
    rw [cat_right, bc_32x32768_1x32x32768, h127 b n u hj, hsOf_apply1]

/-! ### The reference's two results -/

/-- The read-out result is  h1' · Wp + bp  at every (batch row, node). -/
theorem out_eq (V0 : Valuation τ sig (Elt Ideal))
    (h127 : ∀ (b : Fin 32) (n : Fin 512) (u : Fin 64) (hj : n.val * 64 + u.val < 32768),
      res_main_v127 V0 (ix2 b ⟨n.val * 64 + u.val, hj⟩) = h1 (W V0) (xOf (a0 V0) b) (sOf (a2 V0) 0 b) (sOf (a2 V0) 1 b) n u) :
    shapeCast _ (addf (Host.dotGeneral (φ₁ := .f32) (φ₂ := .f32) dot_S16384x64_S64x1_S16384x1_1_0_0_1_n_n none (shapeCast _ (res_main_v127 V0) shapeCasts_S32x32768_S16384x64) (V0 (Proc.devRef .tc main_arg11))) (broadcastInDim S16384x1 ![0, 1] bcast_S1x1_S16384x1_0_1 (broadcastInDim S1x1 ![1] bcast_S1_S1x1_1 (V0 (Proc.devRef .tc main_arg12))))) shapeCasts_S16384x1_S32x512
      = outOf (W V0) (a0 V0) (a2 V0) :=
  out_gen V0 (res_main_v127 V0) h127

/-- The stacked-state result is the first cell's new state on layer 0 and the second cell's on layer 1. -/
theorem hs_eq (V0 : Valuation τ sig (Elt Ideal))
    (h63 : ∀ (b : Fin 32) (n : Fin 512) (u : Fin 64) (hj : n.val * 64 + u.val < 32768),
      res_main_v63 V0 (ix2 b ⟨n.val * 64 + u.val, hj⟩) = h0 (W V0) (xOf (a0 V0) b) (sOf (a2 V0) 0 b) n u)
    (h127 : ∀ (b : Fin 32) (n : Fin 512) (u : Fin 64) (hj : n.val * 64 + u.val < 32768),
      res_main_v127 V0 (ix2 b ⟨n.val * 64 + u.val, hj⟩) = h1 (W V0) (xOf (a0 V0) b) (sOf (a2 V0) 0 b) (sOf (a2 V0) 1 b) n u) :
    concatenate S2x32x32768 0 [⟨S1x32x32768, (broadcastInDim S1x32x32768 ![1, 2] bcast_S32x32768_S1x32x32768_1_2 (res_main_v63 V0))⟩, ⟨S1x32x32768, (broadcastInDim S1x32x32768 ![1, 2] bcast_S32x32768_S1x32x32768_1_2 (res_main_v127 V0))⟩] concatenates_S1x32x32768_S1x32x32768_S2x32x32768_d0
      = hsOf (W V0) (a0 V0) (a2 V0) :=
  hs_gen V0 (res_main_v63 V0) (res_main_v127 V0) h63 h127

/-! ### The reference's run -/

/-- From any memory with zero counters every weakly fair execution of the reference terminates with the read-out
    result at  h1' · Wp + bp, the stacked-state result at the two cells' new states, and the thirteen arguments
    unchanged — given that the two cells' new-state arrays hold h0' and h1'. -/
theorem ref_run (m' : (ℓ : Loc nD τ sig) → Buf (Elt Ideal) ℓ) (ρ' : Dev nD → PrngReg)
    (h63 : ∀ (c : Dev nD) (b : Fin 32) (n : Fin 512) (u : Fin 64) (hj : n.val * 64 + u.val < 32768),
      res_main_v63 (launchContents m' c) (ix2 b ⟨n.val * 64 + u.val, hj⟩)
        = h0 (W (launchContents m' c)) (xOf (a0 (launchContents m' c)) b) (sOf (a2 (launchContents m' c)) 0 b) n u)
    (h127 : ∀ (c : Dev nD) (b : Fin 32) (n : Fin 512) (u : Fin 64) (hj : n.val * 64 + u.val < 32768),
      res_main_v127 (launchContents m' c) (ix2 b ⟨n.val * 64 + u.val, hj⟩)
        = h1 (W (launchContents m' c)) (xOf (a0 (launchContents m' c)) b) (sOf (a2 (launchContents m' c)) 0 b) (sOf (a2 (launchContents m' c)) 1 b) n u) :
    θ_run defs (onTc (τ := τ) (main (F := Ideal))) ⟨m', fun _ => 0, ρ'⟩ fun r => ∀ c : Dev nD,
      r.2.mem ((c.tc : Thread nD τ).loc main_v133) = outOf (W (launchContents m' c)) (a0 (launchContents m' c)) (a2 (launchContents m' c))
      ∧ r.2.mem ((c.tc : Thread nD τ).loc main_v136) = hsOf (W (launchContents m' c)) (a0 (launchContents m' c)) (a2 (launchContents m' c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12) :=
  (θ_run defs _ _).mono
    (fun _ h c => ⟨(h c).1.trans (out_eq (launchContents m' c) (h127 c)),
      (h c).2.1.trans (hs_eq (launchContents m' c) (h63 c) (h127 c)), (h c).2.2⟩)
    (Cert.ReferenceIdeal.Value.run (F := Ideal) m' ρ')

end Cert.Dcgru.RefOut
end
-- ==== Proof.RefAsm.lean ====
/-
  The reference's run as mathematics: the named intermediate arrays of the reference program, read index by
  index, are the first cell's quantities, then (the second cell's input being the first cell's new state) the
  second cell's, so the run ends with the read-out and the stacked new states of every batch row.
-/
import proofs.«110417_g44504451121623_cont_8to1_c_180_11_alg».proof.Proof.RefL0
import proofs.«110417_g44504451121623_cont_8to1_c_180_11_alg».proof.Proof.RefL1
import proofs.«110417_g44504451121623_cont_8to1_c_180_11_alg».proof.Proof.RefOut

set_option maxRecDepth 8192

noncomputable section

namespace Cert.Dcgru.RefAsm

open Cert.Dcgru Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Value

variable (V0 : Valuation τ sig (Elt Ideal))

/-- The first cell's new state, for every batch row. -/
theorem h63 (b : Fin 32) (n : Fin 512) (u : Fin 64) (hj : n.val * 64 + u.val < 32768) :
    res_main_v63 V0 (ix2 b ⟨n.val * 64 + u.val, hj⟩) = h0 (RefOut.W V0) (xOf (RefOut.a0 V0) b) (sOf (RefOut.a2 V0) 0 b) n u :=
  have e1 := RefL0.v1_sem V0
  have e6 := RefL0.v6_sem V0 e1
  have e7 := RefL0.v7_sem V0 e6
  have e30 := RefL0.v30_sem V0 e6 e7
  have e34 := RefL0.v34_sem V0 e30
  have e40 := RefL0.v40_sem V0 e1 e30
  have e41 := RefL0.v41_sem V0 e40
  RefL0.v63_sem V0 e1 e34 e40 e41 b n u hj

/-- The second cell's new state, for every batch row. -/
theorem h127 (b : Fin 32) (n : Fin 512) (u : Fin 64) (hj : n.val * 64 + u.val < 32768) :
    res_main_v127 V0 (ix2 b ⟨n.val * 64 + u.val, hj⟩) = h1 (RefOut.W V0) (xOf (RefOut.a0 V0) b) (sOf (RefOut.a2 V0) 0 b) (sOf (RefOut.a2 V0) 1 b) n u :=
  have e63 := h63 V0
  have e65 := RefL1.v65_sem V0
  have e70 := RefL1.v70_sem V0 e63 e65
  have e71 := RefL1.v71_sem V0 e70
  have e94 := RefL1.v94_sem V0 e70 e71
  have e98 := RefL1.v98_sem V0 e94
  have e104 := RefL1.v104_sem V0 e63 e65 e94
  have e105 := RefL1.v105_sem V0 e104
  RefL1.v127_sem V0 e65 e98 e104 e105 b n u hj

/-- The reference's run: both results as functions of the arguments, the arguments unchanged. -/
theorem run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v133) = outOf (RefOut.W (launchContents m' c)) (RefOut.a0 (launchContents m' c)) (RefOut.a2 (launchContents m' c))
      ∧ r.2.mem ((c.tc : Thread nD τ).loc main_v136) = hsOf (RefOut.W (launchContents m' c)) (RefOut.a0 (launchContents m' c)) (RefOut.a2 (launchContents m' c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12) :=
  RefOut.ref_run m' ρ' (fun c => h63 (launchContents m' c)) (fun c => h127 (launchContents m' c))

end Cert.Dcgru.RefAsm

end
-- ==== Proof.lean ====
/-
  The kernel is a fused two-layer diffusion-convolution GRU decoder step with a linear read-out, run on a grid of
  four batch chunks; the reference is the same step written with whole-array jnp operations. Both compute, for
  every batch row, the quantities of Proof/Spec.lean: the kernel adds each graph convolution tap by tap and
  feature group by feature group (the scalar input through a block-diagonal weight), the reference contracts the
  stacked taps against the weight matrix in one sum; the two arrangements are one finite sum in the commutative
  monoid of the extended reals (Proof/Alg.lean), so no precondition is used beyond what the frames need.
  The three frames are the generated ones (the reference's is its run with the results dropped);
  the ideal pass rewrote nothing, so `preserves` is trivial; `algebraic` sets the kernel's run
  (Proof/KerFinal.lean) beside the reference's (Proof/RefAsm.lean): both end at `outOf` and `hsOf` of the arguments.
-/
import proofs.«110417_g44504451121623_cont_8to1_c_180_11_alg».proof.Defs
import proofs.«110417_g44504451121623_cont_8to1_c_180_11_alg».proof.Proof.Gen.Kernel
import proofs.«110417_g44504451121623_cont_8to1_c_180_11_alg».proof.Proof.Gen.Kernel.Skeleton
import proofs.«110417_g44504451121623_cont_8to1_c_180_11_alg».proof.Proof.Gen.Kernel.Launch
import proofs.«110417_g44504451121623_cont_8to1_c_180_11_alg».proof.Proof.Gen.Kernel.Points
import proofs.«110417_g44504451121623_cont_8to1_c_180_11_alg».proof.Proof.Gen.Kernel.Frame
import proofs.«110417_g44504451121623_cont_8to1_c_180_11_alg».proof.Proof.Gen.KernelIdeal
import proofs.«110417_g44504451121623_cont_8to1_c_180_11_alg».proof.Proof.Gen.KernelIdeal.Skeleton
import proofs.«110417_g44504451121623_cont_8to1_c_180_11_alg».proof.Proof.Gen.KernelIdeal.Launch
import proofs.«110417_g44504451121623_cont_8to1_c_180_11_alg».proof.Proof.Gen.KernelIdeal.Points
import proofs.«110417_g44504451121623_cont_8to1_c_180_11_alg».proof.Proof.Gen.KernelIdeal.Frame
import proofs.«110417_g44504451121623_cont_8to1_c_180_11_alg».proof.Proof.Gen.ReferenceIdeal
import proofs.«110417_g44504451121623_cont_8to1_c_180_11_alg».proof.Proof.Gen.Pre_finite_inputs
import proofs.«110417_g44504451121623_cont_8to1_c_180_11_alg».proof.Proof.Gen.KernelIdeal.Value
import proofs.«110417_g44504451121623_cont_8to1_c_180_11_alg».proof.Proof.RefRun
import proofs.«110417_g44504451121623_cont_8to1_c_180_11_alg».proof.Proof.KerFinal
import proofs.«110417_g44504451121623_cont_8to1_c_180_11_alg».proof.Proof.RefAsm
import Idealize.ShloMosaic.Adequacy
import Idealize.ShloMosaic.Init

noncomputable section

namespace Cert.Proof

open Idealize.ShloMosaic Idealize.ShloMosaic.TcCoe Idealize.SL.Sem Idealize.ShloMosaic.StableHlo Cert.Dcgru

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- At the ideal values both programs end with the read-out and the stacked new states of every batch row. -/
theorem algebraic : Cert.algebraic_KernelIdeal_ReferenceIdeal := by
  intro m ρ m' ρ' _ hagree
  refine ⟨fun c => outOf (KerFinal.W m c) (KerFinal.a0 m c) (KerFinal.a2 m c),
    fun c => hsOf (KerFinal.W m c) (KerFinal.a0 m c) (KerFinal.a2 m c), KerFinal.run m ρ, ?_⟩
  refine (θ_run Cert.ReferenceIdeal.defs _ _).mono (fun r h c => ?_) (RefAsm.run m' ρ')
  obtain ⟨e0, e1, e2, e3, e4, e5, e6, e7, e8, e9, e10, e11, e12⟩ := hagree c
  obtain ⟨h1, h2, hrest⟩ := h c
  have q0 : RefOut.a0 (launchContents m' c) = KerFinal.a0 m c := e0
  have q1 : RefOut.a1 (launchContents m' c) = KerFinal.a1 m c := e1
  have q2 : RefOut.a2 (launchContents m' c) = KerFinal.a2 m c := e2
  have q3 : RefOut.a3 (launchContents m' c) = KerFinal.a3 m c := e3
  have q4 : RefOut.a4 (launchContents m' c) = KerFinal.a4 m c := e4
  have q5 : RefOut.a5 (launchContents m' c) = KerFinal.a5 m c := e5
  have q6 : RefOut.a6 (launchContents m' c) = KerFinal.a6 m c := e6
  have q7 : RefOut.a7 (launchContents m' c) = KerFinal.a7 m c := e7
  have q8 : RefOut.a8 (launchContents m' c) = KerFinal.a8 m c := e8
  have q9 : RefOut.a9 (launchContents m' c) = KerFinal.a9 m c := e9
  have q10 : RefOut.a10 (launchContents m' c) = KerFinal.a10 m c := e10
  have q11 : RefOut.a11 (launchContents m' c) = KerFinal.a11 m c := e11
  have q12 : RefOut.a12 (launchContents m' c) = KerFinal.a12 m c := e12
  have qW : RefOut.W (launchContents m' c) = KerFinal.W m c := by
    show wOf (RefOut.a1 _) (RefOut.a3 _) (RefOut.a4 _) (RefOut.a5 _) (RefOut.a6 _) (RefOut.a7 _) (RefOut.a8 _) (RefOut.a9 _)
        (RefOut.a10 _) (RefOut.a11 _) (RefOut.a12 _) = _
    rw [q1, q3, q4, q5, q6, q7, q8, q9, q10, q11, q12]
  refine ⟨h1.trans ?_, h2.trans ?_, hrest⟩
  · rw [qW, q0, q2]
  · rw [qW, q0, q2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
